-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S600 : Shape := ⟨1, ![600]⟩
abbrev S_ : Shape := ⟨0, ![]⟩
abbrev S1024x600 : Shape := ⟨2, ![1024, 600]⟩
abbrev S20000 : Shape := ⟨1, ![20000]⟩
abbrev S20000x48 : Shape := ⟨2, ![20000, 48]⟩

class Facts : Prop where
  bcast_S_S1024 : S_.BroadcastsInDim S1024 (![] : Fin 0 → Fin S1024.rank)
  reducesTo_S1024_S_d0 : S1024.ReducesTo [0] S_
  h_S_ : 0 < S_.numel
  bcast_S_S600 : S_.BroadcastsInDim S600 (![] : Fin 0 → Fin S600.rank)
  reducesTo_S600_S_d0 : S600.ReducesTo [0] S_
  reducesTo_S_S_d : S_.ReducesTo [] S_
  bcast_S_S1024x600 : S_.BroadcastsInDim S1024x600 (![] : Fin 0 → Fin S1024x600.rank)
  reducesTo_S1024x600_S_d0_1 : S1024x600.ReducesTo [0, 1] S_
  bcast_S_S20000 : S_.BroadcastsInDim S20000 (![] : Fin 0 → Fin S20000.rank)
  reducesTo_S20000_S_d0 : S20000.ReducesTo [0] S_
  bcast_S_S20000x48 : S_.BroadcastsInDim S20000x48 (![] : Fin 0 → Fin S20000x48.rank)
  reducesTo_S20000x48_S_d0_1 : S20000x48.ReducesTo [0, 1] S_

variable [Facts]

def fn_part3 {F : FTy → Type} [FloatOps F] (main_arg11 : FVec F S20000x48 .f32) (main_arg12 : FVec F S_ .f32) (main_arg13 : FVec F S_ .f32) (main_v47 : IVec S_ 1) (main_v50 : IVec S20000x48 1) : IVec S_ 1 :=
  let main_c_19 : IVec S_ 1 := constantI S_ 1 1#1
  let main_v51 : IVec S_ 1 := (fun x v => Host.reduce IntOp.andi x v reducesTo_S20000x48_S_d0_1 h_S_) main_v50 main_c_19
  let main_v52 : IVec S_ 1 := andi main_v47 main_v51
  let main_v53 : FVec F S20000x48 .f32 := Host.absf main_arg11
  let main_cst_20 : FVec F S_ .f32 := constant S_ .f32 0x7F800000#32
  let main_v54 : FVec F S20000x48 .f32 := broadcastInDim S20000x48 ![] bcast_S_S20000x48 main_cst_20
  let main_v55 : IVec S20000x48 1 := cmpf .olt main_v53 main_v54
  let main_c_21 : IVec S_ 1 := constantI S_ 1 1#1
  let main_v56 : IVec S_ 1 := (fun x v => Host.reduce IntOp.andi x v reducesTo_S20000x48_S_d0_1 h_S_) main_v55 main_c_21
  let main_v57 : IVec S_ 1 := andi main_v52 main_v56
  let main_v58 : FVec F S_ .f32 := Host.absf main_arg12
  let main_cst_22 : FVec F S_ .f32 := constant S_ .f32 0x7F800000#32
  let main_v59 : IVec S_ 1 := cmpf .olt main_v58 main_cst_22
  let main_c_23 : IVec S_ 1 := constantI S_ 1 1#1
  let main_v60 : IVec S_ 1 := (fun x v => Host.reduce IntOp.andi x v reducesTo_S_S_d h_S_) main_v59 main_c_23
  let main_v61 : IVec S_ 1 := andi main_v57 main_v60
  let main_v62 : FVec F S_ .f32 := Host.absf main_arg13
  let main_cst_24 : FVec F S_ .f32 := constant S_ .f32 0x7F800000#32
  let main_v63 : IVec S_ 1 := cmpf .olt main_v62 main_cst_24
  let main_c_25 : IVec S_ 1 := constantI S_ 1 1#1
  let main_v64 : IVec S_ 1 := (fun x v => Host.reduce IntOp.andi x v reducesTo_S_S_d h_S_) main_v63 main_c_25
  let main_v65 : IVec S_ 1 := andi main_v61 main_v64
  main_v65

def fn_part2 {F : FTy → Type} [FloatOps F] (main_arg8 : FVec F S20000x48 .f32) (main_arg9 : FVec F S20000x48 .f32) (main_arg10 : FVec F S20000x48 .f32) (main_arg11 : FVec F S20000x48 .f32) (main_arg12 : FVec F S_ .f32) (main_arg13 : FVec F S_ .f32) (main_v32 : IVec S_ 1) (main_v33 : FVec F S20000 .f32) : IVec S_ 1 :=
  let main_cst_12 : FVec F S_ .f32 := constant S_ .f32 0x7F800000#32
  let main_v34 : FVec F S20000 .f32 := broadcastInDim S20000 ![] bcast_S_S20000 main_cst_12
  let main_v35 : IVec S20000 1 := cmpf .olt main_v33 main_v34
  let main_c_13 : IVec S_ 1 := constantI S_ 1 1#1
  let main_v36 : IVec S_ 1 := (fun x v => Host.reduce IntOp.andi x v reducesTo_S20000_S_d0 h_S_) main_v35 main_c_13
  let main_v37 : IVec S_ 1 := andi main_v32 main_v36
  let main_v38 : FVec F S20000x48 .f32 := Host.absf main_arg8
  let main_cst_14 : FVec F S_ .f32 := constant S_ .f32 0x7F800000#32
  let main_v39 : FVec F S20000x48 .f32 := broadcastInDim S20000x48 ![] bcast_S_S20000x48 main_cst_14
  let main_v40 : IVec S20000x48 1 := cmpf .olt main_v38 main_v39
  let main_c_15 : IVec S_ 1 := constantI S_ 1 1#1
  let main_v41 : IVec S_ 1 := (fun x v => Host.reduce IntOp.andi x v reducesTo_S20000x48_S_d0_1 h_S_) main_v40 main_c_15
  let main_v42 : IVec S_ 1 := andi main_v37 main_v41
  let main_v43 : FVec F S20000x48 .f32 := Host.absf main_arg9
  let main_cst_16 : FVec F S_ .f32 := constant S_ .f32 0x7F800000#32
  let main_v44 : FVec F S20000x48 .f32 := broadcastInDim S20000x48 ![] bcast_S_S20000x48 main_cst_16
  let main_v45 : IVec S20000x48 1 := cmpf .olt main_v43 main_v44
  let main_c_17 : IVec S_ 1 := constantI S_ 1 1#1
  let main_v46 : IVec S_ 1 := (fun x v => Host.reduce IntOp.andi x v reducesTo_S20000x48_S_d0_1 h_S_) main_v45 main_c_17
  let main_v47 : IVec S_ 1 := andi main_v42 main_v46
  let main_v48 : FVec F S20000x48 .f32 := Host.absf main_arg10
  let main_cst_18 : FVec F S_ .f32 := constant S_ .f32 0x7F800000#32
  let main_v49 : FVec F S20000x48 .f32 := broadcastInDim S20000x48 ![] bcast_S_S20000x48 main_cst_18
  let main_v50 : IVec S20000x48 1 := cmpf .olt main_v48 main_v49
  fn_part3 (F := F) main_arg11 main_arg12 main_arg13 main_v47 main_v50

def fn_part1 {F : FTy → Type} [FloatOps F] (main_arg4 : FVec F S1024x600 .f32) (main_arg5 : FVec F S1024x600 .f32) (main_arg6 : FVec F S1024x600 .f32) (main_arg7 : FVec F S20000 .f32) (main_arg8 : FVec F S20000x48 .f32) (main_arg9 : FVec F S20000x48 .f32) (main_arg10 : FVec F S20000x48 .f32) (main_arg11 : FVec F S20000x48 .f32) (main_arg12 : FVec F S_ .f32) (main_arg13 : FVec F S_ .f32) (main_v12 : IVec S_ 1) (main_v15 : IVec S1024x600 1) (main_c_5 : IVec S_ 1) : IVec S_ 1 :=
  let main_v16 : IVec S_ 1 := (fun x v => Host.reduce IntOp.andi x v reducesTo_S1024x600_S_d0_1 h_S_) main_v15 main_c_5
  let main_v17 : IVec S_ 1 := andi main_v12 main_v16
  let main_v18 : FVec F S1024x600 .f32 := Host.absf main_arg4
  let main_cst_6 : FVec F S_ .f32 := constant S_ .f32 0x7F800000#32
  let main_v19 : FVec F S1024x600 .f32 := broadcastInDim S1024x600 ![] bcast_S_S1024x600 main_cst_6
  let main_v20 : IVec S1024x600 1 := cmpf .olt main_v18 main_v19
  let main_c_7 : IVec S_ 1 := constantI S_ 1 1#1
  let main_v21 : IVec S_ 1 := (fun x v => Host.reduce IntOp.andi x v reducesTo_S1024x600_S_d0_1 h_S_) main_v20 main_c_7
  let main_v22 : IVec S_ 1 := andi main_v17 main_v21
  let main_v23 : FVec F S1024x600 .f32 := Host.absf main_arg5
  let main_cst_8 : FVec F S_ .f32 := constant S_ .f32 0x7F800000#32
  let main_v24 : FVec F S1024x600 .f32 := broadcastInDim S1024x600 ![] bcast_S_S1024x600 main_cst_8
  let main_v25 : IVec S1024x600 1 := cmpf .olt main_v23 main_v24
  let main_c_9 : IVec S_ 1 := constantI S_ 1 1#1
  let main_v26 : IVec S_ 1 := (fun x v => Host.reduce IntOp.andi x v reducesTo_S1024x600_S_d0_1 h_S_) main_v25 main_c_9
  let main_v27 : IVec S_ 1 := andi main_v22 main_v26
  let main_v28 : FVec F S1024x600 .f32 := Host.absf main_arg6
  let main_cst_10 : FVec F S_ .f32 := constant S_ .f32 0x7F800000#32
  let main_v29 : FVec F S1024x600 .f32 := broadcastInDim S1024x600 ![] bcast_S_S1024x600 main_cst_10
  let main_v30 : IVec S1024x600 1 := cmpf .olt main_v28 main_v29
  let main_c_11 : IVec S_ 1 := constantI S_ 1 1#1
  let main_v31 : IVec S_ 1 := (fun x v => Host.reduce IntOp.andi x v reducesTo_S1024x600_S_d0_1 h_S_) main_v30 main_c_11
  let main_v32 : IVec S_ 1 := andi main_v27 main_v31
  let main_v33 : FVec F S20000 .f32 := Host.absf main_arg7
  fn_part2 (F := F) main_arg8 main_arg9 main_arg10 main_arg11 main_arg12 main_arg13 main_v32 main_v33

def fn {F : FTy → Type} [FloatOps F] (main_arg0 : FVec F S1024 .f32) (main_arg1 : FVec F S600 .f32) (main_arg2 : FVec F S_ .f32) (main_arg3 : FVec F S1024x600 .f32) (main_arg4 : FVec F S1024x600 .f32) (main_arg5 : FVec F S1024x600 .f32) (main_arg6 : FVec F S1024x600 .f32) (main_arg7 : FVec F S20000 .f32) (main_arg8 : FVec F S20000x48 .f32) (main_arg9 : FVec F S20000x48 .f32) (main_arg10 : FVec F S20000x48 .f32) (main_arg11 : FVec F S20000x48 .f32) (main_arg12 : FVec F S_ .f32) (main_arg13 : FVec F S_ .f32) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S600 .f32 := Host.absf main_arg1
  let main_cst_0 : FVec F S_ .f32 := constant S_ .f32 0x7F800000#32
  let main_v5 : FVec F S600 .f32 := broadcastInDim S600 ![] bcast_S_S600 main_cst_0
  let main_v6 : IVec S600 1 := cmpf .olt main_v4 main_v5
  let main_c_1 : IVec S_ 1 := constantI S_ 1 1#1
  let main_v7 : IVec S_ 1 := (fun x v => Host.reduce IntOp.andi x v reducesTo_S600_S_d0 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S1024x600 .f32 := Host.absf main_arg3
  let main_cst_4 : FVec F S_ .f32 := constant S_ .f32 0x7F800000#32
  let main_v14 : FVec F S1024x600 .f32 := broadcastInDim S1024x600 ![] bcast_S_S1024x600 main_cst_4
  let main_v15 : IVec S1024x600 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_v12 main_v15 main_c_5
-- ==== Kernel.lean ====
abbrev S1024 : Shape := ⟨1, ![1024]⟩
abbrev S600 : Shape := ⟨1, ![600]⟩
abbrev S_ : Shape := ⟨0, ![]⟩
abbrev S1024x600 : Shape := ⟨2, ![1024, 600]⟩
abbrev S20000 : Shape := ⟨1, ![20000]⟩
abbrev S20000x48 : Shape := ⟨2, ![20000, 48]⟩
abbrev S1 : Shape := ⟨1, ![1]⟩
abbrev S1024x1 : Shape := ⟨2, ![1024, 1]⟩
abbrev S1x600 : Shape := ⟨2, ![1, 600]⟩
abbrev S20000x192 : Shape := ⟨2, ![20000, 192]⟩
abbrev S20224x192 : Shape := ⟨2, ![20224, 192]⟩
abbrev S599 : Shape := ⟨1, ![599]⟩
abbrev S598 : Shape := ⟨1, ![598]⟩
abbrev S128x8x600 : Shape := ⟨3, ![128, 8, 600]⟩
abbrev S128 : Shape := ⟨1, ![128]⟩
abbrev S1024x48 : Shape := ⟨2, ![1024, 48]⟩
abbrev S8x600 : Shape := ⟨2, ![8, 600]⟩
abbrev S8x48 : Shape := ⟨2, ![8, 48]⟩
abbrev S8x600x192 : Shape := ⟨3, ![8, 600, 192]⟩
abbrev S1x256 : Shape := ⟨2, ![1, 256]⟩
abbrev S256 : Shape := ⟨1, ![256]⟩
abbrev S8x600x1 : Shape := ⟨3, ![8, 600, 1]⟩
abbrev S1x1x256 : Shape := ⟨3, ![1, 1, 256]⟩
abbrev S8x600x256 : Shape := ⟨3, ![8, 600, 256]⟩
abbrev S4800x256 : Shape := ⟨2, ![4800, 256]⟩
abbrev S256x192 : Shape := ⟨2, ![256, 192]⟩
abbrev S4800x192 : Shape := ⟨2, ![4800, 192]⟩
abbrev S8x600x48 : Shape := ⟨3, ![8, 600, 48]⟩
abbrev S1x600x1 : Shape := ⟨3, ![1, 600, 1]⟩
abbrev S1023 : Shape := ⟨1, ![1023]⟩
abbrev S1022 : Shape := ⟨1, ![1022]⟩
abbrev S3x48 : Shape := ⟨2, ![3, 48]⟩
abbrev S48 : Shape := ⟨1, ![48]⟩
abbrev S1x48 : Shape := ⟨2, ![1, 48]⟩

abbrev nBuf : Space → Nat
  | .hbm => 173
  | .vmem => 21
  | .smem => 2
  | _ => 0

abbrev hbmTy0_0 (i : Nat) : BufTy := match i % 128 with
  | 0 => ⟨S1024, .f32⟩
  | 1 => ⟨S600, .f32⟩
  | 2 => ⟨S_, .f32⟩
  | 3 => ⟨S1024x600, .f32⟩
  | 4 => ⟨S1024x600, .f32⟩
  | 5 => ⟨S1024x600, .f32⟩
  | 6 => ⟨S1024x600, .f32⟩
  | 7 => ⟨S20000, .f32⟩
  | 8 => ⟨S20000x48, .f32⟩
  | 9 => ⟨S20000x48, .f32⟩
  | 10 => ⟨S20000x48, .f32⟩
  | 11 => ⟨S20000x48, .f32⟩
  | 12 => ⟨S_, .f32⟩
  | 13 => ⟨S_, .f32⟩
  | 14 => ⟨S1, .f32⟩
  | 15 => ⟨S_, .f32⟩
  | 16 => ⟨S1, .f32⟩
  | 17 => ⟨S_, .f32⟩
  | 18 => ⟨S1024x1, .f32⟩
  | 19 => ⟨S600, .f32⟩
  | 20 => ⟨S600, .f32⟩
  | 21 => ⟨S1x600, .f32⟩
  | 22 => ⟨S1024x600, .f32⟩
  | 23 => ⟨S1024x600, .f32⟩
  | 24 => ⟨S1024x600, .f32⟩
  | 25 => ⟨S1024x600, .f32⟩
  | 26 => ⟨S1024x600, .f32⟩
  | 27 => ⟨S_, .f32⟩
  | 28 => ⟨S1024x600, .f32⟩
  | 29 => ⟨S1024x600, .f32⟩
  | 30 => ⟨S_, .f32⟩
  | 31 => ⟨S1024x600, .f32⟩
  | 32 => ⟨S1024x600, .f32⟩
  | 33 => ⟨S_, .f32⟩
  | 34 => ⟨S_, .f32⟩
  | 35 => ⟨S_, .f32⟩
  | 36 => ⟨S1024x600, .f32⟩
  | 37 => ⟨S1024x600, .f32⟩
  | 38 => ⟨S_, .f32⟩
  | 39 => ⟨S1024x600, .f32⟩
  | 40 => ⟨S1024x600, .f32⟩
  | 41 => ⟨S1024x600, .f32⟩
  | 42 => ⟨S1024x600, .i32⟩
  | 43 => ⟨S_, .i32⟩
  | 44 => ⟨S_, .i32⟩
  | 45 => ⟨S_, .i32⟩
  | 46 => ⟨S1024x600, .i32⟩
  | 47 => ⟨S1024x600, .i32⟩
  | 48 => ⟨S_, .i32⟩
  | 49 => ⟨S1024x600, .i32⟩
  | 50 => ⟨S1024x600, .i32⟩
  | 51 => ⟨S20000x192, .f32⟩
  | 52 => ⟨S_, .i32⟩
  | 53 => ⟨S_, .f32⟩
  | 54 => ⟨S20224x192, .f32⟩
  | 55 => ⟨S20224x192, .bf16⟩
  | 56 => ⟨S599, .f32⟩
  | 57 => ⟨S599, .f32⟩
  | 58 => ⟨S599, .f32⟩
  | 59 => ⟨S1, .f32⟩
  | 60 => ⟨S_, .f32⟩
  | 61 => ⟨S1, .f32⟩
  | 62 => ⟨S1, .f32⟩
  | 63 => ⟨S1, .f32⟩
  | 64 => ⟨S_, .f32⟩
  | 65 => ⟨S1, .f32⟩
  | 66 => ⟨S1, .f32⟩
  | 67 => ⟨S598, .f32⟩
  | 68 => ⟨S598, .f32⟩
  | 69 => ⟨S598, .f32⟩
  | 70 => ⟨S_, .f32⟩
  | 71 => ⟨S598, .f32⟩
  | 72 => ⟨S598, .f32⟩
  | 73 => ⟨S600, .f32⟩
  | 74 => ⟨S1x600, .f32⟩
  | 75 => ⟨S128x8x600, .i32⟩
  | 76 => ⟨S_, .i32⟩
  | 77 => ⟨S128, .i32⟩
  | 78 => ⟨S_, .i32⟩
  | 79 => ⟨S128, .i32⟩
  | 80 => ⟨S_, .i32⟩
  | 81 => ⟨S_, .i32⟩
  | 82 => ⟨S128, .i32⟩
  | 83 => ⟨S128, .i32⟩
  | 84 => ⟨S128, .i32⟩
  | 85 => ⟨S_, .i32⟩
  | 86 => ⟨S128, .i32⟩
  | 87 => ⟨S128, .i1⟩
  | 88 => ⟨S128, .i32⟩
  | 89 => ⟨S128, .i32⟩
  | 90 => ⟨S_, .i32⟩
  | 91 => ⟨S128, .i32⟩
  | 92 => ⟨S128, .i1⟩
  | 93 => ⟨S128, .i1⟩
  | 94 => ⟨S_, .i32⟩
  | 95 => ⟨S128, .i32⟩
  | 96 => ⟨S128, .i32⟩
  | 97 => ⟨S128, .i32⟩
  | 98 => ⟨S_, .i32⟩
  | 99 => ⟨S_, .i32⟩
  | 100 => ⟨S_, .i32⟩
  | 101 => ⟨S128, .i32⟩
  | 102 => ⟨S128, .i32⟩
  | 103 => ⟨S_, .i32⟩
  | 104 => ⟨S128, .i32⟩
  | 105 => ⟨S_, .i32⟩
  | 106 => ⟨S128, .i32⟩
  | 107 => ⟨S128, .i32⟩
  | 108 => ⟨S_, .i32⟩
  | 109 => ⟨S_, .i32⟩
  | 110 => ⟨S128, .i32⟩
  | 111 => ⟨S128, .i32⟩
  | 112 => ⟨S128, .i32⟩
  | 113 => ⟨S_, .i32⟩
  | 114 => ⟨S128, .i32⟩
  | 115 => ⟨S128, .i1⟩
  | 116 => ⟨S128, .i32⟩
  | 117 => ⟨S128, .i32⟩
  | 118 => ⟨S_, .i32⟩
  | 119 => ⟨S128, .i32⟩
  | 120 => ⟨S128, .i1⟩
  | 121 => ⟨S128, .i1⟩
  | 122 => ⟨S_, .i32⟩
  | 123 => ⟨S128, .i32⟩
  | 124 => ⟨S128, .i32⟩
  | 125 => ⟨S128, .i32⟩
  | 126 => ⟨S_, .i32⟩
  | 127 => ⟨S_, .i32⟩
  | _ => ⟨S1024, .f32⟩

abbrev hbmTy0_1 (i : Nat) : BufTy := match i % 128 with
  | 0 => ⟨S_, .i32⟩
  | 1 => ⟨S128, .i32⟩
  | 2 => ⟨S128, .i32⟩
  | 3 => ⟨S_, .i32⟩
  | 4 => ⟨S128, .i32⟩
  | 5 => ⟨S1024x48, .f32⟩
  | 6 => ⟨S1024x48, .f32⟩
  | 7 => ⟨S_, .f32⟩
  | 8 => ⟨S1024, .f32⟩
  | 9 => ⟨S1024, .f32⟩
  | 10 => ⟨S_, .f32⟩
  | 11 => ⟨S_, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S1023, .f32⟩
  | 23 => ⟨S1023, .f32⟩
  | 24 => ⟨S1023, .f32⟩
  | 25 => ⟨S1, .f32⟩
  | 26 => ⟨S_, .f32⟩
  | 27 => ⟨S1, .f32⟩
  | 28 => ⟨S1, .f32⟩
  | 29 => ⟨S1, .f32⟩
  | 30 => ⟨S_, .f32⟩
  | 31 => ⟨S1, .f32⟩
  | 32 => ⟨S1, .f32⟩
  | 33 => ⟨S1022, .f32⟩
  | 34 => ⟨S1022, .f32⟩
  | 35 => ⟨S1022, .f32⟩
  | 36 => ⟨S_, .f32⟩
  | 37 => ⟨S1022, .f32⟩
  | 38 => ⟨S1022, .f32⟩
  | 39 => ⟨S1024, .f32⟩
  | 40 => ⟨S1024, .f32⟩
  | 41 => ⟨S1024, .f32⟩
  | 42 => ⟨S1024, .f32⟩
  | 43 => ⟨S1024x1, .f32⟩
  | 44 => ⟨S3x48, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | .local _ .vmem, ⟨0, _⟩ => ⟨S8x600, .f32⟩
  | .local _ .vmem, ⟨1, _⟩ => ⟨S8x600, .f32⟩
  | .local _ .vmem, ⟨2, _⟩ => ⟨S20224x192, .bf16⟩
  | .local _ .vmem, ⟨3, _⟩ => ⟨S8x600, .f32⟩
  | .local _ .vmem, ⟨4, _⟩ => ⟨S8x600, .f32⟩
  | .local _ .vmem, ⟨5, _⟩ => ⟨S8x600, .f32⟩
  | .local _ .vmem, ⟨6, _⟩ => ⟨S8x600, .f32⟩
  | .local _ .vmem, ⟨7, _⟩ => ⟨S8x600, .f32⟩
  | .local _ .vmem, ⟨8, _⟩ => ⟨S8x600, .f32⟩
  | .local _ .vmem, ⟨9, _⟩ => ⟨S8x600, .f32⟩
  | .local _ .vmem, ⟨10, _⟩ => ⟨S8x600, .f32⟩
  | .local _ .vmem, ⟨11, _⟩ => ⟨S1x600, .f32⟩
  | .local _ .vmem, ⟨12, _⟩ => ⟨S8x48, .f32⟩
  | .local _ .vmem, ⟨13, _⟩ => ⟨S8x48, .f32⟩
  | .local _ .vmem, ⟨14, _⟩ => ⟨S8x48, .f32⟩
  | .local _ .vmem, ⟨15, _⟩ => ⟨S8x48, .f32⟩
  | .local _ .vmem, ⟨16, _⟩ => ⟨S8x600x192, .f32⟩
  | .local _ .vmem, ⟨17, _⟩ => ⟨S1024x48, .f32⟩
  | .local _ .vmem, ⟨18, _⟩ => ⟨S1024x48, .f32⟩
  | .local _ .vmem, ⟨19, _⟩ => ⟨S1024x1, .f32⟩
  | .local _ .vmem, ⟨20, _⟩ => ⟨S3x48, .f32⟩
  | .local _ .smem, ⟨0, _⟩ => ⟨S128, .i32⟩
  | .local _ .smem, ⟨1, _⟩ => ⟨S128, .i32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v21 : Ref sig .tc := ⟨.hbm, 50, rfl⟩
abbrev main_v22 : Ref sig .tc := ⟨.hbm, 51, rfl⟩
abbrev main_c_3 : Ref sig .tc := ⟨.hbm, 52, rfl⟩
abbrev main_call2_v0 : Ref sig .tc := ⟨.hbm, 53, rfl⟩
abbrev main_v23 : Ref sig .tc := ⟨.hbm, 54, rfl⟩
abbrev main_v24 : Ref sig .tc := ⟨.hbm, 55, rfl⟩
abbrev main_call3_v0 : Ref sig .tc := ⟨.hbm, 56, rfl⟩
abbrev main_call3_v1 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_6 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_7 : Ref sig .tc := ⟨.hbm, 76, rfl⟩
abbrev main_v40 : Ref sig .tc := ⟨.hbm, 77, rfl⟩
abbrev main_c_8 : Ref sig .tc := ⟨.hbm, 78, rfl⟩
abbrev main_v41 : Ref sig .tc := ⟨.hbm, 79, rfl⟩
abbrev main_c_9 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_c : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_0 : Ref sig .tc := ⟨.hbm, 94, rfl⟩
abbrev main_call4_v12 : Ref sig .tc := ⟨.hbm, 95, rfl⟩
abbrev main_call4_v13 : Ref sig .tc := ⟨.hbm, 96, rfl⟩
abbrev main_v42 : Ref sig .tc := ⟨.hbm, 97, rfl⟩
abbrev main_c_10 : Ref sig .tc := ⟨.hbm, 98, rfl⟩
abbrev main_c_11 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_c_12 : Ref sig .tc := ⟨.hbm, 105, rfl⟩
abbrev main_v44 : Ref sig .tc := ⟨.hbm, 106, rfl⟩
abbrev main_v45 : Ref sig .tc := ⟨.hbm, 107, rfl⟩
abbrev main_c_13 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_v6 : Ref sig .tc := ⟨.hbm, 115, rfl⟩
abbrev main_call6_v7 : Ref sig .tc := ⟨.hbm, 116, rfl⟩
abbrev main_call6_v8 : Ref sig .tc := ⟨.hbm, 117, rfl⟩
abbrev main_call6_c : Ref sig .tc := ⟨.hbm, 118, rfl⟩
abbrev main_call6_v9 : Ref sig .tc := ⟨.hbm, 119, rfl⟩
abbrev main_call6_v10 : Ref sig .tc := ⟨.hbm, 120, rfl⟩
abbrev main_call6_v11 : Ref sig .tc := ⟨.hbm, 121, rfl⟩
abbrev main_call6_c_0 : Ref sig .tc := ⟨.hbm, 122, rfl⟩
abbrev main_call6_v12 : Ref sig .tc := ⟨.hbm, 123, rfl⟩
abbrev main_call6_v13 : Ref sig .tc := ⟨.hbm, 124, rfl⟩
abbrev main_v46 : Ref sig .tc := ⟨.hbm, 125, rfl⟩
abbrev main_c_14 : Ref sig .tc := ⟨.hbm, 126, rfl⟩
abbrev main_c_15 : Ref sig .tc := ⟨.hbm, 127, rfl⟩
abbrev main_call7_v0 : Ref sig .tc := ⟨.hbm, 128, rfl⟩
abbrev main_call7_v1 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_v48_0 : Ref sig .tc := ⟨.hbm, 133, rfl⟩
abbrev main_v48_1 : Ref sig .tc := ⟨.hbm, 134, rfl⟩
abbrev main_cst_16 : Ref sig .tc := ⟨.hbm, 135, rfl⟩
abbrev main_v49 : Ref sig .tc := ⟨.hbm, 136, rfl⟩
abbrev main_v50 : Ref sig .tc := ⟨.hbm, 137, rfl⟩
abbrev main_cst_17 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_cst_18 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_call8_v0 : Ref sig .tc := ⟨.hbm, 150, rfl⟩
abbrev main_call8_v1 : Ref sig .tc := ⟨.hbm, 151, rfl⟩
abbrev main_v61 : Ref sig .tc := ⟨.hbm, 152, rfl⟩
abbrev main_v62 : Ref sig .tc := ⟨.hbm, 153, rfl⟩
abbrev main_cst_19 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_cst_20 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_cst_21 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v43 : Ref sig .tc := ⟨.smem, 0, rfl⟩
abbrev main_v47 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem2_0 : DmaSem sig := 18
abbrev cc1_sem3_0 : DmaSem sig := 19

abbrev nD : Nat := 1
abbrev τ : Topo := Topo.v7x

variable {F : FTy → Type} [FloatOps F]

abbrev grid0 : Pipeline.Grid := ⟨2, ![128, 79], ![false, false]⟩

abbrev pre0 : Pipeline.Prefetch sig := ⟨2, ![main_v43.idx, main_v47.idx], fun | 0 => main_v43.names | 1 => main_v47.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_mult1 (i : grid0.Coords) : BitVec 32 :=
  let arg1 : BitVec 32 := BitVec.ofNat 32 (i 1).val
  let c256_i32 : BitVec 32 := 256#32
  let v17 : BitVec 32 := Scalar.muli arg1 c256_i32
  v17
def k0_off2 (i : grid0.Coords) : Fin 2 → Nat :=
  let arg1 : BitVec 32 := BitVec.ofNat 32 (i 1).val
  let c256_i32 : BitVec 32 := 256#32
  let v17 : BitVec 32 := Scalar.muli arg1 c256_i32
  let v18 : BitVec 32 := v17
  let v36 : Index := Scalar.indexCast v18
  let c0_5 : Index := 0#32
  ![v36.toNat, 0]
def k0_cond3 (i : grid0.Coords) : BitVec 1 :=
  let arg1 : BitVec 32 := BitVec.ofNat 32 (i 1).val
  let c78_i32 : BitVec 32 := 78#32
  let v12 : BitVec 1 := Scalar.cmpi .eq arg1 c78_i32
  let v13 : BitVec 32 := Scalar.extui v12
  let c0_i32_2 : BitVec 32 := 0#32
  let v14 : BitVec 1 := Scalar.cmpi .ne v13 c0_i32_2
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S20224x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x600 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x48 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S20000_S1_0 : S20000.Slices ![0] S1
  shapeCasts_S1_S_ : S1.ShapeCasts S_
  slices_S20000_S1_19999 : S20000.Slices ![19999] S1
  bcast_S1024_S1024x1_0 : S1024.BroadcastsInDim S1024x1 (![0] : Fin 1 → Fin S1024x1.rank)
  bcast_S_S600 : S_.BroadcastsInDim S600 (![] : Fin 0 → Fin S600.rank)
  bcast_S600_S1x600_1 : S600.BroadcastsInDim S1x600 (![1] : Fin 1 → Fin S1x600.rank)
  bcast_S1024x1_S1024x600_0_1 : S1024x1.BroadcastsInDim S1024x600 (![0, 1] : Fin 2 → Fin S1024x600.rank)
  bcast_S1x600_S1024x600_0_1 : S1x600.BroadcastsInDim S1024x600 (![0, 1] : Fin 2 → Fin S1024x600.rank)
  bcast_S_S1024x600 : S_.BroadcastsInDim S1024x600 (![] : Fin 0 → Fin S1024x600.rank)
  concatenates_S20000x48_S20000x48_S20000x48_S20000x48_S20000x192_d1 : Shape.Concatenates [S20000x48, S20000x48, S20000x48, S20000x48] S20000x192 1
  pads_S20000x192_S20224x192_02240_000 : S20000x192.Pads (![0, 0] : Fin 2 → Nat) ![224, 0] ![0, 0] S20224x192
  h_S_ : 0 < S_.numel
  bitsLt_bf16_f32 : FTy.bits .bf16 < FTy.bits .f32
  slices_S600_S599_1 : S600.Slices ![1] S599
  slices_S600_S599_0 : S600.Slices ![0] S599
  slices_S599_S1_0 : S599.Slices ![0] S1
  bcast_S_S1 : S_.BroadcastsInDim S1 (![] : Fin 0 → Fin S1.rank)
  slices_S599_S1_598 : S599.Slices ![598] S1
  slices_S599_S598_0 : S599.Slices ![0] S598
  slices_S599_S598_1 : S599.Slices ![1] S598
  bcast_S_S598 : S_.BroadcastsInDim S598 (![] : Fin 0 → Fin S598.rank)
  concatenates_S1_S598_S1_S600_d0 : Shape.Concatenates [S1, S598, S1] S600 0
  shapeCasts_S1024x600_S128x8x600 : S1024x600.ShapeCasts S128x8x600
  reducesTo_S128x8x600_S128_d1_2 : S128x8x600.ReducesTo [1, 2] S128
  bcast_S_S128 : S_.BroadcastsInDim S128 (![] : Fin 0 → Fin S128.rank)
  inb_S8x600x192_S8x600x192_0_0_0 : ∀ a, (![0, 0, 0] : Fin 3 → Nat) a + S8x600x192.size a ≤ S8x600x192.size a
  h_S8x600x192 : 0 < S8x600x192.numel
  shapeCasts_S8x600x192_S8x600x192 : S8x600x192.ShapeCasts S8x600x192
  numel1_S1 : S1.numel = 1
  inb_S8x600_S8x600_0_0 : ∀ a, (![0, 0] : Fin 2 → Nat) a + S8x600.size a ≤ S8x600.size a
  h_S8x600 : 0 < S8x600.numel
  shapeCasts_S8x600_S8x600 : S8x600.ShapeCasts S8x600
  iota_S1x256_d1_w32 : S1x256.Iotas .tc 32 [1]
  shapeCasts_S1x256_S256 : S1x256.ShapeCasts S256
  shapeCasts_S8x600_S8x600x1 : S8x600.ShapeCasts S8x600x1
  shapeCasts_S256_S1x1x256 : S256.ShapeCasts S1x1x256
  broadcasts_S8x600x1_S8x600x256 : S8x600x1.Broadcasts S8x600x256
  broadcasts_S1x1x256_S8x600x256 : S1x1x256.Broadcasts S8x600x256
  shapeCasts_S8x600x256_S4800x256 : S8x600x256.ShapeCasts S4800x256
  h_S256x192 : 0 < S256x192.numel
  shapeCasts_S256x192_S256x192 : S256x192.ShapeCasts S256x192
  shapeCasts_S4800x192_S8x600x192 : S4800x192.ShapeCasts S8x600x192
  slices_S8x600x192_o0_0_0_S8x600x48 : S8x600x192.Slices ![0, 0, 0] S8x600x48
  slices_S8x600x192_o0_0_48_S8x600x48 : S8x600x192.Slices ![0, 0, 48] S8x600x48
  slices_S8x600x192_o0_0_96_S8x600x48 : S8x600x192.Slices ![0, 0, 96] S8x600x48
  slices_S8x600x192_o0_0_144_S8x600x48 : S8x600x192.Slices ![0, 0, 144] S8x600x48
  inb_S1x600_S1x600_0_0 : ∀ a, (![0, 0] : Fin 2 → Nat) a + S1x600.size a ≤ S1x600.size a
  h_S1x600 : 0 < S1x600.numel
  shapeCasts_S1x600_S1x600 : S1x600.ShapeCasts S1x600
  shapeCasts_S1x600_S1x600x1 : S1x600.ShapeCasts S1x600x1
  broadcasts_S8x600x1_S8x600x48 : S8x600x1.Broadcasts S8x600x48
  broadcasts_S1x600x1_S8x600x48 : S1x600x1.Broadcasts S8x600x48
  reduces_S8x600x48_S8x48 : S8x600x48.Reduces [1] S8x48
  inb_S8x48_S8x48_0_0 : ∀ a, (![0, 0] : Fin 2 → Nat) a + S8x48.size a ≤ S8x48.size a
  h_S8x48 : 0 < S8x48.numel
  bcast_S_S1024 : S_.BroadcastsInDim S1024 (![] : Fin 0 → Fin S1024.rank)
  slices_S1024_S1023_1 : S1024.Slices ![1] S1023
  slices_S1024_S1023_0 : S1024.Slices ![0] S1023
  slices_S1023_S1_0 : S1023.Slices ![0] S1
  slices_S1023_S1_1022 : S1023.Slices ![1022] S1
  slices_S1023_S1022_0 : S1023.Slices ![0] S1022
  slices_S1023_S1022_1 : S1023.Slices ![1] S1022
  bcast_S_S1022 : S_.BroadcastsInDim S1022 (![] : Fin 0 → Fin S1022.rank)
  concatenates_S1_S1022_S1_S1024_d0 : Shape.Concatenates [S1, S1022, S1] S1024 0
  inb_S1024x48_S1024x48_0_0 : ∀ a, (![0, 0] : Fin 2 → Nat) a + S1024x48.size a ≤ S1024x48.size a
  h_S1024x48 : 0 < S1024x48.numel
  shapeCasts_S1024x48_S1024x48 : S1024x48.ShapeCasts S1024x48
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x48 : S1024x1.Broadcasts S1024x48
  reduces_S1024x48_S48 : S1024x48.Reduces [0] S48
  shapeCasts_S48_S1x48 : S48.ShapeCasts S1x48
  concatenates_S1x48_S1x48_S1x48_S3x48_d0 : Shape.Concatenates [S1x48, S1x48, S1x48] S3x48 0
  inb_S3x48_S3x48_0_0 : ∀ a, (![0, 0] : Fin 2 → Nat) a + S3x48.size a ≤ S3x48.size a
  h_S3x48 : 0 < S3x48.numel
  dot_S4800x256_S256x192_S4800x192_1_0_0_1_n_n_wf : DotDims.WF S4800x256 S256x192 S4800x192 [1] [0] [0] [1] [] []
  hrank0 : 0 < grid0.rank
  k0_off1_inb : ∀ i : grid0.Coords, ∀ a, (k0_off1 i) a + S1.size a ≤ S128.size a
  k0_mult1_dvd : ∀ i : grid0.Coords, 256 ∣ (k0_mult1 i).toNat
  k0_off2_inb : ∀ i : grid0.Coords, ∀ a, (k0_off2 i) a + S256x192.size a ≤ S20224x192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x600.size a ≤ S1024x600.size a
  hwx0_0 : ∀ i : grid0.Coords, EltTy.bits .f32 = 32 ∨ (Rect.block (s := S1024x600) S8x600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20224x192.size a ≤ S20224x192.size a
  hwx0_1 : ∀ i : grid0.Coords, EltTy.bits .bf16 = 32 ∨ (Rect.block (s := S20224x192) S20224x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x600.size a ≤ S1024x600.size a
  hwx0_2 : ∀ i : grid0.Coords, EltTy.bits .f32 = 32 ∨ (Rect.block (s := S1024x600) S8x600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x600.size a ≤ S1024x600.size a
  hwx0_3 : ∀ i : grid0.Coords, EltTy.bits .f32 = 32 ∨ (Rect.block (s := S1024x600) S8x600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x600.size a ≤ S1024x600.size a
  hwx0_4 : ∀ i : grid0.Coords, EltTy.bits .f32 = 32 ∨ (Rect.block (s := S1024x600) S8x600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x600.size a ≤ S1024x600.size a
  hwx0_5 : ∀ i : grid0.Coords, EltTy.bits .f32 = 32 ∨ (Rect.block (s := S1024x600) S8x600.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x600.size a ≤ S1x600.size a
  hwx0_6 : ∀ i : grid0.Coords, EltTy.bits .f32 = 32 ∨ (Rect.block (s := S1x600) S1x600.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x48.size a ≤ S1024x48.size a
  hwx0_7 : ∀ i : grid0.Coords, EltTy.bits .f32 = 32 ∨ (Rect.block (s := S1024x48) S8x48.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x48.size a ≤ S1024x48.size a
  hwx0_8 : ∀ i : grid0.Coords, EltTy.bits .f32 = 32 ∨ (Rect.block (s := S1024x48) S8x48.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x48.size a ≤ S1024x48.size a
  hwx1_0 : ∀ i : grid1.Coords, EltTy.bits .f32 = 32 ∨ (Rect.block (s := S1024x48) S1024x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x48.size a ≤ S1024x48.size a
  hwx1_1 : ∀ i : grid1.Coords, EltTy.bits .f32 = 32 ∨ (Rect.block (s := S1024x48) S1024x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S1024x1.size a
  hwx1_2 : ∀ i : grid1.Coords, EltTy.bits .f32 = 32 ∨ (Rect.block (s := S1024x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x48.size a ≤ S3x48.size a
  hwx1_3 : ∀ i : grid1.Coords, EltTy.bits .f32 = 32 ∨ (Rect.block (s := S3x48) S3x48.size (cc1_transform_3 i) (hinb1_3 i)).WholeWords (EltTy.packing .f32)

variable [Facts₀]

def dot_S4800x256_S256x192_S4800x192_1_0_0_1_n_n : DotDims S4800x256 S256x192 S4800x192 where
  lhsContracting := [1]
  rhsContracting := [0]
  lhsNonContracting := [0]
  rhsNonContracting := [1]
  lhsBatch := []
  rhsBatch := []
  wf := dot_S4800x256_S256x192_S4800x192_1_0_0_1_n_n_wf

abbrev spec0_0 : Pipeline.WinSpec sig grid0.rank :=
  Pipeline.WinSpec.ofSpec (Memref.whole main_v18) S8x600.size reads0_0 false false 2 stage0_0 sem0_0 nbuf0_0 hstage0_0

abbrev spec0_1 : Pipeline.WinSpec sig grid0.rank :=
  Pipeline.WinSpec.ofSpec (Memref.whole main_v24) S20224x192.size reads0_1 false true 1 stage0_1 sem0_1 nbuf0_1 hstage0_1

abbrev spec0_2 : Pipeline.WinSpec sig grid0.rank :=
  Pipeline.WinSpec.ofSpec (Memref.whole main_arg3) S8x600.size reads0_2 false false 2 stage0_2 sem0_2 nbuf0_2 hstage0_2

abbrev spec0_3 : Pipeline.WinSpec sig grid0.rank :=
  Pipeline.WinSpec.ofSpec (Memref.whole main_arg4) S8x600.size reads0_3 false false 2 stage0_3 sem0_3 nbuf0_3 hstage0_3

abbrev spec0_4 : Pipeline.WinSpec sig grid0.rank :=
  Pipeline.WinSpec.ofSpec (Memref.whole main_arg5) S8x600.size reads0_4 false false 2 stage0_4 sem0_4 nbuf0_4 hstage0_4

abbrev spec0_5 : Pipeline.WinSpec sig grid0.rank :=
  Pipeline.WinSpec.ofSpec (Memref.whole main_arg6) S8x600.size reads0_5 false false 2 stage0_5 sem0_5 nbuf0_5 hstage0_5

abbrev spec0_6 : Pipeline.WinSpec sig grid0.rank :=
  Pipeline.WinSpec.ofSpec (Memref.whole main_v38) S1x600.size reads0_6 false true 1 stage0_6 sem0_6 nbuf0_6 hstage0_6

abbrev spec0_7 : Pipeline.WinSpec sig grid0.rank :=
  Pipeline.WinSpec.ofSpec (Memref.whole main_v48_0) S8x48.size reads0_7 true false 2 stage0_7 sem0_7 nbuf0_7 hstage0_7

abbrev spec0_8 : Pipeline.WinSpec sig grid0.rank :=
  Pipeline.WinSpec.ofSpec (Memref.whole main_v48_1) S8x48.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | ⟨_ + 9, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | ⟨_ + 9, h⟩ => absurd h (Nat.not_lt.2 (Nat.le_add_left _ _))
abbrev idle0 : Fin 9 → grid0.Coords → Bool := fun | 0 => fun _ => false | 1 => fun _ => false | 2 => fun _ => false | 3 => fun _ => false | 4 => fun _ => false | 5 => fun _ => false | 6 => fun _ => false | 7 => fun i => !(k0_cond3 i == 1#1) | 8 => fun i => !(k0_cond3 i == 1#1) | ⟨_ + 9, h⟩ => absurd h (Nat.not_lt.2 (Nat.le_add_left _ _))

abbrev win1_0 : Pipeline.Window sig grid1 :=
  Pipeline.Window.ofSpec (Memref.whole main_v48_0) S1024x48.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v48_1) S1024x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v77) S1024x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v78) S3x48.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where
  harr0 : ∀ w, (spec0 w).arr.IsWhole

variable [Facts]
-- ==== ReferenceIdeal.lean ====
abbrev S1024 : Shape := ⟨1, ![1024]⟩
abbrev S600 : Shape := ⟨1, ![600]⟩
abbrev S_ : Shape := ⟨0, ![]⟩
abbrev S1024x600 : Shape := ⟨2, ![1024, 600]⟩
abbrev S20000 : Shape := ⟨1, ![20000]⟩
abbrev S20000x48 : Shape := ⟨2, ![20000, 48]⟩
abbrev S1 : Shape := ⟨1, ![1]⟩
abbrev S1024x1 : Shape := ⟨2, ![1024, 1]⟩
abbrev S1x600 : Shape := ⟨2, ![1, 600]⟩
abbrev S1024x600x1 : Shape := ⟨3, ![1024, 600, 1]⟩
abbrev S48x20000 : Shape := ⟨2, ![48, 20000]⟩
abbrev S48x1024x600 : Shape := ⟨3, ![48, 1024, 600]⟩
abbrev S1x1024x600 : Shape := ⟨3, ![1, 1024, 600]⟩
abbrev S599 : Shape := ⟨1, ![599]⟩
abbrev S48x1024x599 : Shape := ⟨3, ![48, 1024, 599]⟩
abbrev S1x599 : Shape := ⟨2, ![1, 599]⟩
abbrev S1x1x599 : Shape := ⟨3, ![1, 1, 599]⟩
abbrev S48x1024 : Shape := ⟨2, ![48, 1024]⟩
abbrev S1x1024 : Shape := ⟨2, ![1, 1024]⟩
abbrev S1023 : Shape := ⟨1, ![1023]⟩
abbrev S48x1023 : Shape := ⟨2, ![48, 1023]⟩
abbrev S1x1023 : Shape := ⟨2, ![1, 1023]⟩
abbrev S48 : Shape := ⟨1, ![48]⟩
abbrev S1x48 : Shape := ⟨2, ![1, 48]⟩
abbrev S3x48 : Shape := ⟨2, ![3, 48]⟩

abbrev nBuf : Space → Nat
  | .hbm => 397
  | .vmem => 0
  | .smem => 0
  | _ => 0

abbrev hbmTy0_0 (i : Nat) : BufTy := match i % 128 with
  | 0 => ⟨S1024, .f32⟩
  | 1 => ⟨S600, .f32⟩
  | 2 => ⟨S_, .f32⟩
  | 3 => ⟨S1024x600, .f32⟩
  | 4 => ⟨S1024x600, .f32⟩
  | 5 => ⟨S1024x600, .f32⟩
  | 6 => ⟨S1024x600, .f32⟩
  | 7 => ⟨S20000, .f32⟩
  | 8 => ⟨S20000x48, .f32⟩
  | 9 => ⟨S20000x48, .f32⟩
  | 10 => ⟨S20000x48, .f32⟩
  | 11 => ⟨S20000x48, .f32⟩
  | 12 => ⟨S_, .f32⟩
  | 13 => ⟨S_, .f32⟩
  | 14 => ⟨S1, .f32⟩
  | 15 => ⟨S_, .f32⟩
  | 16 => ⟨S1, .f32⟩
  | 17 => ⟨S_, .f32⟩
  | 18 => ⟨S1024x1, .f32⟩
  | 19 => ⟨S600, .f32⟩
  | 20 => ⟨S600, .f32⟩
  | 21 => ⟨S1x600, .f32⟩
  | 22 => ⟨S1024x600, .f32⟩
  | 23 => ⟨S1024x600, .f32⟩
  | 24 => ⟨S1024x600, .f32⟩
  | 25 => ⟨S1024x600, .f32⟩
  | 26 => ⟨S1024x600, .f32⟩
  | 27 => ⟨S_, .f32⟩
  | 28 => ⟨S1024x600, .f32⟩
  | 29 => ⟨S1024x600, .f32⟩
  | 30 => ⟨S_, .f32⟩
  | 31 => ⟨S1024x600, .f32⟩
  | 32 => ⟨S1024x600, .f32⟩
  | 33 => ⟨S_, .f32⟩
  | 34 => ⟨S_, .f32⟩
  | 35 => ⟨S_, .f32⟩
  | 36 => ⟨S1024x600, .f32⟩
  | 37 => ⟨S1024x600, .f32⟩
  | 38 => ⟨S_, .f32⟩
  | 39 => ⟨S1024x600, .f32⟩
  | 40 => ⟨S1024x600, .f32⟩
  | 41 => ⟨S1024x600, .f32⟩
  | 42 => ⟨S1024x600, .i32⟩
  | 43 => ⟨S_, .i32⟩
  | 44 => ⟨S_, .i32⟩
  | 45 => ⟨S_, .i32⟩
  | 46 => ⟨S1024x600, .i32⟩
  | 47 => ⟨S1024x600, .i32⟩
  | 48 => ⟨S_, .i32⟩
  | 49 => ⟨S1024x600, .i32⟩
  | 50 => ⟨S1024x600, .i32⟩
  | 51 => ⟨S1024x600, .f32⟩
  | 52 => ⟨S1024x600, .f32⟩
  | 53 => ⟨S_, .i32⟩
  | 54 => ⟨S1024x600, .i32⟩
  | 55 => ⟨S1024x600, .i1⟩
  | 56 => ⟨S_, .i32⟩
  | 57 => ⟨S1024x600, .i32⟩
  | 58 => ⟨S1024x600, .i32⟩
  | 59 => ⟨S1024x600, .i32⟩
  | 60 => ⟨S1024x600x1, .i32⟩
  | 61 => ⟨S48x20000, .f32⟩
  | 62 => ⟨S48x1024x600, .f32⟩
  | 63 => ⟨S_, .f32⟩
  | 64 => ⟨S1024x600, .f32⟩
  | 65 => ⟨S1024x600, .f32⟩
  | 66 => ⟨S1x1024x600, .f32⟩
  | 67 => ⟨S48x1024x600, .f32⟩
  | 68 => ⟨S48x1024x600, .f32⟩
  | 69 => ⟨S_, .i32⟩
  | 70 => ⟨S1024x600, .i32⟩
  | 71 => ⟨S1024x600, .i32⟩
  | 72 => ⟨S_, .i32⟩
  | 73 => ⟨S1024x600, .i32⟩
  | 74 => ⟨S1024x600, .i1⟩
  | 75 => ⟨S_, .i32⟩
  | 76 => ⟨S1024x600, .i32⟩
  | 77 => ⟨S1024x600, .i32⟩
  | 78 => ⟨S1024x600, .i32⟩
  | 79 => ⟨S1024x600x1, .i32⟩
  | 80 => ⟨S48x20000, .f32⟩
  | 81 => ⟨S48x1024x600, .f32⟩
  | 82 => ⟨S1x1024x600, .f32⟩
  | 83 => ⟨S48x1024x600, .f32⟩
  | 84 => ⟨S48x1024x600, .f32⟩
  | 85 => ⟨S48x1024x600, .f32⟩
  | 86 => ⟨S1x1024x600, .f32⟩
  | 87 => ⟨S48x1024x600, .f32⟩
  | 88 => ⟨S48x1024x600, .f32⟩
  | 89 => ⟨S1024x600, .f32⟩
  | 90 => ⟨S1024x600, .f32⟩
  | 91 => ⟨S_, .f32⟩
  | 92 => ⟨S1024x600, .f32⟩
  | 93 => ⟨S1024x600, .f32⟩
  | 94 => ⟨S_, .f32⟩
  | 95 => ⟨S1024x600, .f32⟩
  | 96 => ⟨S1024x600, .f32⟩
  | 97 => ⟨S_, .f32⟩
  | 98 => ⟨S_, .f32⟩
  | 99 => ⟨S_, .f32⟩
  | 100 => ⟨S1024x600, .f32⟩
  | 101 => ⟨S1024x600, .f32⟩
  | 102 => ⟨S_, .f32⟩
  | 103 => ⟨S1024x600, .f32⟩
  | 104 => ⟨S1024x600, .f32⟩
  | 105 => ⟨S1024x600, .f32⟩
  | 106 => ⟨S1024x600, .i32⟩
  | 107 => ⟨S_, .i32⟩
  | 108 => ⟨S_, .i32⟩
  | 109 => ⟨S_, .i32⟩
  | 110 => ⟨S1024x600, .i32⟩
  | 111 => ⟨S1024x600, .i32⟩
  | 112 => ⟨S_, .i32⟩
  | 113 => ⟨S1024x600, .i32⟩
  | 114 => ⟨S1024x600, .i32⟩
  | 115 => ⟨S1024x600, .f32⟩
  | 116 => ⟨S1024x600, .f32⟩
  | 117 => ⟨S_, .i32⟩
  | 118 => ⟨S1024x600, .i32⟩
  | 119 => ⟨S1024x600, .i1⟩
  | 120 => ⟨S_, .i32⟩
  | 121 => ⟨S1024x600, .i32⟩
  | 122 => ⟨S1024x600, .i32⟩
  | 123 => ⟨S1024x600, .i32⟩
  | 124 => ⟨S1024x600x1, .i32⟩
  | 125 => ⟨S48x20000, .f32⟩
  | 126 => ⟨S48x1024x600, .f32⟩
  | 127 => ⟨S_, .f32⟩
  | _ => ⟨S1024, .f32⟩

abbrev hbmTy0_1 (i : Nat) : BufTy := match i % 128 with
  | 0 => ⟨S1024x600, .f32⟩
  | 1 => ⟨S1024x600, .f32⟩
  | 2 => ⟨S1x1024x600, .f32⟩
  | 3 => ⟨S48x1024x600, .f32⟩
  | 4 => ⟨S48x1024x600, .f32⟩
  | 5 => ⟨S_, .i32⟩
  | 6 => ⟨S1024x600, .i32⟩
  | 7 => ⟨S1024x600, .i32⟩
  | 8 => ⟨S_, .i32⟩
  | 9 => ⟨S1024x600, .i32⟩
  | 10 => ⟨S1024x600, .i1⟩
  | 11 => ⟨S_, .i32⟩
  | 12 => ⟨S1024x600, .i32⟩
  | 13 => ⟨S1024x600, .i32⟩
  | 14 => ⟨S1024x600, .i32⟩
  | 15 => ⟨S1024x600x1, .i32⟩
  | 16 => ⟨S48x20000, .f32⟩
  | 17 => ⟨S48x1024x600, .f32⟩
  | 18 => ⟨S1x1024x600, .f32⟩
  | 19 => ⟨S48x1024x600, .f32⟩
  | 20 => ⟨S48x1024x600, .f32⟩
  | 21 => ⟨S48x1024x600, .f32⟩
  | 22 => ⟨S1x1024x600, .f32⟩
  | 23 => ⟨S48x1024x600, .f32⟩
  | 24 => ⟨S48x1024x600, .f32⟩
  | 25 => ⟨S48x1024x600, .f32⟩
  | 26 => ⟨S1024x600, .f32⟩
  | 27 => ⟨S1024x600, .f32⟩
  | 28 => ⟨S_, .f32⟩
  | 29 => ⟨S1024x600, .f32⟩
  | 30 => ⟨S1024x600, .f32⟩
  | 31 => ⟨S_, .f32⟩
  | 32 => ⟨S1024x600, .f32⟩
  | 33 => ⟨S1024x600, .f32⟩
  | 34 => ⟨S_, .f32⟩
  | 35 => ⟨S_, .f32⟩
  | 36 => ⟨S_, .f32⟩
  | 37 => ⟨S1024x600, .f32⟩
  | 38 => ⟨S1024x600, .f32⟩
  | 39 => ⟨S_, .f32⟩
  | 40 => ⟨S1024x600, .f32⟩
  | 41 => ⟨S1024x600, .f32⟩
  | 42 => ⟨S1024x600, .f32⟩
  | 43 => ⟨S1024x600, .i32⟩
  | 44 => ⟨S_, .i32⟩
  | 45 => ⟨S_, .i32⟩
  | 46 => ⟨S_, .i32⟩
  | 47 => ⟨S1024x600, .i32⟩
  | 48 => ⟨S1024x600, .i32⟩
  | 49 => ⟨S_, .i32⟩
  | 50 => ⟨S1024x600, .i32⟩
  | 51 => ⟨S1024x600, .i32⟩
  | 52 => ⟨S1024x600, .f32⟩
  | 53 => ⟨S1024x600, .f32⟩
  | 54 => ⟨S_, .i32⟩
  | 55 => ⟨S1024x600, .i32⟩
  | 56 => ⟨S1024x600, .i1⟩
  | 57 => ⟨S_, .i32⟩
  | 58 => ⟨S1024x600, .i32⟩
  | 59 => ⟨S1024x600, .i32⟩
  | 60 => ⟨S1024x600, .i32⟩
  | 61 => ⟨S1024x600x1, .i32⟩
  | 62 => ⟨S48x20000, .f32⟩
  | 63 => ⟨S48x1024x600, .f32⟩
  | 64 => ⟨S_, .f32⟩
  | 65 => ⟨S1024x600, .f32⟩
  | 66 => ⟨S1024x600, .f32⟩
  | 67 => ⟨S1x1024x600, .f32⟩
  | 68 => ⟨S48x1024x600, .f32⟩
  | 69 => ⟨S48x1024x600, .f32⟩
  | 70 => ⟨S_, .i32⟩
  | 71 => ⟨S1024x600, .i32⟩
  | 72 => ⟨S1024x600, .i32⟩
  | 73 => ⟨S_, .i32⟩
  | 74 => ⟨S1024x600, .i32⟩
  | 75 => ⟨S1024x600, .i1⟩
  | 76 => ⟨S_, .i32⟩
  | 77 => ⟨S1024x600, .i32⟩
  | 78 => ⟨S1024x600, .i32⟩
  | 79 => ⟨S1024x600, .i32⟩
  | 80 => ⟨S1024x600x1, .i32⟩
  | 81 => ⟨S48x20000, .f32⟩
  | 82 => ⟨S48x1024x600, .f32⟩
  | 83 => ⟨S1x1024x600, .f32⟩
  | 84 => ⟨S48x1024x600, .f32⟩
  | 85 => ⟨S48x1024x600, .f32⟩
  | 86 => ⟨S48x1024x600, .f32⟩
  | 87 => ⟨S1x1024x600, .f32⟩
  | 88 => ⟨S48x1024x600, .f32⟩
  | 89 => ⟨S48x1024x600, .f32⟩
  | 90 => ⟨S48x1024x600, .f32⟩
  | 91 => ⟨S599, .f32⟩
  | 92 => ⟨S599, .f32⟩
  | 93 => ⟨S599, .f32⟩
  | 94 => ⟨S48x1024x599, .f32⟩
  | 95 => ⟨S48x1024x599, .f32⟩
  | 96 => ⟨S48x1024x599, .f32⟩
  | 97 => ⟨S1x599, .f32⟩
  | 98 => ⟨S1x1x599, .f32⟩
  | 99 => ⟨S48x1024x599, .f32⟩
  | 100 => ⟨S48x1024x599, .f32⟩
  | 101 => ⟨S_, .f32⟩
  | 102 => ⟨S48x1024, .f32⟩
  | 103 => ⟨S_, .f32⟩
  | 104 => ⟨S48x1024, .f32⟩
  | 105 => ⟨S48x1024, .f32⟩
  | 106 => ⟨S1024x600, .f32⟩
  | 107 => ⟨S1024x600, .f32⟩
  | 108 => ⟨S_, .f32⟩
  | 109 => ⟨S1024x600, .f32⟩
  | 110 => ⟨S1024x600, .f32⟩
  | 111 => ⟨S_, .f32⟩
  | 112 => ⟨S1024x600, .f32⟩
  | 113 => ⟨S1024x600, .f32⟩
  | 114 => ⟨S_, .f32⟩
  | 115 => ⟨S_, .f32⟩
  | 116 => ⟨S_, .f32⟩
  | 117 => ⟨S1024x600, .f32⟩
  | 118 => ⟨S1024x600, .f32⟩
  | 119 => ⟨S_, .f32⟩
  | 120 => ⟨S1024x600, .f32⟩
  | 121 => ⟨S1024x600, .f32⟩
  | 122 => ⟨S1024x600, .f32⟩
  | 123 => ⟨S1024x600, .i32⟩
  | 124 => ⟨S_, .i32⟩
  | 125 => ⟨S_, .i32⟩
  | 126 => ⟨S_, .i32⟩
  | 127 => ⟨S1024x600, .i32⟩
  | _ => ⟨S1024, .f32⟩

abbrev hbmTy0_2 (i : Nat) : BufTy := match i % 128 with
  | 0 => ⟨S1024x600, .i32⟩
  | 1 => ⟨S_, .i32⟩
  | 2 => ⟨S1024x600, .i32⟩
  | 3 => ⟨S1024x600, .i32⟩
  | 4 => ⟨S1024x600, .f32⟩
  | 5 => ⟨S1024x600, .f32⟩
  | 6 => ⟨S_, .i32⟩
  | 7 => ⟨S1024x600, .i32⟩
  | 8 => ⟨S1024x600, .i1⟩
  | 9 => ⟨S_, .i32⟩
  | 10 => ⟨S1024x600, .i32⟩
  | 11 => ⟨S1024x600, .i32⟩
  | 12 => ⟨S1024x600, .i32⟩
  | 13 => ⟨S1024x600x1, .i32⟩
  | 14 => ⟨S48x20000, .f32⟩
  | 15 => ⟨S48x1024x600, .f32⟩
  | 16 => ⟨S_, .f32⟩
  | 17 => ⟨S1024x600, .f32⟩
  | 18 => ⟨S1024x600, .f32⟩
  | 19 => ⟨S1x1024x600, .f32⟩
  | 20 => ⟨S48x1024x600, .f32⟩
  | 21 => ⟨S48x1024x600, .f32⟩
  | 22 => ⟨S_, .i32⟩
  | 23 => ⟨S1024x600, .i32⟩
  | 24 => ⟨S1024x600, .i32⟩
  | 25 => ⟨S_, .i32⟩
  | 26 => ⟨S1024x600, .i32⟩
  | 27 => ⟨S1024x600, .i1⟩
  | 28 => ⟨S_, .i32⟩
  | 29 => ⟨S1024x600, .i32⟩
  | 30 => ⟨S1024x600, .i32⟩
  | 31 => ⟨S1024x600, .i32⟩
  | 32 => ⟨S1024x600x1, .i32⟩
  | 33 => ⟨S48x20000, .f32⟩
  | 34 => ⟨S48x1024x600, .f32⟩
  | 35 => ⟨S1x1024x600, .f32⟩
  | 36 => ⟨S48x1024x600, .f32⟩
  | 37 => ⟨S48x1024x600, .f32⟩
  | 38 => ⟨S48x1024x600, .f32⟩
  | 39 => ⟨S1x1024x600, .f32⟩
  | 40 => ⟨S48x1024x600, .f32⟩
  | 41 => ⟨S48x1024x600, .f32⟩
  | 42 => ⟨S599, .f32⟩
  | 43 => ⟨S599, .f32⟩
  | 44 => ⟨S599, .f32⟩
  | 45 => ⟨S48x1024x599, .f32⟩
  | 46 => ⟨S48x1024x599, .f32⟩
  | 47 => ⟨S48x1024x599, .f32⟩
  | 48 => ⟨S1x599, .f32⟩
  | 49 => ⟨S1x1x599, .f32⟩
  | 50 => ⟨S48x1024x599, .f32⟩
  | 51 => ⟨S48x1024x599, .f32⟩
  | 52 => ⟨S_, .f32⟩
  | 53 => ⟨S48x1024, .f32⟩
  | 54 => ⟨S_, .f32⟩
  | 55 => ⟨S48x1024, .f32⟩
  | 56 => ⟨S48x1024, .f32⟩
  | 57 => ⟨S_, .f32⟩
  | 58 => ⟨S1024, .f32⟩
  | 59 => ⟨S1024, .f32⟩
  | 60 => ⟨S_, .f32⟩
  | 61 => ⟨S_, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1x1024, .f32⟩
  | 75 => ⟨S48x1024, .f32⟩
  | 76 => ⟨S48x1024, .f32⟩
  | 77 => ⟨S48x1024, .f32⟩
  | 78 => ⟨S1023, .f32⟩
  | 79 => ⟨S1023, .f32⟩
  | 80 => ⟨S1023, .f32⟩
  | 81 => ⟨S48x1023, .f32⟩
  | 82 => ⟨S48x1023, .f32⟩
  | 83 => ⟨S48x1023, .f32⟩
  | 84 => ⟨S1x1023, .f32⟩
  | 85 => ⟨S48x1023, .f32⟩
  | 86 => ⟨S48x1023, .f32⟩
  | 87 => ⟨S_, .f32⟩
  | 88 => ⟨S48, .f32⟩
  | 89 => ⟨S_, .f32⟩
  | 90 => ⟨S48, .f32⟩
  | 91 => ⟨S48, .f32⟩
  | 92 => ⟨S_, .f32⟩
  | 93 => ⟨S48, .f32⟩
  | 94 => ⟨S48, .f32⟩
  | 95 => ⟨S1x1024, .f32⟩
  | 96 => ⟨S48x1024, .f32⟩
  | 97 => ⟨S48x1024, .f32⟩
  | 98 => ⟨S48x1024, .f32⟩
  | 99 => ⟨S1023, .f32⟩
  | 100 => ⟨S1023, .f32⟩
  | 101 => ⟨S1023, .f32⟩
  | 102 => ⟨S48x1023, .f32⟩
  | 103 => ⟨S48x1023, .f32⟩
  | 104 => ⟨S48x1023, .f32⟩
  | 105 => ⟨S1x1023, .f32⟩
  | 106 => ⟨S48x1023, .f32⟩
  | 107 => ⟨S48x1023, .f32⟩
  | 108 => ⟨S_, .f32⟩
  | 109 => ⟨S48, .f32⟩
  | 110 => ⟨S_, .f32⟩
  | 111 => ⟨S48, .f32⟩
  | 112 => ⟨S48, .f32⟩
  | 113 => ⟨S_, .f32⟩
  | 114 => ⟨S48, .f32⟩
  | 115 => ⟨S48, .f32⟩
  | 116 => ⟨S1x1024, .f32⟩
  | 117 => ⟨S48x1024, .f32⟩
  | 118 => ⟨S48x1024, .f32⟩
  | 119 => ⟨S48x1024, .f32⟩
  | 120 => ⟨S1023, .f32⟩
  | 121 => ⟨S1023, .f32⟩
  | 122 => ⟨S1023, .f32⟩
  | 123 => ⟨S48x1023, .f32⟩
  | 124 => ⟨S48x1023, .f32⟩
  | 125 => ⟨S48x1023, .f32⟩
  | 126 => ⟨S1x1023, .f32⟩
  | 127 => ⟨S48x1023, .f32⟩
  | _ => ⟨S1024, .f32⟩

abbrev hbmTy0_3 (i : Nat) : BufTy := match i % 128 with
  | 0 => ⟨S48x1023, .f32⟩
  | 1 => ⟨S_, .f32⟩
  | 2 => ⟨S48, .f32⟩
  | 3 => ⟨S_, .f32⟩
  | 4 => ⟨S48, .f32⟩
  | 5 => ⟨S48, .f32⟩
  | 6 => ⟨S_, .f32⟩
  | 7 => ⟨S48, .f32⟩
  | 8 => ⟨S48, .f32⟩
  | 9 => ⟨S1x48, .f32⟩
  | 10 => ⟨S1x48, .f32⟩
  | 11 => ⟨S1x48, .f32⟩
  | 12 => ⟨S3x48, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_3 : Ref sig .tc := ⟨.hbm, 53, rfl⟩
abbrev main_v24 : Ref sig .tc := ⟨.hbm, 54, rfl⟩
abbrev main_v25 : Ref sig .tc := ⟨.hbm, 55, rfl⟩
abbrev main_c_4 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_6 : Ref sig .tc := ⟨.hbm, 69, rfl⟩
abbrev main_v37 : Ref sig .tc := ⟨.hbm, 70, rfl⟩
abbrev main_v38 : Ref sig .tc := ⟨.hbm, 71, rfl⟩
abbrev main_c_7 : Ref sig .tc := ⟨.hbm, 72, rfl⟩
abbrev main_v39 : Ref sig .tc := ⟨.hbm, 73, rfl⟩
abbrev main_v40 : Ref sig .tc := ⟨.hbm, 74, rfl⟩
abbrev main_c_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩
abbrev main_cst_10 : Ref sig .tc := ⟨.hbm, 97, rfl⟩
abbrev main_cst_11 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_12 : Ref sig .tc := ⟨.hbm, 107, rfl⟩
abbrev main_c_13 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_14 : Ref sig .tc := ⟨.hbm, 117, rfl⟩
abbrev main_v67 : Ref sig .tc := ⟨.hbm, 118, rfl⟩
abbrev main_v68 : Ref sig .tc := ⟨.hbm, 119, rfl⟩
abbrev main_c_15 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_16 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_c_17 : Ref sig .tc := ⟨.hbm, 133, rfl⟩
abbrev main_v80 : Ref sig .tc := ⟨.hbm, 134, rfl⟩
abbrev main_v81 : Ref sig .tc := ⟨.hbm, 135, rfl⟩
abbrev main_c_18 : Ref sig .tc := ⟨.hbm, 136, rfl⟩
abbrev main_v82 : Ref sig .tc := ⟨.hbm, 137, rfl⟩
abbrev main_v83 : Ref sig .tc := ⟨.hbm, 138, rfl⟩
abbrev main_c_19 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_20 : Ref sig .tc := ⟨.hbm, 159, rfl⟩
abbrev main_v103 : Ref sig .tc := ⟨.hbm, 160, rfl⟩
abbrev main_v104 : Ref sig .tc := ⟨.hbm, 161, rfl⟩
abbrev main_cst_21 : Ref sig .tc := ⟨.hbm, 162, rfl⟩
abbrev main_cst_22 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_c_23 : Ref sig .tc := ⟨.hbm, 172, rfl⟩
abbrev main_c_24 : Ref sig .tc := ⟨.hbm, 173, rfl⟩
abbrev main_call5_v0 : Ref sig .tc := ⟨.hbm, 174, rfl⟩
abbrev main_call5_v1 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_c_25 : Ref sig .tc := ⟨.hbm, 182, rfl⟩
abbrev main_v111 : Ref sig .tc := ⟨.hbm, 183, rfl⟩
abbrev main_v112 : Ref sig .tc := ⟨.hbm, 184, rfl⟩
abbrev main_c_26 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_cst_27 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_c_28 : Ref sig .tc := ⟨.hbm, 198, rfl⟩
abbrev main_v124 : Ref sig .tc := ⟨.hbm, 199, rfl⟩
abbrev main_v125 : Ref sig .tc := ⟨.hbm, 200, rfl⟩
abbrev main_c_29 : Ref sig .tc := ⟨.hbm, 201, rfl⟩
abbrev main_v126 : Ref sig .tc := ⟨.hbm, 202, rfl⟩
abbrev main_v127 : Ref sig .tc := ⟨.hbm, 203, rfl⟩
abbrev main_c_30 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_call6_call0_v0 : Ref sig .tc := ⟨.hbm, 219, rfl⟩
abbrev main_call6_call0_v1 : Ref sig .tc := ⟨.hbm, 220, rfl⟩
abbrev main_call6_v0 : Ref sig .tc := ⟨.hbm, 221, rfl⟩
abbrev main_call6_v1 : Ref sig .tc := ⟨.hbm, 222, rfl⟩
abbrev main_call6_v2 : Ref sig .tc := ⟨.hbm, 223, rfl⟩
abbrev main_call6_v3 : Ref sig .tc := ⟨.hbm, 224, rfl⟩
abbrev main_call6_v4 : Ref sig .tc := ⟨.hbm, 225, rfl⟩
abbrev main_call6_v5 : Ref sig .tc := ⟨.hbm, 226, rfl⟩
abbrev main_call6_v6 : Ref sig .tc := ⟨.hbm, 227, rfl⟩
abbrev main_call6_v7 : Ref sig .tc := ⟨.hbm, 228, rfl⟩
abbrev main_call6_cst : Ref sig .tc := ⟨.hbm, 229, rfl⟩
abbrev main_call6_v8 : Ref sig .tc := ⟨.hbm, 230, rfl⟩
abbrev main_call6_cst_0 : Ref sig .tc := ⟨.hbm, 231, rfl⟩
abbrev main_call6_v9 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_cst_31 : Ref sig .tc := ⟨.hbm, 239, rfl⟩
abbrev main_v148 : Ref sig .tc := ⟨.hbm, 240, rfl⟩
abbrev main_v149 : Ref sig .tc := ⟨.hbm, 241, rfl⟩
abbrev main_cst_32 : Ref sig .tc := ⟨.hbm, 242, rfl⟩
abbrev main_cst_33 : Ref sig .tc := ⟨.hbm, 243, rfl⟩
abbrev main_call7_v0 : Ref sig .tc := ⟨.hbm, 244, rfl⟩
abbrev main_call7_v1 : Ref sig .tc := ⟨.hbm, 245, rfl⟩
abbrev main_call7_v2 : Ref sig .tc := ⟨.hbm, 246, rfl⟩
abbrev main_call7_v3 : Ref sig .tc := ⟨.hbm, 247, rfl⟩
abbrev main_call7_v4 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_c_34 : Ref sig .tc := ⟨.hbm, 252, rfl⟩
abbrev main_c_35 : Ref sig .tc := ⟨.hbm, 253, rfl⟩
abbrev main_call8_v0 : Ref sig .tc := ⟨.hbm, 254, rfl⟩
abbrev main_call8_v1 : Ref sig .tc := ⟨.hbm, 255, rfl⟩
abbrev main_call8_v2 : Ref sig .tc := ⟨.hbm, 256, rfl⟩
abbrev main_call8_v3 : Ref sig .tc := ⟨.hbm, 257, rfl⟩
abbrev main_call8_v4 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_c_36 : Ref sig .tc := ⟨.hbm, 262, rfl⟩
abbrev main_v156 : Ref sig .tc := ⟨.hbm, 263, rfl⟩
abbrev main_v157 : Ref sig .tc := ⟨.hbm, 264, rfl⟩
abbrev main_c_37 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_cst_38 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_c_39 : Ref sig .tc := ⟨.hbm, 278, rfl⟩
abbrev main_v169 : Ref sig .tc := ⟨.hbm, 279, rfl⟩
abbrev main_v170 : Ref sig .tc := ⟨.hbm, 280, rfl⟩
abbrev main_c_40 : Ref sig .tc := ⟨.hbm, 281, rfl⟩
abbrev main_v171 : Ref sig .tc := ⟨.hbm, 282, rfl⟩
abbrev main_v172 : Ref sig .tc := ⟨.hbm, 283, rfl⟩
abbrev main_c_41 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_call9_call0_v0 : Ref sig .tc := ⟨.hbm, 298, rfl⟩
abbrev main_call9_call0_v1 : Ref sig .tc := ⟨.hbm, 299, rfl⟩
abbrev main_call9_v0 : Ref sig .tc := ⟨.hbm, 300, rfl⟩
abbrev main_call9_v1 : Ref sig .tc := ⟨.hbm, 301, rfl⟩
abbrev main_call9_v2 : Ref sig .tc := ⟨.hbm, 302, rfl⟩
abbrev main_call9_v3 : Ref sig .tc := ⟨.hbm, 303, rfl⟩
abbrev main_call9_v4 : Ref sig .tc := ⟨.hbm, 304, rfl⟩
abbrev main_call9_v5 : Ref sig .tc := ⟨.hbm, 305, rfl⟩
abbrev main_call9_v6 : Ref sig .tc := ⟨.hbm, 306, rfl⟩
abbrev main_call9_v7 : Ref sig .tc := ⟨.hbm, 307, rfl⟩
abbrev main_call9_cst : Ref sig .tc := ⟨.hbm, 308, rfl⟩
abbrev main_call9_v8 : Ref sig .tc := ⟨.hbm, 309, rfl⟩
abbrev main_call9_cst_0 : Ref sig .tc := ⟨.hbm, 310, rfl⟩
abbrev main_call9_v9 : Ref sig .tc := ⟨.hbm, 311, rfl⟩
abbrev main_v186 : Ref sig .tc := ⟨.hbm, 312, rfl⟩
abbrev main_cst_42 : Ref sig .tc := ⟨.hbm, 313, rfl⟩
abbrev main_v187 : Ref sig .tc := ⟨.hbm, 314, rfl⟩
abbrev main_v188 : Ref sig .tc := ⟨.hbm, 315, rfl⟩
abbrev main_cst_43 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_cst_44 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_call10_call0_v0 : Ref sig .tc := ⟨.hbm, 334, rfl⟩
abbrev main_call10_call0_v1 : Ref sig .tc := ⟨.hbm, 335, rfl⟩
abbrev main_call10_v0 : Ref sig .tc := ⟨.hbm, 336, rfl⟩
abbrev main_call10_v1 : Ref sig .tc := ⟨.hbm, 337, rfl⟩
abbrev main_call10_v2 : Ref sig .tc := ⟨.hbm, 338, rfl⟩
abbrev main_call10_v3 : Ref sig .tc := ⟨.hbm, 339, rfl⟩
abbrev main_call10_v4 : Ref sig .tc := ⟨.hbm, 340, rfl⟩
abbrev main_call10_v5 : Ref sig .tc := ⟨.hbm, 341, rfl⟩
abbrev main_call10_v6 : Ref sig .tc := ⟨.hbm, 342, rfl⟩
abbrev main_call10_cst : Ref sig .tc := ⟨.hbm, 343, rfl⟩
abbrev main_call10_v7 : Ref sig .tc := ⟨.hbm, 344, rfl⟩
abbrev main_call10_cst_0 : Ref sig .tc := ⟨.hbm, 345, rfl⟩
abbrev main_call10_v8 : Ref sig .tc := ⟨.hbm, 346, rfl⟩
abbrev main_v205 : Ref sig .tc := ⟨.hbm, 347, rfl⟩
abbrev main_cst_45 : Ref sig .tc := ⟨.hbm, 348, rfl⟩
abbrev main_v206 : Ref sig .tc := ⟨.hbm, 349, rfl⟩
abbrev main_v207 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_v211 : Ref sig .tc := ⟨.hbm, 354, rfl⟩
abbrev main_call11_call0_v0 : Ref sig .tc := ⟨.hbm, 355, rfl⟩
abbrev main_call11_call0_v1 : Ref sig .tc := ⟨.hbm, 356, rfl⟩
abbrev main_call11_v0 : Ref sig .tc := ⟨.hbm, 357, rfl⟩
abbrev main_call11_v1 : Ref sig .tc := ⟨.hbm, 358, rfl⟩
abbrev main_call11_v2 : Ref sig .tc := ⟨.hbm, 359, rfl⟩
abbrev main_call11_v3 : Ref sig .tc := ⟨.hbm, 360, rfl⟩
abbrev main_call11_v4 : Ref sig .tc := ⟨.hbm, 361, rfl⟩
abbrev main_call11_v5 : Ref sig .tc := ⟨.hbm, 362, rfl⟩
abbrev main_call11_v6 : Ref sig .tc := ⟨.hbm, 363, rfl⟩
abbrev main_call11_cst : Ref sig .tc := ⟨.hbm, 364, rfl⟩
abbrev main_call11_v7 : Ref sig .tc := ⟨.hbm, 365, rfl⟩
abbrev main_call11_cst_0 : Ref sig .tc := ⟨.hbm, 366, rfl⟩
abbrev main_call11_v8 : Ref sig .tc := ⟨.hbm, 367, rfl⟩
abbrev main_v212 : Ref sig .tc := ⟨.hbm, 368, rfl⟩
abbrev main_cst_46 : Ref sig .tc := ⟨.hbm, 369, rfl⟩
abbrev main_v213 : Ref sig .tc := ⟨.hbm, 370, rfl⟩
abbrev main_v214 : Ref sig .tc := ⟨.hbm, 371, rfl⟩
abbrev main_v215 : Ref sig .tc := ⟨.hbm, 372, rfl⟩
abbrev main_v216 : Ref sig .tc := ⟨.hbm, 373, rfl⟩
abbrev main_v217 : Ref sig .tc := ⟨.hbm, 374, rfl⟩
abbrev main_v218 : Ref sig .tc := ⟨.hbm, 375, rfl⟩
abbrev main_call12_call0_v0 : Ref sig .tc := ⟨.hbm, 376, rfl⟩
abbrev main_call12_call0_v1 : Ref sig .tc := ⟨.hbm, 377, rfl⟩
abbrev main_call12_v0 : Ref sig .tc := ⟨.hbm, 378, rfl⟩
abbrev main_call12_v1 : Ref sig .tc := ⟨.hbm, 379, rfl⟩
abbrev main_call12_v2 : Ref sig .tc := ⟨.hbm, 380, rfl⟩
abbrev main_call12_v3 : Ref sig .tc := ⟨.hbm, 381, rfl⟩
abbrev main_call12_v4 : Ref sig .tc := ⟨.hbm, 382, rfl⟩
abbrev main_call12_v5 : Ref sig .tc := ⟨.hbm, 383, rfl⟩
abbrev main_call12_v6 : Ref sig .tc := ⟨.hbm, 384, rfl⟩
abbrev main_call12_cst : Ref sig .tc := ⟨.hbm, 385, rfl⟩
abbrev main_call12_v7 : Ref sig .tc := ⟨.hbm, 386, rfl⟩
abbrev main_call12_cst_0 : Ref sig .tc := ⟨.hbm, 387, rfl⟩
abbrev main_call12_v8 : Ref sig .tc := ⟨.hbm, 388, rfl⟩
abbrev main_v219 : Ref sig .tc := ⟨.hbm, 389, rfl⟩
abbrev main_cst_47 : Ref sig .tc := ⟨.hbm, 390, rfl⟩
abbrev main_v220 : Ref sig .tc := ⟨.hbm, 391, rfl⟩
abbrev main_v221 : Ref sig .tc := ⟨.hbm, 392, rfl⟩
abbrev main_v222 : Ref sig .tc := ⟨.hbm, 393, rfl⟩
abbrev main_v223 : Ref sig .tc := ⟨.hbm, 394, rfl⟩
abbrev main_v224 : Ref sig .tc := ⟨.hbm, 395, rfl⟩
abbrev main_v225 : Ref sig .tc := ⟨.hbm, 396, rfl⟩

abbrev nD : Nat := 1
abbrev τ : Topo := Topo.v7x

variable {F : FTy → Type} [FloatOps F]

class Facts₀ : Prop where
  slices_S20000_S1_0 : S20000.Slices ![0] S1
  shapeCasts_S1_S_ : S1.ShapeCasts S_
  slices_S20000_S1_19999 : S20000.Slices ![19999] S1
  bcast_S1024_S1024x1_0 : S1024.BroadcastsInDim S1024x1 (![0] : Fin 1 → Fin S1024x1.rank)
  bcast_S_S600 : S_.BroadcastsInDim S600 (![] : Fin 0 → Fin S600.rank)
  bcast_S600_S1x600_1 : S600.BroadcastsInDim S1x600 (![1] : Fin 1 → Fin S1x600.rank)
  bcast_S1024x1_S1024x600_0_1 : S1024x1.BroadcastsInDim S1024x600 (![0, 1] : Fin 2 → Fin S1024x600.rank)
  bcast_S1x600_S1024x600_0_1 : S1x600.BroadcastsInDim S1024x600 (![0, 1] : Fin 2 → Fin S1024x600.rank)
  bcast_S_S1024x600 : S_.BroadcastsInDim S1024x600 (![] : Fin 0 → Fin S1024x600.rank)
  bcast_S1024x600_S1024x600x1_0_1 : S1024x600.BroadcastsInDim S1024x600x1 (![0, 1] : Fin 2 → Fin S1024x600x1.rank)
  transposes_S20000x48_S48x20000_1_0 : S20000x48.Transposes [1, 0] S48x20000
  bcast_S1024x600_S1x1024x600_1_2 : S1024x600.BroadcastsInDim S1x1024x600 (![1, 2] : Fin 2 → Fin S1x1024x600.rank)
  bcast_S1x1024x600_S48x1024x600_0_1_2 : S1x1024x600.BroadcastsInDim S48x1024x600 (![0, 1, 2] : Fin 3 → Fin S48x1024x600.rank)
  slices_S600_S599_1 : S600.Slices ![1] S599
  slices_S600_S599_0 : S600.Slices ![0] S599
  slices_S48x1024x600_S48x1024x599_0_0_1 : S48x1024x600.Slices ![0, 0, 1] S48x1024x599
  slices_S48x1024x600_S48x1024x599_0_0_0 : S48x1024x600.Slices ![0, 0, 0] S48x1024x599
  bcast_S599_S1x599_1 : S599.BroadcastsInDim S1x599 (![1] : Fin 1 → Fin S1x599.rank)
  bcast_S1x599_S1x1x599_1_2 : S1x599.BroadcastsInDim S1x1x599 (![1, 2] : Fin 2 → Fin S1x1x599.rank)
  bcast_S1x1x599_S48x1024x599_0_1_2 : S1x1x599.BroadcastsInDim S48x1024x599 (![0, 1, 2] : Fin 3 → Fin S48x1024x599.rank)
  reducesTo_S48x1024x599_S48x1024_d2 : S48x1024x599.ReducesTo [2] S48x1024
  h_S_ : 0 < S_.numel
  bcast_S_S48x1024 : S_.BroadcastsInDim S48x1024 (![] : Fin 0 → Fin S48x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S48x1024_0_1 : S1x1024.BroadcastsInDim S48x1024 (![0, 1] : Fin 2 → Fin S48x1024.rank)
  slices_S1024_S1023_1 : S1024.Slices ![1] S1023
  slices_S1024_S1023_0 : S1024.Slices ![0] S1023
  slices_S48x1024_S48x1023_0_1 : S48x1024.Slices ![0, 1] S48x1023
  slices_S48x1024_S48x1023_0_0 : S48x1024.Slices ![0, 0] S48x1023
  bcast_S1023_S1x1023_1 : S1023.BroadcastsInDim S1x1023 (![1] : Fin 1 → Fin S1x1023.rank)
  bcast_S1x1023_S48x1023_0_1 : S1x1023.BroadcastsInDim S48x1023 (![0, 1] : Fin 2 → Fin S48x1023.rank)
  reducesTo_S48x1023_S48_d1 : S48x1023.ReducesTo [1] S48
  bcast_S_S48 : S_.BroadcastsInDim S48 (![] : Fin 0 → Fin S48.rank)
  bcast_S48_S1x48_1 : S48.BroadcastsInDim S1x48 (![1] : Fin 1 → Fin S1x48.rank)
  concatenates_S1x48_S1x48_S1x48_S3x48_d0 : Shape.Concatenates [S1x48, S1x48, S1x48] S3x48 0
  gather_S48x20000_S1024x600x1_S48x1024x600_0_1_n_n_1_2_481_wf : GatherDims.WF S48x20000 S1024x600x1 S48x1024x600 [0] [1] [] [1] [] 2 ![48, 1]

variable [Facts₀]

def gather_S48x20000_S1024x600x1_S48x1024x600_0_1_n_n_1_2_481 : GatherDims S48x20000 S1024x600x1 S48x1024x600 where
  offsetDims := [0]
  collapsedSliceDims := [1]
  operandBatchingDims := []
  startIndicesBatchingDims := []
  startIndexMap := [1]
  indexVectorDim := 2
  sliceSizes := ![48, 1]
  wf := gather_S48x20000_S1024x600x1_S48x1024x600_0_1_n_n_1_2_481_wf

class Facts : Prop extends Facts₀ where

variable [Facts]
-- ==== Proof.Region1.lean ====
/- REGION 1 of the kernel program: the second TensorCore call (`cc1_cl_kernel`, pipeline 1), a grid of one point
   with three input windows (two 1024x48 blocks and a 1024x1 column) and one 3x48 output window.  Stated at a
   PARAMETER `V`, the TensorCore's buffer contents when the region is entered: each window's block read off `V`,
   what the body leaves in the output window as a function of the three input blocks, the body's triple, the
   pipeline's proof data and the body obligation the launch theorem asks for. -/
import proofs.«103908_j25280177504693_2_alg».proof.Proof.Gen.KernelIdeal.Launch
import proofs.«103908_j25280177504693_2_alg».proof.Proof.Gen.KernelIdeal.Skeleton
import proofs.«103908_j25280177504693_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the window's view of its array, read at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles: every access is the whole block at offset zero -/

abbrev rWide : Rect S1024x48 := Rect.unit (s := S1024x48) ![0, 0] S1024x48.size inb_S1024x48_S1024x48_0_0
abbrev rCol : Rect S1024x1 := Rect.unit (s := S1024x1) ![0, 0] S1024x1.size inb_S1024x1_S1024x1_0_0
abbrev rOut : Rect S3x48 := Rect.unit (s := S3x48) ![0, 0] S3x48.size inb_S3x48_S3x48_0_0

/-- The offsets `![0, 0]` are the zero offsets. -/
theorem zero2 : (![0, 0] : Fin 2 → Nat) = fun _ => 0 := funext fun a => by fin_cases a <;> rfl

/-! ## What the body leaves in the output window -/

/-- The output window's buffer after the body, from the three input blocks: the one store, of the three scaled
    column sums stacked, laid over whatever was there. -/
def out1_3 (x0 : Vec F S1024x48 .f32) (x1 : Vec F S1024x48 .f32) (x2 : Vec F S1024x1 .f32) : Vec F S3x48 .f32 :=
  View.canon [⟨rOut, k1_pay1 (View.ld x0 rWide) (View.ld x1 rWide) (View.ld x2 rCol)⟩]

/-- The one store is of the whole 3x48 block, so every index lies under it. -/
theorem cover1_3 (p : Vec F S3x48 .f32) (y : S3x48.Idx) :
    ∃ pc ∈ ([⟨rOut, p⟩] : List (View.Piece (Elt F) S3x48 .f32)), y ∈ pc.1.set :=
  ⟨_, List.mem_singleton_self _, View.mem_set_unit_zero zero2 inb_S3x48_S3x48_0_0 y⟩

/-- Each load reads its whole block and the store fills the whole output block: the output is the payload of the
    three input blocks. -/
theorem out1_3_apply (x0 : Vec F S1024x48 .f32) (x1 : Vec F S1024x48 .f32) (x2 : Vec F S1024x1 .f32) :
    out1_3 x0 x1 x2 = k1_pay1 x0 x1 x2 := by
  unfold out1_3
  rw [View.canon_unit_zero (S := S3x48) zero2 inb_S3x48_S3x48_0_0,
    View.ld_unit_zero (S := S1024x48) zero2 inb_S1024x48_S1024x48_0_0 x0,
    View.ld_unit_zero (S := S1024x48) zero2 inb_S1024x48_S1024x48_0_0 x1,
    View.ld_unit_zero (S := S1024x1) zero2 inb_S1024x1_S1024x1_0_0 x2]

/-! ## The body's triple -/

set_option maxHeartbeats 1000000 in
/-- The body on whole staging memrefs — the three inputs' at read contents `x0 x1 x2`, the output's at anything —
    runs to a continuation that holds the inputs' as they were and the output's at `out1_3 x0 x1 x2`.  The body
    also loads the output block before storing into it; the value read is not used. -/
theorem sound_kernel1 (c : Dev nD) (E : Set ℕ) (i : grid1.Coords)
    (arg1 : Memref sig .tc .vmem S1024x48 .f32) (harg1 : arg1.IsWhole) (arg2 : Memref sig .tc .vmem S1024x48 .f32) (harg2 : arg2.IsWhole)
    (arg3 : Memref sig .tc .vmem S1024x1 .f32) (harg3 : arg3.IsWhole) (arg4 : Memref sig .tc .vmem S3x48 .f32) (harg4 : arg4.IsWhole)
    (x0 : Vec F S1024x48 .f32) (x1 : Vec F S1024x48 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_cl_kernel i arg1 harg1 arg2 harg2 arg3 harg3 arg4 harg4) K := by
  simp only [cc1_cl_kernel_eq_skeleton]; unfold cc1_cl_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body each input's
    buffer still at its block and the output's at `out1_3` of the three input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input window is fetched at every point and is not cut, so when the body runs its current staging buffer
    holds the window's block, whatever it held before. -/
theorem before1_0 (c : Dev nD) (t : Fin cfg1.N) (d) : (dat1 V c).before 0 t d = iblk1 V c 0 t := by
  rw [(dat1 V c).before_fetched 0 t (fetch1_0 t) d]
  unfold Dat.fetched Dat.blockOf iblk1; rw [A_eq1]; try rfl
theorem before1_1 (c : Dev nD) (t : Fin cfg1.N) (d) : (dat1 V c).before 1 t d = iblk1 V c 1 t := by
  rw [(dat1 V c).before_fetched 1 t (fetch1_1 t) d]
  unfold Dat.fetched Dat.blockOf iblk1; rw [A_eq1]; try rfl
theorem before1_2 (c : Dev nD) (t : Fin cfg1.N) (d) : (dat1 V c).before 2 t d = iblk1 V c 2 t := by
  rw [(dat1 V c).before_fetched 2 t (fetch1_2 t) d]
  unfold Dat.fetched Dat.blockOf iblk1; rw [A_eq1]; try rfl

/-! ## The body obligation, at a generic point -/

/-- What the body is called with at point `t`, the four windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging memrefs hold their blocks (`before1_W`), so the triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region1Value.lean ====
/- REGION 1, READ AS VALUES: what pipeline 1's arrays hold after its one grid point.  Each window's block at the
   one point is its whole array, so the three input arrays keep their entry contents and the 3x48 output array
   ends at the payload of the three input arrays. -/
import proofs.«103908_j25280177504693_2_alg».proof.Proof.Region1
import Idealize.ShloMosaic.Lib.Pipeline.Value
import Idealize.ShloMosaic.Lib.Pipeline.Cells
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Arrays

variable {F : FTy → Type} [FloatOps F]

variable (V : (c : Dev nD) → (b : Ref sig .tc) → Buf (Elt F) ((c : Thread nD τ).loc b))

/-! ## The input arrays are never written back -/

/-- An input window's array holds, after the grid, what the region found in it. -/
theorem arrAt1_in (c : Dev nD) (w : Fin cfg1.W) (hw : w = 0 ∨ w = 1 ∨ w = 2) :
    (dat1 V c).arrAt w cfg1.N = V c (Pipeline.arrRef spec1 w) := by
  rcases hw with rfl | rfl | rfl
  · exact ((dat1 V c).arrAt_in 0 rfl cfg1.N).trans (A_eq1 V c 0)
  · exact ((dat1 V c).arrAt_in 1 rfl cfg1.N).trans (A_eq1 V c 1)
  · exact ((dat1 V c).arrAt_in 2 rfl cfg1.N).trans (A_eq1 V c 2)

/-! ## The arrays as whole vectors -/

/-- The three input arrays at region entry, as vectors of their shapes. -/
abbrev arrA (c : Dev nD) : Vec F S1024x48 .f32 := V c main_v48_0
abbrev arrB (c : Dev nD) : Vec F S1024x48 .f32 := V c main_v48_1
abbrev arrM (c : Dev nD) : Vec F S1024x1 .f32 := V c main_v77

/-- Every window's block index is zero on both axes at every point: the index maps are constant. -/
theorem idx_zero1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- A block element sits in its array at the same coordinates: the block is the whole array. -/
theorem emb1_0 (t : Fin cfg1.N) (j : S1024x48.Idx) : ((cfg1.win 0).blk t).view.emb j = j := by
  obtain ⟨e0, e1, -⟩ := idx_zero1 t
  funext a; apply Fin.ext
  match a with
  | ⟨0, _⟩ => show win1_0.index t (0 : Fin 2) * 1024 + 1 * (j 0).val = (j 0).val; omega
  | ⟨1, _⟩ => show win1_0.index t (1 : Fin 2) * 48 + 1 * (j 1).val = (j 1).val; omega
theorem emb1_1 (t : Fin cfg1.N) (j : S1024x48.Idx) : ((cfg1.win 1).blk t).view.emb j = j := by
  obtain ⟨-, -, e0, e1, -⟩ := idx_zero1 t
  funext a; apply Fin.ext
  match a with
  | ⟨0, _⟩ => show win1_1.index t (0 : Fin 2) * 1024 + 1 * (j 0).val = (j 0).val; omega
  | ⟨1, _⟩ => show win1_1.index t (1 : Fin 2) * 48 + 1 * (j 1).val = (j 1).val; omega
theorem emb1_2 (t : Fin cfg1.N) (j : S1024x1.Idx) : ((cfg1.win 2).blk t).view.emb j = j := by
  obtain ⟨-, -, -, -, e0, e1, -⟩ := idx_zero1 t
  funext a; apply Fin.ext
  match a with
  | ⟨0, _⟩ => show win1_2.index t (0 : Fin 2) * 1024 + 1 * (j 0).val = (j 0).val; omega
  | ⟨1, _⟩ => show win1_2.index t (1 : Fin 2) * 1 + 1 * (j 1).val = (j 1).val; omega
theorem emb1_3 (t : Fin cfg1.N) (j : S3x48.Idx) : ((cfg1.win 3).blk t).view.emb j = j := by
  obtain ⟨-, -, -, -, -, -, e0, e1⟩ := idx_zero1 t
  funext a; apply Fin.ext
  match a with
  | ⟨0, _⟩ => show win1_3.index t (0 : Fin 2) * 3 + 1 * (j 0).val = (j 0).val; omega
  | ⟨1, _⟩ => show win1_3.index t (1 : Fin 2) * 48 + 1 * (j 1).val = (j 1).val; omega

/-- So each input window's block, at any point, is its array. -/
theorem iblk1_0 (c : Dev nD) (t : Fin cfg1.N) : iblk1 V c 0 t = arrA V c := by
  funext j
  show V c main_v48_0 (((cfg1.win 0).blk t).view.emb j) = V c main_v48_0 j
  rw [emb1_0]
theorem iblk1_1 (c : Dev nD) (t : Fin cfg1.N) : iblk1 V c 1 t = arrB V c := by
  funext j
  show V c main_v48_1 (((cfg1.win 1).blk t).view.emb j) = V c main_v48_1 j
  rw [emb1_1]
theorem iblk1_2 (c : Dev nD) (t : Fin cfg1.N) : iblk1 V c 2 t = arrM V c := by
  funext j
  show V c main_v77 (((cfg1.win 2).blk t).view.emb j) = V c main_v77 j
  rw [emb1_2]

/-! ## The output array -/

/-- What the output array ends holding: the payload of the three input arrays. -/
abbrev outG (c : Dev nD) : Vec F S3x48 .f32 := k1_pay1 (arrA V c) (arrB V c) (arrM V c)

/-- What a point writes back is its block of `outG` — the whole of it. -/
theorem flushed1_3_eq (c : Dev nD) (t : Fin cfg1.N) :
    (dat1 V c).flushed 3 t = ((cfg1.win 3).blk t).view.read (Elt F) (outG V c) := by
  show (cfg1.win 3).cut (grid1.coords t) ((dat1 V c).after 3 t) = _
  rw [after1_3, out1_3_apply, iblk1_0, iblk1_1, iblk1_2]
  funext j
  show outG V c j = outG V c (((cfg1.win 3).blk t).view.emb j)
  rw [emb1_3]

/-- Every index of the 3x48 array lies in the one point's block. -/
theorem cover1_out (i : S3x48.Idx) :
    ∃ t : Fin cfg1.N, (cfg1.win 3).flush t = true ∧ i ∈ ((cfg1.win 3).blk t).view.set := by
  refine ⟨t1_0, flush1_3 t1_0, ?_⟩
  obtain ⟨-, -, -, -, -, -, e0, e1⟩ := idx_zero1 t1_0
  show i ∈ ((View.whole main_v78).slice (win1_3.rect t1_0)).set
  rw [View.set_slice_whole, Rect.mem_set_unit]
  intro a
  match a with
  | ⟨0, _⟩ =>
    show win1_3.index t1_0 (0 : Fin 2) * 3 ≤ (i 0).val ∧ (i 0).val < win1_3.index t1_0 (0 : Fin 2) * 3 + 3
    have hi0 : (i 0).val < 3 := (i 0).isLt; omega
  | ⟨1, _⟩ =>
    show win1_3.index t1_0 (1 : Fin 2) * 48 ≤ (i 1).val ∧ (i 1).val < win1_3.index t1_0 (1 : Fin 2) * 48 + 48
    have hi1 : (i 1).val < 48 := (i 1).isLt; omega

/-- The output array after the grid is the payload of the three input arrays as the region found them. -/
theorem arrAt1_out (c : Dev nD) : (dat1 V c).arrAt 3 cfg1.N = outG V c :=
  (dat1 V c).arrAt_eq_of_cover 3 (outG V c) (fun t _ => flushed1_3_eq V c t) cover1_out

end Arrays

/-! # The payload at an index, over the extended reals

Each of the three output rows is a constant times a column sum over the 1024 rows of a product of the mask column
with two of the wide blocks; the payload stacks the three rows. -/

section AtIdeal

open Idealize.ShloMosaic.ValueIdx
open scoped BigOperators

/-- A sum along the rows of a 1024x48 vector, read at lane `l`: the sum over the row coordinate at that lane. -/
theorem colsum_apply (v : FVec Ideal S1024x48 .f32) (l : Fin 48) :
    multiReduction (F := Ideal) .add [0] S48 v 0x00000000#32 reduces_S1024x48_S48 (.inl rfl) rfl (ix1 l)
      = ∑ i : Fin 1024, v (ix2 i l) := by
  refine (Ideal.multiReduction_add_single v 0x00000000#32 reduces_S1024x48_S48 (.inl rfl) rfl (ix1 l)).trans ?_
  refine Finset.sum_congr rfl fun i _ => congrArg v ?_
  funext c; apply Fin.ext
  match c with
  | ⟨0, _⟩ => rfl
  | ⟨1, _⟩ => rfl

/-- The 1024x1 column spread over 48 lanes reads, at row `i` and any lane, the column at row `i`. -/
theorem colspread_apply (m : FVec Ideal S1024x1 .f32) (i : Fin 1024) (l : Fin 48) :
    broadcastTo S1024x48 m broadcasts_S1024x1_S1024x48 (ix2 i l) = m (ix2 i (0 : Fin 1)) :=
  broadcastTo_apply m broadcasts_S1024x1_S1024x48 (ix2 i l) (ix2 i (0 : Fin 1)) fun a => by
    match a with
    | ⟨0, _⟩ => rfl
    | ⟨1, _⟩ => rfl

/-- One output row: the literal constant times the column sum of mask · a · b, as a 1x48 vector. -/
def rowOf (m : FVec Ideal S1024x1 .f32) (a b : FVec Ideal S1024x48 .f32) : FVec Ideal S1x48 .f32 :=
  mulf (broadcast S1x48 (Scalar.ofBits (F := Ideal) .f32 0x3F22F983#32))
    (shapeCast S1x48
      (multiReduction (F := Ideal) .add [0] S48 (mulf (mulf (broadcastTo S1024x48 m broadcasts_S1024x1_S1024x48) a) b)
        0x00000000#32 reduces_S1024x48_S48 (.inl rfl) rfl)
      shapeCasts_S48_S1x48)

/-- A row at lane `l`. -/
theorem rowOf_apply (m : FVec Ideal S1024x1 .f32) (a b : FVec Ideal S1024x48 .f32) (u : Fin 1) (l : Fin 48) :
    rowOf m a b (ix2 u l)
      = Ideal.ofBits .f32 0x3F22F983#32 * ∑ i : Fin 1024, (m (ix2 i (0 : Fin 1)) * a (ix2 i l)) * b (ix2 i l) := by
  unfold rowOf
  rw [mulf_apply, broadcast_apply, shapeCast_a_1a_apply, colsum_apply]
  refine congrArg (fun s => Ideal.ofBits .f32 0x3F22F983#32 * s) (Finset.sum_congr rfl fun i _ => ?_)
  rw [mulf_apply, mulf_apply, colspread_apply]

/-- Three 1x48 rows stacked along axis 0, read at row 0, 1, 2. -/
theorem stack3_row0 (a b c : FVec Ideal S1x48 .f32) (l : Fin 48) :
    concatenate S3x48 0 [⟨S1x48, a⟩, ⟨S1x48, b⟩, ⟨S1x48, c⟩] concatenates_S1x48_S1x48_S1x48_S3x48_d0 (ix2 (0 : Fin 3) l)
      = a (ix2 (0 : Fin 1) l) :=
  concatenate_apply_piece (0 : Fin S3x48.rank) [⟨S1x48, a⟩, ⟨S1x48, b⟩, ⟨S1x48, c⟩] concatenates_S1x48_S1x48_S1x48_S3x48_d0 (ix2 (0 : Fin 3) l)
    0 (by simp) S1x48 a rfl rfl 0 rfl (ix2 (0 : Fin 1) l)
    (fun d hd => by match d with | ⟨0, _⟩ => exact absurd rfl hd | ⟨1, _⟩ => rfl) rfl
theorem stack3_row1 (a b c : FVec Ideal S1x48 .f32) (l : Fin 48) :
    concatenate S3x48 0 [⟨S1x48, a⟩, ⟨S1x48, b⟩, ⟨S1x48, c⟩] concatenates_S1x48_S1x48_S1x48_S3x48_d0 (ix2 (1 : Fin 3) l)
      = b (ix2 (0 : Fin 1) l) :=
  concatenate_apply_piece (0 : Fin S3x48.rank) [⟨S1x48, a⟩, ⟨S1x48, b⟩, ⟨S1x48, c⟩] concatenates_S1x48_S1x48_S1x48_S3x48_d0 (ix2 (1 : Fin 3) l)
    1 (by simp) S1x48 b rfl rfl 1 rfl (ix2 (0 : Fin 1) l)
    (fun d hd => by match d with | ⟨0, _⟩ => exact absurd rfl hd | ⟨1, _⟩ => rfl) rfl
theorem stack3_row2 (a b c : FVec Ideal S1x48 .f32) (l : Fin 48) :
    concatenate S3x48 0 [⟨S1x48, a⟩, ⟨S1x48, b⟩, ⟨S1x48, c⟩] concatenates_S1x48_S1x48_S1x48_S3x48_d0 (ix2 (2 : Fin 3) l)
      = c (ix2 (0 : Fin 1) l) :=
  concatenate_apply_piece (0 : Fin S3x48.rank) [⟨S1x48, a⟩, ⟨S1x48, b⟩, ⟨S1x48, c⟩] concatenates_S1x48_S1x48_S1x48_S3x48_d0 (ix2 (2 : Fin 3) l)
    2 (by simp) S1x48 c rfl rfl 2 rfl (ix2 (0 : Fin 1) l)
    (fun d hd => by match d with | ⟨0, _⟩ => exact absurd rfl hd | ⟨1, _⟩ => rfl) rfl

/-- The payload is the stack of its three rows: (x0, x0), (x1, x1) and (x0, x1) under the mask column `x2`. -/
theorem k1_pay1_rows (x0 x1 : Vec Ideal S1024x48 .f32) (x2 : Vec Ideal S1024x1 .f32) :
    k1_pay1 (F := Ideal) x0 x1 x2
      = concatenate S3x48 0 [⟨S1x48, rowOf x2 x0 x0⟩, ⟨S1x48, rowOf x2 x1 x1⟩, ⟨S1x48, rowOf x2 x0 x1⟩]
          concatenates_S1x48_S1x48_S1x48_S3x48_d0 := by
  have e0 : shapeCast S1024x48 x0 shapeCasts_S1024x48_S1024x48 = x0 := shapeCast_self x0 _
  have e1 : shapeCast S1024x48 x1 shapeCasts_S1024x48_S1024x48 = x1 := shapeCast_self x1 _
  have e2 : shapeCast S1024x1 x2 shapeCasts_S1024x1_S1024x1 = x2 := shapeCast_self x2 _
  unfold k1_pay1 rowOf
  dsimp only
  rw [e0, e1, e2]

/-- Row 0: the mask-weighted column sums of x0². -/
theorem k1_pay1_apply0 (x0 x1 : Vec Ideal S1024x48 .f32) (x2 : Vec Ideal S1024x1 .f32) (l : Fin 48) :
    k1_pay1 (F := Ideal) x0 x1 x2 (ix2 (0 : Fin 3) l)
      = Ideal.ofBits .f32 0x3F22F983#32 * ∑ i : Fin 1024, (x2 (ix2 i (0 : Fin 1)) * x0 (ix2 i l)) * x0 (ix2 i l) := by
  rw [k1_pay1_rows, stack3_row0, rowOf_apply]
/-- Row 1: the mask-weighted column sums of x1². -/
theorem k1_pay1_apply1 (x0 x1 : Vec Ideal S1024x48 .f32) (x2 : Vec Ideal S1024x1 .f32) (l : Fin 48) :
    k1_pay1 (F := Ideal) x0 x1 x2 (ix2 (1 : Fin 3) l)
      = Ideal.ofBits .f32 0x3F22F983#32 * ∑ i : Fin 1024, (x2 (ix2 i (0 : Fin 1)) * x1 (ix2 i l)) * x1 (ix2 i l) := by
  rw [k1_pay1_rows, stack3_row1, rowOf_apply]
/-- Row 2: the mask-weighted column sums of x0 · x1. -/
theorem k1_pay1_apply2 (x0 x1 : Vec Ideal S1024x48 .f32) (x2 : Vec Ideal S1024x1 .f32) (l : Fin 48) :
    k1_pay1 (F := Ideal) x0 x1 x2 (ix2 (2 : Fin 3) l)
      = Ideal.ofBits .f32 0x3F22F983#32 * ∑ i : Fin 1024, (x2 (ix2 i (0 : Fin 1)) * x0 (ix2 i l)) * x1 (ix2 i l) := by
  rw [k1_pay1_rows, stack3_row2, rowOf_apply]

end AtIdeal

end Cert.KernelIdeal.Hand

end
-- ==== Proof.Region0.Runs.lean ====
import proofs.«103908_j25280177504693_2_alg».proof.Proof.Gen.KernelIdeal.Launch
import proofs.«103908_j25280177504693_2_alg».proof.Proof.Gen.KernelIdeal.Skeleton
import Idealize.ShloMosaic.Lib.Pipeline.FrameBody
import Idealize.ShloMosaic.Lib.Pipeline.Regions
import Idealize.ShloMosaic.Lib.Ring
import Idealize.ShloMosaic.Lib.Tactic
import Idealize.ShloMosaic.Lib.WholeRead

set_option maxRecDepth 16384

/-! # Region 0, the interpolation kernel: its body's run in each of the six control cases

The body is three guarded stretches: a reset of the accumulator where the chunk coordinate is zero; an update of
the accumulator where the chunk coordinate lies between two words the body loads from two tables at the k-tile's
cell; the two outputs computed from the accumulator where the chunk coordinate is the last. The first and third
guards are functions of the grid point; the second is a function of the two loaded words, so it is a case
variable. Each case's run is stated over memrefs held whole at named contents, and says what each memref the case
stores into holds afterwards, through the skeleton's payloads. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Reading a whole box back -/

section Whole
variable {sig' : RefSig} {κ : Kind} {sp : Space} {s : Shape} {e : EltTy} {Val : EltTy → Type}

/-- The whole box at offset zero places each of its own indices at itself. -/
theorem idx_unit_whole (off : Fin s.rank → Nat) (inb : ∀ a, off a + s.size a ≤ s.size a) (h0 : ∀ a, off a = 0)
    (x : s.Idx) : (Rect.unit (s := s) off s.size inb).toLoadRect.idx x = x := by
  funext a; apply Fin.ext
  show off a + 1 * (x a : Nat) = (x a : Nat)
  rw [h0 a]; omega

/-- A whole memref held at the contents that read `X`, loaded through the whole box, reads `X`. -/
theorem readAt_unit_whole_unread {m : Memref sig' κ sp s e} (h : m.IsWhole) (X : s.Idx → Val e)
    (off : Fin s.rank → Nat) (inb : ∀ a, off a + s.size a ≤ s.size a) (h0 : ∀ a, off a = 0) :
    View.readAt Val m.view (Rect.unit (s := s) off s.size inb).toLoadRect (h.unread X) = X := by
  funext x
  rw [Memref.IsWhole.readAt_unread h X _ x]
  exact congrArg X (idx_unit_whole off inb h0 x)

/-- After an unmasked store of `w` through the whole box, the view reads `w`, whatever was stored before. -/
theorem read_writes_unit_whole (v : View sig' κ sp s e) (f : v.ty.Contents Val)
    (off : Fin s.rank → Nat) (inb : ∀ a, off a + s.size a ≤ s.size a) (h0 : ∀ a, off a = 0)
    (w : s.Idx → Val e) (L : List (View.Piece Val s e)) :
    v.read Val (v.writes Val f (⟨Rect.unit (s := s) off s.size inb, w⟩ :: L)) = w := by
  funext y
  have h := View.read_writes_cons_emb (v := v) (f := f) (Rect.unit (s := s) off s.size inb) w L y
  have he : (Rect.unit (s := s) off s.size inb).emb y = y := idx_unit_whole off inb h0 y
  rw [he] at h; exact h

end Whole

/-! ## The body's three conditions -/

/-- The reset condition: the chunk coordinate is zero. -/
abbrev condZ (i : grid0.Coords) : Prop :=
  (Scalar.cmpi .ne (Scalar.extui (Scalar.cmpi .eq (BitVec.ofNat 32 (i 1).val) 0#32)) 0#32) = 1#1

/-- The range condition over the two loaded words: lo ≤ nx ≤ hi as signed words. -/
abbrev condW (i : grid0.Coords) (lo hi : BitVec 32) : Prop :=
  (Scalar.cmpi .ne (Scalar.extui (Scalar.andi (Scalar.cmpi .sge (BitVec.ofNat 32 (i 1).val) lo) (Scalar.cmpi .sle (BitVec.ofNat 32 (i 1).val) hi))) 0#32) = 1#1

/-- The finishing condition: the chunk coordinate is the last. -/
abbrev condL (i : grid0.Coords) : Prop := k0_cond3 i = 1#1

/-- The cell of a 128-word table the point's k-tile selects. -/
abbrev cellOfTile (i : grid0.Coords) : LoadRect S128 := (Rect.unit (s := S128) (k0_off1 i) S1.size (k0_off1_inb i)).toLoadRect

/-- The word a table of contents `x` holds at the k-tile's cell. -/
def wordOf (i : grid0.Coords) (x : Vec F S128 .i32) : BitVec 32 :=
  x ((cellOfTile i).idx (Shape.Idx.first (numel1_S1.symm ▸ Nat.one_pos)))

/-- The 256 rows of the table the point's chunk selects. -/
abbrev rowsOfChunk (i : grid0.Coords) : LoadRect S20224x192 := (Rect.unit (s := S20224x192) (k0_off2 i) S256x192.size (k0_off2_inb i)).toLoadRect

/-- Those rows of a table of contents `x`. -/
def tabRows (i : grid0.Coords) (x : Vec F S20224x192 .bf16) : Vec F S256x192 .bf16 :=
  fun y => x ((rowsOfChunk i).idx y)

theorem wordOf_eq (i : grid0.Coords) (T : Memref sig .tc .smem S128 .i32) (hT : T.IsWhole) (x : Vec F S128 .i32) :
    T.view.readAt (Elt F) (cellOfTile i) (hT.unread x) (Shape.Idx.first (numel1_S1.symm ▸ Nat.one_pos)) = wordOf i x :=
  Memref.IsWhole.readAt_unread hT x _ _

theorem tabRows_eq (i : grid0.Coords) (T : Memref sig .tc .vmem S20224x192 .bf16) (hT : T.IsWhole) (x : Vec F S20224x192 .bf16) :
    T.view.readAt (Elt F) (rowsOfChunk i) (hT.unread x) = tabRows i x :=
  funext fun y => Memref.IsWhole.readAt_unread hT x _ y

theorem z3 : ∀ a : Fin 3, (![0, 0, 0] : Fin 3 → Nat) a = 0 := by decide
theorem z2 : ∀ a : Fin 2, (![0, 0] : Fin 2 → Nat) a = 0 := by decide

set_option maxHeartbeats 1000000 in
/-- FIRST CHUNK, OUT OF RANGE. The accumulator, whatever it held, is left at zeros; the tables are only read. -/
theorem run_Z_F (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32)
    (hz : condZ i) (hl : ¬condL i) (hw : ¬condW i (wordOf i xlo) (wordOf i xhi))
    (E : Set ℕ) (K : PUnit → sProp 𝕄) :
    iprop(owns (c : Thread nD τ) arg2 fullShare xlo
        ∗ owns (c : Thread nD τ) arg3 fullShare xhi
        ∗ (∃ d, owns (c : Thread nD τ) arg13 fullShare d)
        ∗ (iprop(owns (c : Thread nD τ) arg2 fullShare xlo
            ∗ owns (c : Thread nD τ) arg3 fullShare xhi
            ∗ owns (c : Thread nD τ) arg13 fullShare (k0_pay1 (F := F))) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, ⟨%d13, %f13, -, H13⟩, Hk⟩
  obtain rfl := harg2.eq_unread hf2; obtain rfl := harg3.eq_unread hf3
  sl_exec (disch := first | sl_exact hz | sl_exact hl | sl_exact hw)
  sl_step
  iapply Hk
  isplitl [H2]
  · iexists _; isplitr; · ipureintro; exact harg2.read_unread _
    iexact H2
  isplitl [H3]
  · iexists _; isplitr; · ipureintro; exact harg3.read_unread _
    iexact H3
  · iexists _; isplitr; swap; · iexact H13
    ipureintro
    sl_unfold_run_names
    rw [read_writes_unit_whole (s := S8x600x192) _ _ _ _ z3]

set_option maxHeartbeats 1000000 in
/-- FIRST CHUNK, IN RANGE. The accumulator is zeroed, then the chunk's contribution (the interpolation weights of the positions against the chunk's 256 rows, times those rows) is added to it. -/
theorem run_Z_T (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32) (pos : Vec F S8x600 .f32) (tab : Vec F S20224x192 .bf16)
    (hz : condZ i) (hl : ¬condL i) (hw : condW i (wordOf i xlo) (wordOf i xhi))
    (E : Set ℕ) (K : PUnit → sProp 𝕄) :
    iprop(owns (c : Thread nD τ) arg2 fullShare xlo
        ∗ owns (c : Thread nD τ) arg3 fullShare xhi
        ∗ owns (c : Thread nD τ) arg4 fullShare pos
        ∗ owns (c : Thread nD τ) arg5 fullShare tab
        ∗ (∃ d, owns (c : Thread nD τ) arg13 fullShare d)
        ∗ (iprop(owns (c : Thread nD τ) arg2 fullShare xlo
            ∗ owns (c : Thread nD τ) arg3 fullShare xhi
            ∗ owns (c : Thread nD τ) arg4 fullShare pos
            ∗ owns (c : Thread nD τ) arg5 fullShare tab
            ∗ owns (c : Thread nD τ) arg13 fullShare (k0_pay2 i pos (tabRows i tab) (k0_pay1 (F := F)))) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, ⟨%f4, %hf4, H4⟩, ⟨%f5, %hf5, H5⟩, ⟨%d13, %f13, -, H13⟩, Hk⟩
  obtain rfl := harg2.eq_unread hf2; obtain rfl := harg3.eq_unread hf3; obtain rfl := harg4.eq_unread hf4; obtain rfl := harg5.eq_unread hf5
  sl_exec (disch := first | sl_exact hz | sl_exact hl | sl_exact hw)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  · iexists _; isplitr; swap; · iexact H13
    ipureintro
    sl_unfold_run_names
    rw [read_writes_unit_whole (s := S8x600x192) _ _ _ _ z3,
      readAt_unit_whole_unread harg4 pos _ _ z2,
      tabRows_eq i arg5 harg5 tab,
      View.readCov_cons_toLoadRect]

set_option maxHeartbeats 1000000 in
/-- A MIDDLE CHUNK, OUT OF RANGE. The body reads the two words and touches nothing else. -/
theorem run_M_F (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32)
    (hz : ¬condZ i) (hl : ¬condL i) (hw : ¬condW i (wordOf i xlo) (wordOf i xhi))
    (E : Set ℕ) (K : PUnit → sProp 𝕄) :
    iprop(owns (c : Thread nD τ) arg2 fullShare xlo
        ∗ owns (c : Thread nD τ) arg3 fullShare xhi
        ∗ (iprop(owns (c : Thread nD τ) arg2 fullShare xlo
            ∗ owns (c : Thread nD τ) arg3 fullShare xhi) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, Hk⟩
  obtain rfl := harg2.eq_unread hf2; obtain rfl := harg3.eq_unread hf3
  sl_exec (disch := first | sl_exact hz | sl_exact hl | sl_exact hw)
  sl_step
  iapply Hk
  isplitl [H2]
  · iexists _; isplitr; · ipureintro; exact harg2.read_unread _
    iexact H2
  · iexists _; isplitr; · ipureintro; exact harg3.read_unread _
    iexact H3

set_option maxHeartbeats 1000000 in
/-- A MIDDLE CHUNK, IN RANGE. The chunk's contribution is added to the accumulator. -/
theorem run_M_T (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32) (pos : Vec F S8x600 .f32) (tab : Vec F S20224x192 .bf16) (acc : Vec F S8x600x192 .f32)
    (hz : ¬condZ i) (hl : ¬condL i) (hw : condW i (wordOf i xlo) (wordOf i xhi))
    (E : Set ℕ) (K : PUnit → sProp 𝕄) :
    iprop(owns (c : Thread nD τ) arg2 fullShare xlo
        ∗ owns (c : Thread nD τ) arg3 fullShare xhi
        ∗ owns (c : Thread nD τ) arg4 fullShare pos
        ∗ owns (c : Thread nD τ) arg5 fullShare tab
        ∗ owns (c : Thread nD τ) arg13 fullShare acc
        ∗ (iprop(owns (c : Thread nD τ) arg2 fullShare xlo
            ∗ owns (c : Thread nD τ) arg3 fullShare xhi
            ∗ owns (c : Thread nD τ) arg4 fullShare pos
            ∗ owns (c : Thread nD τ) arg5 fullShare tab
            ∗ owns (c : Thread nD τ) arg13 fullShare (k0_pay2 i pos (tabRows i tab) acc)) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, ⟨%f4, %hf4, H4⟩, ⟨%f5, %hf5, H5⟩, ⟨%f13, %hf13, H13⟩, Hk⟩
  obtain rfl := harg2.eq_unread hf2; obtain rfl := harg3.eq_unread hf3; obtain rfl := harg4.eq_unread hf4; obtain rfl := harg5.eq_unread hf5; obtain rfl := harg13.eq_unread hf13
  sl_exec (disch := first | sl_exact hz | sl_exact hl | sl_exact hw)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  · iexists _; isplitr; swap; · iexact H13
    ipureintro
    sl_unfold_run_names
    rw [read_writes_unit_whole (s := S8x600x192) _ _ _ _ z3,
      readAt_unit_whole_unread harg4 pos _ _ z2,
      tabRows_eq i arg5 harg5 tab,
      readAt_unit_whole_unread harg13 acc _ _ z3]

set_option maxHeartbeats 1000000 in
/-- LAST CHUNK, OUT OF RANGE. The two outputs are computed from the accumulator, which is left as it was. -/
theorem run_L_F (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32) (acc : Vec F S8x600x192 .f32) (s0 s1 s2 se : Vec F S8x600 .f32) (tw : Vec F S1x600 .f32)
    (hz : ¬condZ i) (hl : condL i) (hw : ¬condW i (wordOf i xlo) (wordOf i xhi))
    (E : Set ℕ) (K : PUnit → sProp 𝕄) :
    iprop(owns (c : Thread nD τ) arg2 fullShare xlo
        ∗ owns (c : Thread nD τ) arg3 fullShare xhi
        ∗ owns (c : Thread nD τ) arg13 fullShare acc
        ∗ owns (c : Thread nD τ) arg6 fullShare s0
        ∗ owns (c : Thread nD τ) arg7 fullShare s1
        ∗ owns (c : Thread nD τ) arg8 fullShare s2
        ∗ owns (c : Thread nD τ) arg9 fullShare se
        ∗ owns (c : Thread nD τ) arg10 fullShare tw
        ∗ (∃ d, owns (c : Thread nD τ) arg11 fullShare d)
        ∗ (∃ d, owns (c : Thread nD τ) arg12 fullShare d)
        ∗ (iprop(owns (c : Thread nD τ) arg2 fullShare xlo
            ∗ owns (c : Thread nD τ) arg3 fullShare xhi
            ∗ owns (c : Thread nD τ) arg13 fullShare acc
            ∗ owns (c : Thread nD τ) arg6 fullShare s0
            ∗ owns (c : Thread nD τ) arg7 fullShare s1
            ∗ owns (c : Thread nD τ) arg8 fullShare s2
            ∗ owns (c : Thread nD τ) arg9 fullShare se
            ∗ owns (c : Thread nD τ) arg10 fullShare tw
            ∗ owns (c : Thread nD τ) arg11 fullShare (k0_pay4 acc s0 s1 s2 tw)
            ∗ owns (c : Thread nD τ) arg12 fullShare (k0_pay5 acc se tw)) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, ⟨%f13, %hf13, H13⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  obtain rfl := harg2.eq_unread hf2; obtain rfl := harg3.eq_unread hf3; obtain rfl := harg13.eq_unread hf13; obtain rfl := harg6.eq_unread hf6; obtain rfl := harg7.eq_unread hf7; obtain rfl := harg8.eq_unread hf8; obtain rfl := harg9.eq_unread hf9; obtain rfl := harg10.eq_unread hf10
  sl_exec (disch := first | sl_exact hz | sl_exact hl | sl_exact hw)
  sl_step
  iapply Hk
  isplitl [H2]
  · iexists _; isplitr; · ipureintro; exact harg2.read_unread _
    iexact H2
  isplitl [H3]
  · iexists _; isplitr; · ipureintro; exact harg3.read_unread _
    iexact H3
  isplitl [H13]
  · iexists _; isplitr; · ipureintro; exact harg13.read_unread _
    iexact H13
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    sl_unfold_run_names
    rw [read_writes_unit_whole (s := S8x48) _ _ _ _ z2,
      readAt_unit_whole_unread harg13 acc _ _ z3,
      readAt_unit_whole_unread harg6 s0 _ _ z2,
      readAt_unit_whole_unread harg7 s1 _ _ z2,
      readAt_unit_whole_unread harg8 s2 _ _ z2,
      readAt_unit_whole_unread harg10 tw _ _ z2]
  · iexists _; isplitr; swap; · iexact H12
    ipureintro
    sl_unfold_run_names
    rw [read_writes_unit_whole (s := S8x48) _ _ _ _ z2,
      readAt_unit_whole_unread harg13 acc _ _ z3,
      readAt_unit_whole_unread harg9 se _ _ z2,
      readAt_unit_whole_unread harg10 tw _ _ z2]

set_option maxHeartbeats 1000000 in
/-- LAST CHUNK, IN RANGE. The chunk's contribution is added to the accumulator, then the two outputs are computed from the updated accumulator. -/
theorem run_L_T (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32) (pos : Vec F S8x600 .f32) (tab : Vec F S20224x192 .bf16) (acc : Vec F S8x600x192 .f32) (s0 s1 s2 se : Vec F S8x600 .f32) (tw : Vec F S1x600 .f32)
    (hz : ¬condZ i) (hl : condL i) (hw : condW i (wordOf i xlo) (wordOf i xhi))
    (E : Set ℕ) (K : PUnit → sProp 𝕄) :
    iprop(owns (c : Thread nD τ) arg2 fullShare xlo
        ∗ owns (c : Thread nD τ) arg3 fullShare xhi
        ∗ owns (c : Thread nD τ) arg4 fullShare pos
        ∗ owns (c : Thread nD τ) arg5 fullShare tab
        ∗ owns (c : Thread nD τ) arg13 fullShare acc
        ∗ owns (c : Thread nD τ) arg6 fullShare s0
        ∗ owns (c : Thread nD τ) arg7 fullShare s1
        ∗ owns (c : Thread nD τ) arg8 fullShare s2
        ∗ owns (c : Thread nD τ) arg9 fullShare se
        ∗ owns (c : Thread nD τ) arg10 fullShare tw
        ∗ (∃ d, owns (c : Thread nD τ) arg11 fullShare d)
        ∗ (∃ d, owns (c : Thread nD τ) arg12 fullShare d)
        ∗ (iprop(owns (c : Thread nD τ) arg2 fullShare xlo
            ∗ owns (c : Thread nD τ) arg3 fullShare xhi
            ∗ owns (c : Thread nD τ) arg4 fullShare pos
            ∗ owns (c : Thread nD τ) arg5 fullShare tab
            ∗ owns (c : Thread nD τ) arg13 fullShare (k0_pay2 i pos (tabRows i tab) acc)
            ∗ owns (c : Thread nD τ) arg6 fullShare s0
            ∗ owns (c : Thread nD τ) arg7 fullShare s1
            ∗ owns (c : Thread nD τ) arg8 fullShare s2
            ∗ owns (c : Thread nD τ) arg9 fullShare se
            ∗ owns (c : Thread nD τ) arg10 fullShare tw
            ∗ owns (c : Thread nD τ) arg11 fullShare (k0_pay4 (k0_pay2 i pos (tabRows i tab) acc) s0 s1 s2 tw)
            ∗ owns (c : Thread nD τ) arg12 fullShare (k0_pay5 (k0_pay2 i pos (tabRows i tab) acc) se tw)) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, ⟨%f4, %hf4, H4⟩, ⟨%f5, %hf5, H5⟩, ⟨%f13, %hf13, H13⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5; obtain rfl := harg13.eq_unread hf13; obtain rfl := harg6.eq_unread hf6; obtain rfl := harg7.eq_unread hf7; obtain rfl := harg8.eq_unread hf8; obtain rfl := harg9.eq_unread hf9; obtain rfl := harg10.eq_unread hf10
  sl_exec (disch := first | sl_exact hz | sl_exact hl | sl_exact hw)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H13]
  · iexists _; isplitr; swap; · iexact H13
    ipureintro
    sl_unfold_run_names
    rw [read_writes_unit_whole (s := S8x600x192) _ _ _ _ z3,
      readAt_unit_whole_unread harg4 pos _ _ z2,
      tabRows_eq i arg5 harg5 tab,
      readAt_unit_whole_unread harg13 acc _ _ z3]
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    sl_unfold_run_names
    rw [read_writes_unit_whole (s := S8x48) _ _ _ _ z2,
      View.readCov_cons_toLoadRect,
      readAt_unit_whole_unread harg4 pos _ _ z2,
      tabRows_eq i arg5 harg5 tab,
      readAt_unit_whole_unread harg13 acc _ _ z3,
      readAt_unit_whole_unread harg6 s0 _ _ z2,
      readAt_unit_whole_unread harg7 s1 _ _ z2,
      readAt_unit_whole_unread harg8 s2 _ _ z2,
      readAt_unit_whole_unread harg10 tw _ _ z2]
  · iexists _; isplitr; swap; · iexact H12
    ipureintro
    sl_unfold_run_names
    rw [read_writes_unit_whole (s := S8x48) _ _ _ _ z2,
      View.readCov_cons_toLoadRect,
      readAt_unit_whole_unread harg4 pos _ _ z2,
      tabRows_eq i arg5 harg5 tab,
      readAt_unit_whole_unread harg13 acc _ _ z3,
      readAt_unit_whole_unread harg9 se _ _ z2,
      readAt_unit_whole_unread harg10 tw _ _ z2]

end Cert.KernelIdeal.Hand

end
-- ==== Proof.Region0.Dat.lean ====
import proofs.«103908_j25280177504693_2_alg».proof.Proof.Region0.Runs

set_option maxRecDepth 16384

/-! # Region 0: the proof data

What each window's staging buffer and the accumulator hold after each grid point, through the skeleton's payloads,
and the region's invariant. The accumulator's contents are defined by recursion on the point and never mention what
the scratch held when the region was entered: every k-tile's first chunk resets it. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a0 : (pcfg0 (F := F)).Adm)

/-! ## The tables, the scratch, the staging memrefs -/

/-- The two prefetched tables as the body is handed them: whole scalar-memory buffers. -/
abbrev tbLo : Memref sig .tc .smem S128 .i32 := Memref.whole main_v43
abbrev tbHi : Memref sig .tc .smem S128 .i32 := Memref.whole main_v47
/-- Their admissible contents. -/
abbrev loOf : Vec F S128 .i32 := a0.1 0
abbrev hiOf : Vec F S128 .i32 := a0.1 1
/-- The accumulator the kernel carries across the chunks of one k-tile: a whole scoped buffer. -/
abbrev scM : Memref sig .tc .vmem S8x600x192 .f32 := Memref.whole cc0_scratch0

/-- Each window's current staging memref at point `t`, as the pipeline passes it to the body. -/
abbrev ms0 (t : Fin (cfg0 a0).N) := spec0_0.stage ((cfg0 a0).slots t 0)
abbrev ms1 (t : Fin (cfg0 a0).N) := spec0_1.stage ((cfg0 a0).slots t 1)
abbrev ms2 (t : Fin (cfg0 a0).N) := spec0_2.stage ((cfg0 a0).slots t 2)
abbrev ms3 (t : Fin (cfg0 a0).N) := spec0_3.stage ((cfg0 a0).slots t 3)
abbrev ms4 (t : Fin (cfg0 a0).N) := spec0_4.stage ((cfg0 a0).slots t 4)
abbrev ms5 (t : Fin (cfg0 a0).N) := spec0_5.stage ((cfg0 a0).slots t 5)
abbrev ms6 (t : Fin (cfg0 a0).N) := spec0_6.stage ((cfg0 a0).slots t 6)
abbrev ms7 (t : Fin (cfg0 a0).N) := spec0_7.stage ((cfg0 a0).slots t 7)
abbrev ms8 (t : Fin (cfg0 a0).N) := spec0_8.stage ((cfg0 a0).slots t 8)

/-- The body at point `t`, on what the pipeline calls it with. -/
abbrev bodyAt (t : Fin (cfg0 a0).N) : Prog (TpuEff nD τ sig (Elt F) Λ₀ .tc) PUnit :=
  cc0_interp_kernel (grid0.coords t) tbLo (Memref.isWhole_whole _) tbHi (Memref.isWhole_whole _)
    (ms0 a0 t) (hstage0_0 (((cfg0 a0).slots t 0).cast nbuf0_0)) (ms1 a0 t) (hstage0_1 (((cfg0 a0).slots t 1).cast nbuf0_1))
    (ms2 a0 t) (hstage0_2 (((cfg0 a0).slots t 2).cast nbuf0_2)) (ms3 a0 t) (hstage0_3 (((cfg0 a0).slots t 3).cast nbuf0_3))
    (ms4 a0 t) (hstage0_4 (((cfg0 a0).slots t 4).cast nbuf0_4)) (ms5 a0 t) (hstage0_5 (((cfg0 a0).slots t 5).cast nbuf0_5))
    (ms6 a0 t) (hstage0_6 (((cfg0 a0).slots t 6).cast nbuf0_6)) (ms7 a0 t) (hstage0_7 (((cfg0 a0).slots t 7).cast nbuf0_7))
    (ms8 a0 t) (hstage0_8 (((cfg0 a0).slots t 8).cast nbuf0_8)) scM (Memref.isWhole_whole _)

/-! ## The windows' blocks -/

/-- Window `w`'s block at point `t`, read off its array as the region finds it (`V`). -/
def iblk (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-! ## What the accumulator holds after each point -/

/-- The point of position `n` (positions past the grid wrap: none is ever asked). -/
def pt (n : ℕ) : Fin (cfg0 a0).N := ⟨n % grid0.N, Nat.mod_lt _ (by decide)⟩

theorem pt_val (t : Fin (cfg0 a0).N) : pt a0 t.val = t := Fin.ext (Nat.mod_eq_of_lt t.isLt)

/-- The range condition at point `t`, over the words the tables hold at the k-tile's cell. -/
abbrev inRange (t : Fin (cfg0 a0).N) : Prop :=
  condW (grid0.coords t) (wordOf (grid0.coords t) (loOf a0)) (wordOf (grid0.coords t) (hiOf a0))

/-- One point's update of the accumulator: the chunk's contribution added when the chunk is in range. -/
def upd (c : Dev nD) (t : Fin (cfg0 a0).N) (base : Vec F S8x600x192 .f32) : Vec F S8x600x192 .f32 :=
  if inRange a0 t then k0_pay2 (grid0.coords t) (iblk V a0 c 0 t) (tabRows (grid0.coords t) (iblk V a0 c 1 t)) base else base

/-- THE ACCUMULATION, by recursion on the position: at a first chunk zeros, at a later chunk what the point before
    left, then the point's update. It never mentions what the scratch held when the region was entered. -/
def accN (c : Dev nD) : ℕ → Vec F S8x600x192 .f32
  | 0 => upd V a0 c (pt a0 0) (k0_pay1 (F := F))
  | n + 1 => upd V a0 c (pt a0 (n + 1)) (if condZ (grid0.coords (pt a0 (n + 1))) then k0_pay1 (F := F) else accN c n)

/-- What the accumulator holds after point `t`. -/
abbrev accAfter (c : Dev nD) (t : Fin (cfg0 a0).N) : Vec F S8x600x192 .f32 := accN V a0 c t.val

theorem upd_T (c : Dev nD) (t : Fin (cfg0 a0).N) (base) (h : inRange a0 t) :
    upd V a0 c t base = k0_pay2 (grid0.coords t) (iblk V a0 c 0 t) (tabRows (grid0.coords t) (iblk V a0 c 1 t)) base := by
  unfold upd; rw [if_pos h]
theorem upd_F (c : Dev nD) (t : Fin (cfg0 a0).N) (base) (h : ¬inRange a0 t) : upd V a0 c t base = base := by
  unfold upd; rw [if_neg h]

/-- At a first chunk the accumulation restarts from zeros. -/
theorem accAfter_Z (c : Dev nD) (t : Fin (cfg0 a0).N) (hz : condZ (grid0.coords t)) :
    accAfter V a0 c t = upd V a0 c t (k0_pay1 (F := F)) := by
  obtain ⟨n, hn⟩ := t
  cases n with
  | zero => show upd V a0 c (pt a0 0) _ = _; rw [show pt a0 0 = ⟨0, hn⟩ from pt_val a0 ⟨0, hn⟩]
  | succ n =>
    show upd V a0 c (pt a0 (n + 1)) _ = _
    rw [show pt a0 (n + 1) = ⟨n + 1, hn⟩ from pt_val a0 ⟨n + 1, hn⟩, if_pos hz]

/-- At a later chunk it continues from what the point before left. -/
theorem accAfter_N (c : Dev nD) (t : Fin (cfg0 a0).N) (hz : ¬condZ (grid0.coords t)) (ht : t.val ≠ 0) :
    accAfter V a0 c t = upd V a0 c t (accN V a0 c (t.val - 1)) := by
  obtain ⟨n, hn⟩ := t
  cases n with
  | zero => exact absurd rfl ht
  | succ n =>
    show upd V a0 c (pt a0 (n + 1)) _ = _
    rw [show pt a0 (n + 1) = ⟨n + 1, hn⟩ from pt_val a0 ⟨n + 1, hn⟩, if_neg hz]; rfl

/-- The first point of the grid is a first chunk. -/
theorem condZ_of_zero (t : Fin (cfg0 a0).N) (ht : t.val = 0) : condZ (grid0.coords t) := by
  obtain ⟨n, hn⟩ := t; subst ht
  exact (by decide : ∀ h : 0 < grid0.N, condZ (grid0.coords ⟨0, h⟩)) hn

/-- A first chunk is not the last (there are 79 chunks). -/
theorem not_condL_of_condZ (i : grid0.Coords) (hz : condZ i) : ¬condL i :=
  (by decide : ∀ n : Fin 79, (Scalar.cmpi .ne (Scalar.extui (Scalar.cmpi .eq (BitVec.ofNat 32 n.val) 0#32)) 0#32) = 1#1 →
    ¬(Scalar.cmpi .ne (Scalar.extui (Scalar.cmpi .eq (BitVec.ofNat 32 n.val) 78#32)) 0#32) = 1#1) (i 1) hz

/-! ## The invariant -/

/-- The second region's staging buffers, which this region never touches: each whole at some contents. -/
abbrev rest4 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f))

/-- The two tables held at their admissible contents, as memrefs the body loads words from. -/
abbrev tables (c : Dev nD) : sProp 𝕄 :=
  iprop(owns (c : Thread nD τ) tbLo fullShare (loOf a0) ∗ owns (c : Thread nD τ) tbHi fullShare (hiOf a0))

/-- The tables as the region is handed them, one by one. -/
theorem prefHeld_eq (c : Dev nD) :
    (Pipeline.prefHeld (Ix := Unit) (Name := ℕ) (U := UR sig nD τ) (Lvl := ℕ) pre0 c (fun _ => fullShare) a0.1 : sProp 𝕄)
      = tables a0 c := by
  unfold Pipeline.prefHeld
  rw [show (Finset.univ : Finset (Fin 2)) = insert (0 : Fin 2) {(1 : Fin 2)} from by decide,
    bigSep_insert (by decide), bigSep_singleton]
  simp only [tables, tbLo, tbHi, owns_whole]
  rfl

/-- The accumulator's memref owned is its buffer's points-to. -/
theorem scM_owns (c : Dev nD) (x : Vec F S8x600x192 .f32) :
    (owns (c : Thread nD τ) scM fullShare x : sProp 𝕄) = (((c : Thread nD τ).loc cc0_scratch0) ↦{fullShare} x) := owns_whole _ _ _ _

/-- The invariant before position `n`: the generator register at some state, the tables at their contents, the
    accumulator — at the region's entry whatever the scoped buffers hold, afterwards what the point before left —
    and the scoped buffers the region does not use. -/
def PhiAt (c : Dev nD) : ℕ → sProp 𝕄
  | 0 => iprop((∃ r, prngReg c r) ∗ Pipeline.prefHeld (Ix := Unit) (Name := ℕ) (U := UR sig nD τ) (Lvl := ℕ) pre0 c (fun _ => fullShare) a0.1
      ∗ Pipeline.scopedRest (Ix := Unit) (Name := ℕ) (U := UR sig nD τ) (Lvl := ℕ) (Val := Elt F) spec0 c)
  | n + 1 => iprop((∃ r, prngReg c r) ∗ tables a0 c ∗ owns (c : Thread nD τ) scM fullShare (accN V a0 c n) ∗ rest4 c)

theorem PhiAt_pos (c : Dev nD) (n : ℕ) (hn : n ≠ 0) :
    PhiAt V a0 c n = iprop((∃ r, prngReg c r) ∗ tables a0 c ∗ owns (c : Thread nD τ) scM fullShare (accN V a0 c (n - 1)) ∗ rest4 c) := by
  cases n with
  | zero => exact absurd rfl hn
  | succ n => rfl

/-- At any position the invariant yields the accumulator at SOME contents: what a first chunk needs of it. -/
theorem PhiAt_any (c : Dev nD) (n : ℕ) :
    PhiAt V a0 c n ⊢ iprop((∃ r, prngReg c r) ∗ tables a0 c ∗ (∃ d, owns (c : Thread nD τ) scM fullShare d) ∗ rest4 c) := by
  cases n with
  | zero =>
    show iprop(_ ∗ _ ∗ _) ⊢ _
    rw [prefHeld_eq, scopedRest0_eq]
    simp only [scM_owns]
    iintro ⟨Hg, HT, ⟨%f, HS⟩, HR⟩
    isplitl [Hg]; · iexact Hg
    isplitl [HT]; · iexact HT
    isplitl [HS]; · iexists f; iexact HS
    iexact HR
  | succ n =>
    show iprop(_ ∗ _ ∗ _ ∗ _) ⊢ _
    iintro ⟨Hg, HT, HS, HR⟩
    isplitl [Hg]; · iexact Hg
    isplitl [HT]; · iexact HT
    isplitl [HS]; · iexists _; iexact HS
    iexact HR

/-! ## The proof data -/

/-- The proof data of region 0 on core `c`: the arrays as the region finds them; after the body at point `t` each
    input's buffer at its block, the two outputs' at what the last chunk computes from the accumulator (consulted
    only where the window is live: at the last chunk); the invariant `PhiAt`; nothing owed; full shares. -/
def dat0 (c : Dev nD) : Dat τ (Elt F) Unit ℕ (UR sig nD τ) ℕ (cfg0 a0) c where
  A w := V c (Pipeline.arrRef spec0 w)
  after w t := match w with
    | ⟨0, _⟩ => iblk V a0 c 0 t
    | ⟨1, _⟩ => iblk V a0 c 1 t
    | ⟨2, _⟩ => iblk V a0 c 2 t
    | ⟨3, _⟩ => iblk V a0 c 3 t
    | ⟨4, _⟩ => iblk V a0 c 4 t
    | ⟨5, _⟩ => iblk V a0 c 5 t
    | ⟨6, _⟩ => iblk V a0 c 6 t
    | ⟨7, _⟩ => k0_pay4 (accAfter V a0 c t) (iblk V a0 c 2 t) (iblk V a0 c 3 t) (iblk V a0 c 4 t) (iblk V a0 c 6 t)
    | ⟨8, _⟩ => k0_pay5 (accAfter V a0 c t) (iblk V a0 c 5 t) (iblk V a0 c 6 t)
  Φ t := PhiAt V a0 c t.val
  q _ := fullShare
  owed _ := 0

theorem A_eq0 (c : Dev nD) (w : Fin (cfg0 a0).W) : (dat0 V a0 c).A w = V c (Pipeline.arrRef spec0 w) := by
  dsimp only [dat0]

theorem after_0 (c : Dev nD) (t) : (dat0 V a0 c).after 0 t = iblk V a0 c 0 t := rfl
theorem after_1 (c : Dev nD) (t) : (dat0 V a0 c).after 1 t = iblk V a0 c 1 t := rfl
theorem after_2 (c : Dev nD) (t) : (dat0 V a0 c).after 2 t = iblk V a0 c 2 t := rfl
theorem after_3 (c : Dev nD) (t) : (dat0 V a0 c).after 3 t = iblk V a0 c 3 t := rfl
theorem after_4 (c : Dev nD) (t) : (dat0 V a0 c).after 4 t = iblk V a0 c 4 t := rfl
theorem after_5 (c : Dev nD) (t) : (dat0 V a0 c).after 5 t = iblk V a0 c 5 t := rfl
theorem after_6 (c : Dev nD) (t) : (dat0 V a0 c).after 6 t = iblk V a0 c 6 t := rfl
theorem after_7 (c : Dev nD) (t) : (dat0 V a0 c).after 7 t
    = k0_pay4 (accAfter V a0 c t) (iblk V a0 c 2 t) (iblk V a0 c 3 t) (iblk V a0 c 4 t) (iblk V a0 c 6 t) := rfl
theorem after_8 (c : Dev nD) (t) : (dat0 V a0 c).after 8 t
    = k0_pay5 (accAfter V a0 c t) (iblk V a0 c 5 t) (iblk V a0 c 6 t) := rfl

/-- An input window's array is never written back: after the region it holds what the region found. -/
theorem arrAt0_in (c : Dev nD) (w : Fin (cfg0 a0).W) (hw : w.val < 7) :
    (dat0 V a0 c).arrAt w (cfg0 a0).N = V c (Pipeline.arrRef spec0 w) := by
  have hin : ((cfg0 a0).win w).isOut = false :=
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨n + 7, _⟩, h => absurd h (Nat.not_lt.2 (Nat.le_add_left 7 n))
  exact ((dat0 V a0 c).arrAt_in w hin _).trans (A_eq0 V a0 c w)

end Cert.KernelIdeal.Hand

end
-- ==== Proof.Region0.Sched.lean ====
import proofs.«103908_j25280177504693_2_alg».proof.Proof.Region0.Dat

set_option maxRecDepth 16384

/-! # Region 0: the launch's two entailments, what the body finds in each window's buffer, where the outputs are idle

The inputs' buffers hold their blocks at every point. The two outputs are stored only at a k-tile's last chunk: at
the other points the configuration calls them idle, and there the pipeline writes nothing back, because the next
point is in the same k-tile. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a0 : (pcfg0 (F := F)).Adm)
/-- What the launch hands the region is the invariant before the first point. -/
theorem hin0 (c : Dev nD) :
    iprop((∃ r, prngReg c r) ∗ Pipeline.prefHeld (Ix := Unit) (Name := ℕ) (U := UR sig nD τ) (Lvl := ℕ) pre0 c (fun _ => fullShare) a0.1
      ∗ Pipeline.scopedRest (Ix := Unit) (Name := ℕ) (U := UR sig nD τ) (Lvl := ℕ) (Val := Elt F) spec0 c) ⊢ (dat0 V a0 c).Φ 0 :=
  Idealize.SL.BI.Entails.refl _

/-- After the last point the invariant gives the tables and the scoped buffers back, the accumulator's contents forgotten. -/
theorem hout0 (c : Dev nD) :
    (dat0 V a0 c).Φ (Fin.last _) ⊢ iprop(((∃ r, prngReg c r) ∗ Pipeline.prefHeld (Ix := Unit) (Name := ℕ) (U := UR sig nD τ) (Lvl := ℕ) pre0 c (fun _ => fullShare) a0.1)
      ∗ Pipeline.scopedRest (Ix := Unit) (Name := ℕ) (U := UR sig nD τ) (Lvl := ℕ) (Val := Elt F) spec0 c) := by
  show PhiAt V a0 c (Fin.last (cfg0 a0).N).val ⊢ _
  rw [Fin.val_last, PhiAt_pos V a0 c _ (show grid0.N ≠ 0 from by decide), prefHeld_eq, scopedRest0_eq]
  simp only [scM_owns]
  iintro ⟨Hg, HT, HS, HR⟩
  isplitl [Hg HT]
  · isplitl [Hg]; · iexact Hg
    iexact HT
  isplitl [HS]; · iexists _; iexact HS
  iexact HR

/-! ## What the body finds in each window's buffer -/

/-- Input window 0's current buffer holds its block at every point, fetched there or not: the window is never idle,
    never cut, and the body leaves the block in place. -/
theorem before_0 (c : Dev nD) (t : Fin (cfg0 a0).N) (d) : (dat0 V a0 c).before 0 t d = iblk V a0 c 0 t :=
  ((dat0 V a0 c).before_in_eq_fetched 0 rfl (fun _ => rfl) (fun _ _ _ => rfl)
    (fun t => by rw [after_0]; unfold Dat.blockOf iblk; rw [A_eq0]; try rfl) t d).trans
    (by unfold Dat.fetched Dat.blockOf iblk; rw [A_eq0]; try rfl)

/-- Input window 1's current buffer holds its block at every point, fetched there or not: the window is never idle,
    never cut, and the body leaves the block in place. -/
theorem before_1 (c : Dev nD) (t : Fin (cfg0 a0).N) (d) : (dat0 V a0 c).before 1 t d = iblk V a0 c 1 t :=
  ((dat0 V a0 c).before_in_eq_fetched 1 rfl (fun _ => rfl) (fun _ _ _ => rfl)
    (fun t => by rw [after_1]; unfold Dat.blockOf iblk; rw [A_eq0]; try rfl) t d).trans
    (by unfold Dat.fetched Dat.blockOf iblk; rw [A_eq0]; try rfl)

/-- Input window 2's current buffer holds its block at every point, fetched there or not: the window is never idle,
    never cut, and the body leaves the block in place. -/
theorem before_2 (c : Dev nD) (t : Fin (cfg0 a0).N) (d) : (dat0 V a0 c).before 2 t d = iblk V a0 c 2 t :=
  ((dat0 V a0 c).before_in_eq_fetched 2 rfl (fun _ => rfl) (fun _ _ _ => rfl)
    (fun t => by rw [after_2]; unfold Dat.blockOf iblk; rw [A_eq0]; try rfl) t d).trans
    (by unfold Dat.fetched Dat.blockOf iblk; rw [A_eq0]; try rfl)

/-- Input window 3's current buffer holds its block at every point, fetched there or not: the window is never idle,
    never cut, and the body leaves the block in place. -/
theorem before_3 (c : Dev nD) (t : Fin (cfg0 a0).N) (d) : (dat0 V a0 c).before 3 t d = iblk V a0 c 3 t :=
  ((dat0 V a0 c).before_in_eq_fetched 3 rfl (fun _ => rfl) (fun _ _ _ => rfl)
    (fun t => by rw [after_3]; unfold Dat.blockOf iblk; rw [A_eq0]; try rfl) t d).trans
    (by unfold Dat.fetched Dat.blockOf iblk; rw [A_eq0]; try rfl)

/-- Input window 4's current buffer holds its block at every point, fetched there or not: the window is never idle,
    never cut, and the body leaves the block in place. -/
theorem before_4 (c : Dev nD) (t : Fin (cfg0 a0).N) (d) : (dat0 V a0 c).before 4 t d = iblk V a0 c 4 t :=
  ((dat0 V a0 c).before_in_eq_fetched 4 rfl (fun _ => rfl) (fun _ _ _ => rfl)
    (fun t => by rw [after_4]; unfold Dat.blockOf iblk; rw [A_eq0]; try rfl) t d).trans
    (by unfold Dat.fetched Dat.blockOf iblk; rw [A_eq0]; try rfl)

/-- Input window 5's current buffer holds its block at every point, fetched there or not: the window is never idle,
    never cut, and the body leaves the block in place. -/
theorem before_5 (c : Dev nD) (t : Fin (cfg0 a0).N) (d) : (dat0 V a0 c).before 5 t d = iblk V a0 c 5 t :=
  ((dat0 V a0 c).before_in_eq_fetched 5 rfl (fun _ => rfl) (fun _ _ _ => rfl)
    (fun t => by rw [after_5]; unfold Dat.blockOf iblk; rw [A_eq0]; try rfl) t d).trans
    (by unfold Dat.fetched Dat.blockOf iblk; rw [A_eq0]; try rfl)

/-- Input window 6's current buffer holds its block at every point, fetched there or not: the window is never idle,
    never cut, and the body leaves the block in place. -/
theorem before_6 (c : Dev nD) (t : Fin (cfg0 a0).N) (d) : (dat0 V a0 c).before 6 t d = iblk V a0 c 6 t :=
  ((dat0 V a0 c).before_in_eq_fetched 6 rfl (fun _ => rfl) (fun _ _ _ => rfl)
    (fun t => by rw [after_6]; unfold Dat.blockOf iblk; rw [A_eq0]; try rfl) t d).trans
    (by unfold Dat.fetched Dat.blockOf iblk; rw [A_eq0]; try rfl)

/-! ## Where the two outputs are idle, and written back -/

theorem idle_of (w : Fin 9) (hw : w = 7 ∨ w = 8) (i : grid0.Coords) (hl : ¬condL i) : (cfg0 a0).idle w i = true := by
  have h : (k0_cond3 i == 1#1) = false := beq_false_of_ne hl
  rcases hw with rfl | rfl <;> (show (!(k0_cond3 i == 1#1)) = true; rw [h]; rfl)

theorem live_of (w : Fin 9) (hw : w = 7 ∨ w = 8) (i : grid0.Coords) (hl : condL i) : (cfg0 a0).idle w i = false := by
  have h : (k0_cond3 i == 1#1) = true := beq_iff_eq.mpr hl
  rcases hw with rfl | rfl <;> (show (!(k0_cond3 i == 1#1)) = false; rw [h]; rfl)

/-- Away from the last chunk the next point is in the same k-tile, so an output's block index does not move and
    the pipeline writes nothing back. -/
theorem noFlush_7 (t : Fin (cfg0 a0).N) (hl : ¬condL (grid0.coords t)) : ((cfg0 a0).win 7).flush t = false :=
  (by decide +kernel : ∀ t : Fin grid0.N, ¬condL (grid0.coords t) → Pipeline.Window.flushOf grid0 true cc0_transform_7 t = false) t hl
theorem noFlush_8 (t : Fin (cfg0 a0).N) (hl : ¬condL (grid0.coords t)) : ((cfg0 a0).win 8).flush t = false :=
  (by decide +kernel : ∀ t : Fin grid0.N, ¬condL (grid0.coords t) → Pipeline.Window.flushOf grid0 true cc0_transform_8 t = false) t hl

/-! ## The body obligation, at a generic point -/

/-- An input window's buffer is handed back at its block (the window is never idle). -/
theorem leaves_in_0 (c : Dev nD) (t : Fin (cfg0 a0).N) :
    (dat0 V a0 c).leavesExact 0 t = owns (c : Thread nD τ) (ms0 a0 t) fullShare (iblk V a0 c 0 t) := rfl
theorem leaves_in_1 (c : Dev nD) (t : Fin (cfg0 a0).N) :
    (dat0 V a0 c).leavesExact 1 t = owns (c : Thread nD τ) (ms1 a0 t) fullShare (iblk V a0 c 1 t) := rfl
theorem leaves_in_2 (c : Dev nD) (t : Fin (cfg0 a0).N) :
    (dat0 V a0 c).leavesExact 2 t = owns (c : Thread nD τ) (ms2 a0 t) fullShare (iblk V a0 c 2 t) := rfl
theorem leaves_in_3 (c : Dev nD) (t : Fin (cfg0 a0).N) :
    (dat0 V a0 c).leavesExact 3 t = owns (c : Thread nD τ) (ms3 a0 t) fullShare (iblk V a0 c 3 t) := rfl
theorem leaves_in_4 (c : Dev nD) (t : Fin (cfg0 a0).N) :
    (dat0 V a0 c).leavesExact 4 t = owns (c : Thread nD τ) (ms4 a0 t) fullShare (iblk V a0 c 4 t) := rfl
theorem leaves_in_5 (c : Dev nD) (t : Fin (cfg0 a0).N) :
    (dat0 V a0 c).leavesExact 5 t = owns (c : Thread nD τ) (ms5 a0 t) fullShare (iblk V a0 c 5 t) := rfl
theorem leaves_in_6 (c : Dev nD) (t : Fin (cfg0 a0).N) :
    (dat0 V a0 c).leavesExact 6 t = owns (c : Thread nD τ) (ms6 a0 t) fullShare (iblk V a0 c 6 t) := rfl

/-- At a point live for a window its buffer is handed back at what the body stored. -/
theorem leavesExact_live {cfg : Pipeline.Cfg sig Λ₀} {c : Dev nD} (dat : Dat τ (Elt F) Unit ℕ (UR sig nD τ) ℕ cfg c)
    (w : Fin cfg.W) (t : Fin cfg.N) (h : cfg.idle w (cfg.grid.coords t) = false) :
    dat.leavesExact w t = owns (c : Thread nD τ) ((cfg.win w).stage (cfg.slots t w)) fullShare (dat.after w t) := by
  unfold Dat.leavesExact; rw [h]

/-- At the last chunk an output window is live: its buffer is handed back at what the body stored. -/
theorem leaves_out_7 (c : Dev nD) (t : Fin (cfg0 a0).N) (hl : condL (grid0.coords t)) :
    (dat0 V a0 c).leavesExact 7 t = owns (c : Thread nD τ) (ms7 a0 t) fullShare
      (k0_pay4 (accAfter V a0 c t) (iblk V a0 c 2 t) (iblk V a0 c 3 t) (iblk V a0 c 4 t) (iblk V a0 c 6 t)) :=
  leavesExact_live (dat0 V a0 c) 7 t (live_of a0 7 (.inl rfl) _ hl)
theorem leaves_out_8 (c : Dev nD) (t : Fin (cfg0 a0).N) (hl : condL (grid0.coords t)) :
    (dat0 V a0 c).leavesExact 8 t = owns (c : Thread nD τ) (ms8 a0 t) fullShare
      (k0_pay5 (accAfter V a0 c t) (iblk V a0 c 5 t) (iblk V a0 c 6 t)) :=
  leavesExact_live (dat0 V a0 c) 8 t (live_of a0 8 (.inr rfl) _ hl)

/-- The invariant at a point's start and end, restated at the position. -/
theorem Phi_castSucc (c : Dev nD) (t : Fin (cfg0 a0).N) : (dat0 V a0 c).Φ t.castSucc = PhiAt V a0 c t.val := by
  dsimp only [dat0]; simp only [Fin.coe_castSucc]
theorem Phi_succ (c : Dev nD) (t : Fin (cfg0 a0).N) :
    (dat0 V a0 c).Φ t.succ = iprop((∃ r, prngReg c r) ∗ tables a0 c ∗ owns (c : Thread nD τ) scM fullShare (accAfter V a0 c t) ∗ rest4 c) := by
  dsimp only [dat0]; simp only [Fin.val_succ]; rfl

/-- What the body is called with at point `t` (the body obligation's precondition, the windows one by one), -/
def bodyPre (c : Dev nD) (t : Fin (cfg0 a0).N) : sProp 𝕄 :=
  iprop((dat0 V a0 c).Φ t.castSucc ∗ (dat0 V a0 c).owesAt () t.castSucc
    ∗ (∃ d, owns (c : Thread nD τ) (ms0 a0 t) fullShare ((dat0 V a0 c).before 0 t d))
    ∗ (∃ d, owns (c : Thread nD τ) (ms1 a0 t) fullShare ((dat0 V a0 c).before 1 t d))
    ∗ (∃ d, owns (c : Thread nD τ) (ms2 a0 t) fullShare ((dat0 V a0 c).before 2 t d))
    ∗ (∃ d, owns (c : Thread nD τ) (ms3 a0 t) fullShare ((dat0 V a0 c).before 3 t d))
    ∗ (∃ d, owns (c : Thread nD τ) (ms4 a0 t) fullShare ((dat0 V a0 c).before 4 t d))
    ∗ (∃ d, owns (c : Thread nD τ) (ms5 a0 t) fullShare ((dat0 V a0 c).before 5 t d))
    ∗ (∃ d, owns (c : Thread nD τ) (ms6 a0 t) fullShare ((dat0 V a0 c).before 6 t d))
    ∗ (∃ d, owns (c : Thread nD τ) (ms7 a0 t) fullShare ((dat0 V a0 c).before 7 t d))
    ∗ (∃ d, owns (c : Thread nD τ) (ms8 a0 t) fullShare ((dat0 V a0 c).before 8 t d)))

/-- and what it returns. -/
def bodyPost (c : Dev nD) (t : Fin (cfg0 a0).N) : sProp 𝕄 :=
  iprop((dat0 V a0 c).Φ t.succ ∗ (dat0 V a0 c).owesAt () t.succ
    ∗ (dat0 V a0 c).leavesExact 0 t
    ∗ (dat0 V a0 c).leavesExact 1 t
    ∗ (dat0 V a0 c).leavesExact 2 t
    ∗ (dat0 V a0 c).leavesExact 3 t
    ∗ (dat0 V a0 c).leavesExact 4 t
    ∗ (dat0 V a0 c).leavesExact 5 t
    ∗ (dat0 V a0 c).leavesExact 6 t
    ∗ (dat0 V a0 c).leavesExact 7 t
    ∗ (dat0 V a0 c).leavesExact 8 t)

end Cert.KernelIdeal.Hand

end
-- ==== Proof.Region0.lean ====
import proofs.«103908_j25280177504693_2_alg».proof.Proof.Region0.Sched

set_option maxRecDepth 16384

/-! # Region 0: the body obligation

At every grid point the body, called on the windows' current buffers, the two tables and the accumulator, runs from
the invariant before the point to the invariant after it. Six cases: the chunk coordinate is zero, the last, or
neither (a function of the point), and the chunk is or is not between the two words the tables hold at the k-tile's
cell (a function of the tables' admissible contents, never evaluated). -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a0 : (pcfg0 (F := F)).Adm)

set_option maxHeartbeats 2000000 in
/-- The body obligation at a point of the case: a first chunk, out of range. The invariant hands the run the tables and the accumulator, the windows' buffers hold their blocks; what the run leaves is what the proof data say. -/
theorem sound_Z_F (c : Dev nD) (t : Fin (cfg0 a0).N) (hz : condZ (grid0.coords t)) (hw : ¬inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have hl : ¬condL (grid0.coords t) := not_condL_of_condZ _ hz
  rewrite [Dat.leavesExact_idle (dat0 V a0 c) 7 t (idle_of a0 7 (.inl rfl) _ hl) (noFlush_7 a0 t hl),
    Dat.leavesExact_idle (dat0 V a0 c) 8 t (idle_of a0 8 (.inr rfl) _ hl) (noFlush_8 a0 t hl),
    accAfter_Z V a0 c t hz, upd_F V a0 c t _ hw]
  iintro ⟨HΦ, Ho, ⟨%d0, H0⟩, ⟨%d1, H1⟩, ⟨%d2, H2⟩, ⟨%d3, H3⟩, ⟨%d4, H4⟩, ⟨%d5, H5⟩, ⟨%d6, H6⟩, H7, H8⟩
  ihave HΦ' := (PhiAt_any V a0 c t.val) $$ HΦ
  icases HΦ' with ⟨Hg, ⟨HLo, HHi⟩, HS, HR⟩
  iapply (run_Z_F c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) hz hl hw Set.univ _)
  isplitl [HLo]; · iexact HLo
  isplitl [HHi]; · iexact HHi
  isplitl [HS]; · iexact HS
  iintro ⟨HLo, HHi, HS⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body obligation at a point of the case: a first chunk, in range. The invariant hands the run the tables and the accumulator, the windows' buffers hold their blocks; what the run leaves is what the proof data say. -/
theorem sound_Z_T (c : Dev nD) (t : Fin (cfg0 a0).N) (hz : condZ (grid0.coords t)) (hw : inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have hl : ¬condL (grid0.coords t) := not_condL_of_condZ _ hz
  rewrite [Dat.leavesExact_idle (dat0 V a0 c) 7 t (idle_of a0 7 (.inl rfl) _ hl) (noFlush_7 a0 t hl),
    Dat.leavesExact_idle (dat0 V a0 c) 8 t (idle_of a0 8 (.inr rfl) _ hl) (noFlush_8 a0 t hl),
    accAfter_Z V a0 c t hz, upd_T V a0 c t _ hw]
  iintro ⟨HΦ, Ho, ⟨%d0, H0⟩, ⟨%d1, H1⟩, ⟨%d2, H2⟩, ⟨%d3, H3⟩, ⟨%d4, H4⟩, ⟨%d5, H5⟩, ⟨%d6, H6⟩, H7, H8⟩
  ihave HΦ' := (PhiAt_any V a0 c t.val) $$ HΦ
  icases HΦ' with ⟨Hg, ⟨HLo, HHi⟩, HS, HR⟩
  iapply (run_Z_T c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) (iblk V a0 c 0 t) (iblk V a0 c 1 t) hz hl hw Set.univ _)
  isplitl [HLo]; · iexact HLo
  isplitl [HHi]; · iexact HHi
  isplitl [H0]; · iexact H0
  isplitl [H1]; · iexact H1
  isplitl [HS]; · iexact HS
  iintro ⟨HLo, HHi, H0, H1, HS⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body obligation at a point of the case: a middle chunk, out of range. The invariant hands the run the tables, the windows' buffers hold their blocks; what the run leaves is what the proof data say. -/
theorem sound_M_F (c : Dev nD) (t : Fin (cfg0 a0).N) (hz : ¬condZ (grid0.coords t)) (hl : ¬condL (grid0.coords t)) (hw : ¬inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have ht : t.val ≠ 0 := fun h => hz (condZ_of_zero a0 t h)
  rewrite [PhiAt_pos V a0 c t.val ht,
    Dat.leavesExact_idle (dat0 V a0 c) 7 t (idle_of a0 7 (.inl rfl) _ hl) (noFlush_7 a0 t hl),
    Dat.leavesExact_idle (dat0 V a0 c) 8 t (idle_of a0 8 (.inr rfl) _ hl) (noFlush_8 a0 t hl),
    accAfter_N V a0 c t hz ht, upd_F V a0 c t _ hw]
  iintro ⟨⟨Hg, ⟨HLo, HHi⟩, HS, HR⟩, Ho, ⟨%d0, H0⟩, ⟨%d1, H1⟩, ⟨%d2, H2⟩, ⟨%d3, H3⟩, ⟨%d4, H4⟩, ⟨%d5, H5⟩, ⟨%d6, H6⟩, H7, H8⟩
  iapply (run_M_F c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) hz hl hw Set.univ _)
  isplitl [HLo]; · iexact HLo
  isplitl [HHi]; · iexact HHi
  iintro ⟨HLo, HHi⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body obligation at a point of the case: a middle chunk, in range. The invariant hands the run the tables and the accumulator, the windows' buffers hold their blocks; what the run leaves is what the proof data say. -/
theorem sound_M_T (c : Dev nD) (t : Fin (cfg0 a0).N) (hz : ¬condZ (grid0.coords t)) (hl : ¬condL (grid0.coords t)) (hw : inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have ht : t.val ≠ 0 := fun h => hz (condZ_of_zero a0 t h)
  rewrite [PhiAt_pos V a0 c t.val ht,
    Dat.leavesExact_idle (dat0 V a0 c) 7 t (idle_of a0 7 (.inl rfl) _ hl) (noFlush_7 a0 t hl),
    Dat.leavesExact_idle (dat0 V a0 c) 8 t (idle_of a0 8 (.inr rfl) _ hl) (noFlush_8 a0 t hl),
    accAfter_N V a0 c t hz ht, upd_T V a0 c t _ hw]
  iintro ⟨⟨Hg, ⟨HLo, HHi⟩, HS, HR⟩, Ho, ⟨%d0, H0⟩, ⟨%d1, H1⟩, ⟨%d2, H2⟩, ⟨%d3, H3⟩, ⟨%d4, H4⟩, ⟨%d5, H5⟩, ⟨%d6, H6⟩, H7, H8⟩
  iapply (run_M_T c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) (iblk V a0 c 0 t) (iblk V a0 c 1 t) (accN V a0 c (t.val - 1)) hz hl hw Set.univ _)
  isplitl [HLo]; · iexact HLo
  isplitl [HHi]; · iexact HHi
  isplitl [H0]; · iexact H0
  isplitl [H1]; · iexact H1
  isplitl [HS]; · iexact HS
  iintro ⟨HLo, HHi, H0, H1, HS⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body obligation at a point of the case: a last chunk, out of range. The invariant hands the run the tables and the accumulator, the windows' buffers hold their blocks, the two outputs' buffers are handed over at anything; what the run leaves is what the proof data say. -/
theorem sound_L_F (c : Dev nD) (t : Fin (cfg0 a0).N) (hz : ¬condZ (grid0.coords t)) (hl : condL (grid0.coords t)) (hw : ¬inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have ht : t.val ≠ 0 := fun h => hz (condZ_of_zero a0 t h)
  rewrite [PhiAt_pos V a0 c t.val ht, leaves_out_7 V a0 c t hl, leaves_out_8 V a0 c t hl, accAfter_N V a0 c t hz ht, upd_F V a0 c t _ hw]
  iintro ⟨⟨Hg, ⟨HLo, HHi⟩, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_L_F c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) (accN V a0 c (t.val - 1)) (iblk V a0 c 2 t) (iblk V a0 c 3 t) (iblk V a0 c 4 t) (iblk V a0 c 5 t) (iblk V a0 c 6 t) hz hl hw Set.univ _)
  isplitl [HLo]; · iexact HLo
  isplitl [HHi]; · iexact HHi
  isplitl [HS]; · iexact HS
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨HLo, HHi, HS, H2, H3, H4, H5, H6, H7, H8⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body obligation at a point of the case: a last chunk, in range. The invariant hands the run the tables and the accumulator, the windows' buffers hold their blocks, the two outputs' buffers are handed over at anything; what the run leaves is what the proof data say. -/
theorem sound_L_T (c : Dev nD) (t : Fin (cfg0 a0).N) (hz : ¬condZ (grid0.coords t)) (hl : condL (grid0.coords t)) (hw : inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have ht : t.val ≠ 0 := fun h => hz (condZ_of_zero a0 t h)
  rewrite [PhiAt_pos V a0 c t.val ht, leaves_out_7 V a0 c t hl, leaves_out_8 V a0 c t hl, accAfter_N V a0 c t hz ht, upd_T V a0 c t _ hw]
  iintro ⟨⟨Hg, ⟨HLo, HHi⟩, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_L_T c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) (iblk V a0 c 0 t) (iblk V a0 c 1 t) (accN V a0 c (t.val - 1)) (iblk V a0 c 2 t) (iblk V a0 c 3 t) (iblk V a0 c 4 t) (iblk V a0 c 5 t) (iblk V a0 c 6 t) hz hl hw Set.univ _)
  isplitl [HLo]; · iexact HLo
  isplitl [HHi]; · iexact HHi
  isplitl [H0]; · iexact H0
  isplitl [H1]; · iexact H1
  isplitl [HS]; · iexact HS
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨HLo, HHi, H0, H1, HS, H2, H3, H4, H5, H6, H7, H8⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point: the grid coordinate says whether the chunk is the first, the last or neither, the
    tables' two words whether it is in range, and that case's run applies. -/
theorem sound_body (c : Dev nD) (t : Fin (cfg0 a0).N) :
    bodyPre V a0 c t ⊢ wp frame (wpE (defs₀ (F := F)) Variants.none c none) Set.univ (bodyAt a0 t) (fun _ => bodyPost V a0 c t) := by
  by_cases hz : condZ (grid0.coords t)
  · by_cases hw : inRange a0 t
    · exact sound_Z_T V a0 c t hz hw
    · exact sound_Z_F V a0 c t hz hw
  · by_cases hl : condL (grid0.coords t)
    · by_cases hw : inRange a0 t
      · exact sound_L_T V a0 c t hz hl hw
      · exact sound_L_F V a0 c t hz hl hw
    · by_cases hw : inRange a0 t
      · exact sound_M_T V a0 c t hz hl hw
      · exact sound_M_F V a0 c t hz hl hw

/-- The library's body obligation, at every point. -/
theorem body_obligation0 (c : Dev nD) : BodyObligation (dat0 V a0 c) (defs₀ (F := F)) Variants.none () Set.univ := fun t => by
  rw [bigSep_W0, bigSep_W0]
  exact sound_body V a0 c t

end Cert.KernelIdeal.Hand

end
-- ==== Proof.Frames.lean ====
/- The kernel program's run, assembled: the two tables the first call prefetches taken as the contents the host
   computed, the contents the two calls leave in their result buffers named as what their write-backs leave, each
   call's record (entry from and exit to "every unscoped buffer at the boundary's contents, the generator register at
   some state, nothing owed"), and the launch over @main's items: every argument ends as launched. -/
import proofs.«103908_j25280177504693_2_alg».proof.Proof.Gen.KernelIdeal.Regions
import proofs.«103908_j25280177504693_2_alg».proof.Proof.Region1
import proofs.«103908_j25280177504693_2_alg».proof.Proof.Region1Value
import proofs.«103908_j25280177504693_2_alg».proof.Proof.Region0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at the two calls' entries, and the tables -/

/-- What the first call is entered from: the launch memory after the sixteen host stretches before it. -/
abbrev Vr16 : (c : Dev nD) → (b : Ref sig .tc) → Buf (Elt F) ((c : Thread nD τ).loc b) := fun c b => V16 m c b

/-- The two chunk-bound tables as the host left them (one device: core 0's). -/
def adm0 : (pcfg0 (F := F)).Adm := ⟨fun k => Vr16 m 0 (pre0.ref k), trivial⟩

/-- Admissible tables for both calls: the first call's are the host's; the second has none. -/
def adm : (p : Fin 2) → (pcfgs (F := F) p).Adm
  | ⟨0, _⟩ => adm0 m
  | ⟨1, _⟩ => cfg1.toPCfg_adm

/-- What the first call's write-backs leave in its first result array (window 7), -/
def tl0 (c : Dev nD) : Buf (Elt F) ((c : Thread nD τ).loc main_v48_0) := (dat0 (Vr16 m) (adm0 m) c).arrAt 7 (cfg0 (adm0 m)).N
/-- and in its second (window 8). -/
def el0 (c : Dev nD) : Buf (Elt F) ((c : Thread nD τ).loc main_v48_1) := (dat0 (Vr16 m) (adm0 m) c).arrAt 8 (cfg0 (adm0 m)).N
theorem tl0_eq (c : Dev nD) : tl0 m c = (dat0 (Vr16 m) (adm0 m) c).arrAt 7 (cfg0 (adm0 m)).N := rfl
theorem el0_eq (c : Dev nD) : el0 m c = (dat0 (Vr16 m) (adm0 m) c).arrAt 8 (cfg0 (adm0 m)).N := rfl

/-- The buffers after the first call: its two result arrays at what the write-backs leave. -/
def W17 (c : Dev nD) : (b : Ref sig .tc) → Buf (Elt F) ((c : Thread nD τ).loc b) :=
  Function.update (Function.update (Vr16 m c) main_v48_0 (tl0 m c)) main_v48_1 (el0 m c)

/-- The unknowns of the generated valuations, first layer: the first call's results. -/
def outs17 : Outs (F := F) := fun _ r c => W17 m c r

/-- What the second call is entered from. -/
abbrev Vr20 : (c : Dev nD) → (b : Ref sig .tc) → Buf (Elt F) ((c : Thread nD τ).loc b) := fun c b => V20 m (outs17 m) c b

/-- Second layer: at item 21 the result buffer holds what the second call's write-back leaves (window 3). -/
def cl0 (c : Dev nD) : Buf (Elt F) ((c : Thread nD τ).loc main_v78) := (dat1 (Vr20 m) c).arrAt 3 cfg1.N
theorem cl0_eq (c : Dev nD) : cl0 m c = (dat1 (Vr20 m) c).arrAt 3 cfg1.N := rfl
def outsF : Outs (F := F) := fun j r c =>
  if j = 21 then Function.update (fun r => outs17 m j r c) main_v78 (cl0 m c) r else outs17 m j r c

/-- Away from item 21 the two layers agree. -/
theorem outsF_of_ne (j : ℕ) (hj : j ≠ 21) (r : Ref sig .tc) (c : Dev nD) : outsF m j r c = outs17 m j r c := if_neg hj
/-- At item 21 the result buffer holds the second call's write-back. -/
theorem outsF_21 (c : Dev nD) : outsF m 21 main_v78 c = cl0 m c := by
  unfold outsF; rw [if_pos rfl, Function.update_self]
theorem outs17_0 (j : ℕ) (c : Dev nD) : outs17 m j main_v48_0 c = tl0 m c := by
  unfold outs17 W17; rw [Function.update_of_ne (by decide), Function.update_self]
theorem outs17_1 (j : ℕ) (c : Dev nD) : outs17 m j main_v48_1 c = el0 m c := by
  unfold outs17 W17; rw [Function.update_self]
theorem V17_outsF (c : Dev nD) : V17 m (outsF m) c = V17 m (outs17 m) c := by
  unfold V17; rw [outsF_of_ne m 17 (by decide), outsF_of_ne m 17 (by decide)]
theorem V20_outsF (c : Dev nD) : V20 m (outsF m) c = V20 m (outs17 m) c := by
  unfold V20 V19 V18; rw [V17_outsF]

/-- Every call's proof data, each at its entry contents. -/
def pdats : (p : Fin 2) → (c : Dev nD) → Dat τ (Elt F) Unit ℕ (UR sig nD τ) ℕ (Pipeline.pin (pcfgs (F := F)) (adm m) p) c
  | ⟨0, _⟩ => fun c => dat0 (Vr16 m) (adm0 m) c
  | ⟨1, _⟩ => fun c => dat1 (Vr20 m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev Rst (c : Dev nD) : sProp 𝕄 := iprop((∃ r, prngReg c r) ∗ ∃ W, owes (c : Thread nD τ) (0 : CellTallies nD τ sig Unit) W)

/-! ## The second call's record -/

/-- After the second call the buffers hold, at each of its arrays, what the write-backs leave: the three operand
    arrays their entry contents (never written back), the result array the one block the point stores. -/
theorem hF1 (c : Dev nD) : ∀ w : Fin cfg1.W, (dat1 (Vr20 m) c).arrAt w cfg1.N = V21 m (outsF m) c (Pipeline.arrRef spec1 w)
  | ⟨0, _⟩ => show (dat1 (Vr20 m) c).arrAt 0 cfg1.N = V21 m (outsF m) c (Pipeline.arrRef spec1 0) from by
    rw [V21_of m (outsF m) c (Pipeline.arrRef spec1 0) (by decide), V20_outsF]; exact arrAt1_in (Vr20 m) c 0 (Or.inl rfl)
  | ⟨1, _⟩ => show (dat1 (Vr20 m) c).arrAt 1 cfg1.N = V21 m (outsF m) c (Pipeline.arrRef spec1 1) from by
    rw [V21_of m (outsF m) c (Pipeline.arrRef spec1 1) (by decide), V20_outsF]; exact arrAt1_in (Vr20 m) c 1 (Or.inr (Or.inl rfl))
  | ⟨2, _⟩ => show (dat1 (Vr20 m) c).arrAt 2 cfg1.N = V21 m (outsF m) c (Pipeline.arrRef spec1 2) from by
    rw [V21_of m (outsF m) c (Pipeline.arrRef spec1 2) (by decide), V20_outsF]; exact arrAt1_in (Vr20 m) c 2 (Or.inr (Or.inr rfl))
  | ⟨3, _⟩ => show cl0 m c = Function.update (V20 m (outsF m) c) (Proc.devRef .tc main_v78) (outsF m 21 main_v78 c) (Proc.devRef .tc main_v78) from by
    rw [Function.update_self, outsF_21]

/-- Off the second call's arrays nothing changes across it. -/
theorem hrest1 (c : Dev nD) : ∀ b, b ∉ Finset.univ.image (Pipeline.arrRef spec1) → V21 m (outsF m) c b = Vr20 m c b := fun b hb => by
  rw [V21_of m (outsF m) c b (fun h => hb (by
    rw [List.mem_singleton.mp h]; exact Finset.mem_image.mpr ⟨3, Finset.mem_univ _, rfl⟩)), V20_outsF]

set_option backward.isDefEq.respectTransparency.types false in
/-- The second call over the thread state: entered from every unscoped buffer at the contents before it, left at
    the contents after it; its arrays split out of the unscoped buffers and put back at the exit contents; the
    generator register into the invariant and out; nothing owed; no semaphore of the kernel's own. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (Vr20 m) c).loose
  hwaits := Pipeline.hwaits_of_owed_zero (pcfgs (F := F)) (adm m) (pdats m) () L lv 1 fun _ _ => rfl
  pre c := iprop(StableHlo.held (c : Thread nD τ) (Pipeline.ucRefs τ sig) (V20 m (outs17 m) c) ∗ Rst c)
  post c := iprop(StableHlo.held (c : Thread nD τ) (Pipeline.ucRefs τ sig) (V21 m (outsF m) c) ∗ Rst c)
  X c := iprop(∃ r, prngReg c r)
  Y c := iprop(∃ r, prngReg c r)
  Z c := Pipeline.unscopedRest (Ix := Unit) (Name := ℕ) (U := UR sig nD τ) (Lvl := ℕ) spec1 c (Vr20 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (Vr20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (Vr20 m c) (fun b => V21 m (outsF m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The first call's record -/

/-- After the first call the buffers hold, at each of its arrays, what the write-backs leave: the seven operand
    arrays their entry contents, the two result arrays what the points of each k-tile's last chunk store. -/
theorem hF0 (c : Dev nD) : ∀ w : Fin (cfg0 (adm0 m)).W,
    (dat0 (Vr16 m) (adm0 m) c).arrAt w (cfg0 (adm0 m)).N = V17 m (outs17 m) c (Pipeline.arrRef spec0 w)
  | ⟨0, _⟩ => show (dat0 (Vr16 m) (adm0 m) c).arrAt 0 (cfg0 (adm0 m)).N = V17 m (outs17 m) c (Pipeline.arrRef spec0 0) from by
    rw [V17_of m (outs17 m) c (Pipeline.arrRef spec0 0) (by decide)]; exact arrAt0_in (Vr16 m) (adm0 m) c 0 (show (0 : ℕ) < 7 from by decide)
  | ⟨1, _⟩ => show (dat0 (Vr16 m) (adm0 m) c).arrAt 1 (cfg0 (adm0 m)).N = V17 m (outs17 m) c (Pipeline.arrRef spec0 1) from by
    rw [V17_of m (outs17 m) c (Pipeline.arrRef spec0 1) (by decide)]; exact arrAt0_in (Vr16 m) (adm0 m) c 1 (show (1 : ℕ) < 7 from by decide)
  | ⟨2, _⟩ => show (dat0 (Vr16 m) (adm0 m) c).arrAt 2 (cfg0 (adm0 m)).N = V17 m (outs17 m) c (Pipeline.arrRef spec0 2) from by
    rw [V17_of m (outs17 m) c (Pipeline.arrRef spec0 2) (by decide)]; exact arrAt0_in (Vr16 m) (adm0 m) c 2 (show (2 : ℕ) < 7 from by decide)
  | ⟨3, _⟩ => show (dat0 (Vr16 m) (adm0 m) c).arrAt 3 (cfg0 (adm0 m)).N = V17 m (outs17 m) c (Pipeline.arrRef spec0 3) from by
    rw [V17_of m (outs17 m) c (Pipeline.arrRef spec0 3) (by decide)]; exact arrAt0_in (Vr16 m) (adm0 m) c 3 (show (3 : ℕ) < 7 from by decide)
  | ⟨4, _⟩ => show (dat0 (Vr16 m) (adm0 m) c).arrAt 4 (cfg0 (adm0 m)).N = V17 m (outs17 m) c (Pipeline.arrRef spec0 4) from by
    rw [V17_of m (outs17 m) c (Pipeline.arrRef spec0 4) (by decide)]; exact arrAt0_in (Vr16 m) (adm0 m) c 4 (show (4 : ℕ) < 7 from by decide)
  | ⟨5, _⟩ => show (dat0 (Vr16 m) (adm0 m) c).arrAt 5 (cfg0 (adm0 m)).N = V17 m (outs17 m) c (Pipeline.arrRef spec0 5) from by
    rw [V17_of m (outs17 m) c (Pipeline.arrRef spec0 5) (by decide)]; exact arrAt0_in (Vr16 m) (adm0 m) c 5 (show (5 : ℕ) < 7 from by decide)
  | ⟨6, _⟩ => show (dat0 (Vr16 m) (adm0 m) c).arrAt 6 (cfg0 (adm0 m)).N = V17 m (outs17 m) c (Pipeline.arrRef spec0 6) from by
    rw [V17_of m (outs17 m) c (Pipeline.arrRef spec0 6) (by decide)]; exact arrAt0_in (Vr16 m) (adm0 m) c 6 (show (6 : ℕ) < 7 from by decide)
  | ⟨7, _⟩ => show tl0 m c = Function.update (Function.update (V16 m c) (Proc.devRef .tc main_v48_0) (outs17 m 17 main_v48_0 c)) (Proc.devRef .tc main_v48_1) (outs17 m 17 main_v48_1 c) (Proc.devRef .tc main_v48_0) from by
    rw [Function.update_of_ne (by decide), Function.update_self, outs17_0]
  | ⟨8, _⟩ => show el0 m c = Function.update (Function.update (V16 m c) (Proc.devRef .tc main_v48_0) (outs17 m 17 main_v48_0 c)) (Proc.devRef .tc main_v48_1) (outs17 m 17 main_v48_1 c) (Proc.devRef .tc main_v48_1) from by
    rw [Function.update_self, outs17_1]

/-- Off the first call's arrays nothing changes across it. -/
theorem hrest0 (c : Dev nD) : ∀ b, b ∉ Finset.univ.image (Pipeline.arrRef spec0) → V17 m (outs17 m) c b = Vr16 m c b := fun b hb => by
  refine V17_of m (outs17 m) c b (fun h => hb ?_)
  rcases List.mem_cons.mp h with h | h
  · rw [h]; exact Finset.mem_image.mpr ⟨7, Finset.mem_univ _, rfl⟩
  · rw [List.mem_singleton.mp h]; exact Finset.mem_image.mpr ⟨8, Finset.mem_univ _, rfl⟩

/-- One device: the tables read at core 0 are the tables on every core. -/
theorem adm0_eq (c : Dev nD) : (fun k => Vr16 m c ((pcfgs (F := F) 0).pre.ref k)) = (adm m 0).1 := by
  obtain rfl : c = 0 := Subsingleton.elim _ _
  rfl

set_option backward.isDefEq.respectTransparency.types false in
/-- The first call over the thread state: entered from every unscoped buffer at the contents the host stretches
    left, left at those contents updated at its two result arrays. Its arrays and its two tables split out of the
    unscoped buffers; the tables and the generator register into the invariant and out; nothing owed; no semaphore of
    the kernel's own. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vr16 m) (adm0 m) c).loose
  hwaits := Pipeline.hwaits_of_owed_zero (pcfgs (F := F)) (adm m) (pdats m) () L lv 0 fun _ _ => rfl
  pre c := iprop(StableHlo.held (c : Thread nD τ) (Pipeline.ucRefs τ sig) (V16 m c) ∗ Rst c)
  post c := iprop(StableHlo.held (c : Thread nD τ) (Pipeline.ucRefs τ sig) (V17 m (outs17 m) c) ∗ Rst c)
  X c := iprop(∃ r, prngReg c r)
  Y c := iprop((∃ r, prngReg c r) ∗ Pipeline.prefHeld pre0 c (fun _ => fullShare) (adm0 m).1)
  Z c := Pipeline.unscopedRestP (Ix := Unit) (Name := ℕ) (U := UR sig nD τ) (Lvl := ℕ) pre0 spec0 c (Vr16 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Vr16 m c) fun _ => rfl
    rw [Pipeline.unscopedBufs_held, Pipeline.unscopedRest_split (launch0 (F := F)).pre c (Vr16 m c), adm0_eq m c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (Vr16 m) (adm0 m) c
  hout c := by
    rw [Pipeline.ownSems0_none]
    refine (hout0 (Vr16 m) (adm0 m) c).trans ?_
    iintro ⟨HY, Hr⟩
    isplitl [HY]; · iexact HY
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (Vr16 m c) (fun b => V17 m (outs17 m) c b) ((pdats m 0 c).arrAt · (cfg0 (adm0 m)).N) (hF0 m c) (hrest0 m c)
    rw [Pipeline.unscopedBufs_held, Pipeline.unscopedRest_split (launch0 (F := F)).pre c (Vr16 m c), adm0_eq m c] at hjoin
    iintro ⟨Ha, HO, ⟨Hp, Ht⟩, Hrest⟩
    imodintro
    isplitl [Ha Ht Hrest]
    · iapply hjoin; isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The launch -/

/-- The launch element: the pipelines' cells and duty tokens as the library deals them. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

theorem hu₀ : (ownU (u₀ m) : sProp 𝕄) ⊢ |={Set.univ}=> iprop(BI.own (emb₁ (u₀ m)) ∗ bigSep Finset.univ fun _ : Dev nD => (iprop(emp) : sProp 𝕄)) := by
  iintro Hu; imodintro
  isplitl [Hu]
  · iapply (show (ownU (u₀ m) : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

variable (ρ : Dev nD → PrngReg)

/-- At launch every core makes the rest state: its generator register, and nothing owed. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ iprop(emp))) ∗ levAts L lv)
    ⊢ (|={Set.univ}=> bigSep Finset.univ (fun c : Dev nD => Rst c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : Rst c ⊢ (iprop(∃ W, owes (c : Thread nD τ) (0 : CellTallies nD τ sig Unit) W) : sProp 𝕄) := by
  iintro ⟨-, HO⟩; iexact HO

set_option backward.isDefEq.respectTransparency.types false in
/-- THE FRAME, at any instance: every weakly fair execution of @main from memory `m` with zero counters terminates,
    nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m (EP := emb₁) (ι := ()) (𝒱₀ := 𝒱₀) (L := L) (lv := lv) (hL := fun _ _ => rfl) (ρ := ρ) (outs := outsF m) (a := adm m) (pdats := pdats m)
    (O₀ := 0) (G := fun _ => iprop(emp)) (u₀ := u₀ m) (hu₀ := hu₀ m) (E := fun _ c => Rst c) (hE0 := hE0 ρ) (hE2 := hE2)
    (R0 := reg0 m) (hpre0 := fun c => Entails.of_eq rfl) (hpost0 := fun c => by rw [V17_outsF]; exact Entails.of_eq rfl)
    (R1 := reg1 m) (hpre1 := fun c => by rw [V20_outsF]; exact Entails.of_eq rfl) (hpost1 := fun c => Entails.of_eq rfl)

end Cert.KernelIdeal.Hand

end
-- ==== Proof.Bits.Region1.lean ====
/- REGION 1 of the kernel program: the second TensorCore call (`cc1_cl_kernel`, pipeline 1), a grid of one point
   with three input windows (two 1024x48 blocks and a 1024x1 column) and one 3x48 output window.  Stated at a
   PARAMETER `V`, the TensorCore's buffer contents when the region is entered: each window's block read off `V`,
   what the body leaves in the output window as a function of the three input blocks, the body's triple, the
   pipeline's proof data and the body obligation the launch theorem asks for. -/
import proofs.«103908_j25280177504693_2_alg».proof.Proof.Gen.Kernel.Launch
import proofs.«103908_j25280177504693_2_alg».proof.Proof.Gen.Kernel.Skeleton
import proofs.«103908_j25280177504693_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the window's view of its array, read at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles: every access is the whole block at offset zero -/

abbrev rWide : Rect S1024x48 := Rect.unit (s := S1024x48) ![0, 0] S1024x48.size inb_S1024x48_S1024x48_0_0
abbrev rCol : Rect S1024x1 := Rect.unit (s := S1024x1) ![0, 0] S1024x1.size inb_S1024x1_S1024x1_0_0
abbrev rOut : Rect S3x48 := Rect.unit (s := S3x48) ![0, 0] S3x48.size inb_S3x48_S3x48_0_0

/-- The offsets `![0, 0]` are the zero offsets. -/
theorem zero2 : (![0, 0] : Fin 2 → Nat) = fun _ => 0 := funext fun a => by fin_cases a <;> rfl

/-! ## What the body leaves in the output window -/

/-- The output window's buffer after the body, from the three input blocks: the one store, of the three scaled
    column sums stacked, laid over whatever was there. -/
def out1_3 (x0 : Vec F S1024x48 .f32) (x1 : Vec F S1024x48 .f32) (x2 : Vec F S1024x1 .f32) : Vec F S3x48 .f32 :=
  View.canon [⟨rOut, k1_pay1 (View.ld x0 rWide) (View.ld x1 rWide) (View.ld x2 rCol)⟩]

/-- The one store is of the whole 3x48 block, so every index lies under it. -/
theorem cover1_3 (p : Vec F S3x48 .f32) (y : S3x48.Idx) :
    ∃ pc ∈ ([⟨rOut, p⟩] : List (View.Piece (Elt F) S3x48 .f32)), y ∈ pc.1.set :=
  ⟨_, List.mem_singleton_self _, View.mem_set_unit_zero zero2 inb_S3x48_S3x48_0_0 y⟩

/-- Each load reads its whole block and the store fills the whole output block: the output is the payload of the
    three input blocks. -/
theorem out1_3_apply (x0 : Vec F S1024x48 .f32) (x1 : Vec F S1024x48 .f32) (x2 : Vec F S1024x1 .f32) :
    out1_3 x0 x1 x2 = k1_pay1 x0 x1 x2 := by
  unfold out1_3
  rw [View.canon_unit_zero (S := S3x48) zero2 inb_S3x48_S3x48_0_0,
    View.ld_unit_zero (S := S1024x48) zero2 inb_S1024x48_S1024x48_0_0 x0,
    View.ld_unit_zero (S := S1024x48) zero2 inb_S1024x48_S1024x48_0_0 x1,
    View.ld_unit_zero (S := S1024x1) zero2 inb_S1024x1_S1024x1_0_0 x2]

/-! ## The body's triple -/

set_option maxHeartbeats 1000000 in
/-- The body on whole staging memrefs — the three inputs' at read contents `x0 x1 x2`, the output's at anything —
    runs to a continuation that holds the inputs' as they were and the output's at `out1_3 x0 x1 x2`.  The body
    also loads the output block before storing into it; the value read is not used. -/
theorem sound_kernel1 (c : Dev nD) (E : Set ℕ) (i : grid1.Coords)
    (arg1 : Memref sig .tc .vmem S1024x48 .f32) (harg1 : arg1.IsWhole) (arg2 : Memref sig .tc .vmem S1024x48 .f32) (harg2 : arg2.IsWhole)
    (arg3 : Memref sig .tc .vmem S1024x1 .f32) (harg3 : arg3.IsWhole) (arg4 : Memref sig .tc .vmem S3x48 .f32) (harg4 : arg4.IsWhole)
    (x0 : Vec F S1024x48 .f32) (x1 : Vec F S1024x48 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_cl_kernel i arg1 harg1 arg2 harg2 arg3 harg3 arg4 harg4) K := by
  simp only [cc1_cl_kernel_eq_skeleton]; unfold cc1_cl_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body each input's
    buffer still at its block and the output's at `out1_3` of the three input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input window is fetched at every point and is not cut, so when the body runs its current staging buffer
    holds the window's block, whatever it held before. -/
theorem before1_0 (c : Dev nD) (t : Fin cfg1.N) (d) : (dat1 V c).before 0 t d = iblk1 V c 0 t := by
  rw [(dat1 V c).before_fetched 0 t (fetch1_0 t) d]
  unfold Dat.fetched Dat.blockOf iblk1; rw [A_eq1]; try rfl
theorem before1_1 (c : Dev nD) (t : Fin cfg1.N) (d) : (dat1 V c).before 1 t d = iblk1 V c 1 t := by
  rw [(dat1 V c).before_fetched 1 t (fetch1_1 t) d]
  unfold Dat.fetched Dat.blockOf iblk1; rw [A_eq1]; try rfl
theorem before1_2 (c : Dev nD) (t : Fin cfg1.N) (d) : (dat1 V c).before 2 t d = iblk1 V c 2 t := by
  rw [(dat1 V c).before_fetched 2 t (fetch1_2 t) d]
  unfold Dat.fetched Dat.blockOf iblk1; rw [A_eq1]; try rfl

/-! ## The body obligation, at a generic point -/

/-- What the body is called with at point `t`, the four windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging memrefs hold their blocks (`before1_W`), so the triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Region1Value.lean ====
/- REGION 1, READ AS VALUES: what pipeline 1's arrays hold after its one grid point.  Each window's block at the
   one point is its whole array, so the three input arrays keep their entry contents and the 3x48 output array
   ends at the payload of the three input arrays. -/
import proofs.«103908_j25280177504693_2_alg».proof.Proof.Bits.Region1
import Idealize.ShloMosaic.Lib.Pipeline.Value
import Idealize.ShloMosaic.Lib.Pipeline.Cells

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Arrays

variable {F : FTy → Type} [FloatOps F]

variable (V : (c : Dev nD) → (b : Ref sig .tc) → Buf (Elt F) ((c : Thread nD τ).loc b))

/-! ## The input arrays are never written back -/

/-- An input window's array holds, after the grid, what the region found in it. -/
theorem arrAt1_in (c : Dev nD) (w : Fin cfg1.W) (hw : w = 0 ∨ w = 1 ∨ w = 2) :
    (dat1 V c).arrAt w cfg1.N = V c (Pipeline.arrRef spec1 w) := by
  rcases hw with rfl | rfl | rfl
  · exact ((dat1 V c).arrAt_in 0 rfl cfg1.N).trans (A_eq1 V c 0)
  · exact ((dat1 V c).arrAt_in 1 rfl cfg1.N).trans (A_eq1 V c 1)
  · exact ((dat1 V c).arrAt_in 2 rfl cfg1.N).trans (A_eq1 V c 2)

/-! ## The arrays as whole vectors -/

/-- The three input arrays at region entry, as vectors of their shapes. -/
abbrev arrA (c : Dev nD) : Vec F S1024x48 .f32 := V c main_v48_0
abbrev arrB (c : Dev nD) : Vec F S1024x48 .f32 := V c main_v48_1
abbrev arrM (c : Dev nD) : Vec F S1024x1 .f32 := V c main_v77

/-- Every window's block index is zero on both axes at every point: the index maps are constant. -/
theorem idx_zero1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- A block element sits in its array at the same coordinates: the block is the whole array. -/
theorem emb1_0 (t : Fin cfg1.N) (j : S1024x48.Idx) : ((cfg1.win 0).blk t).view.emb j = j := by
  obtain ⟨e0, e1, -⟩ := idx_zero1 t
  funext a; apply Fin.ext
  match a with
  | ⟨0, _⟩ => show win1_0.index t (0 : Fin 2) * 1024 + 1 * (j 0).val = (j 0).val; omega
  | ⟨1, _⟩ => show win1_0.index t (1 : Fin 2) * 48 + 1 * (j 1).val = (j 1).val; omega
theorem emb1_1 (t : Fin cfg1.N) (j : S1024x48.Idx) : ((cfg1.win 1).blk t).view.emb j = j := by
  obtain ⟨-, -, e0, e1, -⟩ := idx_zero1 t
  funext a; apply Fin.ext
  match a with
  | ⟨0, _⟩ => show win1_1.index t (0 : Fin 2) * 1024 + 1 * (j 0).val = (j 0).val; omega
  | ⟨1, _⟩ => show win1_1.index t (1 : Fin 2) * 48 + 1 * (j 1).val = (j 1).val; omega
theorem emb1_2 (t : Fin cfg1.N) (j : S1024x1.Idx) : ((cfg1.win 2).blk t).view.emb j = j := by
  obtain ⟨-, -, -, -, e0, e1, -⟩ := idx_zero1 t
  funext a; apply Fin.ext
  match a with
  | ⟨0, _⟩ => show win1_2.index t (0 : Fin 2) * 1024 + 1 * (j 0).val = (j 0).val; omega
  | ⟨1, _⟩ => show win1_2.index t (1 : Fin 2) * 1 + 1 * (j 1).val = (j 1).val; omega
theorem emb1_3 (t : Fin cfg1.N) (j : S3x48.Idx) : ((cfg1.win 3).blk t).view.emb j = j := by
  obtain ⟨-, -, -, -, -, -, e0, e1⟩ := idx_zero1 t
  funext a; apply Fin.ext
  match a with
  | ⟨0, _⟩ => show win1_3.index t (0 : Fin 2) * 3 + 1 * (j 0).val = (j 0).val; omega
  | ⟨1, _⟩ => show win1_3.index t (1 : Fin 2) * 48 + 1 * (j 1).val = (j 1).val; omega

/-- So each input window's block, at any point, is its array. -/
theorem iblk1_0 (c : Dev nD) (t : Fin cfg1.N) : iblk1 V c 0 t = arrA V c := by
  funext j
  show V c main_v48_0 (((cfg1.win 0).blk t).view.emb j) = V c main_v48_0 j
  rw [emb1_0]
theorem iblk1_1 (c : Dev nD) (t : Fin cfg1.N) : iblk1 V c 1 t = arrB V c := by
  funext j
  show V c main_v48_1 (((cfg1.win 1).blk t).view.emb j) = V c main_v48_1 j
  rw [emb1_1]
theorem iblk1_2 (c : Dev nD) (t : Fin cfg1.N) : iblk1 V c 2 t = arrM V c := by
  funext j
  show V c main_v77 (((cfg1.win 2).blk t).view.emb j) = V c main_v77 j
  rw [emb1_2]

/-! ## The output array -/

/-- What the output array ends holding: the payload of the three input arrays. -/
abbrev outG (c : Dev nD) : Vec F S3x48 .f32 := k1_pay1 (arrA V c) (arrB V c) (arrM V c)

/-- What a point writes back is its block of `outG` — the whole of it. -/
theorem flushed1_3_eq (c : Dev nD) (t : Fin cfg1.N) :
    (dat1 V c).flushed 3 t = ((cfg1.win 3).blk t).view.read (Elt F) (outG V c) := by
  show (cfg1.win 3).cut (grid1.coords t) ((dat1 V c).after 3 t) = _
  rw [after1_3, out1_3_apply, iblk1_0, iblk1_1, iblk1_2]
  funext j
  show outG V c j = outG V c (((cfg1.win 3).blk t).view.emb j)
  rw [emb1_3]

/-- Every index of the 3x48 array lies in the one point's block. -/
theorem cover1_out (i : S3x48.Idx) :
    ∃ t : Fin cfg1.N, (cfg1.win 3).flush t = true ∧ i ∈ ((cfg1.win 3).blk t).view.set := by
  refine ⟨t1_0, flush1_3 t1_0, ?_⟩
  obtain ⟨-, -, -, -, -, -, e0, e1⟩ := idx_zero1 t1_0
  show i ∈ ((View.whole main_v78).slice (win1_3.rect t1_0)).set
  rw [View.set_slice_whole, Rect.mem_set_unit]
  intro a
  match a with
  | ⟨0, _⟩ =>
    show win1_3.index t1_0 (0 : Fin 2) * 3 ≤ (i 0).val ∧ (i 0).val < win1_3.index t1_0 (0 : Fin 2) * 3 + 3
    have hi0 : (i 0).val < 3 := (i 0).isLt; omega
  | ⟨1, _⟩ =>
    show win1_3.index t1_0 (1 : Fin 2) * 48 ≤ (i 1).val ∧ (i 1).val < win1_3.index t1_0 (1 : Fin 2) * 48 + 48
    have hi1 : (i 1).val < 48 := (i 1).isLt; omega

/-- The output array after the grid is the payload of the three input arrays as the region found them. -/
theorem arrAt1_out (c : Dev nD) : (dat1 V c).arrAt 3 cfg1.N = outG V c :=
  (dat1 V c).arrAt_eq_of_cover 3 (outG V c) (fun t _ => flushed1_3_eq V c t) cover1_out

end Arrays

end Cert.Kernel.Hand

end
-- ==== Proof.Bits.Region0.Runs.lean ====
import proofs.«103908_j25280177504693_2_alg».proof.Proof.Gen.Kernel.Launch
import proofs.«103908_j25280177504693_2_alg».proof.Proof.Gen.Kernel.Skeleton
import Idealize.ShloMosaic.Lib.Pipeline.FrameBody
import Idealize.ShloMosaic.Lib.Pipeline.Regions
import Idealize.ShloMosaic.Lib.Ring
import Idealize.ShloMosaic.Lib.Tactic
import Idealize.ShloMosaic.Lib.WholeRead

set_option maxRecDepth 16384

/-! # Region 0, the interpolation kernel: its body's run in each of the six control cases

The body is three guarded stretches: a reset of the accumulator where the chunk coordinate is zero; an update of
the accumulator where the chunk coordinate lies between two words the body loads from two tables at the k-tile's
cell; the two outputs computed from the accumulator where the chunk coordinate is the last. The first and third
guards are functions of the grid point; the second is a function of the two loaded words, so it is a case
variable. Each case's run is stated over memrefs held whole at named contents, and says what each memref the case
stores into holds afterwards, through the skeleton's payloads. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Reading a whole box back -/

section Whole
variable {sig' : RefSig} {κ : Kind} {sp : Space} {s : Shape} {e : EltTy} {Val : EltTy → Type}

/-- The whole box at offset zero places each of its own indices at itself. -/
theorem idx_unit_whole (off : Fin s.rank → Nat) (inb : ∀ a, off a + s.size a ≤ s.size a) (h0 : ∀ a, off a = 0)
    (x : s.Idx) : (Rect.unit (s := s) off s.size inb).toLoadRect.idx x = x := by
  funext a; apply Fin.ext
  show off a + 1 * (x a : Nat) = (x a : Nat)
  rw [h0 a]; omega

/-- A whole memref held at the contents that read `X`, loaded through the whole box, reads `X`. -/
theorem readAt_unit_whole_unread {m : Memref sig' κ sp s e} (h : m.IsWhole) (X : s.Idx → Val e)
    (off : Fin s.rank → Nat) (inb : ∀ a, off a + s.size a ≤ s.size a) (h0 : ∀ a, off a = 0) :
    View.readAt Val m.view (Rect.unit (s := s) off s.size inb).toLoadRect (h.unread X) = X := by
  funext x
  rw [Memref.IsWhole.readAt_unread h X _ x]
  exact congrArg X (idx_unit_whole off inb h0 x)

/-- After an unmasked store of `w` through the whole box, the view reads `w`, whatever was stored before. -/
theorem read_writes_unit_whole (v : View sig' κ sp s e) (f : v.ty.Contents Val)
    (off : Fin s.rank → Nat) (inb : ∀ a, off a + s.size a ≤ s.size a) (h0 : ∀ a, off a = 0)
    (w : s.Idx → Val e) (L : List (View.Piece Val s e)) :
    v.read Val (v.writes Val f (⟨Rect.unit (s := s) off s.size inb, w⟩ :: L)) = w := by
  funext y
  have h := View.read_writes_cons_emb (v := v) (f := f) (Rect.unit (s := s) off s.size inb) w L y
  have he : (Rect.unit (s := s) off s.size inb).emb y = y := idx_unit_whole off inb h0 y
  rw [he] at h; exact h

end Whole

/-! ## The body's three conditions -/

/-- The reset condition: the chunk coordinate is zero. -/
abbrev condZ (i : grid0.Coords) : Prop :=
  (Scalar.cmpi .ne (Scalar.extui (Scalar.cmpi .eq (BitVec.ofNat 32 (i 1).val) 0#32)) 0#32) = 1#1

/-- The range condition over the two loaded words: lo ≤ nx ≤ hi as signed words. -/
abbrev condW (i : grid0.Coords) (lo hi : BitVec 32) : Prop :=
  (Scalar.cmpi .ne (Scalar.extui (Scalar.andi (Scalar.cmpi .sge (BitVec.ofNat 32 (i 1).val) lo) (Scalar.cmpi .sle (BitVec.ofNat 32 (i 1).val) hi))) 0#32) = 1#1

/-- The finishing condition: the chunk coordinate is the last. -/
abbrev condL (i : grid0.Coords) : Prop := k0_cond3 i = 1#1

/-- The cell of a 128-word table the point's k-tile selects. -/
abbrev cellOfTile (i : grid0.Coords) : LoadRect S128 := (Rect.unit (s := S128) (k0_off1 i) S1.size (k0_off1_inb i)).toLoadRect

/-- The word a table of contents `x` holds at the k-tile's cell. -/
def wordOf (i : grid0.Coords) (x : Vec F S128 .i32) : BitVec 32 :=
  x ((cellOfTile i).idx (Shape.Idx.first (numel1_S1.symm ▸ Nat.one_pos)))

/-- The 256 rows of the table the point's chunk selects. -/
abbrev rowsOfChunk (i : grid0.Coords) : LoadRect S20224x192 := (Rect.unit (s := S20224x192) (k0_off2 i) S256x192.size (k0_off2_inb i)).toLoadRect

/-- Those rows of a table of contents `x`. -/
def tabRows (i : grid0.Coords) (x : Vec F S20224x192 .bf16) : Vec F S256x192 .bf16 :=
  fun y => x ((rowsOfChunk i).idx y)

theorem wordOf_eq (i : grid0.Coords) (T : Memref sig .tc .smem S128 .i32) (hT : T.IsWhole) (x : Vec F S128 .i32) :
    T.view.readAt (Elt F) (cellOfTile i) (hT.unread x) (Shape.Idx.first (numel1_S1.symm ▸ Nat.one_pos)) = wordOf i x :=
  Memref.IsWhole.readAt_unread hT x _ _

theorem tabRows_eq (i : grid0.Coords) (T : Memref sig .tc .vmem S20224x192 .bf16) (hT : T.IsWhole) (x : Vec F S20224x192 .bf16) :
    T.view.readAt (Elt F) (rowsOfChunk i) (hT.unread x) = tabRows i x :=
  funext fun y => Memref.IsWhole.readAt_unread hT x _ y

theorem z3 : ∀ a : Fin 3, (![0, 0, 0] : Fin 3 → Nat) a = 0 := by decide
theorem z2 : ∀ a : Fin 2, (![0, 0] : Fin 2 → Nat) a = 0 := by decide

set_option maxHeartbeats 1000000 in
/-- FIRST CHUNK, OUT OF RANGE. The accumulator, whatever it held, is left at zeros; the tables are only read. -/
theorem run_Z_F (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32)
    (hz : condZ i) (hl : ¬condL i) (hw : ¬condW i (wordOf i xlo) (wordOf i xhi))
    (E : Set ℕ) (K : PUnit → sProp 𝕄) :
    iprop(owns (c : Thread nD τ) arg2 fullShare xlo
        ∗ owns (c : Thread nD τ) arg3 fullShare xhi
        ∗ (∃ d, owns (c : Thread nD τ) arg13 fullShare d)
        ∗ (iprop(owns (c : Thread nD τ) arg2 fullShare xlo
            ∗ owns (c : Thread nD τ) arg3 fullShare xhi
            ∗ owns (c : Thread nD τ) arg13 fullShare (k0_pay1 (F := F))) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, ⟨%d13, %f13, -, H13⟩, Hk⟩
  obtain rfl := harg2.eq_unread hf2; obtain rfl := harg3.eq_unread hf3
  sl_exec (disch := first | sl_exact hz | sl_exact hl | sl_exact hw)
  sl_step
  iapply Hk
  isplitl [H2]
  · iexists _; isplitr; · ipureintro; exact harg2.read_unread _
    iexact H2
  isplitl [H3]
  · iexists _; isplitr; · ipureintro; exact harg3.read_unread _
    iexact H3
  · iexists _; isplitr; swap; · iexact H13
    ipureintro
    sl_unfold_run_names
    rw [read_writes_unit_whole (s := S8x600x192) _ _ _ _ z3]

set_option maxHeartbeats 1000000 in
/-- FIRST CHUNK, IN RANGE. The accumulator is zeroed, then the chunk's contribution (the interpolation weights of the positions against the chunk's 256 rows, times those rows) is added to it. -/
theorem run_Z_T (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32) (pos : Vec F S8x600 .f32) (tab : Vec F S20224x192 .bf16)
    (hz : condZ i) (hl : ¬condL i) (hw : condW i (wordOf i xlo) (wordOf i xhi))
    (E : Set ℕ) (K : PUnit → sProp 𝕄) :
    iprop(owns (c : Thread nD τ) arg2 fullShare xlo
        ∗ owns (c : Thread nD τ) arg3 fullShare xhi
        ∗ owns (c : Thread nD τ) arg4 fullShare pos
        ∗ owns (c : Thread nD τ) arg5 fullShare tab
        ∗ (∃ d, owns (c : Thread nD τ) arg13 fullShare d)
        ∗ (iprop(owns (c : Thread nD τ) arg2 fullShare xlo
            ∗ owns (c : Thread nD τ) arg3 fullShare xhi
            ∗ owns (c : Thread nD τ) arg4 fullShare pos
            ∗ owns (c : Thread nD τ) arg5 fullShare tab
            ∗ owns (c : Thread nD τ) arg13 fullShare (k0_pay2 i pos (tabRows i tab) (k0_pay1 (F := F)))) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, ⟨%f4, %hf4, H4⟩, ⟨%f5, %hf5, H5⟩, ⟨%d13, %f13, -, H13⟩, Hk⟩
  obtain rfl := harg2.eq_unread hf2; obtain rfl := harg3.eq_unread hf3; obtain rfl := harg4.eq_unread hf4; obtain rfl := harg5.eq_unread hf5
  sl_exec (disch := first | sl_exact hz | sl_exact hl | sl_exact hw)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  · iexists _; isplitr; swap; · iexact H13
    ipureintro
    sl_unfold_run_names
    rw [read_writes_unit_whole (s := S8x600x192) _ _ _ _ z3,
      readAt_unit_whole_unread harg4 pos _ _ z2,
      tabRows_eq i arg5 harg5 tab,
      View.readCov_cons_toLoadRect]

set_option maxHeartbeats 1000000 in
/-- A MIDDLE CHUNK, OUT OF RANGE. The body reads the two words and touches nothing else. -/
theorem run_M_F (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32)
    (hz : ¬condZ i) (hl : ¬condL i) (hw : ¬condW i (wordOf i xlo) (wordOf i xhi))
    (E : Set ℕ) (K : PUnit → sProp 𝕄) :
    iprop(owns (c : Thread nD τ) arg2 fullShare xlo
        ∗ owns (c : Thread nD τ) arg3 fullShare xhi
        ∗ (iprop(owns (c : Thread nD τ) arg2 fullShare xlo
            ∗ owns (c : Thread nD τ) arg3 fullShare xhi) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, Hk⟩
  obtain rfl := harg2.eq_unread hf2; obtain rfl := harg3.eq_unread hf3
  sl_exec (disch := first | sl_exact hz | sl_exact hl | sl_exact hw)
  sl_step
  iapply Hk
  isplitl [H2]
  · iexists _; isplitr; · ipureintro; exact harg2.read_unread _
    iexact H2
  · iexists _; isplitr; · ipureintro; exact harg3.read_unread _
    iexact H3

set_option maxHeartbeats 1000000 in
/-- A MIDDLE CHUNK, IN RANGE. The chunk's contribution is added to the accumulator. -/
theorem run_M_T (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32) (pos : Vec F S8x600 .f32) (tab : Vec F S20224x192 .bf16) (acc : Vec F S8x600x192 .f32)
    (hz : ¬condZ i) (hl : ¬condL i) (hw : condW i (wordOf i xlo) (wordOf i xhi))
    (E : Set ℕ) (K : PUnit → sProp 𝕄) :
    iprop(owns (c : Thread nD τ) arg2 fullShare xlo
        ∗ owns (c : Thread nD τ) arg3 fullShare xhi
        ∗ owns (c : Thread nD τ) arg4 fullShare pos
        ∗ owns (c : Thread nD τ) arg5 fullShare tab
        ∗ owns (c : Thread nD τ) arg13 fullShare acc
        ∗ (iprop(owns (c : Thread nD τ) arg2 fullShare xlo
            ∗ owns (c : Thread nD τ) arg3 fullShare xhi
            ∗ owns (c : Thread nD τ) arg4 fullShare pos
            ∗ owns (c : Thread nD τ) arg5 fullShare tab
            ∗ owns (c : Thread nD τ) arg13 fullShare (k0_pay2 i pos (tabRows i tab) acc)) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, ⟨%f4, %hf4, H4⟩, ⟨%f5, %hf5, H5⟩, ⟨%f13, %hf13, H13⟩, Hk⟩
  obtain rfl := harg2.eq_unread hf2; obtain rfl := harg3.eq_unread hf3; obtain rfl := harg4.eq_unread hf4; obtain rfl := harg5.eq_unread hf5; obtain rfl := harg13.eq_unread hf13
  sl_exec (disch := first | sl_exact hz | sl_exact hl | sl_exact hw)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  · iexists _; isplitr; swap; · iexact H13
    ipureintro
    sl_unfold_run_names
    rw [read_writes_unit_whole (s := S8x600x192) _ _ _ _ z3,
      readAt_unit_whole_unread harg4 pos _ _ z2,
      tabRows_eq i arg5 harg5 tab,
      readAt_unit_whole_unread harg13 acc _ _ z3]

set_option maxHeartbeats 1000000 in
/-- LAST CHUNK, OUT OF RANGE. The two outputs are computed from the accumulator, which is left as it was. -/
theorem run_L_F (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32) (acc : Vec F S8x600x192 .f32) (s0 s1 s2 se : Vec F S8x600 .f32) (tw : Vec F S1x600 .f32)
    (hz : ¬condZ i) (hl : condL i) (hw : ¬condW i (wordOf i xlo) (wordOf i xhi))
    (E : Set ℕ) (K : PUnit → sProp 𝕄) :
    iprop(owns (c : Thread nD τ) arg2 fullShare xlo
        ∗ owns (c : Thread nD τ) arg3 fullShare xhi
        ∗ owns (c : Thread nD τ) arg13 fullShare acc
        ∗ owns (c : Thread nD τ) arg6 fullShare s0
        ∗ owns (c : Thread nD τ) arg7 fullShare s1
        ∗ owns (c : Thread nD τ) arg8 fullShare s2
        ∗ owns (c : Thread nD τ) arg9 fullShare se
        ∗ owns (c : Thread nD τ) arg10 fullShare tw
        ∗ (∃ d, owns (c : Thread nD τ) arg11 fullShare d)
        ∗ (∃ d, owns (c : Thread nD τ) arg12 fullShare d)
        ∗ (iprop(owns (c : Thread nD τ) arg2 fullShare xlo
            ∗ owns (c : Thread nD τ) arg3 fullShare xhi
            ∗ owns (c : Thread nD τ) arg13 fullShare acc
            ∗ owns (c : Thread nD τ) arg6 fullShare s0
            ∗ owns (c : Thread nD τ) arg7 fullShare s1
            ∗ owns (c : Thread nD τ) arg8 fullShare s2
            ∗ owns (c : Thread nD τ) arg9 fullShare se
            ∗ owns (c : Thread nD τ) arg10 fullShare tw
            ∗ owns (c : Thread nD τ) arg11 fullShare (k0_pay4 acc s0 s1 s2 tw)
            ∗ owns (c : Thread nD τ) arg12 fullShare (k0_pay5 acc se tw)) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, ⟨%f13, %hf13, H13⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  obtain rfl := harg2.eq_unread hf2; obtain rfl := harg3.eq_unread hf3; obtain rfl := harg13.eq_unread hf13; obtain rfl := harg6.eq_unread hf6; obtain rfl := harg7.eq_unread hf7; obtain rfl := harg8.eq_unread hf8; obtain rfl := harg9.eq_unread hf9; obtain rfl := harg10.eq_unread hf10
  sl_exec (disch := first | sl_exact hz | sl_exact hl | sl_exact hw)
  sl_step
  iapply Hk
  isplitl [H2]
  · iexists _; isplitr; · ipureintro; exact harg2.read_unread _
    iexact H2
  isplitl [H3]
  · iexists _; isplitr; · ipureintro; exact harg3.read_unread _
    iexact H3
  isplitl [H13]
  · iexists _; isplitr; · ipureintro; exact harg13.read_unread _
    iexact H13
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    sl_unfold_run_names
    rw [read_writes_unit_whole (s := S8x48) _ _ _ _ z2,
      readAt_unit_whole_unread harg13 acc _ _ z3,
      readAt_unit_whole_unread harg6 s0 _ _ z2,
      readAt_unit_whole_unread harg7 s1 _ _ z2,
      readAt_unit_whole_unread harg8 s2 _ _ z2,
      readAt_unit_whole_unread harg10 tw _ _ z2]
  · iexists _; isplitr; swap; · iexact H12
    ipureintro
    sl_unfold_run_names
    rw [read_writes_unit_whole (s := S8x48) _ _ _ _ z2,
      readAt_unit_whole_unread harg13 acc _ _ z3,
      readAt_unit_whole_unread harg9 se _ _ z2,
      readAt_unit_whole_unread harg10 tw _ _ z2]

set_option maxHeartbeats 1000000 in
/-- LAST CHUNK, IN RANGE. The chunk's contribution is added to the accumulator, then the two outputs are computed from the updated accumulator. -/
theorem run_L_T (c : Dev nD) (i : grid0.Coords) (arg2 : Memref sig .tc .smem S128 .i32) (harg2 : arg2.IsWhole) (arg3 : Memref sig .tc .smem S128 .i32) (harg3 : arg3.IsWhole) (arg4 : Memref sig .tc .vmem S8x600 .f32) (harg4 : arg4.IsWhole) (arg5 : Memref sig .tc .vmem S20224x192 .bf16) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S8x600 .f32) (harg9 : arg9.IsWhole) (arg10 : Memref sig .tc .vmem S1x600 .f32) (harg10 : arg10.IsWhole) (arg11 : Memref sig .tc .vmem S8x48 .f32) (harg11 : arg11.IsWhole) (arg12 : Memref sig .tc .vmem S8x48 .f32) (harg12 : arg12.IsWhole) (arg13 : Memref sig .tc .vmem S8x600x192 .f32) (harg13 : arg13.IsWhole)
    (xlo xhi : Vec F S128 .i32) (pos : Vec F S8x600 .f32) (tab : Vec F S20224x192 .bf16) (acc : Vec F S8x600x192 .f32) (s0 s1 s2 se : Vec F S8x600 .f32) (tw : Vec F S1x600 .f32)
    (hz : ¬condZ i) (hl : condL i) (hw : condW i (wordOf i xlo) (wordOf i xhi))
    (E : Set ℕ) (K : PUnit → sProp 𝕄) :
    iprop(owns (c : Thread nD τ) arg2 fullShare xlo
        ∗ owns (c : Thread nD τ) arg3 fullShare xhi
        ∗ owns (c : Thread nD τ) arg4 fullShare pos
        ∗ owns (c : Thread nD τ) arg5 fullShare tab
        ∗ owns (c : Thread nD τ) arg13 fullShare acc
        ∗ owns (c : Thread nD τ) arg6 fullShare s0
        ∗ owns (c : Thread nD τ) arg7 fullShare s1
        ∗ owns (c : Thread nD τ) arg8 fullShare s2
        ∗ owns (c : Thread nD τ) arg9 fullShare se
        ∗ owns (c : Thread nD τ) arg10 fullShare tw
        ∗ (∃ d, owns (c : Thread nD τ) arg11 fullShare d)
        ∗ (∃ d, owns (c : Thread nD τ) arg12 fullShare d)
        ∗ (iprop(owns (c : Thread nD τ) arg2 fullShare xlo
            ∗ owns (c : Thread nD τ) arg3 fullShare xhi
            ∗ owns (c : Thread nD τ) arg4 fullShare pos
            ∗ owns (c : Thread nD τ) arg5 fullShare tab
            ∗ owns (c : Thread nD τ) arg13 fullShare (k0_pay2 i pos (tabRows i tab) acc)
            ∗ owns (c : Thread nD τ) arg6 fullShare s0
            ∗ owns (c : Thread nD τ) arg7 fullShare s1
            ∗ owns (c : Thread nD τ) arg8 fullShare s2
            ∗ owns (c : Thread nD τ) arg9 fullShare se
            ∗ owns (c : Thread nD τ) arg10 fullShare tw
            ∗ owns (c : Thread nD τ) arg11 fullShare (k0_pay4 (k0_pay2 i pos (tabRows i tab) acc) s0 s1 s2 tw)
            ∗ owns (c : Thread nD τ) arg12 fullShare (k0_pay5 (k0_pay2 i pos (tabRows i tab) acc) se tw)) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12 arg13 harg13) K := by
  rw [← wordOf_eq i arg2 harg2 xlo, ← wordOf_eq i arg3 harg3 xhi] at hw
  simp only [cc0_interp_kernel_eq_skeleton]; unfold cc0_interp_kernel_skel
  unfold owns
  iintro ⟨⟨%f2, %hf2, H2⟩, ⟨%f3, %hf3, H3⟩, ⟨%f4, %hf4, H4⟩, ⟨%f5, %hf5, H5⟩, ⟨%f13, %hf13, H13⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5; obtain rfl := harg13.eq_unread hf13; obtain rfl := harg6.eq_unread hf6; obtain rfl := harg7.eq_unread hf7; obtain rfl := harg8.eq_unread hf8; obtain rfl := harg9.eq_unread hf9; obtain rfl := harg10.eq_unread hf10
  sl_exec (disch := first | sl_exact hz | sl_exact hl | sl_exact hw)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H13]
  · iexists _; isplitr; swap; · iexact H13
    ipureintro
    sl_unfold_run_names
    rw [read_writes_unit_whole (s := S8x600x192) _ _ _ _ z3,
      readAt_unit_whole_unread harg4 pos _ _ z2,
      tabRows_eq i arg5 harg5 tab,
      readAt_unit_whole_unread harg13 acc _ _ z3]
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    sl_unfold_run_names
    rw [read_writes_unit_whole (s := S8x48) _ _ _ _ z2,
      View.readCov_cons_toLoadRect,
      readAt_unit_whole_unread harg4 pos _ _ z2,
      tabRows_eq i arg5 harg5 tab,
      readAt_unit_whole_unread harg13 acc _ _ z3,
      readAt_unit_whole_unread harg6 s0 _ _ z2,
      readAt_unit_whole_unread harg7 s1 _ _ z2,
      readAt_unit_whole_unread harg8 s2 _ _ z2,
      readAt_unit_whole_unread harg10 tw _ _ z2]
  · iexists _; isplitr; swap; · iexact H12
    ipureintro
    sl_unfold_run_names
    rw [read_writes_unit_whole (s := S8x48) _ _ _ _ z2,
      View.readCov_cons_toLoadRect,
      readAt_unit_whole_unread harg4 pos _ _ z2,
      tabRows_eq i arg5 harg5 tab,
      readAt_unit_whole_unread harg13 acc _ _ z3,
      readAt_unit_whole_unread harg9 se _ _ z2,
      readAt_unit_whole_unread harg10 tw _ _ z2]

end Cert.Kernel.Hand

end
-- ==== Proof.Bits.Region0.Dat.lean ====
import proofs.«103908_j25280177504693_2_alg».proof.Proof.Bits.Region0.Runs

set_option maxRecDepth 16384

/-! # Region 0: the proof data

What each window's staging buffer and the accumulator hold after each grid point, through the skeleton's payloads,
and the region's invariant. The accumulator's contents are defined by recursion on the point and never mention what
the scratch held when the region was entered: every k-tile's first chunk resets it. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a0 : (pcfg0 (F := F)).Adm)

/-! ## The tables, the scratch, the staging memrefs -/

/-- The two prefetched tables as the body is handed them: whole scalar-memory buffers. -/
abbrev tbLo : Memref sig .tc .smem S128 .i32 := Memref.whole main_v43
abbrev tbHi : Memref sig .tc .smem S128 .i32 := Memref.whole main_v47
/-- Their admissible contents. -/
abbrev loOf : Vec F S128 .i32 := a0.1 0
abbrev hiOf : Vec F S128 .i32 := a0.1 1
/-- The accumulator the kernel carries across the chunks of one k-tile: a whole scoped buffer. -/
abbrev scM : Memref sig .tc .vmem S8x600x192 .f32 := Memref.whole cc0_scratch0

/-- Each window's current staging memref at point `t`, as the pipeline passes it to the body. -/
abbrev ms0 (t : Fin (cfg0 a0).N) := spec0_0.stage ((cfg0 a0).slots t 0)
abbrev ms1 (t : Fin (cfg0 a0).N) := spec0_1.stage ((cfg0 a0).slots t 1)
abbrev ms2 (t : Fin (cfg0 a0).N) := spec0_2.stage ((cfg0 a0).slots t 2)
abbrev ms3 (t : Fin (cfg0 a0).N) := spec0_3.stage ((cfg0 a0).slots t 3)
abbrev ms4 (t : Fin (cfg0 a0).N) := spec0_4.stage ((cfg0 a0).slots t 4)
abbrev ms5 (t : Fin (cfg0 a0).N) := spec0_5.stage ((cfg0 a0).slots t 5)
abbrev ms6 (t : Fin (cfg0 a0).N) := spec0_6.stage ((cfg0 a0).slots t 6)
abbrev ms7 (t : Fin (cfg0 a0).N) := spec0_7.stage ((cfg0 a0).slots t 7)
abbrev ms8 (t : Fin (cfg0 a0).N) := spec0_8.stage ((cfg0 a0).slots t 8)

/-- The body at point `t`, on what the pipeline calls it with. -/
abbrev bodyAt (t : Fin (cfg0 a0).N) : Prog (TpuEff nD τ sig (Elt F) Λ₀ .tc) PUnit :=
  cc0_interp_kernel (grid0.coords t) tbLo (Memref.isWhole_whole _) tbHi (Memref.isWhole_whole _)
    (ms0 a0 t) (hstage0_0 (((cfg0 a0).slots t 0).cast nbuf0_0)) (ms1 a0 t) (hstage0_1 (((cfg0 a0).slots t 1).cast nbuf0_1))
    (ms2 a0 t) (hstage0_2 (((cfg0 a0).slots t 2).cast nbuf0_2)) (ms3 a0 t) (hstage0_3 (((cfg0 a0).slots t 3).cast nbuf0_3))
    (ms4 a0 t) (hstage0_4 (((cfg0 a0).slots t 4).cast nbuf0_4)) (ms5 a0 t) (hstage0_5 (((cfg0 a0).slots t 5).cast nbuf0_5))
    (ms6 a0 t) (hstage0_6 (((cfg0 a0).slots t 6).cast nbuf0_6)) (ms7 a0 t) (hstage0_7 (((cfg0 a0).slots t 7).cast nbuf0_7))
    (ms8 a0 t) (hstage0_8 (((cfg0 a0).slots t 8).cast nbuf0_8)) scM (Memref.isWhole_whole _)

/-! ## The windows' blocks -/

/-- Window `w`'s block at point `t`, read off its array as the region finds it (`V`). -/
def iblk (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-! ## What the accumulator holds after each point -/

/-- The point of position `n` (positions past the grid wrap: none is ever asked). -/
def pt (n : ℕ) : Fin (cfg0 a0).N := ⟨n % grid0.N, Nat.mod_lt _ (by decide)⟩

theorem pt_val (t : Fin (cfg0 a0).N) : pt a0 t.val = t := Fin.ext (Nat.mod_eq_of_lt t.isLt)

/-- The range condition at point `t`, over the words the tables hold at the k-tile's cell. -/
abbrev inRange (t : Fin (cfg0 a0).N) : Prop :=
  condW (grid0.coords t) (wordOf (grid0.coords t) (loOf a0)) (wordOf (grid0.coords t) (hiOf a0))

/-- One point's update of the accumulator: the chunk's contribution added when the chunk is in range. -/
def upd (c : Dev nD) (t : Fin (cfg0 a0).N) (base : Vec F S8x600x192 .f32) : Vec F S8x600x192 .f32 :=
  if inRange a0 t then k0_pay2 (grid0.coords t) (iblk V a0 c 0 t) (tabRows (grid0.coords t) (iblk V a0 c 1 t)) base else base

/-- THE ACCUMULATION, by recursion on the position: at a first chunk zeros, at a later chunk what the point before
    left, then the point's update. It never mentions what the scratch held when the region was entered. -/
def accN (c : Dev nD) : ℕ → Vec F S8x600x192 .f32
  | 0 => upd V a0 c (pt a0 0) (k0_pay1 (F := F))
  | n + 1 => upd V a0 c (pt a0 (n + 1)) (if condZ (grid0.coords (pt a0 (n + 1))) then k0_pay1 (F := F) else accN c n)

/-- What the accumulator holds after point `t`. -/
abbrev accAfter (c : Dev nD) (t : Fin (cfg0 a0).N) : Vec F S8x600x192 .f32 := accN V a0 c t.val

theorem upd_T (c : Dev nD) (t : Fin (cfg0 a0).N) (base) (h : inRange a0 t) :
    upd V a0 c t base = k0_pay2 (grid0.coords t) (iblk V a0 c 0 t) (tabRows (grid0.coords t) (iblk V a0 c 1 t)) base := by
  unfold upd; rw [if_pos h]
theorem upd_F (c : Dev nD) (t : Fin (cfg0 a0).N) (base) (h : ¬inRange a0 t) : upd V a0 c t base = base := by
  unfold upd; rw [if_neg h]

/-- At a first chunk the accumulation restarts from zeros. -/
theorem accAfter_Z (c : Dev nD) (t : Fin (cfg0 a0).N) (hz : condZ (grid0.coords t)) :
    accAfter V a0 c t = upd V a0 c t (k0_pay1 (F := F)) := by
  obtain ⟨n, hn⟩ := t
  cases n with
  | zero => show upd V a0 c (pt a0 0) _ = _; rw [show pt a0 0 = ⟨0, hn⟩ from pt_val a0 ⟨0, hn⟩]
  | succ n =>
    show upd V a0 c (pt a0 (n + 1)) _ = _
    rw [show pt a0 (n + 1) = ⟨n + 1, hn⟩ from pt_val a0 ⟨n + 1, hn⟩, if_pos hz]

/-- At a later chunk it continues from what the point before left. -/
theorem accAfter_N (c : Dev nD) (t : Fin (cfg0 a0).N) (hz : ¬condZ (grid0.coords t)) (ht : t.val ≠ 0) :
    accAfter V a0 c t = upd V a0 c t (accN V a0 c (t.val - 1)) := by
  obtain ⟨n, hn⟩ := t
  cases n with
  | zero => exact absurd rfl ht
  | succ n =>
    show upd V a0 c (pt a0 (n + 1)) _ = _
    rw [show pt a0 (n + 1) = ⟨n + 1, hn⟩ from pt_val a0 ⟨n + 1, hn⟩, if_neg hz]; rfl

/-- The first point of the grid is a first chunk. -/
theorem condZ_of_zero (t : Fin (cfg0 a0).N) (ht : t.val = 0) : condZ (grid0.coords t) := by
  obtain ⟨n, hn⟩ := t; subst ht
  exact (by decide : ∀ h : 0 < grid0.N, condZ (grid0.coords ⟨0, h⟩)) hn

/-- A first chunk is not the last (there are 79 chunks). -/
theorem not_condL_of_condZ (i : grid0.Coords) (hz : condZ i) : ¬condL i :=
  (by decide : ∀ n : Fin 79, (Scalar.cmpi .ne (Scalar.extui (Scalar.cmpi .eq (BitVec.ofNat 32 n.val) 0#32)) 0#32) = 1#1 →
    ¬(Scalar.cmpi .ne (Scalar.extui (Scalar.cmpi .eq (BitVec.ofNat 32 n.val) 78#32)) 0#32) = 1#1) (i 1) hz

/-! ## The invariant -/

/-- The second region's staging buffers, which this region never touches: each whole at some contents. -/
abbrev rest4 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f))

/-- The two tables held at their admissible contents, as memrefs the body loads words from. -/
abbrev tables (c : Dev nD) : sProp 𝕄 :=
  iprop(owns (c : Thread nD τ) tbLo fullShare (loOf a0) ∗ owns (c : Thread nD τ) tbHi fullShare (hiOf a0))

/-- The tables as the region is handed them, one by one. -/
theorem prefHeld_eq (c : Dev nD) :
    (Pipeline.prefHeld (Ix := Unit) (Name := ℕ) (U := UR sig nD τ) (Lvl := ℕ) pre0 c (fun _ => fullShare) a0.1 : sProp 𝕄)
      = tables a0 c := by
  unfold Pipeline.prefHeld
  rw [show (Finset.univ : Finset (Fin 2)) = insert (0 : Fin 2) {(1 : Fin 2)} from by decide,
    bigSep_insert (by decide), bigSep_singleton]
  simp only [tables, tbLo, tbHi, owns_whole]
  rfl

/-- The accumulator's memref owned is its buffer's points-to. -/
theorem scM_owns (c : Dev nD) (x : Vec F S8x600x192 .f32) :
    (owns (c : Thread nD τ) scM fullShare x : sProp 𝕄) = (((c : Thread nD τ).loc cc0_scratch0) ↦{fullShare} x) := owns_whole _ _ _ _

/-- The invariant before position `n`: the generator register at some state, the tables at their contents, the
    accumulator — at the region's entry whatever the scoped buffers hold, afterwards what the point before left —
    and the scoped buffers the region does not use. -/
def PhiAt (c : Dev nD) : ℕ → sProp 𝕄
  | 0 => iprop((∃ r, prngReg c r) ∗ Pipeline.prefHeld (Ix := Unit) (Name := ℕ) (U := UR sig nD τ) (Lvl := ℕ) pre0 c (fun _ => fullShare) a0.1
      ∗ Pipeline.scopedRest (Ix := Unit) (Name := ℕ) (U := UR sig nD τ) (Lvl := ℕ) (Val := Elt F) spec0 c)
  | n + 1 => iprop((∃ r, prngReg c r) ∗ tables a0 c ∗ owns (c : Thread nD τ) scM fullShare (accN V a0 c n) ∗ rest4 c)

theorem PhiAt_pos (c : Dev nD) (n : ℕ) (hn : n ≠ 0) :
    PhiAt V a0 c n = iprop((∃ r, prngReg c r) ∗ tables a0 c ∗ owns (c : Thread nD τ) scM fullShare (accN V a0 c (n - 1)) ∗ rest4 c) := by
  cases n with
  | zero => exact absurd rfl hn
  | succ n => rfl

/-- At any position the invariant yields the accumulator at SOME contents: what a first chunk needs of it. -/
theorem PhiAt_any (c : Dev nD) (n : ℕ) :
    PhiAt V a0 c n ⊢ iprop((∃ r, prngReg c r) ∗ tables a0 c ∗ (∃ d, owns (c : Thread nD τ) scM fullShare d) ∗ rest4 c) := by
  cases n with
  | zero =>
    show iprop(_ ∗ _ ∗ _) ⊢ _
    rw [prefHeld_eq, scopedRest0_eq]
    simp only [scM_owns]
    iintro ⟨Hg, HT, ⟨%f, HS⟩, HR⟩
    isplitl [Hg]; · iexact Hg
    isplitl [HT]; · iexact HT
    isplitl [HS]; · iexists f; iexact HS
    iexact HR
  | succ n =>
    show iprop(_ ∗ _ ∗ _ ∗ _) ⊢ _
    iintro ⟨Hg, HT, HS, HR⟩
    isplitl [Hg]; · iexact Hg
    isplitl [HT]; · iexact HT
    isplitl [HS]; · iexists _; iexact HS
    iexact HR

/-! ## The proof data -/

/-- The proof data of region 0 on core `c`: the arrays as the region finds them; after the body at point `t` each
    input's buffer at its block, the two outputs' at what the last chunk computes from the accumulator (consulted
    only where the window is live: at the last chunk); the invariant `PhiAt`; nothing owed; full shares. -/
def dat0 (c : Dev nD) : Dat τ (Elt F) Unit ℕ (UR sig nD τ) ℕ (cfg0 a0) c where
  A w := V c (Pipeline.arrRef spec0 w)
  after w t := match w with
    | ⟨0, _⟩ => iblk V a0 c 0 t
    | ⟨1, _⟩ => iblk V a0 c 1 t
    | ⟨2, _⟩ => iblk V a0 c 2 t
    | ⟨3, _⟩ => iblk V a0 c 3 t
    | ⟨4, _⟩ => iblk V a0 c 4 t
    | ⟨5, _⟩ => iblk V a0 c 5 t
    | ⟨6, _⟩ => iblk V a0 c 6 t
    | ⟨7, _⟩ => k0_pay4 (accAfter V a0 c t) (iblk V a0 c 2 t) (iblk V a0 c 3 t) (iblk V a0 c 4 t) (iblk V a0 c 6 t)
    | ⟨8, _⟩ => k0_pay5 (accAfter V a0 c t) (iblk V a0 c 5 t) (iblk V a0 c 6 t)
  Φ t := PhiAt V a0 c t.val
  q _ := fullShare
  owed _ := 0

theorem A_eq0 (c : Dev nD) (w : Fin (cfg0 a0).W) : (dat0 V a0 c).A w = V c (Pipeline.arrRef spec0 w) := by
  dsimp only [dat0]

theorem after_0 (c : Dev nD) (t) : (dat0 V a0 c).after 0 t = iblk V a0 c 0 t := rfl
theorem after_1 (c : Dev nD) (t) : (dat0 V a0 c).after 1 t = iblk V a0 c 1 t := rfl
theorem after_2 (c : Dev nD) (t) : (dat0 V a0 c).after 2 t = iblk V a0 c 2 t := rfl
theorem after_3 (c : Dev nD) (t) : (dat0 V a0 c).after 3 t = iblk V a0 c 3 t := rfl
theorem after_4 (c : Dev nD) (t) : (dat0 V a0 c).after 4 t = iblk V a0 c 4 t := rfl
theorem after_5 (c : Dev nD) (t) : (dat0 V a0 c).after 5 t = iblk V a0 c 5 t := rfl
theorem after_6 (c : Dev nD) (t) : (dat0 V a0 c).after 6 t = iblk V a0 c 6 t := rfl
theorem after_7 (c : Dev nD) (t) : (dat0 V a0 c).after 7 t
    = k0_pay4 (accAfter V a0 c t) (iblk V a0 c 2 t) (iblk V a0 c 3 t) (iblk V a0 c 4 t) (iblk V a0 c 6 t) := rfl
theorem after_8 (c : Dev nD) (t) : (dat0 V a0 c).after 8 t
    = k0_pay5 (accAfter V a0 c t) (iblk V a0 c 5 t) (iblk V a0 c 6 t) := rfl

/-- An input window's array is never written back: after the region it holds what the region found. -/
theorem arrAt0_in (c : Dev nD) (w : Fin (cfg0 a0).W) (hw : w.val < 7) :
    (dat0 V a0 c).arrAt w (cfg0 a0).N = V c (Pipeline.arrRef spec0 w) := by
  have hin : ((cfg0 a0).win w).isOut = false :=
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨n + 7, _⟩, h => absurd h (Nat.not_lt.2 (Nat.le_add_left 7 n))
  exact ((dat0 V a0 c).arrAt_in w hin _).trans (A_eq0 V a0 c w)

end Cert.Kernel.Hand

end
-- ==== Proof.Bits.Region0.Sched.lean ====
import proofs.«103908_j25280177504693_2_alg».proof.Proof.Bits.Region0.Dat

set_option maxRecDepth 16384

/-! # Region 0: the launch's two entailments, what the body finds in each window's buffer, where the outputs are idle

The inputs' buffers hold their blocks at every point. The two outputs are stored only at a k-tile's last chunk: at
the other points the configuration calls them idle, and there the pipeline writes nothing back, because the next
point is in the same k-tile. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a0 : (pcfg0 (F := F)).Adm)
/-- What the launch hands the region is the invariant before the first point. -/
theorem hin0 (c : Dev nD) :
    iprop((∃ r, prngReg c r) ∗ Pipeline.prefHeld (Ix := Unit) (Name := ℕ) (U := UR sig nD τ) (Lvl := ℕ) pre0 c (fun _ => fullShare) a0.1
      ∗ Pipeline.scopedRest (Ix := Unit) (Name := ℕ) (U := UR sig nD τ) (Lvl := ℕ) (Val := Elt F) spec0 c) ⊢ (dat0 V a0 c).Φ 0 :=
  Idealize.SL.BI.Entails.refl _

/-- After the last point the invariant gives the tables and the scoped buffers back, the accumulator's contents forgotten. -/
theorem hout0 (c : Dev nD) :
    (dat0 V a0 c).Φ (Fin.last _) ⊢ iprop(((∃ r, prngReg c r) ∗ Pipeline.prefHeld (Ix := Unit) (Name := ℕ) (U := UR sig nD τ) (Lvl := ℕ) pre0 c (fun _ => fullShare) a0.1)
      ∗ Pipeline.scopedRest (Ix := Unit) (Name := ℕ) (U := UR sig nD τ) (Lvl := ℕ) (Val := Elt F) spec0 c) := by
  show PhiAt V a0 c (Fin.last (cfg0 a0).N).val ⊢ _
  rw [Fin.val_last, PhiAt_pos V a0 c _ (show grid0.N ≠ 0 from by decide), prefHeld_eq, scopedRest0_eq]
  simp only [scM_owns]
  iintro ⟨Hg, HT, HS, HR⟩
  isplitl [Hg HT]
  · isplitl [Hg]; · iexact Hg
    iexact HT
  isplitl [HS]; · iexists _; iexact HS
  iexact HR

/-! ## What the body finds in each window's buffer -/

/-- Input window 0's current buffer holds its block at every point, fetched there or not: the window is never idle,
    never cut, and the body leaves the block in place. -/
theorem before_0 (c : Dev nD) (t : Fin (cfg0 a0).N) (d) : (dat0 V a0 c).before 0 t d = iblk V a0 c 0 t :=
  ((dat0 V a0 c).before_in_eq_fetched 0 rfl (fun _ => rfl) (fun _ _ _ => rfl)
    (fun t => by rw [after_0]; unfold Dat.blockOf iblk; rw [A_eq0]; try rfl) t d).trans
    (by unfold Dat.fetched Dat.blockOf iblk; rw [A_eq0]; try rfl)

/-- Input window 1's current buffer holds its block at every point, fetched there or not: the window is never idle,
    never cut, and the body leaves the block in place. -/
theorem before_1 (c : Dev nD) (t : Fin (cfg0 a0).N) (d) : (dat0 V a0 c).before 1 t d = iblk V a0 c 1 t :=
  ((dat0 V a0 c).before_in_eq_fetched 1 rfl (fun _ => rfl) (fun _ _ _ => rfl)
    (fun t => by rw [after_1]; unfold Dat.blockOf iblk; rw [A_eq0]; try rfl) t d).trans
    (by unfold Dat.fetched Dat.blockOf iblk; rw [A_eq0]; try rfl)

/-- Input window 2's current buffer holds its block at every point, fetched there or not: the window is never idle,
    never cut, and the body leaves the block in place. -/
theorem before_2 (c : Dev nD) (t : Fin (cfg0 a0).N) (d) : (dat0 V a0 c).before 2 t d = iblk V a0 c 2 t :=
  ((dat0 V a0 c).before_in_eq_fetched 2 rfl (fun _ => rfl) (fun _ _ _ => rfl)
    (fun t => by rw [after_2]; unfold Dat.blockOf iblk; rw [A_eq0]; try rfl) t d).trans
    (by unfold Dat.fetched Dat.blockOf iblk; rw [A_eq0]; try rfl)

/-- Input window 3's current buffer holds its block at every point, fetched there or not: the window is never idle,
    never cut, and the body leaves the block in place. -/
theorem before_3 (c : Dev nD) (t : Fin (cfg0 a0).N) (d) : (dat0 V a0 c).before 3 t d = iblk V a0 c 3 t :=
  ((dat0 V a0 c).before_in_eq_fetched 3 rfl (fun _ => rfl) (fun _ _ _ => rfl)
    (fun t => by rw [after_3]; unfold Dat.blockOf iblk; rw [A_eq0]; try rfl) t d).trans
    (by unfold Dat.fetched Dat.blockOf iblk; rw [A_eq0]; try rfl)

/-- Input window 4's current buffer holds its block at every point, fetched there or not: the window is never idle,
    never cut, and the body leaves the block in place. -/
theorem before_4 (c : Dev nD) (t : Fin (cfg0 a0).N) (d) : (dat0 V a0 c).before 4 t d = iblk V a0 c 4 t :=
  ((dat0 V a0 c).before_in_eq_fetched 4 rfl (fun _ => rfl) (fun _ _ _ => rfl)
    (fun t => by rw [after_4]; unfold Dat.blockOf iblk; rw [A_eq0]; try rfl) t d).trans
    (by unfold Dat.fetched Dat.blockOf iblk; rw [A_eq0]; try rfl)

/-- Input window 5's current buffer holds its block at every point, fetched there or not: the window is never idle,
    never cut, and the body leaves the block in place. -/
theorem before_5 (c : Dev nD) (t : Fin (cfg0 a0).N) (d) : (dat0 V a0 c).before 5 t d = iblk V a0 c 5 t :=
  ((dat0 V a0 c).before_in_eq_fetched 5 rfl (fun _ => rfl) (fun _ _ _ => rfl)
    (fun t => by rw [after_5]; unfold Dat.blockOf iblk; rw [A_eq0]; try rfl) t d).trans
    (by unfold Dat.fetched Dat.blockOf iblk; rw [A_eq0]; try rfl)

/-- Input window 6's current buffer holds its block at every point, fetched there or not: the window is never idle,
    never cut, and the body leaves the block in place. -/
theorem before_6 (c : Dev nD) (t : Fin (cfg0 a0).N) (d) : (dat0 V a0 c).before 6 t d = iblk V a0 c 6 t :=
  ((dat0 V a0 c).before_in_eq_fetched 6 rfl (fun _ => rfl) (fun _ _ _ => rfl)
    (fun t => by rw [after_6]; unfold Dat.blockOf iblk; rw [A_eq0]; try rfl) t d).trans
    (by unfold Dat.fetched Dat.blockOf iblk; rw [A_eq0]; try rfl)

/-! ## Where the two outputs are idle, and written back -/

theorem idle_of (w : Fin 9) (hw : w = 7 ∨ w = 8) (i : grid0.Coords) (hl : ¬condL i) : (cfg0 a0).idle w i = true := by
  have h : (k0_cond3 i == 1#1) = false := beq_false_of_ne hl
  rcases hw with rfl | rfl <;> (show (!(k0_cond3 i == 1#1)) = true; rw [h]; rfl)

theorem live_of (w : Fin 9) (hw : w = 7 ∨ w = 8) (i : grid0.Coords) (hl : condL i) : (cfg0 a0).idle w i = false := by
  have h : (k0_cond3 i == 1#1) = true := beq_iff_eq.mpr hl
  rcases hw with rfl | rfl <;> (show (!(k0_cond3 i == 1#1)) = false; rw [h]; rfl)

/-- Away from the last chunk the next point is in the same k-tile, so an output's block index does not move and
    the pipeline writes nothing back. -/
theorem noFlush_7 (t : Fin (cfg0 a0).N) (hl : ¬condL (grid0.coords t)) : ((cfg0 a0).win 7).flush t = false :=
  (by decide +kernel : ∀ t : Fin grid0.N, ¬condL (grid0.coords t) → Pipeline.Window.flushOf grid0 true cc0_transform_7 t = false) t hl
theorem noFlush_8 (t : Fin (cfg0 a0).N) (hl : ¬condL (grid0.coords t)) : ((cfg0 a0).win 8).flush t = false :=
  (by decide +kernel : ∀ t : Fin grid0.N, ¬condL (grid0.coords t) → Pipeline.Window.flushOf grid0 true cc0_transform_8 t = false) t hl

/-! ## The body obligation, at a generic point -/

/-- An input window's buffer is handed back at its block (the window is never idle). -/
theorem leaves_in_0 (c : Dev nD) (t : Fin (cfg0 a0).N) :
    (dat0 V a0 c).leavesExact 0 t = owns (c : Thread nD τ) (ms0 a0 t) fullShare (iblk V a0 c 0 t) := rfl
theorem leaves_in_1 (c : Dev nD) (t : Fin (cfg0 a0).N) :
    (dat0 V a0 c).leavesExact 1 t = owns (c : Thread nD τ) (ms1 a0 t) fullShare (iblk V a0 c 1 t) := rfl
theorem leaves_in_2 (c : Dev nD) (t : Fin (cfg0 a0).N) :
    (dat0 V a0 c).leavesExact 2 t = owns (c : Thread nD τ) (ms2 a0 t) fullShare (iblk V a0 c 2 t) := rfl
theorem leaves_in_3 (c : Dev nD) (t : Fin (cfg0 a0).N) :
    (dat0 V a0 c).leavesExact 3 t = owns (c : Thread nD τ) (ms3 a0 t) fullShare (iblk V a0 c 3 t) := rfl
theorem leaves_in_4 (c : Dev nD) (t : Fin (cfg0 a0).N) :
    (dat0 V a0 c).leavesExact 4 t = owns (c : Thread nD τ) (ms4 a0 t) fullShare (iblk V a0 c 4 t) := rfl
theorem leaves_in_5 (c : Dev nD) (t : Fin (cfg0 a0).N) :
    (dat0 V a0 c).leavesExact 5 t = owns (c : Thread nD τ) (ms5 a0 t) fullShare (iblk V a0 c 5 t) := rfl
theorem leaves_in_6 (c : Dev nD) (t : Fin (cfg0 a0).N) :
    (dat0 V a0 c).leavesExact 6 t = owns (c : Thread nD τ) (ms6 a0 t) fullShare (iblk V a0 c 6 t) := rfl

/-- At a point live for a window its buffer is handed back at what the body stored. -/
theorem leavesExact_live {cfg : Pipeline.Cfg sig Λ₀} {c : Dev nD} (dat : Dat τ (Elt F) Unit ℕ (UR sig nD τ) ℕ cfg c)
    (w : Fin cfg.W) (t : Fin cfg.N) (h : cfg.idle w (cfg.grid.coords t) = false) :
    dat.leavesExact w t = owns (c : Thread nD τ) ((cfg.win w).stage (cfg.slots t w)) fullShare (dat.after w t) := by
  unfold Dat.leavesExact; rw [h]

/-- At the last chunk an output window is live: its buffer is handed back at what the body stored. -/
theorem leaves_out_7 (c : Dev nD) (t : Fin (cfg0 a0).N) (hl : condL (grid0.coords t)) :
    (dat0 V a0 c).leavesExact 7 t = owns (c : Thread nD τ) (ms7 a0 t) fullShare
      (k0_pay4 (accAfter V a0 c t) (iblk V a0 c 2 t) (iblk V a0 c 3 t) (iblk V a0 c 4 t) (iblk V a0 c 6 t)) :=
  leavesExact_live (dat0 V a0 c) 7 t (live_of a0 7 (.inl rfl) _ hl)
theorem leaves_out_8 (c : Dev nD) (t : Fin (cfg0 a0).N) (hl : condL (grid0.coords t)) :
    (dat0 V a0 c).leavesExact 8 t = owns (c : Thread nD τ) (ms8 a0 t) fullShare
      (k0_pay5 (accAfter V a0 c t) (iblk V a0 c 5 t) (iblk V a0 c 6 t)) :=
  leavesExact_live (dat0 V a0 c) 8 t (live_of a0 8 (.inr rfl) _ hl)

/-- The invariant at a point's start and end, restated at the position. -/
theorem Phi_castSucc (c : Dev nD) (t : Fin (cfg0 a0).N) : (dat0 V a0 c).Φ t.castSucc = PhiAt V a0 c t.val := by
  dsimp only [dat0]; simp only [Fin.coe_castSucc]
theorem Phi_succ (c : Dev nD) (t : Fin (cfg0 a0).N) :
    (dat0 V a0 c).Φ t.succ = iprop((∃ r, prngReg c r) ∗ tables a0 c ∗ owns (c : Thread nD τ) scM fullShare (accAfter V a0 c t) ∗ rest4 c) := by
  dsimp only [dat0]; simp only [Fin.val_succ]; rfl

/-- What the body is called with at point `t` (the body obligation's precondition, the windows one by one), -/
def bodyPre (c : Dev nD) (t : Fin (cfg0 a0).N) : sProp 𝕄 :=
  iprop((dat0 V a0 c).Φ t.castSucc ∗ (dat0 V a0 c).owesAt () t.castSucc
    ∗ (∃ d, owns (c : Thread nD τ) (ms0 a0 t) fullShare ((dat0 V a0 c).before 0 t d))
    ∗ (∃ d, owns (c : Thread nD τ) (ms1 a0 t) fullShare ((dat0 V a0 c).before 1 t d))
    ∗ (∃ d, owns (c : Thread nD τ) (ms2 a0 t) fullShare ((dat0 V a0 c).before 2 t d))
    ∗ (∃ d, owns (c : Thread nD τ) (ms3 a0 t) fullShare ((dat0 V a0 c).before 3 t d))
    ∗ (∃ d, owns (c : Thread nD τ) (ms4 a0 t) fullShare ((dat0 V a0 c).before 4 t d))
    ∗ (∃ d, owns (c : Thread nD τ) (ms5 a0 t) fullShare ((dat0 V a0 c).before 5 t d))
    ∗ (∃ d, owns (c : Thread nD τ) (ms6 a0 t) fullShare ((dat0 V a0 c).before 6 t d))
    ∗ (∃ d, owns (c : Thread nD τ) (ms7 a0 t) fullShare ((dat0 V a0 c).before 7 t d))
    ∗ (∃ d, owns (c : Thread nD τ) (ms8 a0 t) fullShare ((dat0 V a0 c).before 8 t d)))

/-- and what it returns. -/
def bodyPost (c : Dev nD) (t : Fin (cfg0 a0).N) : sProp 𝕄 :=
  iprop((dat0 V a0 c).Φ t.succ ∗ (dat0 V a0 c).owesAt () t.succ
    ∗ (dat0 V a0 c).leavesExact 0 t
    ∗ (dat0 V a0 c).leavesExact 1 t
    ∗ (dat0 V a0 c).leavesExact 2 t
    ∗ (dat0 V a0 c).leavesExact 3 t
    ∗ (dat0 V a0 c).leavesExact 4 t
    ∗ (dat0 V a0 c).leavesExact 5 t
    ∗ (dat0 V a0 c).leavesExact 6 t
    ∗ (dat0 V a0 c).leavesExact 7 t
    ∗ (dat0 V a0 c).leavesExact 8 t)

end Cert.Kernel.Hand

end
-- ==== Proof.Bits.Region0.lean ====
import proofs.«103908_j25280177504693_2_alg».proof.Proof.Bits.Region0.Sched

set_option maxRecDepth 16384

/-! # Region 0: the body obligation

At every grid point the body, called on the windows' current buffers, the two tables and the accumulator, runs from
the invariant before the point to the invariant after it. Six cases: the chunk coordinate is zero, the last, or
neither (a function of the point), and the chunk is or is not between the two words the tables hold at the k-tile's
cell (a function of the tables' admissible contents, never evaluated). -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a0 : (pcfg0 (F := F)).Adm)

set_option maxHeartbeats 2000000 in
/-- The body obligation at a point of the case: a first chunk, out of range. The invariant hands the run the tables and the accumulator, the windows' buffers hold their blocks; what the run leaves is what the proof data say. -/
theorem sound_Z_F (c : Dev nD) (t : Fin (cfg0 a0).N) (hz : condZ (grid0.coords t)) (hw : ¬inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have hl : ¬condL (grid0.coords t) := not_condL_of_condZ _ hz
  rewrite [Dat.leavesExact_idle (dat0 V a0 c) 7 t (idle_of a0 7 (.inl rfl) _ hl) (noFlush_7 a0 t hl),
    Dat.leavesExact_idle (dat0 V a0 c) 8 t (idle_of a0 8 (.inr rfl) _ hl) (noFlush_8 a0 t hl),
    accAfter_Z V a0 c t hz, upd_F V a0 c t _ hw]
  iintro ⟨HΦ, Ho, ⟨%d0, H0⟩, ⟨%d1, H1⟩, ⟨%d2, H2⟩, ⟨%d3, H3⟩, ⟨%d4, H4⟩, ⟨%d5, H5⟩, ⟨%d6, H6⟩, H7, H8⟩
  ihave HΦ' := (PhiAt_any V a0 c t.val) $$ HΦ
  icases HΦ' with ⟨Hg, ⟨HLo, HHi⟩, HS, HR⟩
  iapply (run_Z_F c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) hz hl hw Set.univ _)
  isplitl [HLo]; · iexact HLo
  isplitl [HHi]; · iexact HHi
  isplitl [HS]; · iexact HS
  iintro ⟨HLo, HHi, HS⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body obligation at a point of the case: a first chunk, in range. The invariant hands the run the tables and the accumulator, the windows' buffers hold their blocks; what the run leaves is what the proof data say. -/
theorem sound_Z_T (c : Dev nD) (t : Fin (cfg0 a0).N) (hz : condZ (grid0.coords t)) (hw : inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have hl : ¬condL (grid0.coords t) := not_condL_of_condZ _ hz
  rewrite [Dat.leavesExact_idle (dat0 V a0 c) 7 t (idle_of a0 7 (.inl rfl) _ hl) (noFlush_7 a0 t hl),
    Dat.leavesExact_idle (dat0 V a0 c) 8 t (idle_of a0 8 (.inr rfl) _ hl) (noFlush_8 a0 t hl),
    accAfter_Z V a0 c t hz, upd_T V a0 c t _ hw]
  iintro ⟨HΦ, Ho, ⟨%d0, H0⟩, ⟨%d1, H1⟩, ⟨%d2, H2⟩, ⟨%d3, H3⟩, ⟨%d4, H4⟩, ⟨%d5, H5⟩, ⟨%d6, H6⟩, H7, H8⟩
  ihave HΦ' := (PhiAt_any V a0 c t.val) $$ HΦ
  icases HΦ' with ⟨Hg, ⟨HLo, HHi⟩, HS, HR⟩
  iapply (run_Z_T c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) (iblk V a0 c 0 t) (iblk V a0 c 1 t) hz hl hw Set.univ _)
  isplitl [HLo]; · iexact HLo
  isplitl [HHi]; · iexact HHi
  isplitl [H0]; · iexact H0
  isplitl [H1]; · iexact H1
  isplitl [HS]; · iexact HS
  iintro ⟨HLo, HHi, H0, H1, HS⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body obligation at a point of the case: a middle chunk, out of range. The invariant hands the run the tables, the windows' buffers hold their blocks; what the run leaves is what the proof data say. -/
theorem sound_M_F (c : Dev nD) (t : Fin (cfg0 a0).N) (hz : ¬condZ (grid0.coords t)) (hl : ¬condL (grid0.coords t)) (hw : ¬inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have ht : t.val ≠ 0 := fun h => hz (condZ_of_zero a0 t h)
  rewrite [PhiAt_pos V a0 c t.val ht,
    Dat.leavesExact_idle (dat0 V a0 c) 7 t (idle_of a0 7 (.inl rfl) _ hl) (noFlush_7 a0 t hl),
    Dat.leavesExact_idle (dat0 V a0 c) 8 t (idle_of a0 8 (.inr rfl) _ hl) (noFlush_8 a0 t hl),
    accAfter_N V a0 c t hz ht, upd_F V a0 c t _ hw]
  iintro ⟨⟨Hg, ⟨HLo, HHi⟩, HS, HR⟩, Ho, ⟨%d0, H0⟩, ⟨%d1, H1⟩, ⟨%d2, H2⟩, ⟨%d3, H3⟩, ⟨%d4, H4⟩, ⟨%d5, H5⟩, ⟨%d6, H6⟩, H7, H8⟩
  iapply (run_M_F c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) hz hl hw Set.univ _)
  isplitl [HLo]; · iexact HLo
  isplitl [HHi]; · iexact HHi
  iintro ⟨HLo, HHi⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body obligation at a point of the case: a middle chunk, in range. The invariant hands the run the tables and the accumulator, the windows' buffers hold their blocks; what the run leaves is what the proof data say. -/
theorem sound_M_T (c : Dev nD) (t : Fin (cfg0 a0).N) (hz : ¬condZ (grid0.coords t)) (hl : ¬condL (grid0.coords t)) (hw : inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have ht : t.val ≠ 0 := fun h => hz (condZ_of_zero a0 t h)
  rewrite [PhiAt_pos V a0 c t.val ht,
    Dat.leavesExact_idle (dat0 V a0 c) 7 t (idle_of a0 7 (.inl rfl) _ hl) (noFlush_7 a0 t hl),
    Dat.leavesExact_idle (dat0 V a0 c) 8 t (idle_of a0 8 (.inr rfl) _ hl) (noFlush_8 a0 t hl),
    accAfter_N V a0 c t hz ht, upd_T V a0 c t _ hw]
  iintro ⟨⟨Hg, ⟨HLo, HHi⟩, HS, HR⟩, Ho, ⟨%d0, H0⟩, ⟨%d1, H1⟩, ⟨%d2, H2⟩, ⟨%d3, H3⟩, ⟨%d4, H4⟩, ⟨%d5, H5⟩, ⟨%d6, H6⟩, H7, H8⟩
  iapply (run_M_T c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) (iblk V a0 c 0 t) (iblk V a0 c 1 t) (accN V a0 c (t.val - 1)) hz hl hw Set.univ _)
  isplitl [HLo]; · iexact HLo
  isplitl [HHi]; · iexact HHi
  isplitl [H0]; · iexact H0
  isplitl [H1]; · iexact H1
  isplitl [HS]; · iexact HS
  iintro ⟨HLo, HHi, H0, H1, HS⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body obligation at a point of the case: a last chunk, out of range. The invariant hands the run the tables and the accumulator, the windows' buffers hold their blocks, the two outputs' buffers are handed over at anything; what the run leaves is what the proof data say. -/
theorem sound_L_F (c : Dev nD) (t : Fin (cfg0 a0).N) (hz : ¬condZ (grid0.coords t)) (hl : condL (grid0.coords t)) (hw : ¬inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have ht : t.val ≠ 0 := fun h => hz (condZ_of_zero a0 t h)
  rewrite [PhiAt_pos V a0 c t.val ht, leaves_out_7 V a0 c t hl, leaves_out_8 V a0 c t hl, accAfter_N V a0 c t hz ht, upd_F V a0 c t _ hw]
  iintro ⟨⟨Hg, ⟨HLo, HHi⟩, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_L_F c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) (accN V a0 c (t.val - 1)) (iblk V a0 c 2 t) (iblk V a0 c 3 t) (iblk V a0 c 4 t) (iblk V a0 c 5 t) (iblk V a0 c 6 t) hz hl hw Set.univ _)
  isplitl [HLo]; · iexact HLo
  isplitl [HHi]; · iexact HHi
  isplitl [HS]; · iexact HS
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨HLo, HHi, HS, H2, H3, H4, H5, H6, H7, H8⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body obligation at a point of the case: a last chunk, in range. The invariant hands the run the tables and the accumulator, the windows' buffers hold their blocks, the two outputs' buffers are handed over at anything; what the run leaves is what the proof data say. -/
theorem sound_L_T (c : Dev nD) (t : Fin (cfg0 a0).N) (hz : ¬condZ (grid0.coords t)) (hl : condL (grid0.coords t)) (hw : inRange a0 t) :
    bodyPre V a0 c t ⊢ wp frame (wpE (defs₀ (F := F)) Variants.none c none) Set.univ (bodyAt a0 t) (fun _ => bodyPost V a0 c t) := by
  unfold bodyPre bodyPost
  simp only [before_0, before_1, before_2, before_3, before_4, before_5, before_6]
  rewrite [show (dat0 V a0 c).owesAt () t.succ = (dat0 V a0 c).owesAt () t.castSucc from rfl, Phi_succ, Phi_castSucc,
    leaves_in_0, leaves_in_1, leaves_in_2, leaves_in_3, leaves_in_4, leaves_in_5, leaves_in_6]
  have ht : t.val ≠ 0 := fun h => hz (condZ_of_zero a0 t h)
  rewrite [PhiAt_pos V a0 c t.val ht, leaves_out_7 V a0 c t hl, leaves_out_8 V a0 c t hl, accAfter_N V a0 c t hz ht, upd_T V a0 c t _ hw]
  iintro ⟨⟨Hg, ⟨HLo, HHi⟩, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_L_T c (grid0.coords t) tbLo (Memref.isWhole_whole _) tbHi (Memref.isWhole_whole _) (ms0 a0 t) (hstage0_0 (((cfg0 a0).slots t 0).cast nbuf0_0)) (ms1 a0 t) (hstage0_1 (((cfg0 a0).slots t 1).cast nbuf0_1)) (ms2 a0 t) (hstage0_2 (((cfg0 a0).slots t 2).cast nbuf0_2)) (ms3 a0 t) (hstage0_3 (((cfg0 a0).slots t 3).cast nbuf0_3)) (ms4 a0 t) (hstage0_4 (((cfg0 a0).slots t 4).cast nbuf0_4)) (ms5 a0 t) (hstage0_5 (((cfg0 a0).slots t 5).cast nbuf0_5)) (ms6 a0 t) (hstage0_6 (((cfg0 a0).slots t 6).cast nbuf0_6)) (ms7 a0 t) (hstage0_7 (((cfg0 a0).slots t 7).cast nbuf0_7)) (ms8 a0 t) (hstage0_8 (((cfg0 a0).slots t 8).cast nbuf0_8)) scM (Memref.isWhole_whole _) (loOf a0) (hiOf a0) (iblk V a0 c 0 t) (iblk V a0 c 1 t) (accN V a0 c (t.val - 1)) (iblk V a0 c 2 t) (iblk V a0 c 3 t) (iblk V a0 c 4 t) (iblk V a0 c 5 t) (iblk V a0 c 6 t) hz hl hw Set.univ _)
  isplitl [HLo]; · iexact HLo
  isplitl [HHi]; · iexact HHi
  isplitl [H0]; · iexact H0
  isplitl [H1]; · iexact H1
  isplitl [HS]; · iexact HS
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨HLo, HHi, H0, H1, HS, H2, H3, H4, H5, H6, H7, H8⟩
  isplitl [Hg HLo HHi HS HR]
  · isplitl [Hg]; · iexact Hg
    isplitl [HLo HHi]
    · isplitl [HLo]; · iexact HLo
      iexact HHi
    isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point: the grid coordinate says whether the chunk is the first, the last or neither, the
    tables' two words whether it is in range, and that case's run applies. -/
theorem sound_body (c : Dev nD) (t : Fin (cfg0 a0).N) :
    bodyPre V a0 c t ⊢ wp frame (wpE (defs₀ (F := F)) Variants.none c none) Set.univ (bodyAt a0 t) (fun _ => bodyPost V a0 c t) := by
  by_cases hz : condZ (grid0.coords t)
  · by_cases hw : inRange a0 t
    · exact sound_Z_T V a0 c t hz hw
    · exact sound_Z_F V a0 c t hz hw
  · by_cases hl : condL (grid0.coords t)
    · by_cases hw : inRange a0 t
      · exact sound_L_T V a0 c t hz hl hw
      · exact sound_L_F V a0 c t hz hl hw
    · by_cases hw : inRange a0 t
      · exact sound_M_T V a0 c t hz hl hw
      · exact sound_M_F V a0 c t hz hl hw

/-- The library's body obligation, at every point. -/
theorem body_obligation0 (c : Dev nD) : BodyObligation (dat0 V a0 c) (defs₀ (F := F)) Variants.none () Set.univ := fun t => by
  rw [bigSep_W0, bigSep_W0]
  exact sound_body V a0 c t

end Cert.Kernel.Hand

end
-- ==== Proof.Bits.Frames.lean ====
/- The kernel program's run, assembled: the two tables the first call prefetches taken as the contents the host
   computed, the contents the two calls leave in their result buffers named as what their write-backs leave, each
   call's record (entry from and exit to "every unscoped buffer at the boundary's contents, the generator register at
   some state, nothing owed"), and the launch over @main's items: every argument ends as launched. -/
import proofs.«103908_j25280177504693_2_alg».proof.Proof.Gen.Kernel.Regions
import proofs.«103908_j25280177504693_2_alg».proof.Proof.Bits.Region1
import proofs.«103908_j25280177504693_2_alg».proof.Proof.Bits.Region1Value
import proofs.«103908_j25280177504693_2_alg».proof.Proof.Bits.Region0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at the two calls' entries, and the tables -/

/-- What the first call is entered from: the launch memory after the sixteen host stretches before it. -/
abbrev Vr16 : (c : Dev nD) → (b : Ref sig .tc) → Buf (Elt F) ((c : Thread nD τ).loc b) := fun c b => V16 m c b

/-- The two chunk-bound tables as the host left them (one device: core 0's). -/
def adm0 : (pcfg0 (F := F)).Adm := ⟨fun k => Vr16 m 0 (pre0.ref k), trivial⟩

/-- Admissible tables for both calls: the first call's are the host's; the second has none. -/
def adm : (p : Fin 2) → (pcfgs (F := F) p).Adm
  | ⟨0, _⟩ => adm0 m
  | ⟨1, _⟩ => cfg1.toPCfg_adm

/-- What the first call's write-backs leave in its first result array (window 7), -/
def tl0 (c : Dev nD) : Buf (Elt F) ((c : Thread nD τ).loc main_v48_0) := (dat0 (Vr16 m) (adm0 m) c).arrAt 7 (cfg0 (adm0 m)).N
/-- and in its second (window 8). -/
def el0 (c : Dev nD) : Buf (Elt F) ((c : Thread nD τ).loc main_v48_1) := (dat0 (Vr16 m) (adm0 m) c).arrAt 8 (cfg0 (adm0 m)).N
theorem tl0_eq (c : Dev nD) : tl0 m c = (dat0 (Vr16 m) (adm0 m) c).arrAt 7 (cfg0 (adm0 m)).N := rfl
theorem el0_eq (c : Dev nD) : el0 m c = (dat0 (Vr16 m) (adm0 m) c).arrAt 8 (cfg0 (adm0 m)).N := rfl

/-- The buffers after the first call: its two result arrays at what the write-backs leave. -/
def W17 (c : Dev nD) : (b : Ref sig .tc) → Buf (Elt F) ((c : Thread nD τ).loc b) :=
  Function.update (Function.update (Vr16 m c) main_v48_0 (tl0 m c)) main_v48_1 (el0 m c)

/-- The unknowns of the generated valuations, first layer: the first call's results. -/
def outs17 : Outs (F := F) := fun _ r c => W17 m c r

/-- What the second call is entered from. -/
abbrev Vr20 : (c : Dev nD) → (b : Ref sig .tc) → Buf (Elt F) ((c : Thread nD τ).loc b) := fun c b => V20 m (outs17 m) c b

/-- Second layer: at item 21 the result buffer holds what the second call's write-back leaves (window 3). -/
def cl0 (c : Dev nD) : Buf (Elt F) ((c : Thread nD τ).loc main_v78) := (dat1 (Vr20 m) c).arrAt 3 cfg1.N
theorem cl0_eq (c : Dev nD) : cl0 m c = (dat1 (Vr20 m) c).arrAt 3 cfg1.N := rfl
def outsF : Outs (F := F) := fun j r c =>
  if j = 21 then Function.update (fun r => outs17 m j r c) main_v78 (cl0 m c) r else outs17 m j r c

/-- Away from item 21 the two layers agree. -/
theorem outsF_of_ne (j : ℕ) (hj : j ≠ 21) (r : Ref sig .tc) (c : Dev nD) : outsF m j r c = outs17 m j r c := if_neg hj
/-- At item 21 the result buffer holds the second call's write-back. -/
theorem outsF_21 (c : Dev nD) : outsF m 21 main_v78 c = cl0 m c := by
  unfold outsF; rw [if_pos rfl, Function.update_self]
theorem outs17_0 (j : ℕ) (c : Dev nD) : outs17 m j main_v48_0 c = tl0 m c := by
  unfold outs17 W17; rw [Function.update_of_ne (by decide), Function.update_self]
theorem outs17_1 (j : ℕ) (c : Dev nD) : outs17 m j main_v48_1 c = el0 m c := by
  unfold outs17 W17; rw [Function.update_self]
theorem V17_outsF (c : Dev nD) : V17 m (outsF m) c = V17 m (outs17 m) c := by
  unfold V17; rw [outsF_of_ne m 17 (by decide), outsF_of_ne m 17 (by decide)]
theorem V20_outsF (c : Dev nD) : V20 m (outsF m) c = V20 m (outs17 m) c := by
  unfold V20 V19 V18; rw [V17_outsF]

/-- Every call's proof data, each at its entry contents. -/
def pdats : (p : Fin 2) → (c : Dev nD) → Dat τ (Elt F) Unit ℕ (UR sig nD τ) ℕ (Pipeline.pin (pcfgs (F := F)) (adm m) p) c
  | ⟨0, _⟩ => fun c => dat0 (Vr16 m) (adm0 m) c
  | ⟨1, _⟩ => fun c => dat1 (Vr20 m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev Rst (c : Dev nD) : sProp 𝕄 := iprop((∃ r, prngReg c r) ∗ ∃ W, owes (c : Thread nD τ) (0 : CellTallies nD τ sig Unit) W)

/-! ## The second call's record -/

/-- After the second call the buffers hold, at each of its arrays, what the write-backs leave: the three operand
    arrays their entry contents (never written back), the result array the one block the point stores. -/
theorem hF1 (c : Dev nD) : ∀ w : Fin cfg1.W, (dat1 (Vr20 m) c).arrAt w cfg1.N = V21 m (outsF m) c (Pipeline.arrRef spec1 w)
  | ⟨0, _⟩ => show (dat1 (Vr20 m) c).arrAt 0 cfg1.N = V21 m (outsF m) c (Pipeline.arrRef spec1 0) from by
    rw [V21_of m (outsF m) c (Pipeline.arrRef spec1 0) (by decide), V20_outsF]; exact arrAt1_in (Vr20 m) c 0 (Or.inl rfl)
  | ⟨1, _⟩ => show (dat1 (Vr20 m) c).arrAt 1 cfg1.N = V21 m (outsF m) c (Pipeline.arrRef spec1 1) from by
    rw [V21_of m (outsF m) c (Pipeline.arrRef spec1 1) (by decide), V20_outsF]; exact arrAt1_in (Vr20 m) c 1 (Or.inr (Or.inl rfl))
  | ⟨2, _⟩ => show (dat1 (Vr20 m) c).arrAt 2 cfg1.N = V21 m (outsF m) c (Pipeline.arrRef spec1 2) from by
    rw [V21_of m (outsF m) c (Pipeline.arrRef spec1 2) (by decide), V20_outsF]; exact arrAt1_in (Vr20 m) c 2 (Or.inr (Or.inr rfl))
  | ⟨3, _⟩ => show cl0 m c = Function.update (V20 m (outsF m) c) (Proc.devRef .tc main_v78) (outsF m 21 main_v78 c) (Proc.devRef .tc main_v78) from by
    rw [Function.update_self, outsF_21]

/-- Off the second call's arrays nothing changes across it. -/
theorem hrest1 (c : Dev nD) : ∀ b, b ∉ Finset.univ.image (Pipeline.arrRef spec1) → V21 m (outsF m) c b = Vr20 m c b := fun b hb => by
  rw [V21_of m (outsF m) c b (fun h => hb (by
    rw [List.mem_singleton.mp h]; exact Finset.mem_image.mpr ⟨3, Finset.mem_univ _, rfl⟩)), V20_outsF]

set_option backward.isDefEq.respectTransparency.types false in
/-- The second call over the thread state: entered from every unscoped buffer at the contents before it, left at
    the contents after it; its arrays split out of the unscoped buffers and put back at the exit contents; the
    generator register into the invariant and out; nothing owed; no semaphore of the kernel's own. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (Vr20 m) c).loose
  hwaits := Pipeline.hwaits_of_owed_zero (pcfgs (F := F)) (adm m) (pdats m) () L lv 1 fun _ _ => rfl
  pre c := iprop(StableHlo.held (c : Thread nD τ) (Pipeline.ucRefs τ sig) (V20 m (outs17 m) c) ∗ Rst c)
  post c := iprop(StableHlo.held (c : Thread nD τ) (Pipeline.ucRefs τ sig) (V21 m (outsF m) c) ∗ Rst c)
  X c := iprop(∃ r, prngReg c r)
  Y c := iprop(∃ r, prngReg c r)
  Z c := Pipeline.unscopedRest (Ix := Unit) (Name := ℕ) (U := UR sig nD τ) (Lvl := ℕ) spec1 c (Vr20 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (Vr20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (Vr20 m c) (fun b => V21 m (outsF m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The first call's record -/

/-- After the first call the buffers hold, at each of its arrays, what the write-backs leave: the seven operand
    arrays their entry contents, the two result arrays what the points of each k-tile's last chunk store. -/
theorem hF0 (c : Dev nD) : ∀ w : Fin (cfg0 (adm0 m)).W,
    (dat0 (Vr16 m) (adm0 m) c).arrAt w (cfg0 (adm0 m)).N = V17 m (outs17 m) c (Pipeline.arrRef spec0 w)
  | ⟨0, _⟩ => show (dat0 (Vr16 m) (adm0 m) c).arrAt 0 (cfg0 (adm0 m)).N = V17 m (outs17 m) c (Pipeline.arrRef spec0 0) from by
    rw [V17_of m (outs17 m) c (Pipeline.arrRef spec0 0) (by decide)]; exact arrAt0_in (Vr16 m) (adm0 m) c 0 (show (0 : ℕ) < 7 from by decide)
  | ⟨1, _⟩ => show (dat0 (Vr16 m) (adm0 m) c).arrAt 1 (cfg0 (adm0 m)).N = V17 m (outs17 m) c (Pipeline.arrRef spec0 1) from by
    rw [V17_of m (outs17 m) c (Pipeline.arrRef spec0 1) (by decide)]; exact arrAt0_in (Vr16 m) (adm0 m) c 1 (show (1 : ℕ) < 7 from by decide)
  | ⟨2, _⟩ => show (dat0 (Vr16 m) (adm0 m) c).arrAt 2 (cfg0 (adm0 m)).N = V17 m (outs17 m) c (Pipeline.arrRef spec0 2) from by
    rw [V17_of m (outs17 m) c (Pipeline.arrRef spec0 2) (by decide)]; exact arrAt0_in (Vr16 m) (adm0 m) c 2 (show (2 : ℕ) < 7 from by decide)
  | ⟨3, _⟩ => show (dat0 (Vr16 m) (adm0 m) c).arrAt 3 (cfg0 (adm0 m)).N = V17 m (outs17 m) c (Pipeline.arrRef spec0 3) from by
    rw [V17_of m (outs17 m) c (Pipeline.arrRef spec0 3) (by decide)]; exact arrAt0_in (Vr16 m) (adm0 m) c 3 (show (3 : ℕ) < 7 from by decide)
  | ⟨4, _⟩ => show (dat0 (Vr16 m) (adm0 m) c).arrAt 4 (cfg0 (adm0 m)).N = V17 m (outs17 m) c (Pipeline.arrRef spec0 4) from by
    rw [V17_of m (outs17 m) c (Pipeline.arrRef spec0 4) (by decide)]; exact arrAt0_in (Vr16 m) (adm0 m) c 4 (show (4 : ℕ) < 7 from by decide)
  | ⟨5, _⟩ => show (dat0 (Vr16 m) (adm0 m) c).arrAt 5 (cfg0 (adm0 m)).N = V17 m (outs17 m) c (Pipeline.arrRef spec0 5) from by
    rw [V17_of m (outs17 m) c (Pipeline.arrRef spec0 5) (by decide)]; exact arrAt0_in (Vr16 m) (adm0 m) c 5 (show (5 : ℕ) < 7 from by decide)
  | ⟨6, _⟩ => show (dat0 (Vr16 m) (adm0 m) c).arrAt 6 (cfg0 (adm0 m)).N = V17 m (outs17 m) c (Pipeline.arrRef spec0 6) from by
    rw [V17_of m (outs17 m) c (Pipeline.arrRef spec0 6) (by decide)]; exact arrAt0_in (Vr16 m) (adm0 m) c 6 (show (6 : ℕ) < 7 from by decide)
  | ⟨7, _⟩ => show tl0 m c = Function.update (Function.update (V16 m c) (Proc.devRef .tc main_v48_0) (outs17 m 17 main_v48_0 c)) (Proc.devRef .tc main_v48_1) (outs17 m 17 main_v48_1 c) (Proc.devRef .tc main_v48_0) from by
    rw [Function.update_of_ne (by decide), Function.update_self, outs17_0]
  | ⟨8, _⟩ => show el0 m c = Function.update (Function.update (V16 m c) (Proc.devRef .tc main_v48_0) (outs17 m 17 main_v48_0 c)) (Proc.devRef .tc main_v48_1) (outs17 m 17 main_v48_1 c) (Proc.devRef .tc main_v48_1) from by
    rw [Function.update_self, outs17_1]

/-- Off the first call's arrays nothing changes across it. -/
theorem hrest0 (c : Dev nD) : ∀ b, b ∉ Finset.univ.image (Pipeline.arrRef spec0) → V17 m (outs17 m) c b = Vr16 m c b := fun b hb => by
  refine V17_of m (outs17 m) c b (fun h => hb ?_)
  rcases List.mem_cons.mp h with h | h
  · rw [h]; exact Finset.mem_image.mpr ⟨7, Finset.mem_univ _, rfl⟩
  · rw [List.mem_singleton.mp h]; exact Finset.mem_image.mpr ⟨8, Finset.mem_univ _, rfl⟩

/-- One device: the tables read at core 0 are the tables on every core. -/
theorem adm0_eq (c : Dev nD) : (fun k => Vr16 m c ((pcfgs (F := F) 0).pre.ref k)) = (adm m 0).1 := by
  obtain rfl : c = 0 := Subsingleton.elim _ _
  rfl

set_option backward.isDefEq.respectTransparency.types false in
/-- The first call over the thread state: entered from every unscoped buffer at the contents the host stretches
    left, left at those contents updated at its two result arrays. Its arrays and its two tables split out of the
    unscoped buffers; the tables and the generator register into the invariant and out; nothing owed; no semaphore of
    the kernel's own. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vr16 m) (adm0 m) c).loose
  hwaits := Pipeline.hwaits_of_owed_zero (pcfgs (F := F)) (adm m) (pdats m) () L lv 0 fun _ _ => rfl
  pre c := iprop(StableHlo.held (c : Thread nD τ) (Pipeline.ucRefs τ sig) (V16 m c) ∗ Rst c)
  post c := iprop(StableHlo.held (c : Thread nD τ) (Pipeline.ucRefs τ sig) (V17 m (outs17 m) c) ∗ Rst c)
  X c := iprop(∃ r, prngReg c r)
  Y c := iprop((∃ r, prngReg c r) ∗ Pipeline.prefHeld pre0 c (fun _ => fullShare) (adm0 m).1)
  Z c := Pipeline.unscopedRestP (Ix := Unit) (Name := ℕ) (U := UR sig nD τ) (Lvl := ℕ) pre0 spec0 c (Vr16 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Vr16 m c) fun _ => rfl
    rw [Pipeline.unscopedBufs_held, Pipeline.unscopedRest_split (launch0 (F := F)).pre c (Vr16 m c), adm0_eq m c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (Vr16 m) (adm0 m) c
  hout c := by
    rw [Pipeline.ownSems0_none]
    refine (hout0 (Vr16 m) (adm0 m) c).trans ?_
    iintro ⟨HY, Hr⟩
    isplitl [HY]; · iexact HY
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (Vr16 m c) (fun b => V17 m (outs17 m) c b) ((pdats m 0 c).arrAt · (cfg0 (adm0 m)).N) (hF0 m c) (hrest0 m c)
    rw [Pipeline.unscopedBufs_held, Pipeline.unscopedRest_split (launch0 (F := F)).pre c (Vr16 m c), adm0_eq m c] at hjoin
    iintro ⟨Ha, HO, ⟨Hp, Ht⟩, Hrest⟩
    imodintro
    isplitl [Ha Ht Hrest]
    · iapply hjoin; isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The launch -/

/-- The launch element: the pipelines' cells and duty tokens as the library deals them. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

theorem hu₀ : (ownU (u₀ m) : sProp 𝕄) ⊢ |={Set.univ}=> iprop(BI.own (emb₁ (u₀ m)) ∗ bigSep Finset.univ fun _ : Dev nD => (iprop(emp) : sProp 𝕄)) := by
  iintro Hu; imodintro
  isplitl [Hu]
  · iapply (show (ownU (u₀ m) : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

variable (ρ : Dev nD → PrngReg)

/-- At launch every core makes the rest state: its generator register, and nothing owed. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ iprop(emp))) ∗ levAts L lv)
    ⊢ (|={Set.univ}=> bigSep Finset.univ (fun c : Dev nD => Rst c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : Rst c ⊢ (iprop(∃ W, owes (c : Thread nD τ) (0 : CellTallies nD τ sig Unit) W) : sProp 𝕄) := by
  iintro ⟨-, HO⟩; iexact HO

set_option backward.isDefEq.respectTransparency.types false in
/-- THE FRAME, at any instance: every weakly fair execution of @main from memory `m` with zero counters terminates,
    nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m (EP := emb₁) (ι := ()) (𝒱₀ := 𝒱₀) (L := L) (lv := lv) (hL := fun _ _ => rfl) (ρ := ρ) (outs := outsF m) (a := adm m) (pdats := pdats m)
    (O₀ := 0) (G := fun _ => iprop(emp)) (u₀ := u₀ m) (hu₀ := hu₀ m) (E := fun _ c => Rst c) (hE0 := hE0 ρ) (hE2 := hE2)
    (R0 := reg0 m) (hpre0 := fun c => Entails.of_eq rfl) (hpost0 := fun c => by rw [V17_outsF]; exact Entails.of_eq rfl)
    (R1 := reg1 m) (hpre1 := fun c => by rw [V20_outsF]; exact Entails.of_eq rfl) (hpost1 := fun c => Entails.of_eq rfl)

end Cert.Kernel.Hand

end
-- ==== Proof.FramesRun.lean ====
/- The kernel program's run with its result named: the launch over @main's items once more, its post also reading
   the result buffer — it ends at what the second call's write-back leaves, which is the second call's one store of
   the first call's two result arrays and the weight column. -/
import proofs.«103908_j25280177504693_2_alg».proof.Proof.Frames
import proofs.«103908_j25280177504693_2_alg».proof.Proof.RunCond

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the second call reads, and what it leaves -/

/-- The host stretches between the two calls write neither of the first call's result arrays: the second call finds
    them as the first call's write-backs left them. -/
theorem Vr20_tl (c : Dev nD) : Vr20 m c main_v48_0 = tl0 m c := by
  show V20 m (outs17 m) c main_v48_0 = _
  rw [V20_of m (outs17 m) c main_v48_0 (by decide), V19_of m (outs17 m) c main_v48_0 (by decide), V18_of m (outs17 m) c main_v48_0 (by decide)]
  show Function.update (Function.update (V16 m c) (Proc.devRef .tc main_v48_0) (outs17 m 17 main_v48_0 c)) (Proc.devRef .tc main_v48_1) (outs17 m 17 main_v48_1 c) (Proc.devRef .tc main_v48_0) = _
  rw [Function.update_of_ne (by decide), Function.update_self, outs17_0]

theorem Vr20_el (c : Dev nD) : Vr20 m c main_v48_1 = el0 m c := by
  show V20 m (outs17 m) c main_v48_1 = _
  rw [V20_of m (outs17 m) c main_v48_1 (by decide), V19_of m (outs17 m) c main_v48_1 (by decide), V18_of m (outs17 m) c main_v48_1 (by decide)]
  show Function.update (Function.update (V16 m c) (Proc.devRef .tc main_v48_0) (outs17 m 17 main_v48_0 c)) (Proc.devRef .tc main_v48_1) (outs17 m 17 main_v48_1 c) (Proc.devRef .tc main_v48_1) = _
  rw [Function.update_self, outs17_1]

/-- The result: the second call's one store, of the first call's two result arrays and the weight column. -/
theorem cl0_value (c : Dev nD) : cl0 m c = Gen.k1_pay1 (tl0 m c) (el0 m c) (Vr20 m c main_v77) := by
  rw [cl0_eq, arrAt1_out]
  show Gen.k1_pay1 (Vr20 m c main_v48_0) (Vr20 m c main_v48_1) (Vr20 m c main_v77) = _
  rw [Vr20_tl, Vr20_el]

variable (ρ : Dev nD → PrngReg)

set_option backward.isDefEq.respectTransparency.types false in
/-- THE RUN: the frame, and the result buffer ends at what the second call's write-back leaves. -/
theorem run : θ_run defs (onTc (τ := τ) (main (F := F))) ⟨m, fun _ => 0, ρ⟩ (fun r => ∀ c : Dev nD,
      r.2.mem ((c.tc : Thread nD τ).loc main_v78) = cl0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (show Function.update (V20 m (outsF m) c) (Proc.devRef .tc main_v78) (outsF m 21 main_v78 c) (Proc.devRef .tc main_v78) = cl0 m c from by rw [Function.update_self, outsF_21]), (h c).2⟩)
    (run_cond m (EP := emb₁) (ι := ()) (𝒱₀ := 𝒱₀) (L := L) (lv := lv) (hL := fun _ _ => rfl) (ρ := ρ) (outs := outsF m) (a := adm m) (pdats := pdats m)
    (O₀ := 0) (G := fun _ => iprop(emp)) (u₀ := u₀ m) (hu₀ := hu₀ m) (E := fun _ c => Rst c) (hE0 := hE0 ρ) (hE2 := hE2)
    (R0 := reg0 m) (hpre0 := fun c => Entails.of_eq rfl) (hpost0 := fun c => by rw [V17_outsF]; exact Entails.of_eq rfl)
    (R1 := reg1 m) (hpre1 := fun c => by rw [V20_outsF]; exact Entails.of_eq rfl) (hpost1 := fun c => Entails.of_eq rfl))

end Cert.KernelIdeal.Hand

end
-- ==== Proof.RefRun.lean ====
/- The reference program's run, read off its printed text: @main's 383 host operations as one list (the operations of
   every called function standing where the call stands, over that call's own buffers), the program equal to the
   sequence of that list, and hence: every weakly fair execution terminates with each buffer holding the fold of the
   operations over the launch memory, and a buffer that no operation writes (every argument) ends as it started. -/
import proofs.«103908_j25280177504693_2_alg».proof.Defs
import proofs.«103908_j25280177504693_2_alg».proof.Proof.Gen.ReferenceIdeal
import proofs.«103908_j25280177504693_2_alg».proof.Proof.Gen.Pre_finite_inputs
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 70 of 383: the statements of window `main_part0`, each call replaced by the
    called function's operations over the call's buffers. -/
abbrev ops_part0 : List (HloOp τ sig (Elt F)) :=
  [ StableHlo.unary main_arg7 main_v0 ((extractStridedSlice S1 ![0] · slices_S20000_S1_0) : (⟨S20000, .f32⟩ : BufTy).Contents (Elt F) → (⟨S1, .f32⟩ : BufTy).Contents (Elt F)),
    StableHlo.reshape main_v0 main_v1 rfl shapeCasts_S1_S_,
    StableHlo.unary main_arg7 main_v2 ((extractStridedSlice S1 ![19999] · slices_S20000_S1_19999) : (⟨S20000, .f32⟩ : BufTy).Contents (Elt F) → (⟨S1, .f32⟩ : BufTy).Contents (Elt F)),
    StableHlo.reshape main_v2 main_v3 rfl shapeCasts_S1_S_,
    StableHlo.unary main_arg0 main_v4 (broadcastInDim S1024x1 ![0] bcast_S1024_S1024x1_0 : (⟨S1024, .f32⟩ : BufTy).Contents (Elt F) → (⟨S1024x1, .f32⟩ : BufTy).Contents (Elt F)),
    StableHlo.unary main_arg2 main_v5 (broadcastInDim S600 ![] bcast_S_S600 : (⟨S_, .f32⟩ : BufTy).Contents (Elt F) → (⟨S600, .f32⟩ : BufTy).Contents (Elt F)),
    StableHlo.binary main_v5 main_arg1 main_v6 (subf : (⟨S600, .f32⟩ : BufTy).Contents (Elt F) → (⟨S600, .f32⟩ : BufTy).Contents (Elt F) → (⟨S600, .f32⟩ : BufTy).Contents (Elt F)),
    StableHlo.unary main_v6 main_v7 (broadcastInDim S1x600 ![1] bcast_S600_S1x600_1 : (⟨S600, .f32⟩ : BufTy).Contents (Elt F) → (⟨S1x600, .f32⟩ : BufTy).Contents (Elt F)),
    StableHlo.unary main_v4 main_v8 (broadcastInDim S1024x600 ![0, 1] bcast_S1024x1_S1024x600_0_1 : (⟨S1024x1, .f32⟩ : BufTy).Contents (Elt F) → (⟨S1024x600, .f32⟩ : BufTy).Contents (Elt F)),
    StableHlo.unary main_v7 main_v9 (broadcastInDim S1024x600 ![0, 1] bcast_S1x600_S1024x600_0_1 : (⟨S1x600, .f32⟩ : BufTy).Contents (Elt F) → (⟨S1024x600, .f32⟩ : BufTy).Contents (Elt F)),
    StableHlo.binary main_v8 main_v9 main_v10 (mulf : (⟨S1024x600, .f32⟩ : BufTy).Contents (Elt F) → (⟨S1024x600, .f32⟩ : BufTy).Contents (Elt F) → (⟨S1024x600, .f32⟩ : BufTy).Contents (Elt F)),
    StableHlo.unary main_v1 main_v11 (broadcastInDim S1024x600 ![] bcast_S_S1024x600 : (⟨S_, .f32⟩ : BufTy).Contents (Elt F) → (⟨S1024x600, .f32⟩ : BufTy).Contents (Elt F)),
    StableHlo.binary main_v10 main_v11 main_v12 (subf : (⟨S1024x600, .f32⟩ : BufTy).Contents (Elt F) → (⟨S1024x600, .f32⟩ : BufTy).Contents (Elt F) → (⟨S1024x600, .f32⟩ : BufTy).Contents (Elt F)),
    StableHlo.binary main_v3 main_v1 main_v13 (subf : (⟨S_, .f32⟩ : BufTy).Contents (Elt F) → (⟨S_, .f32⟩ : BufTy).Contents (Elt F) → (⟨S_, .f32⟩ : BufTy).Contents (Elt F)),
    StableHlo.unary main_v13 main_v14 (broadcastInDim S1024x600 ![] bcast_S_S1024x600 : (⟨S_, .f32⟩ : BufTy).Contents (Elt F) → (⟨S1024x600, .f32⟩ : BufTy).Contents (Elt F)),
    StableHlo.binary main_v12 main_v14 main_v15 (Host.divf : (⟨S1024x600, .f32⟩ : BufTy).Contents (Elt F) → (⟨S1024x600, .f32⟩ : BufTy).Contents (Elt F) → (⟨S1024x600, .f32⟩ : BufTy).Contents (Elt F)),
    StableHlo.nullary main_cst (constant S_ .f32 0x469C3E00#32),
    StableHlo.unary main_cst main_v16 (broadcastInDim S1024x600 ![] bcast_S_S1024x600 : (⟨S_, .f32⟩ : BufTy).Contents (Elt F) → (⟨S1024x600, .f32⟩ : BufTy).Contents (Elt F)),
    StableHlo.binary main_v15 main_v16 main_v17 (mulf : (⟨S1024x600, .f32⟩ : BufTy).Contents (Elt F) → (⟨S1024x600, .f32⟩ : BufTy).Contents (Elt F) → (⟨S1024x600, .f32⟩ : BufTy).Contents (Elt F)),
    StableHlo.nullary main_cst_0 (constant S_ .f32 0x00000000#32),
    StableHlo.nullary main_cst_1 (constant S_ .f32 0x469C3E00#32),
    StableHlo.TRef.unary (StableHlo.TRef.of (T := ⟨S_, .f32⟩) main_cst_0) main_call0.v0 id,
    StableHlo.TRef.unary main_call0.v0 main_call0.v1 (broadcastInDim S1024x600 ![] bcast_S_S1024x600),
    StableHlo.TRef.binary main_call0.v1 (StableHlo.TRef.of (T := ⟨S1024x600, .f32⟩) main_v17) main_call0.v2 maximumf,
    StableHlo.TRef.unary (StableHlo.TRef.of (T := ⟨S_, .f32⟩) main_cst_1) main_call0.v3 id,
    StableHlo.TRef.unary main_call0.v3 main_call0.v4 (broadcastInDim S1024x600 ![] bcast_S_S1024x600),
    StableHlo.TRef.binary main_call0.v4 main_call0.v2 main_call0.v5 minimumf,
    StableHlo.unary main_v18 main_v19 (Host.floor : (⟨S1024x600, .f32⟩ : BufTy).Contents (Elt F) → (⟨S1024x600, .f32⟩ : BufTy).Contents (Elt F)),
    StableHlo.unary main_v19 main_v20 (fptosi 32 : (⟨S1024x600, .f32⟩ : BufTy).Contents (Elt F) → (⟨S1024x600, .i32⟩ : BufTy).Contents (Elt F)),
    StableHlo.nullary main_c (constantI S_ 32 0#32),
    StableHlo.nullary main_c_2 (constantI S_ 32 19998#32),
    StableHlo.TRef.unary (StableHlo.TRef.of (T := ⟨S_, .i32⟩) main_c) main_call1.v0 id,
    StableHlo.TRef.unary main_call1.v0 main_call1.v1 (broadcastInDim S1024x600 ![] bcast_S_S1024x600),
    StableHlo.TRef.binary main_call1.v1 (StableHlo.TRef.of (T := ⟨S1024x600, .i32⟩) main_v20) main_call1.v2 maxsi,
    StableHlo.TRef.unary (StableHlo.TRef.of (T := ⟨S_, .i32⟩) main_c_2) main_call1.v3 id,
    StableHlo.TRef.unary main_call1.v3 main_call1.v4 (broadcastInDim S1024x600 ![] bcast_S_S1024x600),
    StableHlo.TRef.binary main_call1.v4 main_call1.v2 main_call1.v5 minsi,
    StableHlo.unary main_v21 main_v22 (sitofp .f32 : (⟨S1024x600, .i32⟩ : BufTy).Contents (Elt F) → (⟨S1024x600, .f32⟩ : BufTy).Contents (Elt F)),
    StableHlo.binary main_v18 main_v22 main_v23 (subf : (⟨S1024x600, .f32⟩ : BufTy).Contents (Elt F) → (⟨S1024x600, .f32⟩ : BufTy).Contents (Elt F) → (⟨S1024x600, .f32⟩ : BufTy).Contents (Elt F)),
    StableHlo.nullary main_c_3 (constantI S_ 32 0#32),
    StableHlo.unary main_c_3 main_v24 (broadcastInDim S1024x600 ![] bcast_S_S1024x600 : (⟨S_, .i32⟩ : BufTy).Contents (Elt F) → (⟨S1024x600, .i32⟩ : BufTy).Contents (Elt F)),
    StableHlo.binary main_v21 main_v24 main_v25 (cmpi .slt : (⟨S1024x600, .i32⟩ : BufTy).Contents (Elt F) → (⟨S1024x600, .i32⟩ : BufTy).Contents (Elt F) → (⟨S1024x600, .i1⟩ : BufTy).Contents (Elt F)),
    StableHlo.nullary main_c_4 (constantI S_ 32 20000#32),
    StableHlo.unary main_c_4 main_v26 (broadcastInDim S1024x600 ![] bcast_S_S1024x600 : (⟨S_, .i32⟩ : BufTy).Contents (Elt F) → (⟨S1024x600, .i32⟩ : BufTy).Contents (Elt F)),
    StableHlo.binary main_v21 main_v26 main_v27 (addi : (⟨S1024x600, .i32⟩ : BufTy).Contents (Elt F) → (⟨S1024x600, .i32⟩ : BufTy).Contents (Elt F) → (⟨S1024x600, .i32⟩ : BufTy).Contents (Elt F)),
    StableHlo.ternary main_v25 main_v27 main_v21 main_v28 (select : (⟨S1024x600, .i1⟩ : BufTy).Contents (Elt F) → (⟨S1024x600, .i32⟩ : BufTy).Contents (Elt F) → (⟨S1024x600, .i32⟩ : BufTy).Contents (Elt F) → (⟨S1024x600, .i32⟩ : BufTy).Contents (Elt F)),
    StableHlo.unary main_v28 main_v29 (broadcastInDim S1024x600x1 ![0, 1] bcast_S1024x600_S1024x600x1_0_1 : (⟨S1024x600, .i32⟩ : BufTy).Contents (Elt F) → (⟨S1024x600x1, .i32⟩ : BufTy).Contents (Elt F)),
    StableHlo.unary main_arg8 main_v30 ((transpose S48x20000 [1, 0] · transposes_S20000x48_S48x20000_1_0) : (⟨S20000x48, .f32⟩ : BufTy).Contents (Elt F) → (⟨S48x20000, .f32⟩ : BufTy).Contents (Elt F)),
    StableHlo.binary main_v30 main_v29 main_v31 ((fun x i => Host.gather gather_S48x20000_S1024x600x1_S48x1024x600_0_1_n_n_1_2_481 x i) : (⟨S48x20000, .f32⟩ : BufTy).Contents (Elt F) → (⟨S1024x600x1, .i32⟩ : BufTy).Contents (Elt F) → (⟨S48x1024x600, .f32⟩ : BufTy).Contents (Elt F)),
    StableHlo.nullary main_cst_5 (constant S_ .f32 0x3F800000#32),
    StableHlo.unary main_cst_5 main_v32 (broadcastInDim S1024x600 ![] bcast_S_S1024x600 : (⟨S_, .f32⟩ : BufTy).Contents (Elt F) → (⟨S1024x600, .f32⟩ : BufTy).Contents (Elt F)),
    StableHlo.binary main_v32 main_v23 main_v33 (subf : (⟨S1024x600, .f32⟩ : BufTy).Contents (Elt F) → (⟨S1024x600, .f32⟩ : BufTy).Contents (Elt F) → (⟨S1024x600, .f32⟩ : BufTy).Contents (Elt F)),
    StableHlo.unary main_v33 main_v34 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v34 main_v35 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v31 main_v35 main_v36 (mulf : (⟨S48x1024x600, .f32⟩ : BufTy).Contents (Elt F) → (⟨S48x1024x600, .f32⟩ : BufTy).Contents (Elt F) → (⟨S48x1024x600, .f32⟩ : BufTy).Contents (Elt F)),
    StableHlo.nullary main_c_6 (constantI S_ 32 1#32),
    StableHlo.unary main_c_6 main_v37 (broadcastInDim S1024x600 ![] bcast_S_S1024x600 : (⟨S_, .i32⟩ : BufTy).Contents (Elt F) → (⟨S1024x600, .i32⟩ : BufTy).Contents (Elt F)),
    StableHlo.binary main_v21 main_v37 main_v38 (addi : (⟨S1024x600, .i32⟩ : BufTy).Contents (Elt F) → (⟨S1024x600, .i32⟩ : BufTy).Contents (Elt F) → (⟨S1024x600, .i32⟩ : BufTy).Contents (Elt F)),
    StableHlo.nullary main_c_7 (constantI S_ 32 0#32),
    StableHlo.unary main_c_7 main_v39 (broadcastInDim S1024x600 ![] bcast_S_S1024x600 : (⟨S_, .i32⟩ : BufTy).Contents (Elt F) → (⟨S1024x600, .i32⟩ : BufTy).Contents (Elt F)),
    StableHlo.binary main_v38 main_v39 main_v40 (cmpi .slt : (⟨S1024x600, .i32⟩ : BufTy).Contents (Elt F) → (⟨S1024x600, .i32⟩ : BufTy).Contents (Elt F) → (⟨S1024x600, .i1⟩ : BufTy).Contents (Elt F)),
    StableHlo.nullary main_c_8 (constantI S_ 32 20000#32),
    StableHlo.unary main_c_8 main_v41 (broadcastInDim S1024x600 ![] bcast_S_S1024x600 : (⟨S_, .i32⟩ : BufTy).Contents (Elt F) → (⟨S1024x600, .i32⟩ : BufTy).Contents (Elt F)),
    StableHlo.binary main_v38 main_v41 main_v42 (addi : (⟨S1024x600, .i32⟩ : BufTy).Contents (Elt F) → (⟨S1024x600, .i32⟩ : BufTy).Contents (Elt F) → (⟨S1024x600, .i32⟩ : BufTy).Contents (Elt F)),
    StableHlo.ternary main_v40 main_v42 main_v38 main_v43 (select : (⟨S1024x600, .i1⟩ : BufTy).Contents (Elt F) → (⟨S1024x600, .i32⟩ : BufTy).Contents (Elt F) → (⟨S1024x600, .i32⟩ : BufTy).Contents (Elt F) → (⟨S1024x600, .i32⟩ : BufTy).Contents (Elt F)),
    StableHlo.unary main_v43 main_v44 (broadcastInDim S1024x600x1 ![0, 1] bcast_S1024x600_S1024x600x1_0_1 : (⟨S1024x600, .i32⟩ : BufTy).Contents (Elt F) → (⟨S1024x600x1, .i32⟩ : BufTy).Contents (Elt F)),
    StableHlo.unary main_arg8 main_v45 ((transpose S48x20000 [1, 0] · transposes_S20000x48_S48x20000_1_0) : (⟨S20000x48, .f32⟩ : BufTy).Contents (Elt F) → (⟨S48x20000, .f32⟩ : BufTy).Contents (Elt F)),
    StableHlo.binary main_v45 main_v44 main_v46 ((fun x i => Host.gather gather_S48x20000_S1024x600x1_S48x1024x600_0_1_n_n_1_2_481 x i) : (⟨S48x20000, .f32⟩ : BufTy).Contents (Elt F) → (⟨S1024x600x1, .i32⟩ : BufTy).Contents (Elt F) → (⟨S48x1024x600, .f32⟩ : BufTy).Contents (Elt F)),
    StableHlo.unary main_v23 main_v47 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v47 main_v48 (broadcastInDim S48x1024x600 ![0, 1, 2] bcast_S1x1024x600_S48x1024x600_0_1_2 : (⟨S1x1024x600, .f32⟩ : BufTy).Contents (Elt F) → (⟨S48x1024x600, .f32⟩ : BufTy).Contents (Elt F)) ]

set_option maxRecDepth 8192 in
set_option maxHeartbeats 4000000 in
/-- The window is that line: a call unfolds to the callee's steps, and sequencing reassociates by computation. -/
theorem main_part0_eq (c : Dev nD) : main_part0 (F := F) c = seq ops_part0 := rfl

set_option maxRecDepth 8192 in
/-- Every buffer the window's operations touch is a TensorCore reference. -/
theorem ops_part0_sub : (ops_part0 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., binary_bufs_sub .., unary_bufs_sub .., binary_bufs_sub .., binary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., unary_bufs_sub .., unary_bufs_sub ..⟩

set_option maxRecDepth 8192 in
/-- Every operation of the window determines its results (none allocates). -/
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part0_W : List (Ref sig .tc) := [main_v0, main_v1, main_v2, main_v3, main_v4, main_v5, main_v6, main_v7, main_v8, main_v9, main_v10, main_v11, main_v12, main_v13, main_v14, main_v15, main_cst, main_v16, main_v17, main_cst_0, main_cst_1, main_call0_v0, main_call0_v1, main_call0_v2, main_call0_v3, main_call0_v4, main_v18, main_v19, main_v20, main_c, main_c_2, main_call1_v0, main_call1_v1, main_call1_v2, main_call1_v3, main_call1_v4, main_v21, main_v22, main_v23, main_c_3, main_v24, main_v25, main_c_4, main_v26, main_v27, main_v28, main_v29, main_v30, main_v31, main_cst_5, main_v32, main_v33, main_v34, main_v35, main_v36, main_c_6, main_v37, main_v38, main_c_7, main_v39, main_v40, main_c_8, main_v41, main_v42, main_v43, main_v44, main_v45, main_v46, main_v47, main_v48]

set_option maxRecDepth 8192 in
/-- Each operation of the window writes only its own result buffer. -/
theorem ops_part0_writes : (ops_part0 : List (HloOp τ sig (Elt F))).Forall fun op =>
    op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 71 … 140 of 383: the statements of window `main_part1`, each call replaced by the
    called function's operations over the call's buffers. -/
abbrev ops_part1 : List (HloOp τ sig (Elt F)) :=
  [ StableHlo.binary main_v46 main_v48 main_v49 (mulf : (⟨S48x1024x600, .f32⟩ : BufTy).Contents (Elt F) → (⟨S48x1024x600, .f32⟩ : BufTy).Contents (Elt F) → (⟨S48x1024x600, .f32⟩ : BufTy).Contents (Elt F)),
    StableHlo.binary main_v36 main_v49 main_v50 (addf : (⟨S48x1024x600, .f32⟩ : BufTy).Contents (Elt F) → (⟨S48x1024x600, .f32⟩ : BufTy).Contents (Elt F) → (⟨S48x1024x600, .f32⟩ : BufTy).Contents (Elt F)),
    StableHlo.unary main_arg3 main_v51 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v51 main_v52 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v52 main_v50 main_v53 (mulf : (⟨S48x1024x600, .f32⟩ : BufTy).Contents (Elt F) → (⟨S48x1024x600, .f32⟩ : BufTy).Contents (Elt F) → (⟨S48x1024x600, .f32⟩ : BufTy).Contents (Elt F)),
    StableHlo.unary main_v1 main_v54 (broadcastInDim S1024x600 ![] bcast_S_S1024x600 : (⟨S_, .f32⟩ : BufTy).Contents (Elt F) → (⟨S1024x600, .f32⟩ : BufTy).Contents (Elt F)),
    StableHlo.binary main_v10 main_v54 main_v55 (subf : (⟨S1024x600, .f32⟩ : BufTy).Contents (Elt F) → (⟨S1024x600, .f32⟩ : BufTy).Contents (Elt F) → (⟨S1024x600, .f32⟩ : BufTy).Contents (Elt F)),
    StableHlo.binary main_v3 main_v1 main_v56 (subf : (⟨S_, .f32⟩ : BufTy).Contents (Elt F) → (⟨S_, .f32⟩ : BufTy).Contents (Elt F) → (⟨S_, .f32⟩ : BufTy).Contents (Elt F)),
    StableHlo.unary main_v56 main_v57 (broadcastInDim S1024x600 ![] bcast_S_S1024x600 : (⟨S_, .f32⟩ : BufTy).Contents (Elt F) → (⟨S1024x600, .f32⟩ : BufTy).Contents (Elt F)),
    StableHlo.binary main_v55 main_v57 main_v58 (Host.divf : (⟨S1024x600, .f32⟩ : BufTy).Contents (Elt F) → (⟨S1024x600, .f32⟩ : BufTy).Contents (Elt F) → (⟨S1024x600, .f32⟩ : BufTy).Contents (Elt F)),
    StableHlo.nullary main_cst_9 (constant S_ .f32 0x469C3E00#32),
    StableHlo.unary main_cst_9 main_v59 (broadcastInDim S1024x600 ![] bcast_S_S1024x600 : (⟨S_, .f32⟩ : BufTy).Contents (Elt F) → (⟨S1024x600, .f32⟩ : BufTy).Contents (Elt F)),
    StableHlo.binary main_v58 main_v59 main_v60 (mulf : (⟨S1024x600, .f32⟩ : BufTy).Contents (Elt F) → (⟨S1024x600, .f32⟩ : BufTy).Contents (Elt F) → (⟨S1024x600, .f32⟩ : BufTy).Contents (Elt F)),
    StableHlo.nullary main_cst_10 (constant S_ .f32 0x00000000#32),
    StableHlo.nullary main_cst_11 (constant S_ .f32 0x469C3E00#32),
    StableHlo.TRef.unary (StableHlo.TRef.of (T := ⟨S_, .f32⟩) main_cst_10) main_call2.v0 id,
    StableHlo.TRef.unary main_call2.v0 main_call2.v1 (broadcastInDim S1024x600 ![] bcast_S_S1024x600),
    StableHlo.TRef.binary main_call2.v1 (StableHlo.TRef.of (T := ⟨S1024x600, .f32⟩) main_v60) main_call2.v2 maximumf,
    StableHlo.TRef.unary (StableHlo.TRef.of (T := ⟨S_, .f32⟩) main_cst_11) main_call2.v3 id,
    StableHlo.TRef.unary main_call2.v3 main_call2.v4 (broadcastInDim S1024x600 ![] bcast_S_S1024x600),
    StableHlo.TRef.binary main_call2.v4 main_call2.v2 main_call2.v5 minimumf,
    StableHlo.unary main_v61 main_v62 (Host.floor : (⟨S1024x600, .f32⟩ : BufTy).Contents (Elt F) → (⟨S1024x600, .f32⟩ : BufTy).Contents (Elt F)),
    StableHlo.unary main_v62 main_v63 (fptosi 32 : (⟨S1024x600, .f32⟩ : BufTy).Contents (Elt F) → (⟨S1024x600, .i32⟩ : BufTy).Contents (Elt F)),
    StableHlo.nullary main_c_12 (constantI S_ 32 0#32),
    StableHlo.nullary main_c_13 (constantI S_ 32 19998#32),
    StableHlo.TRef.unary (StableHlo.TRef.of (T := ⟨S_, .i32⟩) main_c_12) main_call3.v0 id,
    StableHlo.TRef.unary main_call3.v0 main_call3.v1 (broadcastInDim S1024x600 ![] bcast_S_S1024x600),
    StableHlo.TRef.binary main_call3.v1 (StableHlo.TRef.of (T := ⟨S1024x600, .i32⟩) main_v63) main_call3.v2 maxsi,
    StableHlo.TRef.unary (StableHlo.TRef.of (T := ⟨S_, .i32⟩) main_c_13) main_call3.v3 id,
    StableHlo.TRef.unary main_call3.v3 main_call3.v4 (broadcastInDim S1024x600 ![] bcast_S_S1024x600),
    StableHlo.TRef.binary main_call3.v4 main_call3.v2 main_call3.v5 minsi,
    StableHlo.unary main_v64 main_v65 (sitofp .f32 : (⟨S1024x600, .i32⟩ : BufTy).Contents (Elt F) → (⟨S1024x600, .f32⟩ : BufTy).Contents (Elt F)),
    StableHlo.binary main_v61 main_v65 main_v66 (subf : (⟨S1024x600, .f32⟩ : BufTy).Contents (Elt F) → (⟨S1024x600, .f32⟩ : BufTy).Contents (Elt F) → (⟨S1024x600, .f32⟩ : BufTy).Contents (Elt F)),
    StableHlo.nullary main_c_14 (constantI S_ 32 0#32),
    StableHlo.unary main_c_14 main_v67 (broadcastInDim S1024x600 ![] bcast_S_S1024x600 : (⟨S_, .i32⟩ : BufTy).Contents (Elt F) → (⟨S1024x600, .i32⟩ : BufTy).Contents (Elt F)),
    StableHlo.binary main_v64 main_v67 main_v68 (cmpi .slt : (⟨S1024x600, .i32⟩ : BufTy).Contents (Elt F) → (⟨S1024x600, .i32⟩ : BufTy).Contents (Elt F) → (⟨S1024x600, .i1⟩ : BufTy).Contents (Elt F)),
    StableHlo.nullary main_c_15 (constantI S_ 32 20000#32),
    StableHlo.unary main_c_15 main_v69 (broadcastInDim S1024x600 ![] bcast_S_S1024x600 : (⟨S_, .i32⟩ : BufTy).Contents (Elt F) → (⟨S1024x600, .i32⟩ : BufTy).Contents (Elt F)),
    StableHlo.binary main_v64 main_v69 main_v70 (addi : (⟨S1024x600, .i32⟩ : BufTy).Contents (Elt F) → (⟨S1024x600, .i32⟩ : BufTy).Contents (Elt F) → (⟨S1024x600, .i32⟩ : BufTy).Contents (Elt F)),
    StableHlo.ternary main_v68 main_v70 main_v64 main_v71 (select : (⟨S1024x600, .i1⟩ : BufTy).Contents (Elt F) → (⟨S1024x600, .i32⟩ : BufTy).Contents (Elt F) → (⟨S1024x600, .i32⟩ : BufTy).Contents (Elt F) → (⟨S1024x600, .i32⟩ : BufTy).Contents (Elt F)),
    StableHlo.unary main_v71 main_v72 (broadcastInDim S1024x600x1 ![0, 1] bcast_S1024x600_S1024x600x1_0_1 : (⟨S1024x600, .i32⟩ : BufTy).Contents (Elt F) → (⟨S1024x600x1, .i32⟩ : BufTy).Contents (Elt F)),
    StableHlo.unary main_arg9 main_v73 ((transpose S48x20000 [1, 0] · transposes_S20000x48_S48x20000_1_0) : (⟨S20000x48, .f32⟩ : BufTy).Contents (Elt F) → (⟨S48x20000, .f32⟩ : BufTy).Contents (Elt F)),
    StableHlo.binary main_v73 main_v72 main_v74 ((fun x i => Host.gather gather_S48x20000_S1024x600x1_S48x1024x600_0_1_n_n_1_2_481 x i) : (⟨S48x20000, .f32⟩ : BufTy).Contents (Elt F) → (⟨S1024x600x1, .i32⟩ : BufTy).Contents (Elt F) → (⟨S48x1024x600, .f32⟩ : BufTy).Contents (Elt F)),
    StableHlo.nullary main_cst_16 (constant S_ .f32 0x3F800000#32),
    StableHlo.unary main_cst_16 main_v75 (broadcastInDim S1024x600 ![] bcast_S_S1024x600 : (⟨S_, .f32⟩ : BufTy).Contents (Elt F) → (⟨S1024x600, .f32⟩ : BufTy).Contents (Elt F)),
    StableHlo.binary main_v75 main_v66 main_v76 (subf : (⟨S1024x600, .f32⟩ : BufTy).Contents (Elt F) → (⟨S1024x600, .f32⟩ : BufTy).Contents (Elt F) → (⟨S1024x600, .f32⟩ : BufTy).Contents (Elt F)),
    StableHlo.unary main_v76 main_v77 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v77 main_v78 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v74 main_v78 main_v79 (mulf : (⟨S48x1024x600, .f32⟩ : BufTy).Contents (Elt F) → (⟨S48x1024x600, .f32⟩ : BufTy).Contents (Elt F) → (⟨S48x1024x600, .f32⟩ : BufTy).Contents (Elt F)),
    StableHlo.nullary main_c_17 (constantI S_ 32 1#32),
    StableHlo.unary main_c_17 main_v80 (broadcastInDim S1024x600 ![] bcast_S_S1024x600 : (⟨S_, .i32⟩ : BufTy).Contents (Elt F) → (⟨S1024x600, .i32⟩ : BufTy).Contents (Elt F)),
    StableHlo.binary main_v64 main_v80 main_v81 (addi : (⟨S1024x600, .i32⟩ : BufTy).Contents (Elt F) → (⟨S1024x600, .i32⟩ : BufTy).Contents (Elt F) → (⟨S1024x600, .i32⟩ : BufTy).Contents (Elt F)),
    StableHlo.nullary main_c_18 (constantI S_ 32 0#32),
    StableHlo.unary main_c_18 main_v82 (broadcastInDim S1024x600 ![] bcast_S_S1024x600 : (⟨S_, .i32⟩ : BufTy).Contents (Elt F) → (⟨S1024x600, .i32⟩ : BufTy).Contents (Elt F)),
    StableHlo.binary main_v81 main_v82 main_v83 (cmpi .slt : (⟨S1024x600, .i32⟩ : BufTy).Contents (Elt F) → (⟨S1024x600, .i32⟩ : BufTy).Contents (Elt F) → (⟨S1024x600, .i1⟩ : BufTy).Contents (Elt F)),
    StableHlo.nullary main_c_19 (constantI S_ 32 20000#32),
    StableHlo.unary main_c_19 main_v84 (broadcastInDim S1024x600 ![] bcast_S_S1024x600 : (⟨S_, .i32⟩ : BufTy).Contents (Elt F) → (⟨S1024x600, .i32⟩ : BufTy).Contents (Elt F)),
    StableHlo.binary main_v81 main_v84 main_v85 (addi : (⟨S1024x600, .i32⟩ : BufTy).Contents (Elt F) → (⟨S1024x600, .i32⟩ : BufTy).Contents (Elt F) → (⟨S1024x600, .i32⟩ : BufTy).Contents (Elt F)),
    StableHlo.ternary main_v83 main_v85 main_v81 main_v86 (select : (⟨S1024x600, .i1⟩ : BufTy).Contents (Elt F) → (⟨S1024x600, .i32⟩ : BufTy).Contents (Elt F) → (⟨S1024x600, .i32⟩ : BufTy).Contents (Elt F) → (⟨S1024x600, .i32⟩ : BufTy).Contents (Elt F)),
    StableHlo.unary main_v86 main_v87 (broadcastInDim S1024x600x1 ![0, 1] bcast_S1024x600_S1024x600x1_0_1 : (⟨S1024x600, .i32⟩ : BufTy).Contents (Elt F) → (⟨S1024x600x1, .i32⟩ : BufTy).Contents (Elt F)),
    StableHlo.unary main_arg9 main_v88 ((transpose S48x20000 [1, 0] · transposes_S20000x48_S48x20000_1_0) : (⟨S20000x48, .f32⟩ : BufTy).Contents (Elt F) → (⟨S48x20000, .f32⟩ : BufTy).Contents (Elt F)),
    StableHlo.binary main_v88 main_v87 main_v89 ((fun x i => Host.gather gather_S48x20000_S1024x600x1_S48x1024x600_0_1_n_n_1_2_481 x i) : (⟨S48x20000, .f32⟩ : BufTy).Contents (Elt F) → (⟨S1024x600x1, .i32⟩ : BufTy).Contents (Elt F) → (⟨S48x1024x600, .f32⟩ : BufTy).Contents (Elt F)),
    StableHlo.unary main_v66 main_v90 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v90 main_v91 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v89 main_v91 main_v92 (mulf : (⟨S48x1024x600, .f32⟩ : BufTy).Contents (Elt F) → (⟨S48x1024x600, .f32⟩ : BufTy).Contents (Elt F) → (⟨S48x1024x600, .f32⟩ : BufTy).Contents (Elt F)),
    StableHlo.binary main_v79 main_v92 main_v93 (addf : (⟨S48x1024x600, .f32⟩ : BufTy).Contents (Elt F) → (⟨S48x1024x600, .f32⟩ : BufTy).Contents (Elt F) → (⟨S48x1024x600, .f32⟩ : BufTy).Contents (Elt F)),
    StableHlo.unary main_arg4 main_v94 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v94 main_v95 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v95 main_v93 main_v96 (mulf : (⟨S48x1024x600, .f32⟩ : BufTy).Contents (Elt F) → (⟨S48x1024x600, .f32⟩ : BufTy).Contents (Elt F) → (⟨S48x1024x600, .f32⟩ : BufTy).Contents (Elt F)),
    StableHlo.binary main_v53 main_v96 main_v97 (addf : (⟨S48x1024x600, .f32⟩ : BufTy).Contents (Elt F) → (⟨S48x1024x600, .f32⟩ : BufTy).Contents (Elt F) → (⟨S48x1024x600, .f32⟩ : BufTy).Contents (Elt F)) ]

set_option maxRecDepth 8192 in
set_option maxHeartbeats 4000000 in
/-- The window is that line: a call unfolds to the callee's steps, and sequencing reassociates by computation. -/
theorem main_part1_eq (c : Dev nD) : main_part1 (F := F) c = seq ops_part1 := rfl

set_option maxRecDepth 8192 in
/-- Every buffer the window's operations touch is a TensorCore reference. -/
theorem ops_part1_sub : (ops_part1 : List (HloOp τ sig (Elt F))).Forall fun op => op.bufs ⊆ tcRefs τ sig :=
  ⟨binary_bufs_sub .., binary_bufs_sub .., unary_bufs_sub .., unary_bufs_sub .., binary_bufs_sub .., unary_bufs_sub .., binary_bufs_sub .., binary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub ..⟩

set_option maxRecDepth 8192 in
/-- Every operation of the window determines its results (none allocates). -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part1_W : List (Ref sig .tc) := [main_v49, main_v50, main_v51, main_v52, main_v53, main_v54, main_v55, main_v56, main_v57, main_v58, main_cst_9, main_v59, main_v60, main_cst_10, main_cst_11, main_call2_v0, main_call2_v1, main_call2_v2, main_call2_v3, main_call2_v4, main_v61, main_v62, main_v63, main_c_12, main_c_13, main_call3_v0, main_call3_v1, main_call3_v2, main_call3_v3, main_call3_v4, main_v64, main_v65, main_v66, main_c_14, main_v67, main_v68, main_c_15, main_v69, main_v70, main_v71, main_v72, main_v73, main_v74, main_cst_16, main_v75, main_v76, main_v77, main_v78, main_v79, main_c_17, main_v80, main_v81, main_c_18, main_v82, main_v83, main_c_19, main_v84, main_v85, main_v86, main_v87, main_v88, main_v89, main_v90, main_v91, main_v92, main_v93, main_v94, main_v95, main_v96, main_v97]

set_option maxRecDepth 8192 in
/-- Each operation of the window writes only its own result buffer. -/
theorem ops_part1_writes : (ops_part1 : List (HloOp τ sig (Elt F))).Forall fun op =>
    op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 141 … 224 of 383: the statements of window `main_part2`, each call replaced by the
    called function's operations over the call's buffers. -/
abbrev ops_part2 : List (HloOp τ sig (Elt F)) :=
  [ StableHlo.unary main_v1 main_v98 (broadcastInDim S1024x600 ![] bcast_S_S1024x600 : (⟨S_, .f32⟩ : BufTy).Contents (Elt F) → (⟨S1024x600, .f32⟩ : BufTy).Contents (Elt F)),
    StableHlo.binary main_v10 main_v98 main_v99 (subf : (⟨S1024x600, .f32⟩ : BufTy).Contents (Elt F) → (⟨S1024x600, .f32⟩ : BufTy).Contents (Elt F) → (⟨S1024x600, .f32⟩ : BufTy).Contents (Elt F)),
    StableHlo.binary main_v3 main_v1 main_v100 (subf : (⟨S_, .f32⟩ : BufTy).Contents (Elt F) → (⟨S_, .f32⟩ : BufTy).Contents (Elt F) → (⟨S_, .f32⟩ : BufTy).Contents (Elt F)),
    StableHlo.unary main_v100 main_v101 (broadcastInDim S1024x600 ![] bcast_S_S1024x600 : (⟨S_, .f32⟩ : BufTy).Contents (Elt F) → (⟨S1024x600, .f32⟩ : BufTy).Contents (Elt F)),
    StableHlo.binary main_v99 main_v101 main_v102 (Host.divf : (⟨S1024x600, .f32⟩ : BufTy).Contents (Elt F) → (⟨S1024x600, .f32⟩ : BufTy).Contents (Elt F) → (⟨S1024x600, .f32⟩ : BufTy).Contents (Elt F)),
    StableHlo.nullary main_cst_20 (constant S_ .f32 0x469C3E00#32),
    StableHlo.unary main_cst_20 main_v103 (broadcastInDim S1024x600 ![] bcast_S_S1024x600 : (⟨S_, .f32⟩ : BufTy).Contents (Elt F) → (⟨S1024x600, .f32⟩ : BufTy).Contents (Elt F)),
    StableHlo.binary main_v102 main_v103 main_v104 (mulf : (⟨S1024x600, .f32⟩ : BufTy).Contents (Elt F) → (⟨S1024x600, .f32⟩ : BufTy).Contents (Elt F) → (⟨S1024x600, .f32⟩ : BufTy).Contents (Elt F)),
    StableHlo.nullary main_cst_21 (constant S_ .f32 0x00000000#32),
    StableHlo.nullary main_cst_22 (constant S_ .f32 0x469C3E00#32),
    StableHlo.TRef.unary (StableHlo.TRef.of (T := ⟨S_, .f32⟩) main_cst_21) main_call4.v0 id,
    StableHlo.TRef.unary main_call4.v0 main_call4.v1 (broadcastInDim S1024x600 ![] bcast_S_S1024x600),
    StableHlo.TRef.binary main_call4.v1 (StableHlo.TRef.of (T := ⟨S1024x600, .f32⟩) main_v104) main_call4.v2 maximumf,
    StableHlo.TRef.unary (StableHlo.TRef.of (T := ⟨S_, .f32⟩) main_cst_22) main_call4.v3 id,
    StableHlo.TRef.unary main_call4.v3 main_call4.v4 (broadcastInDim S1024x600 ![] bcast_S_S1024x600),
    StableHlo.TRef.binary main_call4.v4 main_call4.v2 main_call4.v5 minimumf,
    StableHlo.unary main_v105 main_v106 (Host.floor : (⟨S1024x600, .f32⟩ : BufTy).Contents (Elt F) → (⟨S1024x600, .f32⟩ : BufTy).Contents (Elt F)),
    StableHlo.unary main_v106 main_v107 (fptosi 32 : (⟨S1024x600, .f32⟩ : BufTy).Contents (Elt F) → (⟨S1024x600, .i32⟩ : BufTy).Contents (Elt F)),
    StableHlo.nullary main_c_23 (constantI S_ 32 0#32),
    StableHlo.nullary main_c_24 (constantI S_ 32 19998#32),
    StableHlo.TRef.unary (StableHlo.TRef.of (T := ⟨S_, .i32⟩) main_c_23) main_call5.v0 id,
    StableHlo.TRef.unary main_call5.v0 main_call5.v1 (broadcastInDim S1024x600 ![] bcast_S_S1024x600),
    StableHlo.TRef.binary main_call5.v1 (StableHlo.TRef.of (T := ⟨S1024x600, .i32⟩) main_v107) main_call5.v2 maxsi,
    StableHlo.TRef.unary (StableHlo.TRef.of (T := ⟨S_, .i32⟩) main_c_24) main_call5.v3 id,
    StableHlo.TRef.unary main_call5.v3 main_call5.v4 (broadcastInDim S1024x600 ![] bcast_S_S1024x600),
    StableHlo.TRef.binary main_call5.v4 main_call5.v2 main_call5.v5 minsi,
    StableHlo.unary main_v108 main_v109 (sitofp .f32 : (⟨S1024x600, .i32⟩ : BufTy).Contents (Elt F) → (⟨S1024x600, .f32⟩ : BufTy).Contents (Elt F)),
    StableHlo.binary main_v105 main_v109 main_v110 (subf : (⟨S1024x600, .f32⟩ : BufTy).Contents (Elt F) → (⟨S1024x600, .f32⟩ : BufTy).Contents (Elt F) → (⟨S1024x600, .f32⟩ : BufTy).Contents (Elt F)),
    StableHlo.nullary main_c_25 (constantI S_ 32 0#32),
    StableHlo.unary main_c_25 main_v111 (broadcastInDim S1024x600 ![] bcast_S_S1024x600 : (⟨S_, .i32⟩ : BufTy).Contents (Elt F) → (⟨S1024x600, .i32⟩ : BufTy).Contents (Elt F)),
    StableHlo.binary main_v108 main_v111 main_v112 (cmpi .slt : (⟨S1024x600, .i32⟩ : BufTy).Contents (Elt F) → (⟨S1024x600, .i32⟩ : BufTy).Contents (Elt F) → (⟨S1024x600, .i1⟩ : BufTy).Contents (Elt F)),
    StableHlo.nullary main_c_26 (constantI S_ 32 20000#32),
    StableHlo.unary main_c_26 main_v113 (broadcastInDim S1024x600 ![] bcast_S_S1024x600 : (⟨S_, .i32⟩ : BufTy).Contents (Elt F) → (⟨S1024x600, .i32⟩ : BufTy).Contents (Elt F)),
    StableHlo.binary main_v108 main_v113 main_v114 (addi : (⟨S1024x600, .i32⟩ : BufTy).Contents (Elt F) → (⟨S1024x600, .i32⟩ : BufTy).Contents (Elt F) → (⟨S1024x600, .i32⟩ : BufTy).Contents (Elt F)),
    StableHlo.ternary main_v112 main_v114 main_v108 main_v115 (select : (⟨S1024x600, .i1⟩ : BufTy).Contents (Elt F) → (⟨S1024x600, .i32⟩ : BufTy).Contents (Elt F) → (⟨S1024x600, .i32⟩ : BufTy).Contents (Elt F) → (⟨S1024x600, .i32⟩ : BufTy).Contents (Elt F)),
    StableHlo.unary main_v115 main_v116 (broadcastInDim S1024x600x1 ![0, 1] bcast_S1024x600_S1024x600x1_0_1 : (⟨S1024x600, .i32⟩ : BufTy).Contents (Elt F) → (⟨S1024x600x1, .i32⟩ : BufTy).Contents (Elt F)),
    StableHlo.unary main_arg10 main_v117 ((transpose S48x20000 [1, 0] · transposes_S20000x48_S48x20000_1_0) : (⟨S20000x48, .f32⟩ : BufTy).Contents (Elt F) → (⟨S48x20000, .f32⟩ : BufTy).Contents (Elt F)),
    StableHlo.binary main_v117 main_v116 main_v118 ((fun x i => Host.gather gather_S48x20000_S1024x600x1_S48x1024x600_0_1_n_n_1_2_481 x i) : (⟨S48x20000, .f32⟩ : BufTy).Contents (Elt F) → (⟨S1024x600x1, .i32⟩ : BufTy).Contents (Elt F) → (⟨S48x1024x600, .f32⟩ : BufTy).Contents (Elt F)),
    StableHlo.nullary main_cst_27 (constant S_ .f32 0x3F800000#32),
    StableHlo.unary main_cst_27 main_v119 (broadcastInDim S1024x600 ![] bcast_S_S1024x600 : (⟨S_, .f32⟩ : BufTy).Contents (Elt F) → (⟨S1024x600, .f32⟩ : BufTy).Contents (Elt F)),
    StableHlo.binary main_v119 main_v110 main_v120 (subf : (⟨S1024x600, .f32⟩ : BufTy).Contents (Elt F) → (⟨S1024x600, .f32⟩ : BufTy).Contents (Elt F) → (⟨S1024x600, .f32⟩ : BufTy).Contents (Elt F)),
    StableHlo.unary main_v120 main_v121 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v121 main_v122 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v118 main_v122 main_v123 (mulf : (⟨S48x1024x600, .f32⟩ : BufTy).Contents (Elt F) → (⟨S48x1024x600, .f32⟩ : BufTy).Contents (Elt F) → (⟨S48x1024x600, .f32⟩ : BufTy).Contents (Elt F)),
    StableHlo.nullary main_c_28 (constantI S_ 32 1#32),
    StableHlo.unary main_c_28 main_v124 (broadcastInDim S1024x600 ![] bcast_S_S1024x600 : (⟨S_, .i32⟩ : BufTy).Contents (Elt F) → (⟨S1024x600, .i32⟩ : BufTy).Contents (Elt F)),
    StableHlo.binary main_v108 main_v124 main_v125 (addi : (⟨S1024x600, .i32⟩ : BufTy).Contents (Elt F) → (⟨S1024x600, .i32⟩ : BufTy).Contents (Elt F) → (⟨S1024x600, .i32⟩ : BufTy).Contents (Elt F)),
    StableHlo.nullary main_c_29 (constantI S_ 32 0#32),
    StableHlo.unary main_c_29 main_v126 (broadcastInDim S1024x600 ![] bcast_S_S1024x600 : (⟨S_, .i32⟩ : BufTy).Contents (Elt F) → (⟨S1024x600, .i32⟩ : BufTy).Contents (Elt F)),
    StableHlo.binary main_v125 main_v126 main_v127 (cmpi .slt : (⟨S1024x600, .i32⟩ : BufTy).Contents (Elt F) → (⟨S1024x600, .i32⟩ : BufTy).Contents (Elt F) → (⟨S1024x600, .i1⟩ : BufTy).Contents (Elt F)),
    StableHlo.nullary main_c_30 (constantI S_ 32 20000#32),
    StableHlo.unary main_c_30 main_v128 (broadcastInDim S1024x600 ![] bcast_S_S1024x600 : (⟨S_, .i32⟩ : BufTy).Contents (Elt F) → (⟨S1024x600, .i32⟩ : BufTy).Contents (Elt F)),
    StableHlo.binary main_v125 main_v128 main_v129 (addi : (⟨S1024x600, .i32⟩ : BufTy).Contents (Elt F) → (⟨S1024x600, .i32⟩ : BufTy).Contents (Elt F) → (⟨S1024x600, .i32⟩ : BufTy).Contents (Elt F)),
    StableHlo.ternary main_v127 main_v129 main_v125 main_v130 (select : (⟨S1024x600, .i1⟩ : BufTy).Contents (Elt F) → (⟨S1024x600, .i32⟩ : BufTy).Contents (Elt F) → (⟨S1024x600, .i32⟩ : BufTy).Contents (Elt F) → (⟨S1024x600, .i32⟩ : BufTy).Contents (Elt F)),
    StableHlo.unary main_v130 main_v131 (broadcastInDim S1024x600x1 ![0, 1] bcast_S1024x600_S1024x600x1_0_1 : (⟨S1024x600, .i32⟩ : BufTy).Contents (Elt F) → (⟨S1024x600x1, .i32⟩ : BufTy).Contents (Elt F)),
    StableHlo.unary main_arg10 main_v132 ((transpose S48x20000 [1, 0] · transposes_S20000x48_S48x20000_1_0) : (⟨S20000x48, .f32⟩ : BufTy).Contents (Elt F) → (⟨S48x20000, .f32⟩ : BufTy).Contents (Elt F)),
    StableHlo.binary main_v132 main_v131 main_v133 ((fun x i => Host.gather gather_S48x20000_S1024x600x1_S48x1024x600_0_1_n_n_1_2_481 x i) : (⟨S48x20000, .f32⟩ : BufTy).Contents (Elt F) → (⟨S1024x600x1, .i32⟩ : BufTy).Contents (Elt F) → (⟨S48x1024x600, .f32⟩ : BufTy).Contents (Elt F)),
    StableHlo.unary main_v110 main_v134 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v134 main_v135 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v133 main_v135 main_v136 (mulf : (⟨S48x1024x600, .f32⟩ : BufTy).Contents (Elt F) → (⟨S48x1024x600, .f32⟩ : BufTy).Contents (Elt F) → (⟨S48x1024x600, .f32⟩ : BufTy).Contents (Elt F)),
    StableHlo.binary main_v123 main_v136 main_v137 (addf : (⟨S48x1024x600, .f32⟩ : BufTy).Contents (Elt F) → (⟨S48x1024x600, .f32⟩ : BufTy).Contents (Elt F) → (⟨S48x1024x600, .f32⟩ : BufTy).Contents (Elt F)),
    StableHlo.unary main_arg5 main_v138 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v138 main_v139 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v139 main_v137 main_v140 (mulf : (⟨S48x1024x600, .f32⟩ : BufTy).Contents (Elt F) → (⟨S48x1024x600, .f32⟩ : BufTy).Contents (Elt F) → (⟨S48x1024x600, .f32⟩ : BufTy).Contents (Elt F)),
    StableHlo.binary main_v97 main_v140 main_v141 (addf : (⟨S48x1024x600, .f32⟩ : BufTy).Contents (Elt F) → (⟨S48x1024x600, .f32⟩ : BufTy).Contents (Elt F) → (⟨S48x1024x600, .f32⟩ : BufTy).Contents (Elt F)),
    StableHlo.TRef.unary (StableHlo.TRef.of (T := ⟨S600, .f32⟩) main_arg1) main_call6.call0.v0 (extractStridedSlice S599 ![1] · slices_S600_S599_1),
    StableHlo.TRef.unary (StableHlo.TRef.of (T := ⟨S600, .f32⟩) main_arg1) main_call6.call0.v1 (extractStridedSlice S599 ![0] · slices_S600_S599_0),
    StableHlo.TRef.binary main_call6.call0.v0 main_call6.call0.v1 main_call6.call0.v2 subf,
    StableHlo.TRef.unary (StableHlo.TRef.of (T := ⟨S48x1024x600, .f32⟩) main_v141) main_call6.v1 (extractStridedSlice S48x1024x599 ![0, 0, 1] · slices_S48x1024x600_S48x1024x599_0_0_1),
    StableHlo.TRef.unary (StableHlo.TRef.of (T := ⟨S48x1024x600, .f32⟩) main_v141) main_call6.v2 (extractStridedSlice S48x1024x599 ![0, 0, 0] · slices_S48x1024x600_S48x1024x599_0_0_0),
    StableHlo.TRef.binary main_call6.v1 main_call6.v2 main_call6.v3 addf,
    StableHlo.TRef.unary main_call6.call0.v2 main_call6.v4 (broadcastInDim S1x599 ![1] bcast_S599_S1x599_1),
    StableHlo.TRef.unary main_call6.v4 main_call6.v5 (broadcastInDim S1x1x599 ![1, 2] bcast_S1x599_S1x1x599_1_2),
    StableHlo.TRef.unary main_call6.v5 main_call6.v6 (broadcastInDim S48x1024x599 ![0, 1, 2] bcast_S1x1x599_S48x1024x599_0_1_2),
    StableHlo.TRef.binary main_call6.v6 main_call6.v3 main_call6.v7 mulf,
    StableHlo.TRef.nullary main_call6.cst (constant S_ .f32 0x00000000#32),
    StableHlo.TRef.binary main_call6.v7 main_call6.cst main_call6.v8 (fun x v => Host.reduceAdd x v reducesTo_S48x1024x599_S48x1024_d2 h_S_),
    StableHlo.TRef.nullary main_call6.cst_0 (constant S_ .f32 0x3F000000#32),
    StableHlo.TRef.unary main_call6.cst_0 main_call6.v9 (broadcastInDim S48x1024 ![] bcast_S_S48x1024),
    StableHlo.TRef.binary main_call6.v9 main_call6.v8 main_call6.v10 mulf,
    StableHlo.unary main_v1 main_v143 (broadcastInDim S1024x600 ![] bcast_S_S1024x600 : (⟨S_, .f32⟩ : BufTy).Contents (Elt F) → (⟨S1024x600, .f32⟩ : BufTy).Contents (Elt F)),
    StableHlo.binary main_v10 main_v143 main_v144 (subf : (⟨S1024x600, .f32⟩ : BufTy).Contents (Elt F) → (⟨S1024x600, .f32⟩ : BufTy).Contents (Elt F) → (⟨S1024x600, .f32⟩ : BufTy).Contents (Elt F)),
    StableHlo.binary main_v3 main_v1 main_v145 (subf : (⟨S_, .f32⟩ : BufTy).Contents (Elt F) → (⟨S_, .f32⟩ : BufTy).Contents (Elt F) → (⟨S_, .f32⟩ : BufTy).Contents (Elt F)),
    StableHlo.unary main_v145 main_v146 (broadcastInDim S1024x600 ![] bcast_S_S1024x600 : (⟨S_, .f32⟩ : BufTy).Contents (Elt F) → (⟨S1024x600, .f32⟩ : BufTy).Contents (Elt F)) ]

set_option maxRecDepth 8192 in
set_option maxHeartbeats 4000000 in
/-- The window is that line: a call unfolds to the callee's steps, and sequencing reassociates by computation. -/
theorem main_part2_eq (c : Dev nD) : main_part2 (F := F) c = seq ops_part2 := rfl

set_option maxRecDepth 8192 in
/-- Every buffer the window's operations touch is a TensorCore reference. -/
theorem ops_part2_sub : (ops_part2 : List (HloOp τ sig (Elt F))).Forall fun op => op.bufs ⊆ tcRefs τ sig :=
  ⟨unary_bufs_sub .., binary_bufs_sub .., binary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., binary_bufs_sub .., binary_bufs_sub .., unary_bufs_sub ..⟩

set_option maxRecDepth 8192 in
/-- Every operation of the window determines its results (none allocates). -/
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part2_W : List (Ref sig .tc) := [main_v98, main_v99, main_v100, main_v101, main_v102, main_cst_20, main_v103, main_v104, main_cst_21, main_cst_22, main_call4_v0, main_call4_v1, main_call4_v2, main_call4_v3, main_call4_v4, main_v105, main_v106, main_v107, main_c_23, main_c_24, main_call5_v0, main_call5_v1, main_call5_v2, main_call5_v3, main_call5_v4, main_v108, main_v109, main_v110, main_c_25, main_v111, main_v112, main_c_26, main_v113, main_v114, main_v115, main_v116, main_v117, main_v118, main_cst_27, main_v119, main_v120, main_v121, main_v122, main_v123, main_c_28, main_v124, main_v125, main_c_29, main_v126, main_v127, main_c_30, main_v128, main_v129, main_v130, main_v131, main_v132, main_v133, main_v134, main_v135, main_v136, main_v137, main_v138, main_v139, main_v140, main_v141, main_call6_call0_v0, main_call6_call0_v1, main_call6_v0, main_call6_v1, main_call6_v2, main_call6_v3, main_call6_v4, main_call6_v5, main_call6_v6, main_call6_v7, main_call6_cst, main_call6_v8, main_call6_cst_0, main_call6_v9, main_v142, main_v143, main_v144, main_v145, main_v146]

set_option maxRecDepth 8192 in
/-- Each operation of the window writes only its own result buffer. -/
theorem ops_part2_writes : (ops_part2 : List (HloOp τ sig (Elt F))).Forall fun op =>
    op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 225 … 308 of 383: the statements of window `main_part3`, each call replaced by the
    called function's operations over the call's buffers. -/
abbrev ops_part3 : List (HloOp τ sig (Elt F)) :=
  [ StableHlo.binary main_v144 main_v146 main_v147 (Host.divf : (⟨S1024x600, .f32⟩ : BufTy).Contents (Elt F) → (⟨S1024x600, .f32⟩ : BufTy).Contents (Elt F) → (⟨S1024x600, .f32⟩ : BufTy).Contents (Elt F)),
    StableHlo.nullary main_cst_31 (constant S_ .f32 0x469C3E00#32),
    StableHlo.unary main_cst_31 main_v148 (broadcastInDim S1024x600 ![] bcast_S_S1024x600 : (⟨S_, .f32⟩ : BufTy).Contents (Elt F) → (⟨S1024x600, .f32⟩ : BufTy).Contents (Elt F)),
    StableHlo.binary main_v147 main_v148 main_v149 (mulf : (⟨S1024x600, .f32⟩ : BufTy).Contents (Elt F) → (⟨S1024x600, .f32⟩ : BufTy).Contents (Elt F) → (⟨S1024x600, .f32⟩ : BufTy).Contents (Elt F)),
    StableHlo.nullary main_cst_32 (constant S_ .f32 0x00000000#32),
    StableHlo.nullary main_cst_33 (constant S_ .f32 0x469C3E00#32),
    StableHlo.TRef.unary (StableHlo.TRef.of (T := ⟨S_, .f32⟩) main_cst_32) main_call7.v0 id,
    StableHlo.TRef.unary main_call7.v0 main_call7.v1 (broadcastInDim S1024x600 ![] bcast_S_S1024x600),
    StableHlo.TRef.binary main_call7.v1 (StableHlo.TRef.of (T := ⟨S1024x600, .f32⟩) main_v149) main_call7.v2 maximumf,
    StableHlo.TRef.unary (StableHlo.TRef.of (T := ⟨S_, .f32⟩) main_cst_33) main_call7.v3 id,
    StableHlo.TRef.unary main_call7.v3 main_call7.v4 (broadcastInDim S1024x600 ![] bcast_S_S1024x600),
    StableHlo.TRef.binary main_call7.v4 main_call7.v2 main_call7.v5 minimumf,
    StableHlo.unary main_v150 main_v151 (Host.floor : (⟨S1024x600, .f32⟩ : BufTy).Contents (Elt F) → (⟨S1024x600, .f32⟩ : BufTy).Contents (Elt F)),
    StableHlo.unary main_v151 main_v152 (fptosi 32 : (⟨S1024x600, .f32⟩ : BufTy).Contents (Elt F) → (⟨S1024x600, .i32⟩ : BufTy).Contents (Elt F)),
    StableHlo.nullary main_c_34 (constantI S_ 32 0#32),
    StableHlo.nullary main_c_35 (constantI S_ 32 19998#32),
    StableHlo.TRef.unary (StableHlo.TRef.of (T := ⟨S_, .i32⟩) main_c_34) main_call8.v0 id,
    StableHlo.TRef.unary main_call8.v0 main_call8.v1 (broadcastInDim S1024x600 ![] bcast_S_S1024x600),
    StableHlo.TRef.binary main_call8.v1 (StableHlo.TRef.of (T := ⟨S1024x600, .i32⟩) main_v152) main_call8.v2 maxsi,
    StableHlo.TRef.unary (StableHlo.TRef.of (T := ⟨S_, .i32⟩) main_c_35) main_call8.v3 id,
    StableHlo.TRef.unary main_call8.v3 main_call8.v4 (broadcastInDim S1024x600 ![] bcast_S_S1024x600),
    StableHlo.TRef.binary main_call8.v4 main_call8.v2 main_call8.v5 minsi,
    StableHlo.unary main_v153 main_v154 (sitofp .f32 : (⟨S1024x600, .i32⟩ : BufTy).Contents (Elt F) → (⟨S1024x600, .f32⟩ : BufTy).Contents (Elt F)),
    StableHlo.binary main_v150 main_v154 main_v155 (subf : (⟨S1024x600, .f32⟩ : BufTy).Contents (Elt F) → (⟨S1024x600, .f32⟩ : BufTy).Contents (Elt F) → (⟨S1024x600, .f32⟩ : BufTy).Contents (Elt F)),
    StableHlo.nullary main_c_36 (constantI S_ 32 0#32),
    StableHlo.unary main_c_36 main_v156 (broadcastInDim S1024x600 ![] bcast_S_S1024x600 : (⟨S_, .i32⟩ : BufTy).Contents (Elt F) → (⟨S1024x600, .i32⟩ : BufTy).Contents (Elt F)),
    StableHlo.binary main_v153 main_v156 main_v157 (cmpi .slt : (⟨S1024x600, .i32⟩ : BufTy).Contents (Elt F) → (⟨S1024x600, .i32⟩ : BufTy).Contents (Elt F) → (⟨S1024x600, .i1⟩ : BufTy).Contents (Elt F)),
    StableHlo.nullary main_c_37 (constantI S_ 32 20000#32),
    StableHlo.unary main_c_37 main_v158 (broadcastInDim S1024x600 ![] bcast_S_S1024x600 : (⟨S_, .i32⟩ : BufTy).Contents (Elt F) → (⟨S1024x600, .i32⟩ : BufTy).Contents (Elt F)),
    StableHlo.binary main_v153 main_v158 main_v159 (addi : (⟨S1024x600, .i32⟩ : BufTy).Contents (Elt F) → (⟨S1024x600, .i32⟩ : BufTy).Contents (Elt F) → (⟨S1024x600, .i32⟩ : BufTy).Contents (Elt F)),
    StableHlo.ternary main_v157 main_v159 main_v153 main_v160 (select : (⟨S1024x600, .i1⟩ : BufTy).Contents (Elt F) → (⟨S1024x600, .i32⟩ : BufTy).Contents (Elt F) → (⟨S1024x600, .i32⟩ : BufTy).Contents (Elt F) → (⟨S1024x600, .i32⟩ : BufTy).Contents (Elt F)),
    StableHlo.unary main_v160 main_v161 (broadcastInDim S1024x600x1 ![0, 1] bcast_S1024x600_S1024x600x1_0_1 : (⟨S1024x600, .i32⟩ : BufTy).Contents (Elt F) → (⟨S1024x600x1, .i32⟩ : BufTy).Contents (Elt F)),
    StableHlo.unary main_arg11 main_v162 ((transpose S48x20000 [1, 0] · transposes_S20000x48_S48x20000_1_0) : (⟨S20000x48, .f32⟩ : BufTy).Contents (Elt F) → (⟨S48x20000, .f32⟩ : BufTy).Contents (Elt F)),
    StableHlo.binary main_v162 main_v161 main_v163 ((fun x i => Host.gather gather_S48x20000_S1024x600x1_S48x1024x600_0_1_n_n_1_2_481 x i) : (⟨S48x20000, .f32⟩ : BufTy).Contents (Elt F) → (⟨S1024x600x1, .i32⟩ : BufTy).Contents (Elt F) → (⟨S48x1024x600, .f32⟩ : BufTy).Contents (Elt F)),
    StableHlo.nullary main_cst_38 (constant S_ .f32 0x3F800000#32),
    StableHlo.unary main_cst_38 main_v164 (broadcastInDim S1024x600 ![] bcast_S_S1024x600 : (⟨S_, .f32⟩ : BufTy).Contents (Elt F) → (⟨S1024x600, .f32⟩ : BufTy).Contents (Elt F)),
    StableHlo.binary main_v164 main_v155 main_v165 (subf : (⟨S1024x600, .f32⟩ : BufTy).Contents (Elt F) → (⟨S1024x600, .f32⟩ : BufTy).Contents (Elt F) → (⟨S1024x600, .f32⟩ : BufTy).Contents (Elt F)),
    StableHlo.unary main_v165 main_v166 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v166 main_v167 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v163 main_v167 main_v168 (mulf : (⟨S48x1024x600, .f32⟩ : BufTy).Contents (Elt F) → (⟨S48x1024x600, .f32⟩ : BufTy).Contents (Elt F) → (⟨S48x1024x600, .f32⟩ : BufTy).Contents (Elt F)),
    StableHlo.nullary main_c_39 (constantI S_ 32 1#32),
    StableHlo.unary main_c_39 main_v169 (broadcastInDim S1024x600 ![] bcast_S_S1024x600 : (⟨S_, .i32⟩ : BufTy).Contents (Elt F) → (⟨S1024x600, .i32⟩ : BufTy).Contents (Elt F)),
    StableHlo.binary main_v153 main_v169 main_v170 (addi : (⟨S1024x600, .i32⟩ : BufTy).Contents (Elt F) → (⟨S1024x600, .i32⟩ : BufTy).Contents (Elt F) → (⟨S1024x600, .i32⟩ : BufTy).Contents (Elt F)),
    StableHlo.nullary main_c_40 (constantI S_ 32 0#32),
    StableHlo.unary main_c_40 main_v171 (broadcastInDim S1024x600 ![] bcast_S_S1024x600 : (⟨S_, .i32⟩ : BufTy).Contents (Elt F) → (⟨S1024x600, .i32⟩ : BufTy).Contents (Elt F)),
    StableHlo.binary main_v170 main_v171 main_v172 (cmpi .slt : (⟨S1024x600, .i32⟩ : BufTy).Contents (Elt F) → (⟨S1024x600, .i32⟩ : BufTy).Contents (Elt F) → (⟨S1024x600, .i1⟩ : BufTy).Contents (Elt F)),
    StableHlo.nullary main_c_41 (constantI S_ 32 20000#32),
    StableHlo.unary main_c_41 main_v173 (broadcastInDim S1024x600 ![] bcast_S_S1024x600 : (⟨S_, .i32⟩ : BufTy).Contents (Elt F) → (⟨S1024x600, .i32⟩ : BufTy).Contents (Elt F)),
    StableHlo.binary main_v170 main_v173 main_v174 (addi : (⟨S1024x600, .i32⟩ : BufTy).Contents (Elt F) → (⟨S1024x600, .i32⟩ : BufTy).Contents (Elt F) → (⟨S1024x600, .i32⟩ : BufTy).Contents (Elt F)),
    StableHlo.ternary main_v172 main_v174 main_v170 main_v175 (select : (⟨S1024x600, .i1⟩ : BufTy).Contents (Elt F) → (⟨S1024x600, .i32⟩ : BufTy).Contents (Elt F) → (⟨S1024x600, .i32⟩ : BufTy).Contents (Elt F) → (⟨S1024x600, .i32⟩ : BufTy).Contents (Elt F)),
    StableHlo.unary main_v175 main_v176 (broadcastInDim S1024x600x1 ![0, 1] bcast_S1024x600_S1024x600x1_0_1 : (⟨S1024x600, .i32⟩ : BufTy).Contents (Elt F) → (⟨S1024x600x1, .i32⟩ : BufTy).Contents (Elt F)),
    StableHlo.unary main_arg11 main_v177 ((transpose S48x20000 [1, 0] · transposes_S20000x48_S48x20000_1_0) : (⟨S20000x48, .f32⟩ : BufTy).Contents (Elt F) → (⟨S48x20000, .f32⟩ : BufTy).Contents (Elt F)),
    StableHlo.binary main_v177 main_v176 main_v178 ((fun x i => Host.gather gather_S48x20000_S1024x600x1_S48x1024x600_0_1_n_n_1_2_481 x i) : (⟨S48x20000, .f32⟩ : BufTy).Contents (Elt F) → (⟨S1024x600x1, .i32⟩ : BufTy).Contents (Elt F) → (⟨S48x1024x600, .f32⟩ : BufTy).Contents (Elt F)),
    StableHlo.unary main_v155 main_v179 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v179 main_v180 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v178 main_v180 main_v181 (mulf : (⟨S48x1024x600, .f32⟩ : BufTy).Contents (Elt F) → (⟨S48x1024x600, .f32⟩ : BufTy).Contents (Elt F) → (⟨S48x1024x600, .f32⟩ : BufTy).Contents (Elt F)),
    StableHlo.binary main_v168 main_v181 main_v182 (addf : (⟨S48x1024x600, .f32⟩ : BufTy).Contents (Elt F) → (⟨S48x1024x600, .f32⟩ : BufTy).Contents (Elt F) → (⟨S48x1024x600, .f32⟩ : BufTy).Contents (Elt F)),
    StableHlo.unary main_arg6 main_v183 (broadcastInDim S1x1024x600 ![1, 2] bcast_S1024x600_S1x1024x600_1_2 : (⟨S1024x600, .f32⟩ : BufTy).Contents (Elt F) → (⟨S1x1024x600, .f32⟩ : BufTy).Contents (Elt F)),
    StableHlo.unary main_v183 main_v184 (broadcastInDim S48x1024x600 ![0, 1, 2] bcast_S1x1024x600_S48x1024x600_0_1_2 : (⟨S1x1024x600, .f32⟩ : BufTy).Contents (Elt F) → (⟨S48x1024x600, .f32⟩ : BufTy).Contents (Elt F)),
    StableHlo.binary main_v184 main_v182 main_v185 (mulf : (⟨S48x1024x600, .f32⟩ : BufTy).Contents (Elt F) → (⟨S48x1024x600, .f32⟩ : BufTy).Contents (Elt F) → (⟨S48x1024x600, .f32⟩ : BufTy).Contents (Elt F)),
    StableHlo.TRef.unary (StableHlo.TRef.of (T := ⟨S600, .f32⟩) main_arg1) main_call9.call0.v0 (extractStridedSlice S599 ![1] · slices_S600_S599_1),
    StableHlo.TRef.unary (StableHlo.TRef.of (T := ⟨S600, .f32⟩) main_arg1) main_call9.call0.v1 (extractStridedSlice S599 ![0] · slices_S600_S599_0),
    StableHlo.TRef.binary main_call9.call0.v0 main_call9.call0.v1 main_call9.call0.v2 subf,
    StableHlo.TRef.unary (StableHlo.TRef.of (T := ⟨S48x1024x600, .f32⟩) main_v185) main_call9.v1 (extractStridedSlice S48x1024x599 ![0, 0, 1] · slices_S48x1024x600_S48x1024x599_0_0_1),
    StableHlo.TRef.unary (StableHlo.TRef.of (T := ⟨S48x1024x600, .f32⟩) main_v185) main_call9.v2 (extractStridedSlice S48x1024x599 ![0, 0, 0] · slices_S48x1024x600_S48x1024x599_0_0_0),
    StableHlo.TRef.binary main_call9.v1 main_call9.v2 main_call9.v3 addf,
    StableHlo.TRef.unary main_call9.call0.v2 main_call9.v4 (broadcastInDim S1x599 ![1] bcast_S599_S1x599_1),
    StableHlo.TRef.unary main_call9.v4 main_call9.v5 (broadcastInDim S1x1x599 ![1, 2] bcast_S1x599_S1x1x599_1_2),
    StableHlo.TRef.unary main_call9.v5 main_call9.v6 (broadcastInDim S48x1024x599 ![0, 1, 2] bcast_S1x1x599_S48x1024x599_0_1_2),
    StableHlo.TRef.binary main_call9.v6 main_call9.v3 main_call9.v7 mulf,
    StableHlo.TRef.nullary main_call9.cst (constant S_ .f32 0x00000000#32),
    StableHlo.TRef.binary main_call9.v7 main_call9.cst main_call9.v8 (fun x v => Host.reduceAdd x v reducesTo_S48x1024x599_S48x1024_d2 h_S_),
    StableHlo.TRef.nullary main_call9.cst_0 (constant S_ .f32 0x3F000000#32),
    StableHlo.TRef.unary main_call9.cst_0 main_call9.v9 (broadcastInDim S48x1024 ![] bcast_S_S48x1024),
    StableHlo.TRef.binary main_call9.v9 main_call9.v8 main_call9.v10 mulf,
    StableHlo.nullary main_cst_42 (constant S_ .f32 0x3D4CCCCD#32),
    StableHlo.unary main_cst_42 main_v187 (broadcastInDim S1024 ![] bcast_S_S1024 : (⟨S_, .f32⟩ : BufTy).Contents (Elt F) → (⟨S1024, .f32⟩ : BufTy).Contents (Elt F)),
    StableHlo.binary main_arg0 main_v187 main_v188 (Host.divf : (⟨S1024, .f32⟩ : BufTy).Contents (Elt F) → (⟨S1024, .f32⟩ : BufTy).Contents (Elt F) → (⟨S1024, .f32⟩ : BufTy).Contents (Elt F)),
    StableHlo.nullary main_cst_43 (constant S_ .f32 0x3F800000#32),
    StableHlo.binary main_arg13 main_cst_43 main_v189 (subf : (⟨S_, .f32⟩ : BufTy).Contents (Elt F) → (⟨S_, .f32⟩ : BufTy).Contents (Elt F) → (⟨S_, .f32⟩ : BufTy).Contents (Elt F)),
    StableHlo.unary main_v189 main_v190 (broadcastInDim S1024 ![] bcast_S_S1024 : (⟨S_, .f32⟩ : BufTy).Contents (Elt F) → (⟨S1024, .f32⟩ : BufTy).Contents (Elt F)),
    StableHlo.binary main_v188 main_v190 main_v191 (Host.powf : (⟨S1024, .f32⟩ : BufTy).Contents (Elt F) → (⟨S1024, .f32⟩ : BufTy).Contents (Elt F) → (⟨S1024, .f32⟩ : BufTy).Contents (Elt F)),
    StableHlo.unary main_arg12 main_v192 (broadcastInDim S1024 ![] bcast_S_S1024 : (⟨S_, .f32⟩ : BufTy).Contents (Elt F) → (⟨S1024, .f32⟩ : BufTy).Contents (Elt F)),
    StableHlo.binary main_v192 main_v191 main_v193 (mulf : (⟨S1024, .f32⟩ : BufTy).Contents (Elt F) → (⟨S1024, .f32⟩ : BufTy).Contents (Elt F) → (⟨S1024, .f32⟩ : BufTy).Contents (Elt F)) ]

set_option maxRecDepth 8192 in
set_option maxHeartbeats 4000000 in
/-- The window is that line: a call unfolds to the callee's steps, and sequencing reassociates by computation. -/
theorem main_part3_eq (c : Dev nD) : main_part3 (F := F) c = seq ops_part3 := rfl

set_option maxRecDepth 8192 in
/-- Every buffer the window's operations touch is a TensorCore reference. -/
theorem ops_part3_sub : (ops_part3 : List (HloOp τ sig (Elt F))).Forall fun op => op.bufs ⊆ tcRefs τ sig :=
  ⟨binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., unary_bufs_sub .., binary_bufs_sub ..⟩

set_option maxRecDepth 8192 in
/-- Every operation of the window determines its results (none allocates). -/
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part3_W : List (Ref sig .tc) := [main_v147, main_cst_31, main_v148, main_v149, main_cst_32, main_cst_33, main_call7_v0, main_call7_v1, main_call7_v2, main_call7_v3, main_call7_v4, main_v150, main_v151, main_v152, main_c_34, main_c_35, main_call8_v0, main_call8_v1, main_call8_v2, main_call8_v3, main_call8_v4, main_v153, main_v154, main_v155, main_c_36, main_v156, main_v157, main_c_37, main_v158, main_v159, main_v160, main_v161, main_v162, main_v163, main_cst_38, main_v164, main_v165, main_v166, main_v167, main_v168, main_c_39, main_v169, main_v170, main_c_40, main_v171, main_v172, main_c_41, main_v173, main_v174, main_v175, main_v176, main_v177, main_v178, main_v179, main_v180, main_v181, main_v182, main_v183, main_v184, main_v185, main_call9_call0_v0, main_call9_call0_v1, main_call9_v0, main_call9_v1, main_call9_v2, main_call9_v3, main_call9_v4, main_call9_v5, main_call9_v6, main_call9_v7, main_call9_cst, main_call9_v8, main_call9_cst_0, main_call9_v9, main_v186, main_cst_42, main_v187, main_v188, main_cst_43, main_v189, main_v190, main_v191, main_v192, main_v193]

set_option maxRecDepth 8192 in
/-- Each operation of the window writes only its own result buffer. -/
theorem ops_part3_writes : (ops_part3 : List (HloOp τ sig (Elt F))).Forall fun op =>
    op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 309 … 383 of 383: the statements of window `main_part4`, each call replaced by the
    called function's operations over the call's buffers. -/
abbrev ops_part4 : List (HloOp τ sig (Elt F)) :=
  [ StableHlo.binary main_arg0 main_arg0 main_v194 (mulf : (⟨S1024, .f32⟩ : BufTy).Contents (Elt F) → (⟨S1024, .f32⟩ : BufTy).Contents (Elt F) → (⟨S1024, .f32⟩ : BufTy).Contents (Elt F)),
    StableHlo.binary main_v194 main_arg0 main_v195 (mulf : (⟨S1024, .f32⟩ : BufTy).Contents (Elt F) → (⟨S1024, .f32⟩ : BufTy).Contents (Elt F) → (⟨S1024, .f32⟩ : BufTy).Contents (Elt F)),
    StableHlo.nullary main_cst_44 (constant S_ .f32 0x419DE9E6#32),
    StableHlo.unary main_cst_44 main_v196 (broadcastInDim S1024 ![] bcast_S_S1024 : (⟨S_, .f32⟩ : BufTy).Contents (Elt F) → (⟨S1024, .f32⟩ : BufTy).Contents (Elt F)),
    StableHlo.binary main_v196 main_v195 main_v197 (Host.divf : (⟨S1024, .f32⟩ : BufTy).Contents (Elt F) → (⟨S1024, .f32⟩ : BufTy).Contents (Elt F) → (⟨S1024, .f32⟩ : BufTy).Contents (Elt F)),
    StableHlo.binary main_v193 main_v197 main_v198 (mulf : (⟨S1024, .f32⟩ : BufTy).Contents (Elt F) → (⟨S1024, .f32⟩ : BufTy).Contents (Elt F) → (⟨S1024, .f32⟩ : BufTy).Contents (Elt F)),
    StableHlo.binary main_arg0 main_arg0 main_v199 (mulf : (⟨S1024, .f32⟩ : BufTy).Contents (Elt F) → (⟨S1024, .f32⟩ : BufTy).Contents (Elt F) → (⟨S1024, .f32⟩ : BufTy).Contents (Elt F)),
    StableHlo.binary main_v199 main_v198 main_v200 (mulf : (⟨S1024, .f32⟩ : BufTy).Contents (Elt F) → (⟨S1024, .f32⟩ : BufTy).Contents (Elt F) → (⟨S1024, .f32⟩ : BufTy).Contents (Elt F)),
    StableHlo.unary main_v200 main_v201 (broadcastInDim S1x1024 ![1] bcast_S1024_S1x1024_1 : (⟨S1024, .f32⟩ : BufTy).Contents (Elt F) → (⟨S1x1024, .f32⟩ : BufTy).Contents (Elt F)),
    StableHlo.unary main_v201 main_v202 (broadcastInDim S48x1024 ![0, 1] bcast_S1x1024_S48x1024_0_1 : (⟨S1x1024, .f32⟩ : BufTy).Contents (Elt F) → (⟨S48x1024, .f32⟩ : BufTy).Contents (Elt F)),
    StableHlo.binary main_v202 main_v142 main_v203 (mulf : (⟨S48x1024, .f32⟩ : BufTy).Contents (Elt F) → (⟨S48x1024, .f32⟩ : BufTy).Contents (Elt F) → (⟨S48x1024, .f32⟩ : BufTy).Contents (Elt F)),
    StableHlo.binary main_v203 main_v142 main_v204 (mulf : (⟨S48x1024, .f32⟩ : BufTy).Contents (Elt F) → (⟨S48x1024, .f32⟩ : BufTy).Contents (Elt F) → (⟨S48x1024, .f32⟩ : BufTy).Contents (Elt F)),
    StableHlo.TRef.unary (StableHlo.TRef.of (T := ⟨S1024, .f32⟩) main_arg0) main_call10.call0.v0 (extractStridedSlice S1023 ![1] · slices_S1024_S1023_1),
    StableHlo.TRef.unary (StableHlo.TRef.of (T := ⟨S1024, .f32⟩) main_arg0) main_call10.call0.v1 (extractStridedSlice S1023 ![0] · slices_S1024_S1023_0),
    StableHlo.TRef.binary main_call10.call0.v0 main_call10.call0.v1 main_call10.call0.v2 subf,
    StableHlo.TRef.unary (StableHlo.TRef.of (T := ⟨S48x1024, .f32⟩) main_v204) main_call10.v1 (extractStridedSlice S48x1023 ![0, 1] · slices_S48x1024_S48x1023_0_1),
    StableHlo.TRef.unary (StableHlo.TRef.of (T := ⟨S48x1024, .f32⟩) main_v204) main_call10.v2 (extractStridedSlice S48x1023 ![0, 0] · slices_S48x1024_S48x1023_0_0),
    StableHlo.TRef.binary main_call10.v1 main_call10.v2 main_call10.v3 addf,
    StableHlo.TRef.unary main_call10.call0.v2 main_call10.v4 (broadcastInDim S1x1023 ![1] bcast_S1023_S1x1023_1),
    StableHlo.TRef.unary main_call10.v4 main_call10.v5 (broadcastInDim S48x1023 ![0, 1] bcast_S1x1023_S48x1023_0_1),
    StableHlo.TRef.binary main_call10.v5 main_call10.v3 main_call10.v6 mulf,
    StableHlo.TRef.nullary main_call10.cst (constant S_ .f32 0x00000000#32),
    StableHlo.TRef.binary main_call10.v6 main_call10.cst main_call10.v7 (fun x v => Host.reduceAdd x v reducesTo_S48x1023_S48_d1 h_S_),
    StableHlo.TRef.nullary main_call10.cst_0 (constant S_ .f32 0x3F000000#32),
    StableHlo.TRef.unary main_call10.cst_0 main_call10.v8 (broadcastInDim S48 ![] bcast_S_S48),
    StableHlo.TRef.binary main_call10.v8 main_call10.v7 main_call10.v9 mulf,
    StableHlo.nullary main_cst_45 (constant S_ .f32 0x3F22F983#32),
    StableHlo.unary main_cst_45 main_v206 (broadcastInDim S48 ![] bcast_S_S48 : (⟨S_, .f32⟩ : BufTy).Contents (Elt F) → (⟨S48, .f32⟩ : BufTy).Contents (Elt F)),
    StableHlo.binary main_v206 main_v205 main_v207 (mulf : (⟨S48, .f32⟩ : BufTy).Contents (Elt F) → (⟨S48, .f32⟩ : BufTy).Contents (Elt F) → (⟨S48, .f32⟩ : BufTy).Contents (Elt F)),
    StableHlo.unary main_v200 main_v208 (broadcastInDim S1x1024 ![1] bcast_S1024_S1x1024_1 : (⟨S1024, .f32⟩ : BufTy).Contents (Elt F) → (⟨S1x1024, .f32⟩ : BufTy).Contents (Elt F)),
    StableHlo.unary main_v208 main_v209 (broadcastInDim S48x1024 ![0, 1] bcast_S1x1024_S48x1024_0_1 : (⟨S1x1024, .f32⟩ : BufTy).Contents (Elt F) → (⟨S48x1024, .f32⟩ : BufTy).Contents (Elt F)),
    StableHlo.binary main_v209 main_v186 main_v210 (mulf : (⟨S48x1024, .f32⟩ : BufTy).Contents (Elt F) → (⟨S48x1024, .f32⟩ : BufTy).Contents (Elt F) → (⟨S48x1024, .f32⟩ : BufTy).Contents (Elt F)),
    StableHlo.binary main_v210 main_v186 main_v211 (mulf : (⟨S48x1024, .f32⟩ : BufTy).Contents (Elt F) → (⟨S48x1024, .f32⟩ : BufTy).Contents (Elt F) → (⟨S48x1024, .f32⟩ : BufTy).Contents (Elt F)),
    StableHlo.TRef.unary (StableHlo.TRef.of (T := ⟨S1024, .f32⟩) main_arg0) main_call11.call0.v0 (extractStridedSlice S1023 ![1] · slices_S1024_S1023_1),
    StableHlo.TRef.unary (StableHlo.TRef.of (T := ⟨S1024, .f32⟩) main_arg0) main_call11.call0.v1 (extractStridedSlice S1023 ![0] · slices_S1024_S1023_0),
    StableHlo.TRef.binary main_call11.call0.v0 main_call11.call0.v1 main_call11.call0.v2 subf,
    StableHlo.TRef.unary (StableHlo.TRef.of (T := ⟨S48x1024, .f32⟩) main_v211) main_call11.v1 (extractStridedSlice S48x1023 ![0, 1] · slices_S48x1024_S48x1023_0_1),
    StableHlo.TRef.unary (StableHlo.TRef.of (T := ⟨S48x1024, .f32⟩) main_v211) main_call11.v2 (extractStridedSlice S48x1023 ![0, 0] · slices_S48x1024_S48x1023_0_0),
    StableHlo.TRef.binary main_call11.v1 main_call11.v2 main_call11.v3 addf,
    StableHlo.TRef.unary main_call11.call0.v2 main_call11.v4 (broadcastInDim S1x1023 ![1] bcast_S1023_S1x1023_1),
    StableHlo.TRef.unary main_call11.v4 main_call11.v5 (broadcastInDim S48x1023 ![0, 1] bcast_S1x1023_S48x1023_0_1),
    StableHlo.TRef.binary main_call11.v5 main_call11.v3 main_call11.v6 mulf,
    StableHlo.TRef.nullary main_call11.cst (constant S_ .f32 0x00000000#32),
    StableHlo.TRef.binary main_call11.v6 main_call11.cst main_call11.v7 (fun x v => Host.reduceAdd x v reducesTo_S48x1023_S48_d1 h_S_),
    StableHlo.TRef.nullary main_call11.cst_0 (constant S_ .f32 0x3F000000#32),
    StableHlo.TRef.unary main_call11.cst_0 main_call11.v8 (broadcastInDim S48 ![] bcast_S_S48),
    StableHlo.TRef.binary main_call11.v8 main_call11.v7 main_call11.v9 mulf,
    StableHlo.nullary main_cst_46 (constant S_ .f32 0x3F22F983#32),
    StableHlo.unary main_cst_46 main_v213 (broadcastInDim S48 ![] bcast_S_S48 : (⟨S_, .f32⟩ : BufTy).Contents (Elt F) → (⟨S48, .f32⟩ : BufTy).Contents (Elt F)),
    StableHlo.binary main_v213 main_v212 main_v214 (mulf : (⟨S48, .f32⟩ : BufTy).Contents (Elt F) → (⟨S48, .f32⟩ : BufTy).Contents (Elt F) → (⟨S48, .f32⟩ : BufTy).Contents (Elt F)),
    StableHlo.unary main_v200 main_v215 (broadcastInDim S1x1024 ![1] bcast_S1024_S1x1024_1 : (⟨S1024, .f32⟩ : BufTy).Contents (Elt F) → (⟨S1x1024, .f32⟩ : BufTy).Contents (Elt F)),
    StableHlo.unary main_v215 main_v216 (broadcastInDim S48x1024 ![0, 1] bcast_S1x1024_S48x1024_0_1 : (⟨S1x1024, .f32⟩ : BufTy).Contents (Elt F) → (⟨S48x1024, .f32⟩ : BufTy).Contents (Elt F)),
    StableHlo.binary main_v216 main_v142 main_v217 (mulf : (⟨S48x1024, .f32⟩ : BufTy).Contents (Elt F) → (⟨S48x1024, .f32⟩ : BufTy).Contents (Elt F) → (⟨S48x1024, .f32⟩ : BufTy).Contents (Elt F)),
    StableHlo.binary main_v217 main_v186 main_v218 (mulf : (⟨S48x1024, .f32⟩ : BufTy).Contents (Elt F) → (⟨S48x1024, .f32⟩ : BufTy).Contents (Elt F) → (⟨S48x1024, .f32⟩ : BufTy).Contents (Elt F)),
    StableHlo.TRef.unary (StableHlo.TRef.of (T := ⟨S1024, .f32⟩) main_arg0) main_call12.call0.v0 (extractStridedSlice S1023 ![1] · slices_S1024_S1023_1),
    StableHlo.TRef.unary (StableHlo.TRef.of (T := ⟨S1024, .f32⟩) main_arg0) main_call12.call0.v1 (extractStridedSlice S1023 ![0] · slices_S1024_S1023_0),
    StableHlo.TRef.binary main_call12.call0.v0 main_call12.call0.v1 main_call12.call0.v2 subf,
    StableHlo.TRef.unary (StableHlo.TRef.of (T := ⟨S48x1024, .f32⟩) main_v218) main_call12.v1 (extractStridedSlice S48x1023 ![0, 1] · slices_S48x1024_S48x1023_0_1),
    StableHlo.TRef.unary (StableHlo.TRef.of (T := ⟨S48x1024, .f32⟩) main_v218) main_call12.v2 (extractStridedSlice S48x1023 ![0, 0] · slices_S48x1024_S48x1023_0_0),
    StableHlo.TRef.binary main_call12.v1 main_call12.v2 main_call12.v3 addf,
    StableHlo.TRef.unary main_call12.call0.v2 main_call12.v4 (broadcastInDim S1x1023 ![1] bcast_S1023_S1x1023_1),
    StableHlo.TRef.unary main_call12.v4 main_call12.v5 (broadcastInDim S48x1023 ![0, 1] bcast_S1x1023_S48x1023_0_1),
    StableHlo.TRef.binary main_call12.v5 main_call12.v3 main_call12.v6 mulf,
    StableHlo.TRef.nullary main_call12.cst (constant S_ .f32 0x00000000#32),
    StableHlo.TRef.binary main_call12.v6 main_call12.cst main_call12.v7 (fun x v => Host.reduceAdd x v reducesTo_S48x1023_S48_d1 h_S_),
    StableHlo.TRef.nullary main_call12.cst_0 (constant S_ .f32 0x3F000000#32),
    StableHlo.TRef.unary main_call12.cst_0 main_call12.v8 (broadcastInDim S48 ![] bcast_S_S48),
    StableHlo.TRef.binary main_call12.v8 main_call12.v7 main_call12.v9 mulf,
    StableHlo.nullary main_cst_47 (constant S_ .f32 0x3F22F983#32),
    StableHlo.unary main_cst_47 main_v220 (broadcastInDim S48 ![] bcast_S_S48 : (⟨S_, .f32⟩ : BufTy).Contents (Elt F) → (⟨S48, .f32⟩ : BufTy).Contents (Elt F)),
    StableHlo.binary main_v220 main_v219 main_v221 (mulf : (⟨S48, .f32⟩ : BufTy).Contents (Elt F) → (⟨S48, .f32⟩ : BufTy).Contents (Elt F) → (⟨S48, .f32⟩ : BufTy).Contents (Elt F)),
    StableHlo.unary main_v207 main_v222 (broadcastInDim S1x48 ![1] bcast_S48_S1x48_1 : (⟨S48, .f32⟩ : BufTy).Contents (Elt F) → (⟨S1x48, .f32⟩ : BufTy).Contents (Elt F)),
    StableHlo.unary main_v214 main_v223 (broadcastInDim S1x48 ![1] bcast_S48_S1x48_1 : (⟨S48, .f32⟩ : BufTy).Contents (Elt F) → (⟨S1x48, .f32⟩ : BufTy).Contents (Elt F)),
    StableHlo.unary main_v221 main_v224 (broadcastInDim S1x48 ![1] bcast_S48_S1x48_1 : (⟨S48, .f32⟩ : BufTy).Contents (Elt F) → (⟨S1x48, .f32⟩ : BufTy).Contents (Elt F)),
    StableHlo.nary ![main_v222, main_v223, main_v224] main_v225 (fun u => concatenate S3x48 0 [⟨S1x48, u 0⟩, ⟨S1x48, u 1⟩, ⟨S1x48, u 2⟩] concatenates_S1x48_S1x48_S1x48_S3x48_d0) ]

set_option maxRecDepth 8192 in
set_option maxHeartbeats 4000000 in
/-- The window is that line: a call unfolds to the callee's steps, and sequencing reassociates by computation. -/
theorem main_part4_eq (c : Dev nD) : main_part4 (F := F) c = seq ops_part4 := rfl

set_option maxRecDepth 8192 in
/-- Every buffer the window's operations touch is a TensorCore reference. -/
theorem ops_part4_sub : (ops_part4 : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., unary_bufs_sub .., nary_bufs_sub ..⟩

set_option maxRecDepth 8192 in
/-- Every operation of the window determines its results (none allocates). -/
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part4_W : List (Ref sig .tc) := [main_v194, main_v195, main_cst_44, main_v196, main_v197, main_v198, main_v199, main_v200, main_v201, main_v202, main_v203, main_v204, main_call10_call0_v0, main_call10_call0_v1, main_call10_v0, main_call10_v1, main_call10_v2, main_call10_v3, main_call10_v4, main_call10_v5, main_call10_v6, main_call10_cst, main_call10_v7, main_call10_cst_0, main_call10_v8, main_v205, main_cst_45, main_v206, main_v207, main_v208, main_v209, main_v210, main_v211, main_call11_call0_v0, main_call11_call0_v1, main_call11_v0, main_call11_v1, main_call11_v2, main_call11_v3, main_call11_v4, main_call11_v5, main_call11_v6, main_call11_cst, main_call11_v7, main_call11_cst_0, main_call11_v8, main_v212, main_cst_46, main_v213, main_v214, main_v215, main_v216, main_v217, main_v218, main_call12_call0_v0, main_call12_call0_v1, main_call12_v0, main_call12_v1, main_call12_v2, main_call12_v3, main_call12_v4, main_call12_v5, main_call12_v6, main_call12_cst, main_call12_v7, main_call12_cst_0, main_call12_v8, main_v219, main_cst_47, main_v220, main_v221, main_v222, main_v223, main_v224, main_v225]

set_option maxRecDepth 8192 in
/-- Each operation of the window writes only its own result buffer. -/
theorem ops_part4_writes : (ops_part4 : List (HloOp τ sig (Elt F))).Forall fun op =>
    op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's 383 operations, in program order: the windows' lists one after the other. -/
abbrev ops : List (HloOp τ sig (Elt F)) :=
  ops_part0 ++ (ops_part1 ++ (ops_part2 ++ (ops_part3 ++ (ops_part4))))

/-- @main is the sequence of its operations: window by window, the sequence of a concatenation being the sequences in turn. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h]

theorem ops_fresh : ∀ op ∈ (ops : List (HloOp τ sig (Elt F))), op.fresh = ∅ := fun op h => by
  simp only [ops, List.mem_append] at h
  rcases h with h | h | h | h | h
  exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h]

/-- A buffer that no window writes holds after all the operations what it held before them. -/
theorem after_ops_keep (V : Valuation τ sig (Elt F)) (r : Ref sig .tc) (h0 : r ∉ ops_part0_W) (h1 : r ∉ ops_part1_W) (h2 : r ∉ ops_part2_W) (h3 : r ∉ ops_part3_W) (h4 : r ∉ ops_part4_W) :
    after ops V (Proc.devRef .tc r) = V (Proc.devRef .tc r) := by
  simp only [ops, StableHlo.after_append]
  rw [after_of_writes_sub ops_part4 _ ops_part4_writes h4,
    after_of_writes_sub ops_part3 _ ops_part3_writes h3,
    after_of_writes_sub ops_part2 _ ops_part2_writes h2,
    after_of_writes_sub ops_part1 _ ops_part1_writes h1,
    after_of_writes_sub ops_part0 _ ops_part0_writes h0]

/-- On every device, for any float values, from any memory with zero counters: every weakly fair execution of @main
    terminates with the result buffer at the fold of the operations over the launch memory, and every argument unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v225) = StableHlo.after ops (fun b => m (c, b)) (Proc.devRef .tc main_v225)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨h c main_v225,
      (h c main_arg0).trans (after_ops_keep _ main_arg0 (by decide) (by decide) (by decide) (by decide) (by decide)),
      (h c main_arg1).trans (after_ops_keep _ main_arg1 (by decide) (by decide) (by decide) (by decide) (by decide)),
      (h c main_arg2).trans (after_ops_keep _ main_arg2 (by decide) (by decide) (by decide) (by decide) (by decide)),
      (h c main_arg3).trans (after_ops_keep _ main_arg3 (by decide) (by decide) (by decide) (by decide) (by decide)),
      (h c main_arg4).trans (after_ops_keep _ main_arg4 (by decide) (by decide) (by decide) (by decide) (by decide)),
      (h c main_arg5).trans (after_ops_keep _ main_arg5 (by decide) (by decide) (by decide) (by decide) (by decide)),
      (h c main_arg6).trans (after_ops_keep _ main_arg6 (by decide) (by decide) (by decide) (by decide) (by decide)),
      (h c main_arg7).trans (after_ops_keep _ main_arg7 (by decide) (by decide) (by decide) (by decide) (by decide)),
      (h c main_arg8).trans (after_ops_keep _ main_arg8 (by decide) (by decide) (by decide) (by decide) (by decide)),
      (h c main_arg9).trans (after_ops_keep _ main_arg9 (by decide) (by decide) (by decide) (by decide) (by decide)),
      (h c main_arg10).trans (after_ops_keep _ main_arg10 (by decide) (by decide) (by decide) (by decide) (by decide)),
      (h c main_arg11).trans (after_ops_keep _ main_arg11 (by decide) (by decide) (by decide) (by decide) (by decide)),
      (h c main_arg12).trans (after_ops_keep _ main_arg12 (by decide) (by decide) (by decide) (by decide) (by decide)),
      (h c main_arg13).trans (after_ops_keep _ main_arg13 (by decide) (by decide) (by decide) (by decide) (by decide))⟩)
    (run_seq scopedRefs_eq scopedSems_eq defs main (fun _ => ops) main_eq (fun _ => ops_sub) m ρ (fun _ => ops_fresh))

end Cert.ReferenceIdeal.Hand

namespace Cert.Proof.RefClaims

open Idealize.ShloMosaic Idealize.SL.Sem

/-- The reference runs and its argument arrays end unchanged: the run above, at the ideal floats, with the result's clause dropped. -/
theorem frame_ri : Cert.frame_ReferenceIdeal := fun m ρ _ =>
  (θ_run _ _ _).mono (fun _ h c => (h c).2) (Cert.ReferenceIdeal.Hand.run (F := Ideal) m ρ)

end Cert.Proof.RefClaims

end
-- ==== Proof.Args.lean ====
/-
  The fourteen arguments of the spectrum computation as plain functions into the extended reals, named once so that
  the two programs' values can be stated over the same data: the wavenumbers k (1024 of them), the conformal times
  tau (600) and tau0, the four source arrays on the (k, tau) grid, the Bessel abscissae (20000), the four tabulated
  transfer functions on (abscissa, multipole) = 20000 x 48, and the primordial amplitude and tilt.
-/
import Mathlib.Data.EReal.Basic

namespace Cert.Hand

/-- The argument arrays, entry by entry, as extended reals. -/
structure Args where
  k : Fin 1024 → EReal
  tau : Fin 600 → EReal
  tau0 : EReal
  S0 : Fin 1024 → Fin 600 → EReal
  S1 : Fin 1024 → Fin 600 → EReal
  S2 : Fin 1024 → Fin 600 → EReal
  SE : Fin 1024 → Fin 600 → EReal
  xt : Fin 20000 → EReal
  P0 : Fin 20000 → Fin 48 → EReal
  P1 : Fin 20000 → Fin 48 → EReal
  P2 : Fin 20000 → Fin 48 → EReal
  PE : Fin 20000 → Fin 48 → EReal
  As : EReal
  ns : EReal

/-- Every entry of every argument is a real number (neither infinity): what the finiteness precondition says. -/
structure Args.Finite (a : Args) : Prop where
  k : ∀ i, a.k i ≠ ⊤ ∧ a.k i ≠ ⊥
  tau : ∀ t, a.tau t ≠ ⊤ ∧ a.tau t ≠ ⊥
  tau0 : a.tau0 ≠ ⊤ ∧ a.tau0 ≠ ⊥
  S0 : ∀ i t, a.S0 i t ≠ ⊤ ∧ a.S0 i t ≠ ⊥
  S1 : ∀ i t, a.S1 i t ≠ ⊤ ∧ a.S1 i t ≠ ⊥
  S2 : ∀ i t, a.S2 i t ≠ ⊤ ∧ a.S2 i t ≠ ⊥
  SE : ∀ i t, a.SE i t ≠ ⊤ ∧ a.SE i t ≠ ⊥
  xt : ∀ j, a.xt j ≠ ⊤ ∧ a.xt j ≠ ⊥
  P0 : ∀ j l, a.P0 j l ≠ ⊤ ∧ a.P0 j l ≠ ⊥
  P1 : ∀ j l, a.P1 j l ≠ ⊤ ∧ a.P1 j l ≠ ⊥
  P2 : ∀ j l, a.P2 j l ≠ ⊤ ∧ a.P2 j l ≠ ⊥
  PE : ∀ j l, a.PE j l ≠ ⊤ ∧ a.PE j l ≠ ⊥
  As : a.As ≠ ⊤ ∧ a.As ≠ ⊥
  ns : a.ns ≠ ⊤ ∧ a.ns ≠ ⊥

end Cert.Hand
-- ==== Proof.KArgs.lean ====
/-
  The kernel program's fourteen arguments, read entry by entry off the launch memory of a device, as one structure
  of plain functions into the extended reals: the wavenumbers, the conformal times and the present time, the four
  source arrays on the (wavenumber, time) grid, the abscissae, the four tabulated transfer functions and the
  primordial amplitude and tilt, in the order the program takes them.
-/
import proofs.«103908_j25280177504693_2_alg».proof.KernelIdeal
import proofs.«103908_j25280177504693_2_alg».proof.Proof.Gen.KernelIdeal
import proofs.«103908_j25280177504693_2_alg».proof.Proof.Args
import Idealize.ShloMosaic.Lib.ValueIdx

noncomputable section

namespace Cert.KernelIdeal.Hand

open Idealize.ShloMosaic Idealize.ShloMosaic.TcCoe Idealize.ShloMosaic.ValueIdx
open Idealize.SL.Sem

/-- The arguments a device holds at launch, entry by entry. -/
def argsOf (m : (ℓ : Loc nD τ sig) → Buf (Elt Ideal) ℓ) (c : Dev nD) : Cert.Hand.Args where
  k := fun i => m ((c : Thread nD τ).loc main_arg0) (ix1 i)
  tau := fun t => m ((c : Thread nD τ).loc main_arg1) (ix1 t)
  tau0 := m ((c : Thread nD τ).loc main_arg2) ValueIdx.ix0
  S0 := fun i t => m ((c : Thread nD τ).loc main_arg3) (ix2 i t)
  S1 := fun i t => m ((c : Thread nD τ).loc main_arg4) (ix2 i t)
  S2 := fun i t => m ((c : Thread nD τ).loc main_arg5) (ix2 i t)
  SE := fun i t => m ((c : Thread nD τ).loc main_arg6) (ix2 i t)
  xt := fun j => m ((c : Thread nD τ).loc main_arg7) (ix1 j)
  P0 := fun j l => m ((c : Thread nD τ).loc main_arg8) (ix2 j l)
  P1 := fun j l => m ((c : Thread nD τ).loc main_arg9) (ix2 j l)
  P2 := fun j l => m ((c : Thread nD τ).loc main_arg10) (ix2 j l)
  PE := fun j l => m ((c : Thread nD τ).loc main_arg11) (ix2 j l)
  As := m ((c : Thread nD τ).loc main_arg12) ValueIdx.ix0
  ns := m ((c : Thread nD τ).loc main_arg13) ValueIdx.ix0

end Cert.KernelIdeal.Hand
-- ==== Proof.RArgs.lean ====
/-
  The fourteen argument arrays of the reference program's launch memory on one device, read entry by entry as
  extended reals: the one structure of arguments over which the reference's value is stated.
-/
import proofs.«103908_j25280177504693_2_alg».proof.ReferenceIdeal
import proofs.«103908_j25280177504693_2_alg».proof.Proof.Args
import Idealize.ShloMosaic.Lib.ValueIdx

noncomputable section

namespace Cert.ReferenceIdeal.Hand

open Cert.ReferenceIdeal Idealize.ShloMosaic Idealize.SL.Sem Idealize.ShloMosaic.ValueIdx

/-- The argument arrays device `c` holds in the memory `m`: wavenumbers, conformal times, the four source arrays
    on the (wavenumber, time) grid, the abscissae, the four tabulated transfer functions on (abscissa, multipole),
    and the two scalars of the primordial spectrum. -/
def argsOf (m : (ℓ : Loc nD τ sig) → Buf (Elt Ideal) ℓ) (c : Dev nD) : Cert.Hand.Args where
  k i := (m (c, Proc.devRef .tc main_arg0) : S1024.Idx → EReal) (ix1 i)
  tau t := (m (c, Proc.devRef .tc main_arg1) : S600.Idx → EReal) (ix1 t)
  tau0 := (m (c, Proc.devRef .tc main_arg2) : S_.Idx → EReal) ix0
  S0 i t := (m (c, Proc.devRef .tc main_arg3) : S1024x600.Idx → EReal) (ix2 i t)
  S1 i t := (m (c, Proc.devRef .tc main_arg4) : S1024x600.Idx → EReal) (ix2 i t)
  S2 i t := (m (c, Proc.devRef .tc main_arg5) : S1024x600.Idx → EReal) (ix2 i t)
  SE i t := (m (c, Proc.devRef .tc main_arg6) : S1024x600.Idx → EReal) (ix2 i t)
  xt j := (m (c, Proc.devRef .tc main_arg7) : S20000.Idx → EReal) (ix1 j)
  P0 j l := (m (c, Proc.devRef .tc main_arg8) : S20000x48.Idx → EReal) (ix2 j l)
  P1 j l := (m (c, Proc.devRef .tc main_arg9) : S20000x48.Idx → EReal) (ix2 j l)
  P2 j l := (m (c, Proc.devRef .tc main_arg10) : S20000x48.Idx → EReal) (ix2 j l)
  PE j l := (m (c, Proc.devRef .tc main_arg11) : S20000x48.Idx → EReal) (ix2 j l)
  As := (m (c, Proc.devRef .tc main_arg12) : S_.Idx → EReal) ix0
  ns := (m (c, Proc.devRef .tc main_arg13) : S_.Idx → EReal) ix0

end Cert.ReferenceIdeal.Hand

end
-- ==== Proof.FinitePre.lean ====
/-
  The finiteness precondition, decoded. The certificate assumes of the fourteen argument arrays that a printed
  predicate evaluates to the one-bit word 1. That predicate is the conjunction, argument by argument, of
  "every entry x has |x| < +infinity", where |x| = max x (-x), +infinity is the value the f32 word 0x7F800000
  denotes, and "every entry" is a fold by "and" over the whole array starting from 1. Over the extended reals
  max x (-x) < ⊤ holds exactly when x is neither ⊤ nor ⊥, so the assumption says: every entry of every argument
  is a real number. That is what the algebraic laws used downstream need (sums and products that distribute).
-/
import proofs.«103908_j25280177504693_2_alg».proof.Defs
import proofs.«103908_j25280177504693_2_alg».proof.Proof.Gen.Pre_finite_inputs
import proofs.«103908_j25280177504693_2_alg».proof.Proof.Args
import proofs.«103908_j25280177504693_2_alg».proof.Proof.KArgs
import Idealize.ShloMosaic.Lib.ReduceAll
import Idealize.ShloMosaic.Lib.ValueIdx

noncomputable section

namespace Cert.KernelIdeal.Hand

open Idealize.ShloMosaic Idealize.SL.Sem Cert.Pre_finite_inputs

instance : Subsingleton S_.Idx := ⟨fun a b => funext fun d => d.elim0⟩

/-- The f32 word 0x7F800000 denotes +infinity. -/
theorem inf_word : Ideal.ofBits .f32 0x7F800000#32 = (⊤ : EReal) := by
  simp [Ideal.ofBits, Ideal.ieee]

/-- An extended real whose absolute value max x (-x) is strictly below +infinity is a real number. -/
theorem real_of_abs_lt (x : EReal)
    (e : Ideal.cmp .olt (max x (-x)) (Ideal.ofBits .f32 0x7F800000#32) = 1#1) : x ≠ ⊤ ∧ x ≠ ⊥ := by
  rw [inf_word] at e
  induction x using EReal.rec with
  | bot => simp [Ideal.cmp] at e
  | top => simp [Ideal.cmp] at e
  | coe r => exact ⟨EReal.coe_ne_top r, EReal.coe_ne_bot r⟩

/-- An array of any shape: if the conjunction over all entries of "|x| < +infinity" (the bound broadcast from a
    scalar) is true, every entry is a real number. -/
theorem real_of_all {s : Shape} {axes : List (Fin s.rank)} (x : FVec Ideal s .f32)
    (hb : S_.BroadcastsInDim s (![] : Fin 0 → Fin s.rank)) (h : s.ReducesTo axes S_) (hu : 0 < S_.numel)
    (init : IVec S_ 1)
    (e : Host.reduce IntOp.andi
          (cmpf .olt (Host.absf x) (broadcastInDim s ![] hb (constant (F := Ideal) S_ .f32 0x7F800000#32)))
          init h hu ValueIdx.ix0 = 1#1)
    (i : s.Idx) : x i ≠ ⊤ ∧ x i ≠ ⊥ :=
  real_of_abs_lt (x i) (Host.reduce_andi_all _ init h hu ValueIdx.ix0 e i)

/-- A scalar: the same with the bound compared directly. -/
theorem real_of_all0 {axes : List (Fin S_.rank)} (x : FVec Ideal S_ .f32)
    (h : S_.ReducesTo axes S_) (hu : 0 < S_.numel) (init : IVec S_ 1)
    (e : Host.reduce IntOp.andi
          (cmpf .olt (Host.absf x) (constant (F := Ideal) S_ .f32 0x7F800000#32))
          init h hu ValueIdx.ix0 = 1#1)
    (i : S_.Idx) : x i ≠ ⊤ ∧ x i ≠ ⊥ :=
  real_of_abs_lt (x i) (Host.reduce_andi_all _ init h hu ValueIdx.ix0 e i)

/-- The precondition, decoded: on every device each of the fourteen argument arrays has only real entries.
    The printed predicate is the conjunction, argument by argument, of "all entries have |x| < +infinity";
    its value 1 splits into the fourteen conjuncts, and each gives its array entry by entry. -/
theorem finite_mem (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, m ((c.tc : Thread Cert.KernelIdeal.nD Cert.KernelIdeal.τ).loc Cert.KernelIdeal.main_arg0) i ≠ (⊤ : EReal) ∧ m ((c.tc : Thread Cert.KernelIdeal.nD Cert.KernelIdeal.τ).loc Cert.KernelIdeal.main_arg0) i ≠ (⊥ : EReal))
    ∧ (∀ i, m ((c.tc : Thread Cert.KernelIdeal.nD Cert.KernelIdeal.τ).loc Cert.KernelIdeal.main_arg1) i ≠ (⊤ : EReal) ∧ m ((c.tc : Thread Cert.KernelIdeal.nD Cert.KernelIdeal.τ).loc Cert.KernelIdeal.main_arg1) i ≠ (⊥ : EReal))
    ∧ (∀ i, m ((c.tc : Thread Cert.KernelIdeal.nD Cert.KernelIdeal.τ).loc Cert.KernelIdeal.main_arg2) i ≠ (⊤ : EReal) ∧ m ((c.tc : Thread Cert.KernelIdeal.nD Cert.KernelIdeal.τ).loc Cert.KernelIdeal.main_arg2) i ≠ (⊥ : EReal))
    ∧ (∀ i, m ((c.tc : Thread Cert.KernelIdeal.nD Cert.KernelIdeal.τ).loc Cert.KernelIdeal.main_arg3) i ≠ (⊤ : EReal) ∧ m ((c.tc : Thread Cert.KernelIdeal.nD Cert.KernelIdeal.τ).loc Cert.KernelIdeal.main_arg3) i ≠ (⊥ : EReal))
    ∧ (∀ i, m ((c.tc : Thread Cert.KernelIdeal.nD Cert.KernelIdeal.τ).loc Cert.KernelIdeal.main_arg4) i ≠ (⊤ : EReal) ∧ m ((c.tc : Thread Cert.KernelIdeal.nD Cert.KernelIdeal.τ).loc Cert.KernelIdeal.main_arg4) i ≠ (⊥ : EReal))
    ∧ (∀ i, m ((c.tc : Thread Cert.KernelIdeal.nD Cert.KernelIdeal.τ).loc Cert.KernelIdeal.main_arg5) i ≠ (⊤ : EReal) ∧ m ((c.tc : Thread Cert.KernelIdeal.nD Cert.KernelIdeal.τ).loc Cert.KernelIdeal.main_arg5) i ≠ (⊥ : EReal))
    ∧ (∀ i, m ((c.tc : Thread Cert.KernelIdeal.nD Cert.KernelIdeal.τ).loc Cert.KernelIdeal.main_arg6) i ≠ (⊤ : EReal) ∧ m ((c.tc : Thread Cert.KernelIdeal.nD Cert.KernelIdeal.τ).loc Cert.KernelIdeal.main_arg6) i ≠ (⊥ : EReal))
    ∧ (∀ i, m ((c.tc : Thread Cert.KernelIdeal.nD Cert.KernelIdeal.τ).loc Cert.KernelIdeal.main_arg7) i ≠ (⊤ : EReal) ∧ m ((c.tc : Thread Cert.KernelIdeal.nD Cert.KernelIdeal.τ).loc Cert.KernelIdeal.main_arg7) i ≠ (⊥ : EReal))
    ∧ (∀ i, m ((c.tc : Thread Cert.KernelIdeal.nD Cert.KernelIdeal.τ).loc Cert.KernelIdeal.main_arg8) i ≠ (⊤ : EReal) ∧ m ((c.tc : Thread Cert.KernelIdeal.nD Cert.KernelIdeal.τ).loc Cert.KernelIdeal.main_arg8) i ≠ (⊥ : EReal))
    ∧ (∀ i, m ((c.tc : Thread Cert.KernelIdeal.nD Cert.KernelIdeal.τ).loc Cert.KernelIdeal.main_arg9) i ≠ (⊤ : EReal) ∧ m ((c.tc : Thread Cert.KernelIdeal.nD Cert.KernelIdeal.τ).loc Cert.KernelIdeal.main_arg9) i ≠ (⊥ : EReal))
    ∧ (∀ i, m ((c.tc : Thread Cert.KernelIdeal.nD Cert.KernelIdeal.τ).loc Cert.KernelIdeal.main_arg10) i ≠ (⊤ : EReal) ∧ m ((c.tc : Thread Cert.KernelIdeal.nD Cert.KernelIdeal.τ).loc Cert.KernelIdeal.main_arg10) i ≠ (⊥ : EReal))
    ∧ (∀ i, m ((c.tc : Thread Cert.KernelIdeal.nD Cert.KernelIdeal.τ).loc Cert.KernelIdeal.main_arg11) i ≠ (⊤ : EReal) ∧ m ((c.tc : Thread Cert.KernelIdeal.nD Cert.KernelIdeal.τ).loc Cert.KernelIdeal.main_arg11) i ≠ (⊥ : EReal))
    ∧ (∀ i, m ((c.tc : Thread Cert.KernelIdeal.nD Cert.KernelIdeal.τ).loc Cert.KernelIdeal.main_arg12) i ≠ (⊤ : EReal) ∧ m ((c.tc : Thread Cert.KernelIdeal.nD Cert.KernelIdeal.τ).loc Cert.KernelIdeal.main_arg12) i ≠ (⊥ : EReal))
    ∧ (∀ i, m ((c.tc : Thread Cert.KernelIdeal.nD Cert.KernelIdeal.τ).loc Cert.KernelIdeal.main_arg13) i ≠ (⊤ : EReal) ∧ m ((c.tc : Thread Cert.KernelIdeal.nD Cert.KernelIdeal.τ).loc Cert.KernelIdeal.main_arg13) i ≠ (⊥ : EReal)) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨real_of_all _ _ _ _ _ e0,
    real_of_all _ _ _ _ _ e1,
    real_of_all0 _ _ _ _ e2,
    real_of_all _ _ _ _ _ e3,
    real_of_all _ _ _ _ _ e4,
    real_of_all _ _ _ _ _ e5,
    real_of_all _ _ _ _ _ e6,
    real_of_all _ _ _ _ _ e7,
    real_of_all _ _ _ _ _ e8,
    real_of_all _ _ _ _ _ e9,
    real_of_all _ _ _ _ _ e10,
    real_of_all _ _ _ _ _ e11,
    real_of_all0 _ _ _ _ e12,
    real_of_all0 _ _ _ _ e13⟩

/-- The precondition in the form the value side uses: the arguments a device holds at launch, read entry by
    entry as extended reals, are all real numbers. Each field is the matching conjunct above at the index built
    from the field's coordinates. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) : (argsOf m c).Finite := by
  obtain ⟨a0, a1, a2, a3, a4, a5, a6, a7, a8, a9, a10, a11, a12, a13⟩ := finite_mem m h c
  exact {
    k := fun i => a0 _, tau := fun t => a1 _, tau0 := a2 _,
    S0 := fun i t => a3 _, S1 := fun i t => a4 _, S2 := fun i t => a5 _, SE := fun i t => a6 _,
    xt := fun j => a7 _,
    P0 := fun j l => a8 _, P1 := fun j l => a9 _, P2 := fun j l => a10 _, PE := fun j l => a11 _,
    As := a12 _, ns := a13 _ }

end Cert.KernelIdeal.Hand

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.LibTrapz.lean ====
import proofs.«103908_j25280177504693_2_alg».proof.Proof.LibReal
import Mathlib.Algebra.BigOperators.Group.Finset.Basic
import Mathlib.Algebra.BigOperators.Intervals
import Mathlib.Algebra.BigOperators.Ring.Finset
import Mathlib.Algebra.Order.Floor.Semiring
import Mathlib.Algebra.Order.AbsoluteValue.Basic
import Mathlib.Data.Real.Basic
import Mathlib.Algebra.Order.Archimedean.Real.Basic
import Mathlib.Order.Interval.Finset.Nat
import Mathlib.Tactic.Ring
import Mathlib.Tactic.Linarith
import Mathlib.Tactic.Positivity

/-!
  Three pieces of elementary real analysis on finite sums.

  1. The hat function `hat d = max 0 (1 - |d|)` is the kernel of linear interpolation on
     the integer grid: for `n ≤ p < n + 1` the weights `hat (p - j)` vanish except at
     `j = n` (weight `1 - (p - n)`) and `j = n + 1` (weight `p - n`), so a weighted sum over
     any range that contains those rows is the interpolated value
     `f n * (1 - (p - n)) + f (n + 1) * (p - n)`.
  2. The trapezoid rule, written either as a sum over the `N + 1` panels
     `Σ d t * (y (t+1) + y t) / 2` or as a sum over the `N + 2` nodes `Σ y t * w t` with the
     end weights `d 0 / 2`, `d N / 2` and the interior weights `(d (t-1) + d t) / 2`.
  3. Extended reals whose entries are all real: every operation agrees with the real one.
-/

open scoped BigOperators

namespace Cert.Hand.Math

/-! ## 1. The hat function and linear interpolation -/

/-- The hat function: `1 - |d|` on `[-1, 1]`, zero outside. -/
noncomputable def hat (d : ℝ) : ℝ := max 0 (1 - |d|)

theorem hat_nonneg (d : ℝ) : 0 ≤ hat d := le_max_left _ _

/-- Outside the open interval `(-1, 1)` the hat function vanishes. -/
theorem hat_eq_zero {d : ℝ} (h : 1 ≤ |d|) : hat d = 0 := by
  unfold hat
  exact max_eq_left (by linarith)

/-- On `[0, 1]` the hat function is `1 - d`. -/
theorem hat_of_nonneg {d : ℝ} (h0 : 0 ≤ d) (h1 : d ≤ 1) : hat d = 1 - d := by
  unfold hat
  rw [abs_of_nonneg h0]
  exact max_eq_right (by linarith)

/-- On `[-1, 0]` the hat function is `1 + d`. -/
theorem hat_of_nonpos {d : ℝ} (h0 : d ≤ 0) (h1 : -1 ≤ d) : hat d = 1 + d := by
  unfold hat
  rw [abs_of_nonpos h0, max_eq_right (by linarith)]
  ring

theorem hat_zero : hat 0 = 1 := by
  rw [hat_of_nonneg le_rfl zero_le_one, sub_zero]

/-- The weight of row `j` at position `p ∈ [n, n + 1)`: `1 - (p - n)` at `j = n`, `p - n` at
    `j = n + 1`, zero at every other row. -/
theorem hat_sub_natCast {p : ℝ} {n : ℕ} (hn : (n : ℝ) ≤ p) (hn1 : p < n + 1) (j : ℕ) :
    hat (p - j) = (if j = n then 1 - (p - n) else 0) + (if j = n + 1 then p - n else 0) := by
  rcases lt_trichotomy j n with hj | hj | hj
  · -- j ≤ n - 1, so p - j ≥ 1
    have h1 : (j : ℝ) + 1 ≤ n := by exact_mod_cast hj
    have : 1 ≤ |p - j| := by rw [abs_of_nonneg (by linarith)]; linarith
    rw [hat_eq_zero this, if_neg (by omega), if_neg (by omega), add_zero]
  · subst hj
    rw [if_pos rfl, if_neg (by omega), add_zero]
    exact hat_of_nonneg (by linarith) (by linarith)
  · rcases Nat.lt_or_ge (n + 1) j with hj2 | hj2
    · -- j ≥ n + 2, so p - j < -1
      have h1 : (n : ℝ) + 1 + 1 ≤ j := by exact_mod_cast hj2
      have : 1 ≤ |p - j| := by rw [abs_of_nonpos (by linarith)]; linarith
      rw [hat_eq_zero this, if_neg (by omega), if_neg (by omega), add_zero]
    · have hj3 : j = n + 1 := by omega
      subst hj3
      rw [if_neg (by omega), if_pos rfl, zero_add]
      rw [hat_of_nonpos (by push_cast; linarith) (by push_cast; linarith)]
      push_cast; ring

/-- The hat-weighted sum over an arbitrary finite set of rows: only the rows `n` and `n + 1`
    contribute. -/
theorem sum_hat_mul (f : ℕ → ℝ) {p : ℝ} {n : ℕ} (hn : (n : ℝ) ≤ p) (hn1 : p < n + 1)
    (s : Finset ℕ) :
    ∑ j ∈ s, hat (p - j) * f j
      = (if n ∈ s then f n * (1 - (p - n)) else 0)
        + (if n + 1 ∈ s then f (n + 1) * (p - n) else 0) := by
  have hpt : ∀ j ∈ s, hat (p - j) * f j
      = (if j = n then f n * (1 - (p - n)) else 0)
        + (if j = n + 1 then f (n + 1) * (p - n) else 0) := by
    intro j _
    rw [hat_sub_natCast hn hn1 j]
    by_cases h1 : j = n
    · subst h1; rw [if_pos rfl, if_pos rfl, if_neg (by omega), if_neg (by omega)]; ring
    · by_cases h2 : j = n + 1
      · subst h2; rw [if_neg h1, if_neg h1, if_pos rfl, if_pos rfl]; ring
      · rw [if_neg h1, if_neg h1, if_neg h2, if_neg h2]; ring
  rw [Finset.sum_congr rfl hpt, Finset.sum_add_distrib, Finset.sum_ite_eq', Finset.sum_ite_eq']

/-- Linear interpolation, general form: `n ≤ p < n + 1`, the range `[a, b)` contains `n`, and
    contains `n + 1` unless `p = n` (in which case row `n + 1` has weight zero anyway). -/
theorem sum_hat_Ico_of_mem (f : ℕ → ℝ) {p : ℝ} {n : ℕ} (hn : (n : ℝ) ≤ p) (hn1 : p < n + 1)
    {a b : ℕ} (ha : a ≤ n) (hb : n + 1 < b ∨ (n < b ∧ p = n)) :
    ∑ j ∈ Finset.Ico a b, hat (p - j) * f j
      = f n * (1 - (p - n)) + f (n + 1) * (p - n) := by
  rw [sum_hat_mul f hn hn1]
  have hnb : n < b := by rcases hb with h | h <;> omega
  rw [if_pos (Finset.mem_Ico.mpr ⟨ha, hnb⟩)]
  congr 1
  by_cases h : n + 1 ∈ Finset.Ico a b
  · rw [if_pos h]
  · rw [if_neg h]
    rcases hb with hb | ⟨_, hpn⟩
    · exact absurd (Finset.mem_Ico.mpr ⟨by omega, hb⟩) h
    · rw [hpn, sub_self, mul_zero]

/-- Linear interpolation with `n` the floor of `p`. -/
theorem sum_hat_Ico (f : ℕ → ℝ) {p : ℝ} (hp : 0 ≤ p) {a b : ℕ} (ha : a ≤ ⌊p⌋₊)
    (hb : ⌊p⌋₊ + 1 < b ∨ (⌊p⌋₊ < b ∧ p = (⌊p⌋₊ : ℕ))) :
    ∑ j ∈ Finset.Ico a b, hat (p - j) * f j
      = f ⌊p⌋₊ * (1 - (p - (⌊p⌋₊ : ℕ))) + f (⌊p⌋₊ + 1) * (p - (⌊p⌋₊ : ℕ)) :=
  sum_hat_Ico_of_mem f (Nat.floor_le hp) (Nat.lt_floor_add_one p) ha hb

/-- A block of rows none of which is within distance one of `p` contributes nothing. -/
theorem sum_hat_eq_zero (f : ℕ → ℝ) (p : ℝ) (s : Finset ℕ)
    (h : ∀ j ∈ s, 1 ≤ |p - (j : ℝ)|) : ∑ j ∈ s, hat (p - j) * f j = 0 :=
  Finset.sum_eq_zero fun j hj => by rw [hat_eq_zero (h j hj), zero_mul]

/-! ### Sums over consecutive chunks of a fixed length -/

/-- A sum over the chunks `lo, …, hi - 1` of length `K`, each summed over its `K` rows, is the
    sum over the rows `lo * K, …, hi * K - 1`. -/
theorem sum_Ico_chunks (g : ℕ → ℝ) (K lo hi : ℕ) (h : lo ≤ hi) :
    ∑ c ∈ Finset.Ico lo hi, ∑ r ∈ Finset.range K, g (c * K + r)
      = ∑ j ∈ Finset.Ico (lo * K) (hi * K), g j := by
  induction hi, h using Nat.le_induction with
  | base => rw [Finset.Ico_self, Finset.Ico_self, Finset.sum_empty, Finset.sum_empty]
  | succ m hm ih =>
    rw [Finset.sum_Ico_succ_top hm, ih,
      ← Finset.sum_Ico_consecutive g (Nat.mul_le_mul_right K hm)
        (Nat.mul_le_mul_right K (Nat.le_succ m))]
    congr 1
    rw [Finset.sum_Ico_eq_sum_range]
    have : (m + 1) * K - m * K = K := by rw [Nat.succ_mul]; omega
    rw [this]

/-- The same with a closed range of chunks `lo, …, hi`. -/
theorem sum_Icc_chunks (g : ℕ → ℝ) (K lo hi : ℕ) (h : lo ≤ hi + 1) :
    ∑ c ∈ Finset.Icc lo hi, ∑ r ∈ Finset.range K, g (c * K + r)
      = ∑ j ∈ Finset.Ico (lo * K) ((hi + 1) * K), g j := by
  have hI : Finset.Icc lo hi = Finset.Ico lo (hi + 1) := by
    ext c
    simp only [Finset.mem_Icc, Finset.mem_Ico]
    omega
  rw [hI, sum_Ico_chunks g K lo (hi + 1) h]

/-- Linear interpolation when the rows are visited chunk by chunk (chunks of length `K`):
    the chunks `lo, …, hi` cover row `n`, and row `n + 1` unless `p = n`. -/
theorem sum_hat_chunks_of_mem (f : ℕ → ℝ) {p : ℝ} {n : ℕ} (hn : (n : ℝ) ≤ p) (hn1 : p < n + 1)
    (K : ℕ) {lo hi : ℕ} (hlo : lo * K ≤ n)
    (hhi : n + 1 < (hi + 1) * K ∨ (n < (hi + 1) * K ∧ p = n)) :
    ∑ c ∈ Finset.Icc lo hi, ∑ r ∈ Finset.range K,
        hat (p - ((c * K + r : ℕ) : ℝ)) * f (c * K + r)
      = f n * (1 - (p - n)) + f (n + 1) * (p - n) := by
  have hlohi : lo ≤ hi + 1 := by
    have h1 : lo * K < (hi + 1) * K := by rcases hhi with h | h <;> omega
    exact le_of_lt (lt_of_mul_lt_mul_right h1 (Nat.zero_le K))
  rw [sum_Icc_chunks (fun j => hat (p - (j : ℝ)) * f j) K lo hi hlohi]
  exact sum_hat_Ico_of_mem f hn hn1 hlo hhi

/-- The 256-row form, with the row index spelled `c * 256 + r` in the reals. -/
theorem sum_hat_chunks256 (f : ℕ → ℝ) {p : ℝ} (hp : 0 ≤ p) {lo hi : ℕ}
    (hlo : lo * 256 ≤ ⌊p⌋₊)
    (hhi : ⌊p⌋₊ + 1 < (hi + 1) * 256 ∨ (⌊p⌋₊ < (hi + 1) * 256 ∧ p = (⌊p⌋₊ : ℕ))) :
    ∑ c ∈ Finset.Icc lo hi, ∑ r ∈ Finset.range 256,
        hat (p - ((c : ℝ) * 256 + (r : ℝ))) * f (c * 256 + r)
      = f ⌊p⌋₊ * (1 - (p - (⌊p⌋₊ : ℕ))) + f (⌊p⌋₊ + 1) * (p - (⌊p⌋₊ : ℕ)) := by
  rw [← sum_hat_chunks_of_mem f (Nat.floor_le hp) (Nat.lt_floor_add_one p) 256 hlo hhi]
  refine Finset.sum_congr rfl fun c _ => Finset.sum_congr rfl fun r _ => ?_
  push_cast
  rfl

/-- A chunk all of whose rows are at distance at least one from `p` contributes nothing. -/
theorem sum_hat_chunk_eq_zero (f : ℕ → ℝ) (p : ℝ) (K c : ℕ)
    (h : ∀ r, r < K → 1 ≤ |p - ((c * K + r : ℕ) : ℝ)|) :
    ∑ r ∈ Finset.range K, hat (p - ((c * K + r : ℕ) : ℝ)) * f (c * K + r) = 0 :=
  Finset.sum_eq_zero fun r hr => by
    rw [hat_eq_zero (h r (Finset.mem_range.mp hr)), zero_mul]

/-- A chunk lying entirely below row `n` (`n ≤ p`) is at distance at least one from `p`. -/
theorem one_le_abs_of_chunk_below {p : ℝ} {n : ℕ} (hn : (n : ℝ) ≤ p) {K c : ℕ}
    (hc : (c + 1) * K ≤ n) (r : ℕ) (hr : r < K) : 1 ≤ |p - ((c * K + r : ℕ) : ℝ)| := by
  have h1 : c * K + r + 1 ≤ n := by rw [Nat.succ_mul] at hc; omega
  have h2 : ((c * K + r : ℕ) : ℝ) + 1 ≤ n := by exact_mod_cast h1
  rw [abs_of_nonneg (by linarith)]; linarith

/-- A chunk lying entirely above row `n + 1` (`p < n + 1`) is at distance at least one from
    `p`. -/
theorem one_le_abs_of_chunk_above {p : ℝ} {n : ℕ} (hn1 : p < n + 1) {K c : ℕ}
    (hc : n + 2 ≤ c * K) (r : ℕ) (_hr : r < K) : 1 ≤ |p - ((c * K + r : ℕ) : ℝ)| := by
  have h1 : n + 2 ≤ c * K + r := by omega
  have h2 : (n : ℝ) + 2 ≤ ((c * K + r : ℕ) : ℝ) := by exact_mod_cast h1
  rw [abs_of_nonpos (by linarith)]; linarith

/-! ### Clamping the floor -/

/-- Clamping the floor `n` of `p` to `M`, where `p ≤ M + 1`, does not change the interpolated
    value: if `n ≤ M` nothing changes; otherwise `p = n = M + 1`, the clamped row is `M` with
    fraction `1`, and both sides are `f (M + 1)`. -/
theorem interp_clamp (f : ℕ → ℝ) {p : ℝ} {n : ℕ} (hn : (n : ℝ) ≤ p) (_hn1 : p < n + 1)
    {M : ℕ} (hM : p ≤ M + 1) :
    f (min n M) * (1 - (p - (min n M : ℕ))) + f (min n M + 1) * (p - (min n M : ℕ))
      = f n * (1 - (p - n)) + f (n + 1) * (p - n) := by
  rcases Nat.lt_or_ge M n with h | h
  · have hnM : n = M + 1 := by
      have : (n : ℝ) ≤ (M + 1 : ℕ) := by push_cast; linarith
      have : n ≤ M + 1 := by exact_mod_cast this
      omega
    subst hnM
    have hp : p = (M : ℝ) + 1 := le_antisymm hM (by push_cast at hn; linarith)
    rw [Nat.min_eq_right (Nat.le_succ M), hp]
    push_cast
    ring
  · rw [Nat.min_eq_left h]

/-! ## 2. The trapezoid rule, by panels and by nodes -/

/-- Node weights of the trapezoid rule on the nodes `0, …, N + 1` with panel widths
    `d 0, …, d N`: half the first width at node `0`, half the last width at node `N + 1`, and
    half the sum of the two adjacent widths at an interior node. -/
noncomputable def trapW (d : ℕ → ℝ) (N t : ℕ) : ℝ :=
  if t = 0 then d 0 / 2 else if t = N + 1 then d N / 2 else (d (t - 1) + d t) / 2

/-- The same weights read off a concatenation of three lists: `[d 0 / 2]`, then the `N` entries
    `(d i + d (i + 1)) / 2` for `i < N`, then `[d N / 2]`; entry `t` of the concatenation. -/
noncomputable def trapWcat (d : ℕ → ℝ) (N t : ℕ) : ℝ :=
  if t < 1 then d 0 / 2 else if t < 1 + N then (d (t - 1) + d (t - 1 + 1)) / 2 else d N / 2

theorem trapW_zero (d : ℕ → ℝ) (N : ℕ) : trapW d N 0 = d 0 / 2 := by
  unfold trapW; rw [if_pos rfl]

theorem trapW_last (d : ℕ → ℝ) (N : ℕ) : trapW d N (N + 1) = d N / 2 := by
  unfold trapW; rw [if_neg (Nat.succ_ne_zero N), if_pos rfl]

theorem trapW_mid (d : ℕ → ℝ) {N t : ℕ} (h1 : 1 ≤ t) (h2 : t ≤ N) :
    trapW d N t = (d (t - 1) + d t) / 2 := by
  unfold trapW; rw [if_neg (by omega), if_neg (by omega)]

/-- On the nodes `0, …, N + 1` the two descriptions of the weights agree. -/
theorem trapWcat_eq (d : ℕ → ℝ) {N t : ℕ} (ht : t ≤ N + 1) : trapWcat d N t = trapW d N t := by
  unfold trapWcat
  rcases Nat.eq_zero_or_pos t with h0 | h0
  · subst h0; rw [if_pos Nat.zero_lt_one, trapW_zero]
  · rcases Nat.lt_or_ge t (1 + N) with h1 | h1
    · rw [if_neg (by omega), if_pos h1, trapW_mid d h0 (by omega), Nat.sub_add_cancel h0]
    · have : t = N + 1 := by omega
      subst this
      rw [if_neg (by omega), if_neg (by omega), trapW_last]

/-- The trapezoid rule: the node form equals the panel form. Each node value `y t` is counted
    with half the width of the panel on its left (if any) and half the width of the panel on
    its right (if any); regrouping by panels gives `d t * (y (t + 1) + y t) / 2`. -/
theorem sum_mul_trapW (d y : ℕ → ℝ) (N : ℕ) :
    ∑ t ∈ Finset.range (N + 2), y t * trapW d N t
      = ∑ t ∈ Finset.range (N + 1), d t * (y (t + 1) + y t) / 2 := by
  have hsplit : ∀ t ∈ Finset.range (N + 2), y t * trapW d N t
      = (if t = 0 then 0 else y t * (d (t - 1) / 2))
        + (if t = N + 1 then 0 else y t * (d t / 2)) := by
    intro t ht
    have htN : t ≤ N + 1 := Nat.lt_succ_iff.mp (Finset.mem_range.mp ht)
    rcases Nat.eq_zero_or_pos t with h0 | h0
    · subst h0
      rw [trapW_zero, if_pos rfl, if_neg (by omega), zero_add]
    · rcases Nat.lt_or_ge N t with h1 | h1
      · have : t = N + 1 := by omega
        subst this
        rw [trapW_last, if_neg (by omega), if_pos rfl, add_zero, Nat.add_sub_cancel]
      · rw [trapW_mid d h0 h1, if_neg (by omega), if_neg (by omega)]
        ring
  rw [Finset.sum_congr rfl hsplit, Finset.sum_add_distrib]
  -- left halves: shift the index by one; right halves: drop the last node
  rw [show N + 2 = (N + 1) + 1 from rfl, Finset.sum_range_succ' _ (N + 1),
    Finset.sum_range_succ _ (N + 1), if_pos rfl, if_pos rfl, add_zero, add_zero,
    ← Finset.sum_add_distrib]
  refine Finset.sum_congr rfl fun t ht => ?_
  have : t ≠ N + 1 := Nat.ne_of_lt (Finset.mem_range.mp ht)
  rw [if_neg (Nat.succ_ne_zero t), if_neg this, Nat.add_sub_cancel]
  ring

/-- The panel sum with the factor one half taken outside, on the left. -/
theorem sum_mul_trapW_half_mul (d y : ℕ → ℝ) (N : ℕ) :
    ∑ t ∈ Finset.range (N + 2), y t * trapW d N t
      = (1 / 2) * ∑ t ∈ Finset.range (N + 1), d t * (y (t + 1) + y t) := by
  rw [sum_mul_trapW, Finset.mul_sum]
  exact Finset.sum_congr rfl fun t _ => by ring

/-- The panel sum with the factor one half taken outside, on the right. -/
theorem sum_mul_trapW_mul_half (d y : ℕ → ℝ) (N : ℕ) :
    ∑ t ∈ Finset.range (N + 2), y t * trapW d N t
      = (∑ t ∈ Finset.range (N + 1), d t * (y (t + 1) + y t)) * (1 / 2) := by
  rw [sum_mul_trapW_half_mul, mul_comm]

/-- The panel sum divided by two. -/
theorem sum_mul_trapW_div_two (d y : ℕ → ℝ) (N : ℕ) :
    ∑ t ∈ Finset.range (N + 2), y t * trapW d N t
      = (∑ t ∈ Finset.range (N + 1), d t * (y (t + 1) + y t)) / 2 := by
  rw [sum_mul_trapW_half_mul]; ring

/-- Each panel spelled `(y (t + 1) + y t) * d t * (1 / 2)`. -/
theorem sum_mul_trapW_terms_mul_half (d y : ℕ → ℝ) (N : ℕ) :
    ∑ t ∈ Finset.range (N + 2), y t * trapW d N t
      = ∑ t ∈ Finset.range (N + 1), (y (t + 1) + y t) * d t * (1 / 2) := by
  rw [sum_mul_trapW]
  exact Finset.sum_congr rfl fun t _ => by ring

/-- Each panel spelled `d t * ((y (t + 1) + y t) / 2)`. -/
theorem sum_mul_trapW_terms_mean (d y : ℕ → ℝ) (N : ℕ) :
    ∑ t ∈ Finset.range (N + 2), y t * trapW d N t
      = ∑ t ∈ Finset.range (N + 1), d t * ((y (t + 1) + y t) / 2) := by
  rw [sum_mul_trapW]
  exact Finset.sum_congr rfl fun t _ => by ring

/-- Each panel spelled `(1 / 2) * (d t * (y (t + 1) + y t))`. -/
theorem sum_mul_trapW_terms_half_mul (d y : ℕ → ℝ) (N : ℕ) :
    ∑ t ∈ Finset.range (N + 2), y t * trapW d N t
      = ∑ t ∈ Finset.range (N + 1), (1 / 2) * (d t * (y (t + 1) + y t)) := by
  rw [sum_mul_trapW]
  exact Finset.sum_congr rfl fun t _ => by ring

/-- The node form for any weight function that takes the trapezoid values on the nodes
    `0, …, N + 1`. -/
theorem sum_mul_weights (d y w : ℕ → ℝ) (N : ℕ) (hw0 : w 0 = d 0 / 2)
    (hwN : w (N + 1) = d N / 2)
    (hw : ∀ t, 1 ≤ t → t ≤ N → w t = (d (t - 1) + d t) / 2) :
    ∑ t ∈ Finset.range (N + 2), y t * w t
      = ∑ t ∈ Finset.range (N + 1), d t * (y (t + 1) + y t) / 2 := by
  rw [← sum_mul_trapW]
  refine Finset.sum_congr rfl fun t ht => ?_
  have htN : t ≤ N + 1 := Nat.lt_succ_iff.mp (Finset.mem_range.mp ht)
  congr 1
  rcases Nat.eq_zero_or_pos t with h0 | h0
  · subst h0; rw [hw0, trapW_zero]
  · rcases Nat.lt_or_ge N t with h1 | h1
    · have : t = N + 1 := by omega
      subst this; rw [hwN, trapW_last]
    · rw [hw t h0 h1, trapW_mid d h0 h1]

/-- The node form with the concatenated weights. -/
theorem sum_mul_trapWcat (d y : ℕ → ℝ) (N : ℕ) :
    ∑ t ∈ Finset.range (N + 2), y t * trapWcat d N t
      = ∑ t ∈ Finset.range (N + 1), d t * (y (t + 1) + y t) / 2 := by
  rw [← sum_mul_trapW]
  refine Finset.sum_congr rfl fun t ht => ?_
  rw [trapWcat_eq d (Nat.lt_succ_iff.mp (Finset.mem_range.mp ht))]

/-- The trapezoid rule for sample points `x 0, …, x (N + 1)` and values `y`: the panel widths
    are the differences `x (t + 1) - x t`. -/
theorem trapezoid_nodes_eq_panels (x y : ℕ → ℝ) (N : ℕ) :
    ∑ t ∈ Finset.range (N + 2), y t * trapW (fun t => x (t + 1) - x t) N t
      = ∑ t ∈ Finset.range (N + 1), (x (t + 1) - x t) * (y (t + 1) + y t) / 2 :=
  sum_mul_trapW (fun t => x (t + 1) - x t) y N

/-- The same with the one half outside the panel sum. -/
theorem trapezoid_nodes_eq_half_panels (x y : ℕ → ℝ) (N : ℕ) :
    ∑ t ∈ Finset.range (N + 2), y t * trapW (fun t => x (t + 1) - x t) N t
      = (1 / 2) * ∑ t ∈ Finset.range (N + 1), (x (t + 1) - x t) * (y (t + 1) + y t) :=
  sum_mul_trapW_half_mul (fun t => x (t + 1) - x t) y N

/-! ## 3. Real numbers inside the extended reals -/

open Cert.LibReal

theorem coe_add_coe (a b : ℝ) : ((a : ℝ) : EReal) + (b : EReal) = ((a + b : ℝ) : EReal) :=
  (EReal.coe_add a b).symm

theorem coe_mul_coe (a b : ℝ) : ((a : ℝ) : EReal) * (b : EReal) = ((a * b : ℝ) : EReal) :=
  (EReal.coe_mul a b).symm

theorem coe_sub_coe (a b : ℝ) : ((a : ℝ) : EReal) - (b : EReal) = ((a - b : ℝ) : EReal) :=
  (EReal.coe_sub a b).symm

theorem neg_coe (a : ℝ) : -((a : ℝ) : EReal) = ((-a : ℝ) : EReal) :=
  (EReal.coe_neg a).symm

theorem max_coe_coe (a b : ℝ) : max ((a : ℝ) : EReal) (b : EReal) = ((max a b : ℝ) : EReal) :=
  (EReal.coe_strictMono.monotone.map_max).symm

theorem min_coe_coe (a b : ℝ) : min ((a : ℝ) : EReal) (b : EReal) = ((min a b : ℝ) : EReal) :=
  (EReal.coe_strictMono.monotone.map_min).symm

/-- The absolute value spelled `max x (-x)`. -/
theorem max_coe_neg_coe (a : ℝ) : max ((a : ℝ) : EReal) (-(a : EReal)) = ((|a| : ℝ) : EReal) := by
  rw [neg_coe, max_coe_coe]
  rfl

/-- The total division of the ideal model, on a real numerator and a nonzero real
    denominator, is the real quotient. -/
theorem div_coe_coe (a : ℝ) {b : ℝ} (hb : b ≠ 0) :
    Idealize.ShloMosaic.Ideal.div ((a : ℝ) : EReal) (b : EReal) = ((a / b : ℝ) : EReal) := by
  rw [Idealize.ShloMosaic.Ideal.div_coe hb, coe_mul_coe]
  congr 1
  rw [mul_one_div]

/-- A finite sum of coerced reals is the coercion of the real sum. -/
theorem sum_coe {ι : Type} (s : Finset ι) (f : ι → ℝ) :
    ∑ i ∈ s, ((f i : ℝ) : EReal) = ((∑ i ∈ s, f i : ℝ) : EReal) :=
  (coe_sum s f).symm

/-- In the extended reals `0 * x = 0` for every `x`, the infinities included. -/
theorem ereal_zero_mul (x : EReal) : 0 * x = 0 := zero_mul x

theorem ereal_mul_zero (x : EReal) : x * 0 = 0 := mul_zero x

/-- An extended real strictly between the infinities is the coercion of its real part. -/
theorem eq_coe_toReal {x : EReal} (h1 : ⊥ < x) (h2 : x < ⊤) : x = ((x.toReal : ℝ) : EReal) :=
  (EReal.coe_toReal (ne_of_lt h2) (ne_of_gt h1)).symm

theorem isReal_of_lt {x : EReal} (h1 : ⊥ < x) (h2 : x < ⊤) : IsReal x :=
  ⟨x.toReal, eq_coe_toReal h1 h2⟩

theorem bot_lt_of_isReal {x : EReal} : IsReal x → ⊥ < x := by
  rintro ⟨a, rfl⟩; exact EReal.bot_lt_coe a

theorem lt_top_of_isReal {x : EReal} : IsReal x → x < ⊤ := by
  rintro ⟨a, rfl⟩; exact EReal.coe_lt_top a

theorem eq_coe_toReal_of_isReal {x : EReal} (h : IsReal x) : x = ((x.toReal : ℝ) : EReal) :=
  eq_coe_toReal (bot_lt_of_isReal h) (lt_top_of_isReal h)

/-- An extended real whose absolute value `max x (-x)` is finite is real. -/
theorem isReal_of_max_neg_lt_top {x : EReal} (h : max x (-x) < ⊤) : IsReal x := by
  induction x using EReal.rec with
  | bot => exact absurd h (by rw [EReal.neg_bot, max_eq_right bot_le]; exact lt_irrefl _)
  | coe r => exact IsReal.coe r
  | top => exact absurd h (by rw [max_eq_left le_top]; exact lt_irrefl _)

theorem isReal_min {x y : EReal} : IsReal x → IsReal y → IsReal (min x y) := by
  rintro ⟨a, rfl⟩ ⟨b, rfl⟩
  exact ⟨_, min_coe_coe a b⟩

/-- A finite sum of real entries is the coercion of the sum of their real parts. -/
theorem sum_eq_coe_sum_toReal {ι : Type} (s : Finset ι) (f : ι → EReal)
    (h : ∀ i ∈ s, IsReal (f i)) :
    ∑ i ∈ s, f i = ((∑ i ∈ s, (f i).toReal : ℝ) : EReal) := by
  rw [← sum_coe]
  exact Finset.sum_congr rfl fun i hi => eq_coe_toReal_of_isReal (h i hi)

end Cert.Hand.Math
-- ==== Proof.BridgeMath.lean ====
import proofs.«103908_j25280177504693_2_alg».proof.Proof.LibTrapz
import Idealize.ShloMosaic.Lib.IdealHost
import Mathlib.Algebra.BigOperators.Fin

/-!
  Tools that carry the real-number identities of interpolation and of the trapezoid rule to sums of
  extended reals indexed by `Fin n`, all of whose entries are real.

  * a family `Fin n → EReal` of real entries is the coercion of a family `ℕ → ℝ` (zero outside `n`);
  * a sum over `Fin n` of coerced reals is the coercion of the real sum over `range n`;
  * clipping any extended real to `[0, C]` gives a real in `[0, C]`;
  * the hat weight `max 0 (1 - max d (-d))` at a real position and a natural row is the real hat function;
  * the chunked hat-weighted sum of a real table column is the linear interpolation at the clamped floor;
  * the panel form `1/2 * (0 + Σ d t * (y (t+1) + y t))` of the trapezoid rule is the node form.
-/

open scoped BigOperators

namespace Cert.Hand.Math

open Cert.LibReal Idealize.ShloMosaic

/-! ## Constants -/

/-- The f32 pattern `0x3F000000` is one half. -/
theorem ofBits_half_f32 : Ideal.ofBits .f32 0x3F000000#32 = (((1 : ℝ) / 2 : ℝ) : EReal) := by
  simp [Ideal.ofBits, Ideal.ieee, -EReal.coe_mul]; norm_num

/-- The f32 pattern `0x469C3E00` is 19999. -/
theorem ofBits_19999_f32 : Ideal.ofBits .f32 0x469C3E00#32 = ((19999 : ℝ) : EReal) := by
  simp [Ideal.ofBits, Ideal.ieee, -EReal.coe_mul]; norm_num

/-- The f32 pattern `0x40000000` is two. -/
theorem ofBits_two_f32 : Ideal.ofBits .f32 0x40000000#32 = ((2 : ℝ) : EReal) := by
  simp [Ideal.ofBits, Ideal.ieee, -EReal.coe_mul]; norm_num

/-! ## Families of real entries -/

/-- The real entries of a family indexed by `Fin n`, continued by zero to all naturals. -/
noncomputable def extR {n : ℕ} (f : Fin n → EReal) (t : ℕ) : ℝ :=
  if h : t < n then (f ⟨t, h⟩).toReal else 0

theorem coe_extR {n : ℕ} {f : Fin n → EReal} (hf : ∀ i, f i ≠ ⊤ ∧ f i ≠ ⊥) (t : ℕ) (h : t < n) :
    f ⟨t, h⟩ = ((extR f t : ℝ) : EReal) := by
  unfold extR
  rw [dif_pos h]
  exact (EReal.coe_toReal (hf _).1 (hf _).2).symm

theorem coe_extR_val {n : ℕ} {f : Fin n → EReal} (hf : ∀ i, f i ≠ ⊤ ∧ f i ≠ ⊥) (i : Fin n) :
    f i = ((extR f i.val : ℝ) : EReal) := coe_extR hf i.val i.isLt

theorem extR_of_le {n : ℕ} (f : Fin n → EReal) {t : ℕ} (h : n ≤ t) : extR f t = 0 := by
  unfold extR
  rw [dif_neg (Nat.not_lt.mpr h)]

theorem isReal_iff {x : EReal} : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

/-- A sum over `Fin n` whose terms are the coercions of `g` at the index is the coercion of the real sum. -/
theorem sum_fin_eq_coe_sum_range {n : ℕ} (F : Fin n → EReal) (g : ℕ → ℝ)
    (h : ∀ i : Fin n, F i = ((g i.val : ℝ) : EReal)) :
    ∑ i, F i = ((∑ t ∈ Finset.range n, g t : ℝ) : EReal) := by
  rw [← Fin.sum_univ_eq_sum_range, ← sum_coe]
  exact Finset.sum_congr rfl fun i _ => h i

/-! ## Clipping -/

/-- Clipping an extended real — an infinity included — to `[0, C]` gives a real number in `[0, C]`. -/
theorem clip_real {C : ℝ} (hC : 0 ≤ C) (v : EReal) :
    ∃ p : ℝ, min (C : EReal) (max (0 : EReal) v) = (p : EReal) ∧ 0 ≤ p ∧ p ≤ C := by
  induction v using EReal.rec with
  | bot =>
    refine ⟨0, ?_, le_rfl, hC⟩
    rw [max_eq_left bot_le, min_eq_right (by exact_mod_cast hC)]
    rfl
  | coe r =>
    refine ⟨min C (max 0 r), ?_, le_min hC (le_max_left _ _), min_le_left _ _⟩
    rw [← EReal.coe_zero, max_coe_coe, min_coe_coe]
  | top =>
    refine ⟨C, ?_, hC, le_rfl⟩
    rw [max_eq_right le_top, min_eq_left le_top]

/-! ## The hat weight on the extended reals -/

/-- At a real position and a natural row the hat weight, with the absolute value spelled
    `max d (-d)`, is the real hat function of the difference. -/
theorem hatE_coe (p : ℝ) (n : ℕ) :
    max (0 : EReal) (1 - max ((p : EReal) - ((n : ℕ) : EReal)) (-((p : EReal) - ((n : ℕ) : EReal))))
      = ((hat (p - (n : ℝ)) : ℝ) : EReal) := by
  rw [← EReal.coe_natCast, coe_sub_coe, max_coe_neg_coe, ← EReal.coe_one, coe_sub_coe,
    ← EReal.coe_zero, max_coe_coe]
  rfl

/-- The hat-weighted sum of a real table column `T` over the chunks `lo, …, hi` of 256 rows, at a real
    position `p ∈ [0, M + 1]`, when the chunks bracket the clamped floor `n' = min ⌊p⌋ M`
    (`lo * 256 ≤ n'` and `n' + 1 < (hi + 1) * 256`): the linear interpolation
    `T n' * (1 - (p - n')) + T (n' + 1) * (p - n')`. -/
theorem acc_interp (T : ℕ → ℝ) {p : ℝ} (hp0 : 0 ≤ p) {M : ℕ} (hpM : p ≤ M + 1) {lo hi : ℕ}
    (hlo : lo * 256 ≤ min ⌊p⌋₊ M) (hhi : min ⌊p⌋₊ M + 1 < (hi + 1) * 256) :
    ∑ nx ∈ Finset.Icc lo hi, ∑ j : Fin 256,
        max (0 : EReal) (1 - max ((p : EReal) - ((nx * 256 + j.val : ℕ) : EReal))
            (-((p : EReal) - ((nx * 256 + j.val : ℕ) : EReal)))) * ((T (nx * 256 + j.val) : ℝ) : EReal)
      = ((T (min ⌊p⌋₊ M) * (1 - (p - (min ⌊p⌋₊ M : ℕ)))
            + T (min ⌊p⌋₊ M + 1) * (p - (min ⌊p⌋₊ M : ℕ)) : ℝ) : EReal) := by
  have hn := Nat.floor_le hp0
  have hn1 := Nat.lt_floor_add_one p
  have inner : ∀ nx : ℕ, ∑ j : Fin 256,
        max (0 : EReal) (1 - max ((p : EReal) - ((nx * 256 + j.val : ℕ) : EReal))
            (-((p : EReal) - ((nx * 256 + j.val : ℕ) : EReal)))) * ((T (nx * 256 + j.val) : ℝ) : EReal)
      = ((∑ r ∈ Finset.range 256, hat (p - ((nx * 256 + r : ℕ) : ℝ)) * T (nx * 256 + r) : ℝ) : EReal) :=
    fun nx => sum_fin_eq_coe_sum_range _ _ fun j => by rw [hatE_coe, coe_mul_coe]
  rw [Finset.sum_congr rfl fun nx _ => inner nx, sum_coe]
  congr 1
  have hlo' : lo * 256 ≤ ⌊p⌋₊ := le_trans hlo (Nat.min_le_left _ _)
  have hhi' : ⌊p⌋₊ + 1 < (hi + 1) * 256 ∨ (⌊p⌋₊ < (hi + 1) * 256 ∧ p = (⌊p⌋₊ : ℕ)) := by
    rcases Nat.lt_or_ge M ⌊p⌋₊ with h | h
    · right
      have h2 : ⌊p⌋₊ ≤ M + 1 := by
        have : ((⌊p⌋₊ : ℕ) : ℝ) ≤ ((M + 1 : ℕ) : ℝ) := by push_cast; linarith
        exact_mod_cast this
      have h3 : ⌊p⌋₊ = M + 1 := by omega
      rw [Nat.min_eq_right (le_of_lt h)] at hhi
      refine ⟨by omega, le_antisymm ?_ hn⟩
      rw [h3]; push_cast; exact hpM
    · left
      rwa [Nat.min_eq_left h] at hhi
  rw [sum_hat_chunks_of_mem T hn hn1 256 hlo' hhi']
  exact (interp_clamp T hn hn1 hpM).symm

/-! ## The trapezoid rule as the programs spell it -/

/-- One half of (zero plus the panel sum) is the node sum with the concatenated weights. -/
theorem half_panels_eq_nodes (d y : ℕ → ℝ) (N : ℕ) :
    (1 / 2 : ℝ) * (0 + ∑ t ∈ Finset.range (N + 1), d t * (y (t + 1) + y t))
      = ∑ t ∈ Finset.range (N + 2), y t * trapWcat d N t := by
  rw [zero_add, sum_mul_trapWcat, Finset.mul_sum]
  exact Finset.sum_congr rfl fun t _ => by ring

end Cert.Hand.Math
-- ==== Proof.RefVal1.lean ====
/-
  The reference's value, first half: from the fourteen argument arrays to the two transfer functions.

  The reference tabulates, for every wavenumber k_i and conformal time τ_t, the abscissa x = k_i (τ₀ − τ_t), finds its
  place in a uniform grid of 20000 abscissae (a clipped position, its floor as the cell and the remainder as the weight),
  interpolates four tabulated functions of (abscissa, multipole) linearly between the cell's two rows, multiplies the
  interpolated tables by source arrays on the (wavenumber, time) grid, and integrates over the times by the trapezoid
  rule: T_l(k_i) from three sources, E_l(k_i) from one. This module writes those stages once as plain functions of the
  argument arrays, entry by entry and in the text's own order of operations; writes them again on whole arrays as the
  text composes them out of elementwise operations, broadcasts, a transpose, a gather, slices and a sum; reads every
  whole-array stage at an index (a broadcast repeats, a transpose swaps the coordinates, the gather reads the table row
  its clamped start index names, a slice shifts a coordinate, the sum over the last axis is a finite sum over the 599
  intervals); and concludes that the two buffers the program leaves for the transfer functions hold, at multipole l and
  wavenumber i, the plain functions' values.
-/
import proofs.«103908_j25280177504693_2_alg».proof.Proof.RefRun
import proofs.«103908_j25280177504693_2_alg».proof.Proof.RArgs
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The transcription: the reference's stages as plain functions of the arguments

One function per stage of the reference's text, entry by entry, in the order of operations the text has. The table
abscissa of the pair (wavenumber `i`, time `t`) is `x = k_i (τ₀ − τ_t)`; its position in the uniform grid of 20000
abscissae is `pos = clip((x − x_min) / (x_max − x_min) · 19999, 0, 19999)`; the cell is `i0 = clip(⌊pos⌋, 0, 19998)`
and the weight `w = pos − i0`; a table is interpolated linearly between rows `i0` and `i0 + 1`; the temperature source
is the sum of the three source arrays times their interpolated tables, the polarisation source the fourth; and each
source is integrated over the times by the trapezoid rule. -/

/-- The first and the last abscissa of the tables. -/
def xminR (a : Cert.Hand.Args) : EReal := a.xt ⟨0, by decide⟩
@[inherit_doc xminR]
def xmaxR (a : Cert.Hand.Args) : EReal := a.xt ⟨19999, by decide⟩

/-- The abscissa `k_i (τ₀ − τ_t)`. -/
def xR (a : Cert.Hand.Args) (i : Fin 1024) (t : Fin 600) : EReal := a.k i * (a.tau0 - a.tau t)

/-- The position in the grid of a given difference `x − x_min` over a given width `x_max − x_min`, clipped to
    `[0, 19999]`. -/
def posOf (n d : EReal) : EReal :=
  min (Ideal.ofBits .f32 0x469C3E00#32)
    (max (Ideal.ofBits .f32 0x00000000#32) (Ideal.div n d * Ideal.ofBits .f32 0x469C3E00#32))

/-- The position of the pair `(i, t)` in the grid of abscissae. -/
def posR (a : Cert.Hand.Args) (i : Fin 1024) (t : Fin 600) : EReal :=
  posOf (xR a i t - xminR a) (xmaxR a - xminR a)

/-- The cell of a position: its floor as a 32-bit integer, clipped to `[0, 19998]`. -/
def cellOf (p : EReal) : BitVec 32 :=
  IntOp.minsi 19998#32 (IntOp.maxsi 0#32 (Ideal.fptosi 32 (Ideal.liftRound Int.floor p)))

/-- The weight of a position in its cell: the position less the cell's number. -/
def weightOf (p : EReal) : EReal := p - (((cellOf p).toInt : ℝ) : EReal)

/-- The cell of the pair `(i, t)`. -/
def i0R (a : Cert.Hand.Args) (i : Fin 1024) (t : Fin 600) : BitVec 32 := cellOf (posR a i t)
/-- The weight of the pair `(i, t)`. -/
def wR (a : Cert.Hand.Args) (i : Fin 1024) (t : Fin 600) : EReal := weightOf (posR a i t)

/-- A row number as the text normalises it: a negative one counted from the end of the 20000 rows. -/
def normRow (j : BitVec 32) : BitVec 32 := Scalar.select (IntOp.cmpi .slt j 0#32) (IntOp.addi j 20000#32) j

/-- The table row a gather reads at a row number: the number read signed and clamped into `[0, 19999]`. -/
def rowOf (j : BitVec 32) : Fin 20000 := ⟨min j.toInt.toNat (20000 - 1), by omega⟩

/-- A table interpolated linearly at a position, at multipole `l`: row `i0` times `1 − w` plus row `i0 + 1` times `w`. -/
def interpOf (P : Fin 20000 → Fin 48 → EReal) (p : EReal) (l : Fin 48) : EReal :=
  P (rowOf (normRow (cellOf p))) l * (Ideal.ofBits .f32 0x3F800000#32 - weightOf p)
    + P (rowOf (normRow (IntOp.addi (cellOf p) 1#32))) l * weightOf p

/-- A table interpolated at the pair `(i, t)`. -/
def interpR (P : Fin 20000 → Fin 48 → EReal) (a : Cert.Hand.Args) (l : Fin 48) (i : Fin 1024) (t : Fin 600) : EReal :=
  interpOf P (posR a i t) l

/-- The temperature source: the three source arrays times their interpolated tables, summed in the text's order. -/
def srcTR (a : Cert.Hand.Args) (l : Fin 48) (i : Fin 1024) (t : Fin 600) : EReal :=
  a.S0 i t * interpR a.P0 a l i t + a.S1 i t * interpR a.P1 a l i t + a.S2 i t * interpR a.P2 a l i t

/-- The polarisation source. -/
def srcER (a : Cert.Hand.Args) (l : Fin 48) (i : Fin 1024) (t : Fin 600) : EReal :=
  a.SE i t * interpR a.PE a l i t

/-- The trapezoid rule over the 600 times as the text has it: one half of the sum, from zero, over the 599 intervals
    of the interval's length times the sum of the integrand at its two ends. -/
def trapR (tau : Fin 600 → EReal) (y : Fin 600 → EReal) : EReal :=
  Ideal.ofBits .f32 0x3F000000#32
    * (Ideal.ofBits .f32 0x00000000#32
      + ∑ s : Fin 599, (tau ⟨s.val + 1, by omega⟩ - tau ⟨s.val, by omega⟩) * (y ⟨s.val + 1, by omega⟩ + y ⟨s.val, by omega⟩))

/-- The temperature transfer function: the temperature source integrated over the times. -/
def TlR (a : Cert.Hand.Args) (l : Fin 48) (i : Fin 1024) : EReal := trapR a.tau (srcTR a l i)
/-- The polarisation transfer function. -/
def ElR (a : Cert.Hand.Args) (l : Fin 48) (i : Fin 1024) : EReal := trapR a.tau (srcER a l i)

/-! ## The same stages on whole arrays, as the text composes them, and each read at an index -/

/-- A scalar array read out of the abscissae: entry `o` cut out as a one-element array and reshaped. -/
def xminA (xt : FVec Ideal S20000 .f32) : FVec Ideal S_ .f32 :=
  fun i => shapeCast S_ (extractStridedSlice S1 ![0] xt slices_S20000_S1_0) shapeCasts_S1_S_ i
@[inherit_doc xminA]
def xmaxA (xt : FVec Ideal S20000 .f32) : FVec Ideal S_ .f32 :=
  fun i => shapeCast S_ (extractStridedSlice S1 ![19999] xt slices_S20000_S1_19999) shapeCasts_S1_S_ i

theorem xminA_apply (xt : FVec Ideal S20000 .f32) : xminA xt ix0 = xt (ix1 ⟨0, by decide⟩) := by
  unfold xminA
  refine (shapeCast_apply _ _ ix0 (ix1 (0 : Fin 1)) (by decide)).trans ?_
  exact extractStridedSlice_apply _ _ _ _ _ (fun a => match a with | ⟨0, _⟩ => rfl)

theorem xmaxA_apply (xt : FVec Ideal S20000 .f32) : xmaxA xt ix0 = xt (ix1 ⟨19999, by decide⟩) := by
  unfold xmaxA
  refine (shapeCast_apply _ _ ix0 (ix1 (0 : Fin 1)) (by decide)).trans ?_
  exact extractStridedSlice_apply _ _ _ _ _ (fun a => match a with | ⟨0, _⟩ => rfl)

/-- The abscissae on the (wavenumber, time) grid: the outer product of the wavenumbers with `τ₀ − τ`. -/
def xA (k : FVec Ideal S1024 .f32) (tau0 : FVec Ideal S_ .f32) (tau : FVec Ideal S600 .f32) : FVec Ideal S1024x600 .f32 :=
  mulf (broadcastInDim S1024x600 ![0, 1] bcast_S1024x1_S1024x600_0_1 (broadcastInDim S1024x1 ![0] bcast_S1024_S1024x1_0 k))
    (broadcastInDim S1024x600 ![0, 1] bcast_S1x600_S1024x600_0_1
      (broadcastInDim S1x600 ![1] bcast_S600_S1x600_1 (subf (broadcastInDim S600 ![] bcast_S_S600 tau0) tau)))

theorem xA_apply (k : FVec Ideal S1024 .f32) (tau0 : FVec Ideal S_ .f32) (tau : FVec Ideal S600 .f32) (i : Fin 1024) (t : Fin 600) :
    xA k tau0 tau (ix2 i t) = k (ix1 i) * (tau0 ix0 - tau (ix1 t)) := by
  unfold xA
  rw [mulf_apply]
  congr 1
  · refine (broadcastInDim_apply _ _ _ _ (ix2 i (0 : Fin 1)) (fun a => match a with | ⟨0, _⟩ => rfl | ⟨1, _⟩ => rfl)).trans ?_
    exact broadcastInDim_apply _ _ _ _ (ix1 i) (fun a => match a with | ⟨0, _⟩ => rfl)
  · refine (broadcastInDim_apply _ _ _ _ (ix2 (0 : Fin 1) t) (fun a => match a with | ⟨0, _⟩ => rfl | ⟨1, _⟩ => rfl)).trans ?_
    refine (broadcastInDim_apply _ _ _ _ (ix1 t) (fun a => match a with | ⟨0, _⟩ => rfl)).trans ?_
    rw [subf_apply, broadcastInDim_scalar_apply]

/-- The clipped grid position of a numerator array over a denominator array. -/
def posB (n d : FVec Ideal S1024x600 .f32) : FVec Ideal S1024x600 .f32 :=
  minimumf (broadcastInDim S1024x600 ![] bcast_S_S1024x600 (constant (F := Ideal) S_ .f32 0x469C3E00#32))
    (maximumf (broadcastInDim S1024x600 ![] bcast_S_S1024x600 (constant (F := Ideal) S_ .f32 0x00000000#32))
      (mulf (Host.divf n d) (broadcastInDim S1024x600 ![] bcast_S_S1024x600 (constant (F := Ideal) S_ .f32 0x469C3E00#32))))

theorem posB_apply (n d : FVec Ideal S1024x600 .f32) (j : S1024x600.Idx) : posB n d j = posOf (n j) (d j) := rfl

/-- The numerator `x − x_min` and the denominator `x_max − x_min` as arrays on the grid. -/
def numA (x : FVec Ideal S1024x600 .f32) (xmin : FVec Ideal S_ .f32) : FVec Ideal S1024x600 .f32 :=
  subf x (broadcastInDim S1024x600 ![] bcast_S_S1024x600 xmin)
@[inherit_doc numA]
def denA (xmin xmax : FVec Ideal S_ .f32) : FVec Ideal S1024x600 .f32 :=
  broadcastInDim S1024x600 ![] bcast_S_S1024x600 (subf xmax xmin)

theorem numA_apply (x : FVec Ideal S1024x600 .f32) (xmin : FVec Ideal S_ .f32) (j : S1024x600.Idx) :
    numA x xmin j = x j - xmin ix0 := by
  unfold numA; rw [subf_apply, broadcastInDim_scalar_apply]

theorem denA_apply (xmin xmax : FVec Ideal S_ .f32) (j : S1024x600.Idx) : denA xmin xmax j = xmax ix0 - xmin ix0 := by
  unfold denA; rw [broadcastInDim_scalar_apply, subf_apply]

/-- The cells of an array of positions. -/
def i0A (pos : FVec Ideal S1024x600 .f32) : IVec S1024x600 32 :=
  minsi (broadcastInDim S1024x600 ![] bcast_S_S1024x600 (constantI S_ 32 19998#32))
    (maxsi (broadcastInDim S1024x600 ![] bcast_S_S1024x600 (constantI S_ 32 0#32)) (fptosi 32 (Host.floor pos)))

theorem i0A_apply (pos : FVec Ideal S1024x600 .f32) (j : S1024x600.Idx) : i0A pos j = cellOf (pos j) := rfl

/-- The weights of an array of positions. -/
def wA (pos : FVec Ideal S1024x600 .f32) : FVec Ideal S1024x600 .f32 := subf pos (sitofp .f32 (i0A pos))

theorem wA_apply (pos : FVec Ideal S1024x600 .f32) (j : S1024x600.Idx) : wA pos j = weightOf (pos j) := rfl

/-- The row numbers normalised, as an array. -/
def normA (r : IVec S1024x600 32) : IVec S1024x600 32 :=
  select (cmpi .slt r (broadcastInDim S1024x600 ![] bcast_S_S1024x600 (constantI S_ 32 0#32)))
    (addi r (broadcastInDim S1024x600 ![] bcast_S_S1024x600 (constantI S_ 32 20000#32))) r

theorem normA_apply (r : IVec S1024x600 32) (j : S1024x600.Idx) : normA r j = normRow (r j) := rfl

/-- An array on the grid repeated over the 48 multipoles. -/
def rep48 {α : Type} (y : S1024x600.Idx → α) : S48x1024x600.Idx → α :=
  broadcastInDim S48x1024x600 ![0, 1, 2] bcast_S1x1024x600_S48x1024x600_0_1_2
    (broadcastInDim S1x1024x600 ![1, 2] bcast_S1024x600_S1x1024x600_1_2 y)

theorem rep48_apply {α : Type} (y : S1024x600.Idx → α) (l : Fin 48) (i : Fin 1024) (t : Fin 600) :
    rep48 y (ix3 l i t) = y (ix2 i t) := by
  unfold rep48
  refine (broadcastInDim_apply _ _ _ _ (ix3 (0 : Fin 1) i t)
    (fun a => match a with | ⟨0, _⟩ => rfl | ⟨1, _⟩ => rfl | ⟨2, _⟩ => rfl)).trans ?_
  exact broadcastInDim_apply _ _ _ _ (ix2 i t) (fun a => match a with | ⟨0, _⟩ => rfl | ⟨1, _⟩ => rfl)

/-- The rows of a table gathered at an array of row numbers, for every multipole: the table transposed, the row
    numbers normalised and given a trailing unit axis, then the gather. -/
def rowsA (P : FVec Ideal S20000x48 .f32) (r : IVec S1024x600 32) : FVec Ideal S48x1024x600 .f32 :=
  Host.gather gather_S48x20000_S1024x600x1_S48x1024x600_0_1_n_n_1_2_481
    (transpose S48x20000 [1, 0] P transposes_S20000x48_S48x20000_1_0)
    (broadcastInDim S1024x600x1 ![0, 1] bcast_S1024x600_S1024x600x1_0_1 (normA r))

/-- The gather at `(l, i, t)`: row `l` of the transposed table at the column the start index `idx[i, t, 0]` names,
    read signed and clamped into `[0, 19999]`. -/
theorem gather_rows_apply {α : Type} {w : Nat}
    (x : S48x20000.Idx → α) (idx : IVec S1024x600x1 w) (l : Fin 48) (i : Fin 1024) (t : Fin 600) :
    Host.gather gather_S48x20000_S1024x600x1_S48x1024x600_0_1_n_n_1_2_481 x idx (ix3 l i t)
      = x (ix2 l ⟨min (idx (ix3 i t (0 : Fin 1))).toInt.toNat (20000 - 1), by omega⟩) := by
  unfold Host.gather
  congr 1
  funext a
  refine Fin.ext ?_
  match a with
  | ⟨0, _⟩ =>
    show GatherDims.start _ (ix3 l i t) idx 0 + GatherDims.batchCoord _ (ix3 l i t) 0 + GatherDims.offCoord _ (ix3 l i t) 0 = l.val
    rw [GatherDims.batchCoord_eq_zero _ _ _ List.not_mem_nil]
    unfold GatherDims.start GatherDims.offCoord
    rw [dif_neg (by decide), dif_pos (by decide)]
    simp only [Nat.zero_add, Nat.add_zero]
    rfl
  | ⟨1, _⟩ =>
    show GatherDims.start _ (ix3 l i t) idx 1 + GatherDims.batchCoord _ (ix3 l i t) 1 + GatherDims.offCoord _ (ix3 l i t) 1 = _
    rw [GatherDims.batchCoord_eq_zero _ _ _ List.not_mem_nil,
      GatherDims.offCoord_eq_zero _ _ _ (by decide)]
    simp only [Nat.add_zero]
    unfold GatherDims.start
    rw [dif_pos (by decide)]
    have hsi : (gather_S48x20000_S1024x600x1_S48x1024x600_0_1_n_n_1_2_481).siIdx (ix3 l i t)
        ⟨List.idxOf (1 : Fin 2) (gather_S48x20000_S1024x600x1_S48x1024x600_0_1_n_n_1_2_481).startIndexMap,
          List.idxOf_lt_length_iff.2 (by decide)⟩ = ix3 i t (0 : Fin 1) := by
      funext b; refine Fin.ext ?_
      match b with
      | ⟨0, _⟩ => rfl
      | ⟨1, _⟩ => rfl
      | ⟨2, _⟩ => rfl
    rw [hsi]
    rfl

theorem rowsA_apply (P : FVec Ideal S20000x48 .f32) (r : IVec S1024x600 32) (l : Fin 48) (i : Fin 1024) (t : Fin 600) :
    rowsA P r (ix3 l i t) = P (ix2 (rowOf (normRow (r (ix2 i t)))) l) := by
  unfold rowsA
  rw [gather_rows_apply]
  refine (transpose_ix2_apply P _ l _).trans ?_
  have e : broadcastInDim S1024x600x1 ![0, 1] bcast_S1024x600_S1024x600x1_0_1 (normA r) (ix3 i t (0 : Fin 1))
      = normRow (r (ix2 i t)) :=
    broadcastInDim_apply _ _ _ _ (ix2 i t) (fun a => match a with | ⟨0, _⟩ => rfl | ⟨1, _⟩ => rfl)
  simp only [e]
  rfl

/-- The lower row's term of the interpolation: the rows at the cells times one less the weights. -/
def loA (P : FVec Ideal S20000x48 .f32) (pos : FVec Ideal S1024x600 .f32) : FVec Ideal S48x1024x600 .f32 :=
  mulf (rowsA P (i0A pos))
    (rep48 (subf (broadcastInDim S1024x600 ![] bcast_S_S1024x600 (constant (F := Ideal) S_ .f32 0x3F800000#32)) (wA pos)))

/-- The upper rows: the rows at the cells plus one. -/
def hiA (P : FVec Ideal S20000x48 .f32) (pos : FVec Ideal S1024x600 .f32) : FVec Ideal S48x1024x600 .f32 :=
  rowsA P (addi (i0A pos) (broadcastInDim S1024x600 ![] bcast_S_S1024x600 (constantI S_ 32 1#32)))

/-- A table interpolated at an array of positions. -/
def interpA (P : FVec Ideal S20000x48 .f32) (pos : FVec Ideal S1024x600 .f32) : FVec Ideal S48x1024x600 .f32 :=
  addf (loA P pos) (mulf (hiA P pos) (rep48 (wA pos)))

theorem interpA_apply (P : FVec Ideal S20000x48 .f32) (pos : FVec Ideal S1024x600 .f32) (l : Fin 48) (i : Fin 1024) (t : Fin 600) :
    interpA P pos (ix3 l i t) = interpOf (fun j l => P (ix2 j l)) (pos (ix2 i t)) l := by
  unfold interpA loA hiA
  rw [addf_apply, mulf_apply, mulf_apply, rowsA_apply, rowsA_apply, rep48_apply, rep48_apply]
  rfl

/-- An array on the grid times an array over multipoles and the grid. -/
def timesA (S : FVec Ideal S1024x600 .f32) (y : FVec Ideal S48x1024x600 .f32) : FVec Ideal S48x1024x600 .f32 :=
  mulf (rep48 S) y

theorem timesA_apply (S : FVec Ideal S1024x600 .f32) (y : FVec Ideal S48x1024x600 .f32) (l : Fin 48) (i : Fin 1024) (t : Fin 600) :
    timesA S y (ix3 l i t) = S (ix2 i t) * y (ix3 l i t) := by
  unfold timesA; rw [mulf_apply, rep48_apply]

/-- The trapezoid rule along the times of an array over (multipole, wavenumber, time), as the text composes it. -/
def trapA (y : FVec Ideal S48x1024x600 .f32) (tau : FVec Ideal S600 .f32) : FVec Ideal S48x1024 .f32 :=
  mulf (broadcastInDim S48x1024 ![] bcast_S_S48x1024 (constant (F := Ideal) S_ .f32 0x3F000000#32))
    (Host.reduceAdd
      (mulf
        (broadcastInDim S48x1024x599 ![0, 1, 2] bcast_S1x1x599_S48x1024x599_0_1_2
          (broadcastInDim S1x1x599 ![1, 2] bcast_S1x599_S1x1x599_1_2
            (broadcastInDim S1x599 ![1] bcast_S599_S1x599_1
              (subf (extractStridedSlice S599 ![1] tau slices_S600_S599_1)
                (extractStridedSlice S599 ![0] tau slices_S600_S599_0)))))
        (addf (extractStridedSlice S48x1024x599 ![0, 0, 1] y slices_S48x1024x600_S48x1024x599_0_0_1)
          (extractStridedSlice S48x1024x599 ![0, 0, 0] y slices_S48x1024x600_S48x1024x599_0_0_0)))
      (constant (F := Ideal) S_ .f32 0x00000000#32) reducesTo_S48x1024x599_S48x1024_d2 h_S_)

/-- One interval's term of the rule, read at (multipole, wavenumber, interval). -/
theorem trapTerm_apply (y : FVec Ideal S48x1024x600 .f32) (tau : FVec Ideal S600 .f32) (l : Fin 48) (i : Fin 1024) (s : Fin 599) :
    mulf
        (broadcastInDim S48x1024x599 ![0, 1, 2] bcast_S1x1x599_S48x1024x599_0_1_2
          (broadcastInDim S1x1x599 ![1, 2] bcast_S1x599_S1x1x599_1_2
            (broadcastInDim S1x599 ![1] bcast_S599_S1x599_1
              (subf (extractStridedSlice S599 ![1] tau slices_S600_S599_1)
                (extractStridedSlice S599 ![0] tau slices_S600_S599_0)))))
        (addf (extractStridedSlice S48x1024x599 ![0, 0, 1] y slices_S48x1024x600_S48x1024x599_0_0_1)
          (extractStridedSlice S48x1024x599 ![0, 0, 0] y slices_S48x1024x600_S48x1024x599_0_0_0)) (ix3 l i s)
      = (tau (ix1 (⟨s.val + 1, by omega⟩ : Fin 600)) - tau (ix1 (⟨s.val, by omega⟩ : Fin 600)))
        * (y (ix3 l i (⟨s.val + 1, by omega⟩ : Fin 600)) + y (ix3 l i (⟨s.val, by omega⟩ : Fin 600))) := by
  rw [mulf_apply, addf_apply]
  refine congrArg₂ (· * ·) ?_ (congrArg₂ (· + ·) ?_ ?_)
  · refine (broadcastInDim_apply _ _ _ _ (ix3 (0 : Fin 1) (0 : Fin 1) s)
      (fun a => match a with | ⟨0, _⟩ => rfl | ⟨1, _⟩ => rfl | ⟨2, _⟩ => rfl)).trans ?_
    refine (broadcastInDim_apply _ _ _ _ (ix2 (0 : Fin 1) s)
      (fun a => match a with | ⟨0, _⟩ => rfl | ⟨1, _⟩ => rfl)).trans ?_
    refine (broadcastInDim_apply _ _ _ _ (ix1 s) (fun a => match a with | ⟨0, _⟩ => rfl)).trans ?_
    rw [subf_apply]
    refine congrArg₂ (· - ·) ?_ ?_
    · exact extractStridedSlice_apply _ _ _ _ (ix1 (⟨s.val + 1, by omega⟩ : Fin 600))
        (fun a => match a with | ⟨0, _⟩ => Nat.add_comm _ _)
    · exact extractStridedSlice_apply _ _ _ _ (ix1 (⟨s.val, by omega⟩ : Fin 600))
        (fun a => match a with | ⟨0, _⟩ => (Nat.zero_add _).symm)
  · exact extractStridedSlice_apply _ _ _ _ (ix3 l i (⟨s.val + 1, by omega⟩ : Fin 600))
      (fun a => match a with | ⟨0, _⟩ => (Nat.zero_add _).symm | ⟨1, _⟩ => (Nat.zero_add _).symm | ⟨2, _⟩ => Nat.add_comm _ _)
  · exact extractStridedSlice_apply _ _ _ _ (ix3 l i (⟨s.val, by omega⟩ : Fin 600))
      (fun a => match a with | ⟨0, _⟩ => (Nat.zero_add _).symm | ⟨1, _⟩ => (Nat.zero_add _).symm | ⟨2, _⟩ => (Nat.zero_add _).symm)

theorem trapA_apply (y : FVec Ideal S48x1024x600 .f32) (tau : FVec Ideal S600 .f32) (l : Fin 48) (i : Fin 1024) :
    trapA y tau (ix2 l i) = trapR (fun t => tau (ix1 t)) (fun t => y (ix3 l i t)) := by
  have hR : S48x1024x599.Reduces [2] S48x1024 := by decide
  have hl : ∀ s : Fin 599, hR.lift (ix2 l i) s = ix3 l i s := fun s =>
    funext fun a => match a with | ⟨0, _⟩ => Fin.ext rfl | ⟨1, _⟩ => Fin.ext rfl | ⟨2, _⟩ => Fin.ext rfl
  unfold trapA trapR
  rw [mulf_apply, hostReduceAdd_apply, Ideal.hostReduceAdd_single reducesTo_S48x1024x599_S48x1024_d2 hR]
  refine congrArg₂ (· * ·) rfl (congrArg₂ (· + ·) rfl ?_)
  refine Finset.sum_congr rfl (fun (s : Fin 599) _ => ?_)
  rw [hl s]
  exact trapTerm_apply y tau l i s

/-! ## The program's windows: what each leaves at the buffers the later stages read

Each window of the program's operations, run from ANY contents `V` of the buffers, leaves at a stage's buffer the
stage's array function of the contents `V` gives the buffers the window reads. -/

section Windows

variable (V : Valuation τ sig (Elt Ideal))

/-- The grid position computed from the buffers of the abscissae, of the first and of the last table abscissa. -/
def posV : FVec Ideal S1024x600 .f32 :=
  posB (numA (V (Proc.devRef .tc main_v10)) (V (Proc.devRef .tc main_v1)))
    (denA (V (Proc.devRef .tc main_v1)) (V (Proc.devRef .tc main_v3)))

/-- The grid position computed from the argument buffers. -/
def pos0 : FVec Ideal S1024x600 .f32 :=
  posB (numA (xA (V (Proc.devRef .tc main_arg0)) (V (Proc.devRef .tc main_arg2)) (V (Proc.devRef .tc main_arg1)))
      (xminA (V (Proc.devRef .tc main_arg7))))
    (denA (xminA (V (Proc.devRef .tc main_arg7))) (xmaxA (V (Proc.devRef .tc main_arg7))))

set_option maxHeartbeats 4000000 in
theorem p0_v1 : (StableHlo.after (ops_part0 (F := Ideal)) V (Proc.devRef .tc main_v1) : FVec Ideal S_ .f32)
    = xminA (V (Proc.devRef .tc main_arg7)) := by
  simp only [ops_part0]; after_results_simp; rfl

set_option maxHeartbeats 4000000 in
theorem p0_v3 : (StableHlo.after (ops_part0 (F := Ideal)) V (Proc.devRef .tc main_v3) : FVec Ideal S_ .f32)
    = xmaxA (V (Proc.devRef .tc main_arg7)) := by
  simp only [ops_part0]; after_results_simp; rfl

set_option maxHeartbeats 4000000 in
theorem p0_v10 : (StableHlo.after (ops_part0 (F := Ideal)) V (Proc.devRef .tc main_v10) : FVec Ideal S1024x600 .f32)
    = xA (V (Proc.devRef .tc main_arg0)) (V (Proc.devRef .tc main_arg2)) (V (Proc.devRef .tc main_arg1)) := by
  simp only [ops_part0]; after_results_simp; rfl

set_option maxHeartbeats 4000000 in
theorem p0_v36 : (StableHlo.after (ops_part0 (F := Ideal)) V (Proc.devRef .tc main_v36) : FVec Ideal S48x1024x600 .f32)
    = loA (V (Proc.devRef .tc main_arg8)) (pos0 V) := by
  simp only [ops_part0]; after_results_simp; rfl

set_option maxHeartbeats 4000000 in
theorem p0_v46 : (StableHlo.after (ops_part0 (F := Ideal)) V (Proc.devRef .tc main_v46) : FVec Ideal S48x1024x600 .f32)
    = hiA (V (Proc.devRef .tc main_arg8)) (pos0 V) := by
  simp only [ops_part0]; after_results_simp; rfl

set_option maxHeartbeats 4000000 in
theorem p0_v48 : (StableHlo.after (ops_part0 (F := Ideal)) V (Proc.devRef .tc main_v48) : FVec Ideal S48x1024x600 .f32)
    = rep48 (wA (pos0 V)) := by
  simp only [ops_part0]; after_results_simp; rfl

end Windows

section Windows

variable (V : Valuation τ sig (Elt Ideal))

set_option maxHeartbeats 4000000 in
theorem p1_v97 : (StableHlo.after (ops_part1 (F := Ideal)) V (Proc.devRef .tc main_v97) : FVec Ideal S48x1024x600 .f32)
    = addf
        (timesA (V (Proc.devRef .tc main_arg3))
          (addf (V (Proc.devRef .tc main_v36)) (mulf (V (Proc.devRef .tc main_v46)) (V (Proc.devRef .tc main_v48)))))
        (timesA (V (Proc.devRef .tc main_arg4)) (interpA (V (Proc.devRef .tc main_arg9)) (posV V))) := by
  simp only [ops_part1]; after_results_simp; rfl

set_option maxHeartbeats 4000000 in
theorem p2_v142 : (StableHlo.after (ops_part2 (F := Ideal)) V (Proc.devRef .tc main_v142) : FVec Ideal S48x1024 .f32)
    = trapA
        (addf (V (Proc.devRef .tc main_v97))
          (timesA (V (Proc.devRef .tc main_arg5)) (interpA (V (Proc.devRef .tc main_arg10)) (posV V))))
        (V (Proc.devRef .tc main_arg1)) := by
  simp only [ops_part2]; after_results_simp; rfl

set_option maxHeartbeats 4000000 in
theorem p2_v144 : (StableHlo.after (ops_part2 (F := Ideal)) V (Proc.devRef .tc main_v144) : FVec Ideal S1024x600 .f32)
    = numA (V (Proc.devRef .tc main_v10)) (V (Proc.devRef .tc main_v1)) := by
  simp only [ops_part2]; after_results_simp; rfl

set_option maxHeartbeats 4000000 in
theorem p2_v146 : (StableHlo.after (ops_part2 (F := Ideal)) V (Proc.devRef .tc main_v146) : FVec Ideal S1024x600 .f32)
    = denA (V (Proc.devRef .tc main_v1)) (V (Proc.devRef .tc main_v3)) := by
  simp only [ops_part2]; after_results_simp; rfl

set_option maxHeartbeats 4000000 in
theorem p3_v186 : (StableHlo.after (ops_part3 (F := Ideal)) V (Proc.devRef .tc main_v186) : FVec Ideal S48x1024 .f32)
    = trapA
        (timesA (V (Proc.devRef .tc main_arg6))
          (interpA (V (Proc.devRef .tc main_arg11))
            (posB (V (Proc.devRef .tc main_v144)) (V (Proc.devRef .tc main_v146)))))
        (V (Proc.devRef .tc main_arg1)) := by
  simp only [ops_part3]; after_results_simp; rfl

end Windows

/-! ## The two transfer-function buffers after the whole program, from the launch memory -/

section Compose

variable (m : (ℓ : Loc nD τ sig) → Buf (Elt Ideal) ℓ) (c : Dev nD)

theorem keep0 (V : Valuation τ sig (Elt Ideal)) (r : Ref sig .tc) (h : r ∉ ops_part0_W) :
    StableHlo.after (ops_part0 (F := Ideal)) V (Proc.devRef .tc r) = V (Proc.devRef .tc r) :=
  after_of_writes_sub ops_part0 V ops_part0_writes h
theorem keep1 (V : Valuation τ sig (Elt Ideal)) (r : Ref sig .tc) (h : r ∉ ops_part1_W) :
    StableHlo.after (ops_part1 (F := Ideal)) V (Proc.devRef .tc r) = V (Proc.devRef .tc r) :=
  after_of_writes_sub ops_part1 V ops_part1_writes h
theorem keep2 (V : Valuation τ sig (Elt Ideal)) (r : Ref sig .tc) (h : r ∉ ops_part2_W) :
    StableHlo.after (ops_part2 (F := Ideal)) V (Proc.devRef .tc r) = V (Proc.devRef .tc r) :=
  after_of_writes_sub ops_part2 V ops_part2_writes h
theorem keep3 (V : Valuation τ sig (Elt Ideal)) (r : Ref sig .tc) (h : r ∉ ops_part3_W) :
    StableHlo.after (ops_part3 (F := Ideal)) V (Proc.devRef .tc r) = V (Proc.devRef .tc r) :=
  after_of_writes_sub ops_part3 V ops_part3_writes h
theorem keep4 (V : Valuation τ sig (Elt Ideal)) (r : Ref sig .tc) (h : r ∉ ops_part4_W) :
    StableHlo.after (ops_part4 (F := Ideal)) V (Proc.devRef .tc r) = V (Proc.devRef .tc r) :=
  after_of_writes_sub ops_part4 V ops_part4_writes h

/-- The buffer of the temperature transfer function after the program: the trapezoid rule of the temperature source,
    every array a function of the argument buffers' launch contents. -/
theorem v142_closed :
    (StableHlo.after (ops (F := Ideal)) (fun b => m (c, b)) (Proc.devRef .tc main_v142) : FVec Ideal S48x1024 .f32)
      = trapA
          (addf
            (addf
              (timesA (m (c, Proc.devRef .tc main_arg3)) (interpA (m (c, Proc.devRef .tc main_arg8)) (pos0 (fun b => m (c, b)))))
              (timesA (m (c, Proc.devRef .tc main_arg4)) (interpA (m (c, Proc.devRef .tc main_arg9)) (pos0 (fun b => m (c, b))))))
            (timesA (m (c, Proc.devRef .tc main_arg5)) (interpA (m (c, Proc.devRef .tc main_arg10)) (pos0 (fun b => m (c, b))))))
          (m (c, Proc.devRef .tc main_arg1)) := by
  simp only [ops, StableHlo.after_append]
  rw [keep4 _ main_v142 (by decide), keep3 _ main_v142 (by decide), p2_v142]
  unfold posV
  rw [p1_v97]
  unfold posV
  rw [keep1 _ main_arg5 (by decide), keep1 _ main_arg10 (by decide), keep1 _ main_arg1 (by decide),
    keep1 _ main_v10 (by decide), keep1 _ main_v1 (by decide), keep1 _ main_v3 (by decide),
    p0_v36, p0_v46, p0_v48, p0_v10, p0_v1, p0_v3,
    keep0 _ main_arg3 (by decide), keep0 _ main_arg4 (by decide), keep0 _ main_arg9 (by decide),
    keep0 _ main_arg5 (by decide), keep0 _ main_arg10 (by decide), keep0 _ main_arg1 (by decide)]
  rfl

/-- The buffer of the polarisation transfer function after the program. -/
theorem v186_closed :
    (StableHlo.after (ops (F := Ideal)) (fun b => m (c, b)) (Proc.devRef .tc main_v186) : FVec Ideal S48x1024 .f32)
      = trapA
          (timesA (m (c, Proc.devRef .tc main_arg6)) (interpA (m (c, Proc.devRef .tc main_arg11)) (pos0 (fun b => m (c, b)))))
          (m (c, Proc.devRef .tc main_arg1)) := by
  simp only [ops, StableHlo.after_append]
  rw [keep4 _ main_v186 (by decide), p3_v186, p2_v144, p2_v146,
    keep2 _ main_arg6 (by decide), keep2 _ main_arg11 (by decide), keep2 _ main_arg1 (by decide),
    keep1 _ main_arg6 (by decide), keep1 _ main_arg11 (by decide), keep1 _ main_arg1 (by decide),
    keep1 _ main_v10 (by decide), keep1 _ main_v1 (by decide), keep1 _ main_v3 (by decide),
    p0_v10, p0_v1, p0_v3,
    keep0 _ main_arg6 (by decide), keep0 _ main_arg11 (by decide), keep0 _ main_arg1 (by decide)]
  rfl

/-- The grid position computed from the launch memory, at the pair `(i, t)`, is the transcription's. -/
theorem pos0_apply (i : Fin 1024) (t : Fin 600) : pos0 (fun b => m (c, b)) (ix2 i t) = posR (argsOf m c) i t := by
  unfold pos0
  rw [posB_apply, numA_apply, denA_apply, xA_apply, xminA_apply, xmaxA_apply]
  rfl

/-- THE TEMPERATURE TRANSFER FUNCTION: the program's buffer, at multipole `l` and wavenumber `i`, holds the
    transcription's value of the argument arrays. -/
theorem Tl_eq (l : Fin 48) (i : Fin 1024) :
    (StableHlo.after (ops (F := Ideal)) (fun b => m (c, b)) (Proc.devRef .tc main_v142) : FVec Ideal S48x1024 .f32) (ix2 l i)
      = TlR (argsOf m c) l i := by
  rw [v142_closed, trapA_apply]
  unfold TlR
  refine congrArg (trapR _) (funext fun t => ?_)
  rw [addf_apply, addf_apply, timesA_apply, timesA_apply, timesA_apply, interpA_apply, interpA_apply, interpA_apply,
    pos0_apply]
  rfl

/-- THE POLARISATION TRANSFER FUNCTION, likewise. -/
theorem El_eq (l : Fin 48) (i : Fin 1024) :
    (StableHlo.after (ops (F := Ideal)) (fun b => m (c, b)) (Proc.devRef .tc main_v186) : FVec Ideal S48x1024 .f32) (ix2 l i)
      = ElR (argsOf m c) l i := by
  rw [v186_closed, trapA_apply]
  unfold ElR
  refine congrArg (trapR _) (funext fun t => ?_)
  rw [timesA_apply, interpA_apply, pos0_apply]
  rfl

end Compose

end Cert.ReferenceIdeal.Hand

end
-- ==== Proof.KHostI.lean ====
/-
  The integer host stages of the kernel program that precede its first kernel call: from the array of fractional
  positions (one per wavenumber and conformal time) the program takes the integer part, clips it to [0, 19998], and,
  tile by tile (a tile is eight consecutive wavenumbers), the smallest and the largest clipped index; the two chunk
  bounds of a tile are the smallest index floor-divided by 256 and the largest index plus one floor-divided by 256,
  each clipped to [0, 78]. This module reads those stages at an index as plain functions on words and proves the
  bracketing property of the two bounds: every clipped index n of the tile satisfies lo * 256 ≤ n and
  n + 1 < (hi + 1) * 256, with 0 ≤ lo ≤ hi ≤ 78.

  Layout: first the word-level facts (signed minimum and maximum, the clipped integer part of one entry, floor
  division by 256 of a nonnegative word, folds of minimum and maximum over a finite set); then each stretch of host
  operations read as a function of the buffers it starts from; then the stages read at an index; then the bracket.
-/
import proofs.«103908_j25280177504693_2_alg».proof.Proof.Gen.KernelIdeal.Regions
import Idealize.ShloMosaic.Lib.ValueIdx
import Idealize.ShloMosaic.Lib.WordArith
import Idealize.ShloMosaic.Lib.StableHlo.Predicate
import Idealize.ShloMosaic.Lib.Pipeline.Value
import Idealize.ShloMosaic.PureOps.Reduce
import Mathlib.Algebra.Order.Floor.Semiring
import Mathlib.Algebra.Order.Floor.Ring
import Mathlib.Data.EReal.Basic
import Mathlib.Data.Finset.Fold

set_option maxRecDepth 1296

noncomputable section

namespace Cert.KernelIdeal.Hand

open Cert.KernelIdeal.Gen
open Idealize.ShloMosaic Idealize.ShloMosaic.TcCoe Idealize.ShloMosaic.StableHlo

/-! ## Words -/

/-- The sign of a word read signed: 0, -1 or 1. -/
def signW (x : BitVec 32) : BitVec 32 := if x = 0 then 0 else if x.msb then -1 else 1

/-- The quotient rounded toward minus infinity, as the program computes it: the quotient rounded toward zero, less one
    when the signs differ and the remainder is not zero. -/
def floorDivW (x d : BitVec 32) : BitVec 32 :=
  Scalar.select
    (IntOp.andi (IntOp.cmpi .ne (signW x) (signW d)) (IntOp.cmpi .ne (IntOp.remsi .host x d) 0#32))
    (IntOp.subi (IntOp.divsi .host x d) 1#32)
    (IntOp.divsi .host x d)

theorem toInt_of_nonneg {x : BitVec 32} (h : 0 ≤ x.toInt) : x.toInt = x.toNat ∧ x.toNat < 2 ^ 31 := by
  have e := BitVec.toInt_eq_toNat_cond x
  have := x.isLt
  split at e <;> omega

/-- A nonnegative word divided by 256: no correction fires, the result is the natural quotient. -/
theorem floorDivW_of_nonneg (x : BitVec 32) (h : 0 ≤ x.toInt) :
    (floorDivW x 256#32).toInt = x.toInt / 256 := by
  obtain ⟨hx, hlt⟩ := toInt_of_nonneg h
  have hcorner : ¬ IntOp.SDivCorner x 256#32 := by
    intro hc; rcases hc with hc | ⟨_, hc⟩ <;> exact absurd hc (by decide)
  have hm : x.msb = false := BitVec.msb_eq_false_iff_two_mul_lt.mpr (by omega)
  have hd : (256#32 : BitVec 32).msb = false := by decide
  have hq : IntOp.divsi .host x 256#32 = x / 256#32 := by
    simp only [IntOp.divsi, if_neg hcorner, BitVec.sdiv_eq, hm, hd, BitVec.udiv_eq]
  have hr : IntOp.remsi .host x 256#32 = x % 256#32 := by
    simp only [IntOp.remsi, if_neg hcorner, BitVec.srem_eq, hm, hd, BitVec.umod_eq]
  have hqn : (x / 256#32).toNat = x.toNat / 256 := by simp [BitVec.toNat_udiv]
  have hqi : (x / 256#32).toInt = x.toInt / 256 := by
    rw [StableHlo.Predicate.toInt_eq_toNat_of_lt (by rw [hqn]; omega), hqn, hx]; norm_cast
  have hsel : IntOp.andi (IntOp.cmpi .ne (signW x) (signW 256#32)) (IntOp.cmpi .ne (IntOp.remsi .host x 256#32) 0#32) = 0#1 := by
    by_cases h0 : x = 0
    · subst h0; decide
    · have : signW x = signW 256#32 := by
        simp only [signW, if_neg h0, hm]; decide
      rw [this]
      simp [IntOp.cmpi, IntOp.andi]
  unfold floorDivW
  rw [hsel, ValueIdx.select_zero, hq, hqi]

/-! ## The clipped integer part of one entry -/

theorem toInt_minsi (a b : BitVec 32) : (IntOp.minsi a b).toInt = min a.toInt b.toInt := by
  unfold IntOp.minsi
  by_cases h : a.slt b = true
  · rw [if_pos h]; rw [BitVec.slt_iff_toInt_lt] at h; omega
  · rw [if_neg h]; rw [BitVec.slt_iff_toInt_lt] at h; omega

theorem toInt_maxsi (a b : BitVec 32) : (IntOp.maxsi a b).toInt = max a.toInt b.toInt := by
  unfold IntOp.maxsi
  by_cases h : b.slt a = true
  · rw [if_pos h]; rw [BitVec.slt_iff_toInt_lt] at h; omega
  · rw [if_neg h]; rw [BitVec.slt_iff_toInt_lt] at h; omega

/-- The word the program computes from one entry `p` of the positions: the integer part of `⌊p⌋`, clipped to
    `[0, 19998]` by a signed maximum with 0 and then a signed minimum with 19998. -/
def i0W (p : EReal) : BitVec 32 :=
  IntOp.minsi 19998#32 (IntOp.maxsi 0#32 (Ideal.fptosi 32 (Ideal.liftRound Int.floor p)))

/-- Whatever the entry, the clipped word lies in `[0, 19998]`. -/
theorem i0W_bounds (p : EReal) : 0 ≤ (i0W p).toInt ∧ (i0W p).toInt ≤ 19998 := by
  unfold i0W
  rw [toInt_minsi, toInt_maxsi]
  have h1 : (19998#32 : BitVec 32).toInt = 19998 := by decide
  have h2 : (0#32 : BitVec 32).toInt = 0 := by decide
  omega

theorem i0W_toInt_of_real (x : ℝ) (h0 : 0 ≤ x) (h1 : x ≤ 19999) :
    (i0W (x : EReal)).toInt = ((min ⌊x⌋₊ 19998 : ℕ) : ℤ) := by
  have hf0 : (0 : ℤ) ≤ ⌊x⌋ := Int.floor_nonneg.mpr h0
  have hf1 : ⌊x⌋ ≤ 19999 := by
    have : ⌊x⌋ ≤ ⌊(19999 : ℝ)⌋ := Int.floor_le_floor h1
    have e : ⌊(19999 : ℝ)⌋ = 19999 := by exact_mod_cast Int.floor_intCast (R := ℝ) 19999
    omega
  have hn : ((⌊x⌋₊ : ℕ) : ℤ) = ⌊x⌋ := Int.natCast_floor_eq_floor h0
  have hr : (0 : ℝ) ≤ ((⌊x⌋ : ℤ) : ℝ) := by exact_mod_cast hf0
  have hw : Ideal.fptosi 32 (Ideal.liftRound Int.floor (x : EReal)) = BitVec.ofInt 32 ⌊x⌋ := by
    show BitVec.ofInt 32 (Ideal.toIntClamped _ _ (((⌊x⌋ : ℤ) : ℝ) : EReal)) = _
    rw [Ideal.toIntClamped_coe, if_pos hr, Int.floor_intCast]
    congr 1
    norm_num
    omega
  have hwi : (BitVec.ofInt 32 ⌊x⌋).toInt = ⌊x⌋ := BitVec.toInt_ofInt_eq_self (by decide) (by norm_num; omega) (by norm_num; omega)
  unfold i0W
  rw [toInt_minsi, toInt_maxsi, hw, hwi]
  have e1 : (19998#32 : BitVec 32).toInt = 19998 := by decide
  have e2 : (0#32 : BitVec 32).toInt = 0 := by decide
  rw [e1, e2]
  omega

/-! ## Signed minimum and maximum folded over a finite set -/

section Folds
variable {ι : Type} (S : Finset ι) (x : ι → BitVec 32) (init : BitVec 32)

theorem toInt_fold_minsi : (S.fold IntOp.minsi init x).toInt = S.fold min init.toInt (fun i => (x i).toInt) :=
  (Finset.fold_hom (op := IntOp.minsi) (op' := min) (m := BitVec.toInt) toInt_minsi).symm

theorem toInt_fold_maxsi : (S.fold IntOp.maxsi init x).toInt = S.fold max init.toInt (fun i => (x i).toInt) :=
  (Finset.fold_hom (op := IntOp.maxsi) (op' := max) (m := BitVec.toInt) toInt_maxsi).symm

theorem fold_minsi_le {i : ι} (hi : i ∈ S) : (S.fold IntOp.minsi init x).toInt ≤ (x i).toInt := by
  rw [toInt_fold_minsi]; exact (Finset.fold_min_le _).mpr (Or.inr ⟨i, hi, le_refl _⟩)

theorem le_fold_minsi {c : ℤ} (h0 : c ≤ init.toInt) (h : ∀ i ∈ S, c ≤ (x i).toInt) : c ≤ (S.fold IntOp.minsi init x).toInt := by
  rw [toInt_fold_minsi]; exact (Finset.le_fold_min _).mpr ⟨h0, h⟩

theorem le_fold_maxsi {i : ι} (hi : i ∈ S) : (x i).toInt ≤ (S.fold IntOp.maxsi init x).toInt := by
  rw [toInt_fold_maxsi]; exact (Finset.le_fold_max _).mpr (Or.inr ⟨i, hi, le_refl _⟩)

theorem fold_maxsi_le {c : ℤ} (h0 : init.toInt ≤ c) (h : ∀ i ∈ S, (x i).toInt ≤ c) : (S.fold IntOp.maxsi init x).toInt ≤ c := by
  rw [toInt_fold_maxsi]; exact (Finset.fold_max_le _).mpr ⟨h0, h⟩

end Folds

/-! ## The two chunk bounds as words -/

/-- The lower chunk bound from a tile's minimum: floor division by 256, clipped to `[0, 78]`. -/
def loW (mn : BitVec 32) : BitVec 32 := IntOp.minsi 78#32 (IntOp.maxsi 0#32 (floorDivW mn 256#32))

/-- The upper chunk bound from a tile's maximum: one more, floor division by 256, clipped to `[0, 78]`. -/
def hiW (mx : BitVec 32) : BitVec 32 := IntOp.minsi 78#32 (IntOp.maxsi 0#32 (floorDivW (IntOp.addi mx 1#32) 256#32))

theorem loW_toInt (mn : BitVec 32) (h0 : 0 ≤ mn.toInt) (h1 : mn.toInt ≤ 19998) : (loW mn).toInt = mn.toInt / 256 := by
  unfold loW
  rw [toInt_minsi, toInt_maxsi, floorDivW_of_nonneg mn h0]
  have e1 : (78#32 : BitVec 32).toInt = 78 := by decide
  have e2 : (0#32 : BitVec 32).toInt = 0 := by decide
  rw [e1, e2]; omega

theorem hiW_toInt (mx : BitVec 32) (h0 : 0 ≤ mx.toInt) (h1 : mx.toInt ≤ 19998) : (hiW mx).toInt = (mx.toInt + 1) / 256 := by
  have ha : (IntOp.addi mx 1#32).toInt = mx.toInt + 1 := by
    show (mx + 1#32).toInt = _
    rw [BitVec.toInt_add]
    have e : (1#32 : BitVec 32).toInt = 1 := by decide
    rw [e]
    exact Int.bmod_eq_of_le (by omega) (by omega)
  unfold hiW
  rw [toInt_minsi, toInt_maxsi, floorDivW_of_nonneg _ (by rw [ha]; omega), ha]
  have e1 : (78#32 : BitVec 32).toInt = 78 := by decide
  have e2 : (0#32 : BitVec 32).toInt = 0 := by decide
  rw [e1, e2]; omega

/-- For a real entry in `[0, 19999]` the clipped word is the natural number `min ⌊x⌋ 19998`. -/
theorem i0W_of_real (x : ℝ) (h0 : 0 ≤ x) (h1 : x ≤ 19999) :
    (i0W (x : EReal)).toNat = min ⌊x⌋₊ 19998 ∧ (i0W (x : EReal)).toInt = ((min ⌊x⌋₊ 19998 : ℕ) : ℤ)
      ∧ (i0W (x : EReal)).toNat < 2 ^ 31 := by
  have hi := i0W_toInt_of_real x h0 h1
  obtain ⟨e, hlt⟩ := toInt_of_nonneg (x := i0W (x : EReal)) (by rw [hi]; exact Int.natCast_nonneg _)
  refine ⟨?_, hi, hlt⟩
  have : ((i0W (x : EReal)).toNat : ℤ) = ((min ⌊x⌋₊ 19998 : ℕ) : ℤ) := by rw [← e, hi]
  exact_mod_cast this

/-- The same word converted back to a float is that natural number exactly. -/
theorem sitofp_i0W_of_real (x : ℝ) (h0 : 0 ≤ x) (h1 : x ≤ 19999) :
    (FloatOps.sitofp (F := Ideal) .f32 (i0W (x : EReal)) : EReal) = (((min ⌊x⌋₊ 19998 : ℕ) : ℝ) : EReal) := by
  show (((i0W (x : EReal)).toInt : ℝ) : EReal) = _
  rw [i0W_toInt_of_real x h0 h1, Int.cast_natCast]

/-! ## The vector-level functions the host stretches compute -/

/-- Floor division of a vector of words by one word, operation for operation as the program's callee has it. -/
def floorDivV (x : IVec S128 32) (d : IVec S_ 32) : IVec S128 32 :=
  select
    (andi (cmpi .ne (signi x) (broadcastInDim S128 ![] bcast_S_S128 (signi d)))
      (cmpi .ne (Host.remsi x (broadcastInDim S128 ![] bcast_S_S128 d)) (broadcastInDim S128 ![] bcast_S_S128 (constantI S_ 32 0#32))))
    (subi (Host.divsi x (broadcastInDim S128 ![] bcast_S_S128 d)) (broadcastInDim S128 ![] bcast_S_S128 (constantI S_ 32 1#32)))
    (Host.divsi x (broadcastInDim S128 ![] bcast_S_S128 d))

/-- The clip of a vector of words between two words: a signed maximum with the lower, then a signed minimum with the upper. -/
def clipV (lo hi : IVec S_ 32) (x : IVec S128 32) : IVec S128 32 :=
  minsi (broadcastInDim S128 ![] bcast_S_S128 hi) (maxsi (broadcastInDim S128 ![] bcast_S_S128 lo) x)

/-- The signed minimum of each tile of eight rows: the array recast as 128 tiles of 8 rows of 600 and reduced over the
    last two axes from the largest word. -/
def tileMin (a : IVec S1024x600 32) : IVec S128 32 :=
  Host.reduce IntOp.minsi (shapeCast S128x8x600 a shapeCasts_S1024x600_S128x8x600) (constantI S_ 32 2147483647#32)
    reducesTo_S128x8x600_S128_d1_2 h_S_

/-- The signed maximum of each tile of eight rows, from the smallest word. -/
def tileMax (a : IVec S1024x600 32) : IVec S128 32 :=
  Host.reduce IntOp.maxsi (shapeCast S128x8x600 a shapeCasts_S1024x600_S128x8x600) (constantI S_ 32 2147483648#32)
    reducesTo_S128x8x600_S128_d1_2 h_S_

/-! ## A tile's minimum and maximum against its entries -/

section Tiles
variable (a : IVec S1024x600 32)

/-- Row `j` of tile `kt`: a tile is eight consecutive rows. -/
def tileRow (kt : Fin 128) (j : Fin 8) : Fin 1024 := ⟨8 * kt.val + j.val, by omega⟩

@[simp] theorem tileRow_val (kt : Fin 128) (j : Fin 8) : (tileRow kt j).val = 8 * kt.val + j.val := rfl

/-- The recast array at `(kt, j, t)` is the array at row `8 kt + j`, column `t`: the same row-major position. -/
theorem shapeCast_tile (kt : Fin 128) (j : Fin 8) (t : Fin 600) :
    shapeCast S128x8x600 a shapeCasts_S1024x600_S128x8x600 (ValueIdx.ix3 kt j t) = a (ValueIdx.ix2 (tileRow kt j) t) :=
  shapeCast_apply a _ _ _ (by
    rw [Shape.rowMajor_val_three, Shape.rowMajor_val_two]
    show (8 * kt.val + j.val) * 600 + t.val = (kt.val * 8 + j.val) * 600 + t.val
    omega)

/-- Dropping the last two coordinates of `(kt, j, t)` leaves `kt`. -/
theorem drop_tile (kt : Fin 128) (j : Fin 8) (t : Fin 600) :
    reducesTo_S128x8x600_S128_d1_2.drop (ValueIdx.ix3 kt j t) = ValueIdx.ix1 kt := by
  rw [ValueIdx.eq_ix1 (reducesTo_S128x8x600_S128_d1_2.drop (ValueIdx.ix3 kt j t))]
  exact congrArg ValueIdx.ix1 (Fin.ext (Shape.ReducesTo.drop_apply_val_of_eq (s := S128x8x600) (axes := [1, 2]) (t := S128) reducesTo_S128x8x600_S128_d1_2 (ValueIdx.ix3 kt j t) (0 : Fin 1) (0 : Fin 3) (by decide) (by decide)))

theorem tileMin_apply (kt : Fin 128) :
    tileMin a (ValueIdx.ix1 kt)
      = (Finset.univ.filter fun i => reducesTo_S128x8x600_S128_d1_2.drop i = ValueIdx.ix1 kt).fold IntOp.minsi 2147483647#32
          (shapeCast S128x8x600 a shapeCasts_S1024x600_S128x8x600) :=
  Host.reduce_eq_fold IntOp.minsi _ _ reducesTo_S128x8x600_S128_d1_2 h_S_ (ValueIdx.ix1 kt)

theorem tileMax_apply (kt : Fin 128) :
    tileMax a (ValueIdx.ix1 kt)
      = (Finset.univ.filter fun i => reducesTo_S128x8x600_S128_d1_2.drop i = ValueIdx.ix1 kt).fold IntOp.maxsi 2147483648#32
          (shapeCast S128x8x600 a shapeCasts_S1024x600_S128x8x600) :=
  Host.reduce_eq_fold IntOp.maxsi _ _ reducesTo_S128x8x600_S128_d1_2 h_S_ (ValueIdx.ix1 kt)

/-- A tile's minimum is at most each of its entries. -/
theorem tileMin_le (kt : Fin 128) (j : Fin 8) (t : Fin 600) :
    (tileMin a (ValueIdx.ix1 kt)).toInt ≤ (a (ValueIdx.ix2 (tileRow kt j) t)).toInt := by
  rw [tileMin_apply, ← shapeCast_tile a kt j t]
  exact fold_minsi_le _ _ _ (Finset.mem_filter.mpr ⟨Finset.mem_univ _, drop_tile kt j t⟩)

/-- A lower bound of every entry (and of the largest word) is a lower bound of a tile's minimum. -/
theorem le_tileMin (kt : Fin 128) {c : ℤ} (hc : c ≤ 2147483647) (h : ∀ k, c ≤ (a k).toInt) :
    c ≤ (tileMin a (ValueIdx.ix1 kt)).toInt := by
  rw [tileMin_apply]
  have e : (2147483647#32 : BitVec 32).toInt = 2147483647 := by decide
  exact le_fold_minsi _ _ _ (by rw [e]; exact hc) (fun i _ => h _)

/-- A tile's maximum is at least each of its entries. -/
theorem le_tileMax (kt : Fin 128) (j : Fin 8) (t : Fin 600) :
    (a (ValueIdx.ix2 (tileRow kt j) t)).toInt ≤ (tileMax a (ValueIdx.ix1 kt)).toInt := by
  rw [tileMax_apply, ← shapeCast_tile a kt j t]
  exact le_fold_maxsi _ _ _ (Finset.mem_filter.mpr ⟨Finset.mem_univ _, drop_tile kt j t⟩)

/-- An upper bound of every entry (and of the smallest word) is an upper bound of a tile's maximum. -/
theorem tileMax_le (kt : Fin 128) {c : ℤ} (hc : -2147483648 ≤ c) (h : ∀ k, (a k).toInt ≤ c) :
    (tileMax a (ValueIdx.ix1 kt)).toInt ≤ c := by
  rw [tileMax_apply]
  have e : (2147483648#32 : BitVec 32).toInt = -2147483648 := by decide
  exact fold_maxsi_le _ _ _ (by rw [e]; exact hc) (fun i _ => h _)

end Tiles

/-! ## Each stretch of host operations as a function of the buffers it starts from

Stated for any contents `V` of the buffers and any float instance: a stretch's result buffer holds the stretch's
operations applied to what `V` holds at the buffers the stretch reads. -/

section Stretches
variable {F : FTy → Type} [FloatOps F]

theorem stretch2_v20 (V : Valuation τ sig (Elt F)) :
    after hostOps0_2 V (main_v20 : DevRef τ sig)
      = fptosi 32 (Host.floor (φ := .f32) (s := S1024x600) (V (main_v18 : DevRef τ sig))) := by
  after_results
theorem stretch2_c (V : Valuation τ sig (Elt F)) : after hostOps0_2 V (main_c : DevRef τ sig) = constantI S_ 32 0#32 := by
  after_results
theorem stretch2_c2 (V : Valuation τ sig (Elt F)) : after hostOps0_2 V (main_c_2 : DevRef τ sig) = constantI S_ 32 19998#32 := by
  after_results

theorem stretch3_v21 (V : Valuation τ sig (Elt F)) :
    after hostOps0_3 V (main_v21 : DevRef τ sig)
      = minsi (broadcastInDim S1024x600 ![] bcast_S_S1024x600 (V (main_c_2 : DevRef τ sig)))
          (maxsi (broadcastInDim S1024x600 ![] bcast_S_S1024x600 (V (main_c : DevRef τ sig))) (V (main_v20 : DevRef τ sig))) := by
  after_results
  rfl

theorem stretch8_v40 (V : Valuation τ sig (Elt F)) :
    after hostOps0_8 V (main_v40 : DevRef τ sig) = tileMin (V (main_v21 : DevRef τ sig)) := by
  after_results
  rfl
theorem stretch8_v41 (V : Valuation τ sig (Elt F)) :
    after hostOps0_8 V (main_v41 : DevRef τ sig) = tileMax (V (main_v21 : DevRef τ sig)) := by
  after_results
  rfl
theorem stretch8_c9 (V : Valuation τ sig (Elt F)) :
    after hostOps0_8 V (main_c_9 : DevRef τ sig) = constantI S_ 32 256#32 := by
  after_results

set_option maxHeartbeats 1000000 in
theorem stretch9_v42 (V : Valuation τ sig (Elt F)) :
    after hostOps0_9 V (main_v42 : DevRef τ sig) = floorDivV (V (main_v40 : DevRef τ sig)) (V (main_c_9 : DevRef τ sig)) := by
  after_results_simp
  rfl

theorem stretch10_c10 (V : Valuation τ sig (Elt F)) : after hostOps0_10 V (main_c_10 : DevRef τ sig) = constantI S_ 32 0#32 := by
  after_results
theorem stretch10_c11 (V : Valuation τ sig (Elt F)) : after hostOps0_10 V (main_c_11 : DevRef τ sig) = constantI S_ 32 78#32 := by
  after_results

theorem stretch11_v43 (V : Valuation τ sig (Elt F)) :
    after hostOps0_11 V (main_v43 : DevRef τ sig)
      = clipV (V (main_c_10 : DevRef τ sig)) (V (main_c_11 : DevRef τ sig)) (V (main_v42 : DevRef τ sig)) := by
  after_results
  rfl

theorem stretch12_v45 (V : Valuation τ sig (Elt F)) :
    after hostOps0_12 V (main_v45 : DevRef τ sig)
      = addi (V (main_v41 : DevRef τ sig)) (broadcastInDim S128 ![] bcast_S_S128 (constantI S_ 32 1#32)) := by
  after_results
theorem stretch12_c13 (V : Valuation τ sig (Elt F)) : after hostOps0_12 V (main_c_13 : DevRef τ sig) = constantI S_ 32 256#32 := by
  after_results

set_option maxHeartbeats 1000000 in
theorem stretch13_v46 (V : Valuation τ sig (Elt F)) :
    after hostOps0_13 V (main_v46 : DevRef τ sig) = floorDivV (V (main_v45 : DevRef τ sig)) (V (main_c_13 : DevRef τ sig)) := by
  after_results_simp
  rfl

theorem stretch14_c14 (V : Valuation τ sig (Elt F)) : after hostOps0_14 V (main_c_14 : DevRef τ sig) = constantI S_ 32 0#32 := by
  after_results
theorem stretch14_c15 (V : Valuation τ sig (Elt F)) : after hostOps0_14 V (main_c_15 : DevRef τ sig) = constantI S_ 32 78#32 := by
  after_results

theorem stretch15_v47 (V : Valuation τ sig (Elt F)) :
    after hostOps0_15 V (main_v47 : DevRef τ sig)
      = clipV (V (main_c_14 : DevRef τ sig)) (V (main_c_15 : DevRef τ sig)) (V (main_v46 : DevRef τ sig)) := by
  after_results
  rfl

/-! ## The buffers entering the first kernel call, in terms of the positions -/

variable (m : (ℓ : Loc nD τ sig) → Buf (Elt F) ℓ) (c : Dev nD)

/-- No stretch after the second writes the positions: the first kernel call finds them as the second stretch left them. -/
theorem chain_v18 : V16 m c main_v18 = V2 m c main_v18 :=
  (V16_of m c main_v18 (by decide)).trans <| (V15_of m c main_v18 (by decide)).trans <| (V14_of m c main_v18 (by decide)).trans <| (V13_of m c main_v18 (by decide)).trans <| (V12_of m c main_v18 (by decide)).trans <| (V11_of m c main_v18 (by decide)).trans <| (V10_of m c main_v18 (by decide)).trans <| (V9_of m c main_v18 (by decide)).trans <| (V8_of m c main_v18 (by decide)).trans <| (V7_of m c main_v18 (by decide)).trans <| (V6_of m c main_v18 (by decide)).trans <| (V5_of m c main_v18 (by decide)).trans <| (V4_of m c main_v18 (by decide)).trans <| (V3_of m c main_v18 (by decide))

/-- No stretch after the fourth writes the clipped indices: the first kernel call finds them as the fourth stretch left them. -/
theorem chain_v21 : V16 m c main_v21 = V4 m c main_v21 :=
  (V16_of m c main_v21 (by decide)).trans <| (V15_of m c main_v21 (by decide)).trans <| (V14_of m c main_v21 (by decide)).trans <| (V13_of m c main_v21 (by decide)).trans <| (V12_of m c main_v21 (by decide)).trans <| (V11_of m c main_v21 (by decide)).trans <| (V10_of m c main_v21 (by decide)).trans <| (V9_of m c main_v21 (by decide)).trans <| (V8_of m c main_v21 (by decide)).trans <| (V7_of m c main_v21 (by decide)).trans <| (V6_of m c main_v21 (by decide)).trans <| (V5_of m c main_v21 (by decide))

/-- The clipped indices the tile reductions read (after the eighth stretch) are the ones the first kernel call finds. -/
theorem chain8_v21 : V8 m c main_v21 = V16 m c main_v21 :=
  ((V8_of m c main_v21 (by decide)).trans <| (V7_of m c main_v21 (by decide)).trans <| (V6_of m c main_v21 (by decide)).trans <| (V5_of m c main_v21 (by decide))).trans (chain_v21 m c).symm

/-- The clipped indices: the positions floored, converted, and clipped to `[0, 19998]`. -/
theorem v21_eq :
    V16 m c main_v21
      = minsi (broadcastInDim S1024x600 ![] bcast_S_S1024x600 (constantI S_ 32 19998#32))
          (maxsi (broadcastInDim S1024x600 ![] bcast_S_S1024x600 (constantI S_ 32 0#32))
            (fptosi 32 (Host.floor (φ := .f32) (s := S1024x600) (V16 m c main_v18)))) := by
  rw [chain_v21, chain_v18]
  have h1 : V3 m c main_c_2 = _ := stretch2_c2 (V2 m c)
  have h2 : V3 m c main_c = _ := stretch2_c (V2 m c)
  have h3 : V3 m c main_v20 = _ := stretch2_v20 (V2 m c)
  refine (stretch3_v21 (V3 m c)).trans ?_
  rw [h1, h2, h3]

/-- The lower chunk bounds: each tile's minimum, floor-divided by 256, clipped to `[0, 78]`. -/
theorem v43_eq :
    V16 m c main_v43
      = clipV (constantI S_ 32 0#32) (constantI S_ 32 78#32)
          (floorDivV (tileMin (V16 m c main_v21)) (constantI S_ 32 256#32)) := by
  have e21 := chain8_v21 m c
  have h40 : V9 m c main_v40 = tileMin (V8 m c main_v21) := stretch8_v40 (V8 m c)
  have hc9 : V9 m c main_c_9 = _ := stretch8_c9 (V8 m c)
  have h42 : V10 m c main_v42 = floorDivV (V9 m c main_v40) (V9 m c main_c_9) := stretch9_v42 (V9 m c)
  have h42' : V11 m c main_v42 = V10 m c main_v42 := V11_of m c main_v42 (by decide)
  have hc10 : V11 m c main_c_10 = _ := stretch10_c10 (V10 m c)
  have hc11 : V11 m c main_c_11 = _ := stretch10_c11 (V10 m c)
  have h43 : V12 m c main_v43 = clipV (V11 m c main_c_10) (V11 m c main_c_11) (V11 m c main_v42) := stretch11_v43 (V11 m c)
  have hch : V16 m c main_v43 = V12 m c main_v43 :=
    (V16_of m c main_v43 (by decide)).trans <| (V15_of m c main_v43 (by decide)).trans <| (V14_of m c main_v43 (by decide)).trans <| (V13_of m c main_v43 (by decide))
  rw [hch, h43, hc10, hc11, h42', h42, h40, hc9, e21]

/-- The upper chunk bounds: each tile's maximum plus one, floor-divided by 256, clipped to `[0, 78]`. -/
theorem v47_eq :
    V16 m c main_v47
      = clipV (constantI S_ 32 0#32) (constantI S_ 32 78#32)
          (floorDivV (addi (tileMax (V16 m c main_v21)) (broadcastInDim S128 ![] bcast_S_S128 (constantI S_ 32 1#32)))
            (constantI S_ 32 256#32)) := by
  have e21 := chain8_v21 m c
  have h41 : V9 m c main_v41 = tileMax (V8 m c main_v21) := stretch8_v41 (V8 m c)
  have h41' : V12 m c main_v41 = V9 m c main_v41 :=
    (V12_of m c main_v41 (by decide)).trans <| (V11_of m c main_v41 (by decide)).trans <| (V10_of m c main_v41 (by decide))
  have h45 : V13 m c main_v45 = addi (V12 m c main_v41) (broadcastInDim S128 ![] bcast_S_S128 (constantI S_ 32 1#32)) :=
    stretch12_v45 (V12 m c)
  have hc13 : V13 m c main_c_13 = _ := stretch12_c13 (V12 m c)
  have h46 : V14 m c main_v46 = floorDivV (V13 m c main_v45) (V13 m c main_c_13) := stretch13_v46 (V13 m c)
  have h46' : V15 m c main_v46 = V14 m c main_v46 := V15_of m c main_v46 (by decide)
  have hc14 : V15 m c main_c_14 = _ := stretch14_c14 (V14 m c)
  have hc15 : V15 m c main_c_15 = _ := stretch14_c15 (V14 m c)
  have h47 : V16 m c main_v47 = clipV (V15 m c main_c_14) (V15 m c main_c_15) (V15 m c main_v46) := stretch15_v47 (V15 m c)
  rw [h47, hc14, hc15, h46', h46, h45, hc13, h41', h41, e21]

end Stretches

/-! ## The stages read at an index, and the bracket -/

section AtIndex
variable (m : (ℓ : Loc nD τ sig) → Buf (Elt Ideal) ℓ) (c : Dev nD)

/-- The clipped index at `(i, t)` is the clipped integer part of the position at `(i, t)`. -/
theorem i0_apply (i : Fin 1024) (t : Fin 600) :
    (V16 m c main_v21 : S1024x600.Idx → BitVec 32) (ValueIdx.ix2 i t)
      = i0W ((V16 m c main_v18 : S1024x600.Idx → EReal) (ValueIdx.ix2 i t)) := by
  rw [v21_eq]
  rfl

/-- The lower chunk bound of tile `kt`. -/
theorem lo_apply (kt : Fin 128) :
    (V16 m c main_v43 : S128.Idx → BitVec 32) (ValueIdx.ix1 kt) = loW (tileMin (V16 m c main_v21) (ValueIdx.ix1 kt)) := by
  rw [v43_eq]
  rfl

/-- The upper chunk bound of tile `kt`. -/
theorem hi_apply (kt : Fin 128) :
    (V16 m c main_v47 : S128.Idx → BitVec 32) (ValueIdx.ix1 kt) = hiW (tileMax (V16 m c main_v21) (ValueIdx.ix1 kt)) := by
  rw [v47_eq]
  rfl

/-- Every clipped index lies in `[0, 19998]`, whatever the positions. -/
theorem i0_bounds (k : S1024x600.Idx) :
    0 ≤ ((V16 m c main_v21 : S1024x600.Idx → BitVec 32) k).toInt ∧ ((V16 m c main_v21 : S1024x600.Idx → BitVec 32) k).toInt ≤ 19998 := by
  obtain ⟨i, t, rfl⟩ : ∃ (i : Fin 1024) (t : Fin 600), k = ValueIdx.ix2 i t := ⟨k 0, k 1, ValueIdx.eq_ix2 k⟩
  rw [i0_apply]
  exact i0W_bounds _

/-- The two chunk bounds bracket every clipped index of their tile: with `lo` and `hi` the bounds of tile `kt` read
    signed, `0 ≤ lo ≤ hi ≤ 78`, and every index `n` of the tile has `lo * 256 ≤ n` and `n + 1 < (hi + 1) * 256`. The
    minimum `mn` and maximum `mx` of the tile lie in `[0, 19998]` like every index, so the floor divisions are the
    natural quotients `mn / 256` and `(mx + 1) / 256`, both already in `[0, 78]`, and the clips change nothing. -/
theorem lo_hi_bracket' (kt : Fin 128) :
    0 ≤ ((V16 m c main_v43 : S128.Idx → BitVec 32) (ValueIdx.ix1 kt)).toInt
    ∧ ((V16 m c main_v43 : S128.Idx → BitVec 32) (ValueIdx.ix1 kt)).toInt
        ≤ ((V16 m c main_v47 : S128.Idx → BitVec 32) (ValueIdx.ix1 kt)).toInt
    ∧ ((V16 m c main_v47 : S128.Idx → BitVec 32) (ValueIdx.ix1 kt)).toInt ≤ 78
    ∧ ∀ (j : Fin 8) (t : Fin 600),
        ((V16 m c main_v43 : S128.Idx → BitVec 32) (ValueIdx.ix1 kt)).toInt * 256
            ≤ ((i0W ((V16 m c main_v18 : S1024x600.Idx → EReal) (ValueIdx.ix2 (tileRow kt j) t))).toNat : ℤ)
        ∧ ((i0W ((V16 m c main_v18 : S1024x600.Idx → EReal) (ValueIdx.ix2 (tileRow kt j) t))).toNat : ℤ) + 1
            < (((V16 m c main_v47 : S128.Idx → BitVec 32) (ValueIdx.ix1 kt)).toInt + 1) * 256 := by
  have hb := i0_bounds m c
  have hmn0 : 0 ≤ (tileMin (V16 m c main_v21) (ValueIdx.ix1 kt)).toInt :=
    le_tileMin _ kt (by norm_num) (fun k => (hb k).1)
  have hmx1 : (tileMax (V16 m c main_v21) (ValueIdx.ix1 kt)).toInt ≤ 19998 :=
    tileMax_le _ kt (by norm_num) (fun k => (hb k).2)
  have hmn := tileMin_le (V16 m c main_v21) kt
  have hmx := le_tileMax (V16 m c main_v21) kt
  have hmn1 : (tileMin (V16 m c main_v21) (ValueIdx.ix1 kt)).toInt ≤ 19998 := (hmn 0 0).trans (hb _).2
  have hmx0 : 0 ≤ (tileMax (V16 m c main_v21) (ValueIdx.ix1 kt)).toInt := (hb _).1.trans (hmx 0 0)
  rw [lo_apply, hi_apply, loW_toInt _ hmn0 hmn1, hiW_toInt _ hmx0 hmx1]
  have h00 := hmn 0 0
  have h00' := hmx 0 0
  refine ⟨by omega, by omega, by omega, fun j t => ?_⟩
  have hj := hmn j t
  have hj' := hmx j t
  have hbj := hb (ValueIdx.ix2 (tileRow kt j) t)
  rw [i0_apply] at hj hj' hbj
  obtain ⟨e, _⟩ := toInt_of_nonneg hbj.1
  rw [e] at hj hj'
  constructor <;> omega

/-- The bracket as it is used: for positions that are real numbers in `[0, 19999]`. -/
theorem lo_hi_bracket (kt : Fin 128)
    (hreal : ∀ (i : Fin 1024) (t : Fin 600), ∃ x : ℝ, 0 ≤ x ∧ x ≤ 19999
      ∧ (V16 m c main_v18 : S1024x600.Idx → EReal) (ValueIdx.ix2 i t) = (x : EReal)) :
    0 ≤ ((V16 m c main_v43 : S128.Idx → BitVec 32) (ValueIdx.ix1 kt)).toInt
    ∧ ((V16 m c main_v43 : S128.Idx → BitVec 32) (ValueIdx.ix1 kt)).toInt
        ≤ ((V16 m c main_v47 : S128.Idx → BitVec 32) (ValueIdx.ix1 kt)).toInt
    ∧ ((V16 m c main_v47 : S128.Idx → BitVec 32) (ValueIdx.ix1 kt)).toInt ≤ 78
    ∧ ∀ (j : Fin 8) (t : Fin 600),
        ((V16 m c main_v43 : S128.Idx → BitVec 32) (ValueIdx.ix1 kt)).toInt * 256
            ≤ ((i0W ((V16 m c main_v18 : S1024x600.Idx → EReal) (ValueIdx.ix2 (tileRow kt j) t))).toNat : ℤ)
        ∧ ((i0W ((V16 m c main_v18 : S1024x600.Idx → EReal) (ValueIdx.ix2 (tileRow kt j) t))).toNat : ℤ) + 1
            < (((V16 m c main_v47 : S128.Idx → BitVec 32) (ValueIdx.ix1 kt)).toInt + 1) * 256 :=
  lo_hi_bracket' m c kt

end AtIndex

end Cert.KernelIdeal.Hand
-- ==== Proof.KHostF.lean ====
/-
  The kernel program's host-side float stages, each read at an index as a plain function of the fourteen
  arguments: the interpolation position of every (wavenumber, time) query point on the abscissa grid, the four
  tabulated transfer functions packed side by side and padded with zero rows, the trapezoid weights of the time
  grid, the source arrays as launched, and the weight of each wavenumber in the final integral (its trapezoid
  weight times k squared times the primordial power spectrum).  Every function below is the literal composition
  of the operations the program applies, in the program's order and association.
-/
import proofs.«103908_j25280177504693_2_alg».proof.Proof.Gen.KernelIdeal.Regions
import proofs.«103908_j25280177504693_2_alg».proof.Proof.KArgs
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.StableHlo.Run

set_option maxRecDepth 16384

noncomputable section

namespace Cert.KernelIdeal.Hand

open Cert.KernelIdeal.Gen
open Idealize.ShloMosaic Idealize.ShloMosaic.TcCoe Idealize.ShloMosaic.ValueIdx
open Idealize.ShloMosaic.StableHlo
open Idealize.SL.Sem

/-! ## Broadcasts, one-entry slices and reshapes read at an index -/

section Layout
variable {α : Type}

/-- A vector of 1024 entries laid down the rows of a 1024 x 600 array (through a 1024 x 1 column): entry (i, t) is entry i. -/
theorem spreadRows_apply (h1 : S1024.BroadcastsInDim S1024x1 ![0]) (h2 : S1024x1.BroadcastsInDim S1024x600 ![0, 1])
    (A : S1024.Idx → α) (i : Fin 1024) (t : Fin 600) :
    broadcastInDim S1024x600 ![0, 1] h2 (broadcastInDim S1024x1 ![0] h1 A) (ix2 i t) = A (ix1 i) := by
  rw [broadcastInDim_apply _ h2 _ (ix2 i t) (ix2 i (0 : Fin 1)) (fun a => match a with | ⟨0, _⟩ => rfl | ⟨1, _⟩ => rfl)]
  exact broadcastInDim_apply _ h1 _ (ix2 i (0 : Fin 1)) (ix1 i) (fun a => match a with | ⟨0, _⟩ => rfl)

/-- A vector of 600 entries laid along the columns of a 1024 x 600 array (through a 1 x 600 row): entry (i, t) is entry t. -/
theorem spreadCols_apply (h1 : S600.BroadcastsInDim S1x600 ![1]) (h2 : S1x600.BroadcastsInDim S1024x600 ![0, 1])
    (B : S600.Idx → α) (i : Fin 1024) (t : Fin 600) :
    broadcastInDim S1024x600 ![0, 1] h2 (broadcastInDim S1x600 ![1] h1 B) (ix2 i t) = B (ix1 t) := by
  rw [broadcastInDim_apply _ h2 _ (ix2 i t) (ix2 (0 : Fin 1) t) (fun a => match a with | ⟨0, _⟩ => rfl | ⟨1, _⟩ => rfl)]
  exact broadcastInDim_apply _ h1 _ (ix2 (0 : Fin 1) t) (ix1 t) (fun a => match a with | ⟨0, _⟩ => rfl)

/-- A vector of 600 entries as a 1 x 600 row: entry (0, t) is entry t. -/
theorem asRow_apply (h1 : S600.BroadcastsInDim S1x600 ![1]) (B : S600.Idx → α) (u : Fin 1) (t : Fin 600) :
    broadcastInDim S1x600 ![1] h1 B (ix2 u t) = B (ix1 t) :=
  broadcastInDim_apply _ h1 _ (ix2 u t) (ix1 t) (fun a => match a with | ⟨0, _⟩ => rfl)

/-- A vector of 1024 entries as a 1024 x 1 column: entry (i, 0) is entry i. -/
theorem asCol_apply (h1 : S1024.BroadcastsInDim S1024x1 ![0]) (A : S1024.Idx → α) (i : Fin 1024) (u : Fin 1) :
    broadcastInDim S1024x1 ![0] h1 A (ix2 i u) = A (ix1 i) :=
  broadcastInDim_apply _ h1 _ (ix2 i u) (ix1 i) (fun a => match a with | ⟨0, _⟩ => rfl)

/-- One entry of a vector, cut out as a one-entry vector and reshaped to a scalar, is that entry. -/
theorem entryScalar_apply {n : Nat} (o : Nat) (ho : o < n) (hs : (⟨1, ![n]⟩ : Shape).Slices ![o] S1) (t : Shape)
    (hc : S1.ShapeCasts t) (X : (⟨1, ![n]⟩ : Shape).Idx → α) (j : t.Idx) (hj : (t.rowMajor j).val = 0) :
    shapeCast t (extractStridedSlice S1 ![o] X hs) hc j = X (ix1 ⟨o, ho⟩) := by
  rw [shapeCast_apply _ hc j (ix1 (0 : Fin 1)) (by rw [Shape.rowMajor_val_one, hj]; rfl)]
  exact extractStridedSlice_apply _ X hs (ix1 (0 : Fin 1)) (ix1 ⟨o, ho⟩) (fun a => match a with | ⟨0, _⟩ => rfl)

end Layout

/-! ## Slices, differences and concatenations of vectors read at an index -/

section Vectors
variable {α : Type}

/-- A run of consecutive entries cut out of a vector: entry j of the cut is entry o + j. -/
theorem sliceAt_apply {N M : Nat} (o : Nat) (h : (⟨1, ![N]⟩ : Shape).Slices ![o] ⟨1, ![M]⟩)
    (X : (⟨1, ![N]⟩ : Shape).Idx → α) (j : Fin M) (k : Fin N) (hk : k.val = o + j.val) :
    extractStridedSlice ⟨1, ![M]⟩ ![o] X h (ix1 j) = X (ix1 k) :=
  extractStridedSlice_apply _ X h (ix1 j) (ix1 k) (fun a => match a with | ⟨0, _⟩ => hk)

/-- The forward differences of a vector: entry j is entry j + 1 less entry j. -/
theorem diff_apply {N M : Nat} (h1 : (⟨1, ![N]⟩ : Shape).Slices ![1] ⟨1, ![M]⟩)
    (h0 : (⟨1, ![N]⟩ : Shape).Slices ![0] ⟨1, ![M]⟩) (T : FVec Ideal ⟨1, ![N]⟩ .f32) (j : Fin M) (k1 k0 : Fin N)
    (hk1 : k1.val = 1 + j.val) (hk0 : k0.val = 0 + j.val) :
    subf (extractStridedSlice ⟨1, ![M]⟩ ![1] T h1) (extractStridedSlice ⟨1, ![M]⟩ ![0] T h0) (ix1 j)
      = T (ix1 k1) - T (ix1 k0) := by
  rw [subf_apply, sliceAt_apply 1 h1 T j k1 hk1, sliceAt_apply 0 h0 T j k0 hk0]

/-- One entry, then M entries, then one entry, laid end to end: the first entry. -/
theorem cat3_first {N M : Nat} (h : Shape.Concatenates [S1, ⟨1, ![M]⟩, S1] ⟨1, ![N]⟩ 0)
    (x0 : S1.Idx → α) (xm : (⟨1, ![M]⟩ : Shape).Idx → α) (xl : S1.Idx → α) (t : Fin N) (ht : t.val = 0) :
    concatenate ⟨1, ![N]⟩ 0 [⟨S1, x0⟩, ⟨⟨1, ![M]⟩, xm⟩, ⟨S1, xl⟩] h (ix1 t) = x0 (ix1 (0 : Fin 1)) :=
  concatenate_apply_piece (t := ⟨1, ![N]⟩) 0 [⟨S1, x0⟩, ⟨⟨1, ![M]⟩, xm⟩, ⟨S1, xl⟩] h (ix1 t) 0 (by simp) S1 x0 rfl rfl 0 rfl
    (ix1 (0 : Fin 1)) (fun b hb => match b, hb with | ⟨0, _⟩, hb => absurd rfl hb) (by show 0 + 0 = t.val; omega)

/-- The same: a middle entry. -/
theorem cat3_mid {N M : Nat} (h : Shape.Concatenates [S1, ⟨1, ![M]⟩, S1] ⟨1, ![N]⟩ 0)
    (x0 : S1.Idx → α) (xm : (⟨1, ![M]⟩ : Shape).Idx → α) (xl : S1.Idx → α) (t : Fin N) (j : Fin M)
    (ht : t.val = 1 + j.val) :
    concatenate ⟨1, ![N]⟩ 0 [⟨S1, x0⟩, ⟨⟨1, ![M]⟩, xm⟩, ⟨S1, xl⟩] h (ix1 t) = xm (ix1 j) :=
  concatenate_apply_piece (t := ⟨1, ![N]⟩) 0 [⟨S1, x0⟩, ⟨⟨1, ![M]⟩, xm⟩, ⟨S1, xl⟩] h (ix1 t) 1 (by simp) ⟨1, ![M]⟩ xm rfl rfl 1 rfl
    (ix1 j) (fun b hb => match b, hb with | ⟨0, _⟩, hb => absurd rfl hb) (by show 1 + j.val = t.val; omega)

/-- The same: the last entry. -/
theorem cat3_last {N M : Nat} (h : Shape.Concatenates [S1, ⟨1, ![M]⟩, S1] ⟨1, ![N]⟩ 0)
    (x0 : S1.Idx → α) (xm : (⟨1, ![M]⟩ : Shape).Idx → α) (xl : S1.Idx → α) (t : Fin N) (ht : t.val = 1 + M) :
    concatenate ⟨1, ![N]⟩ 0 [⟨S1, x0⟩, ⟨⟨1, ![M]⟩, xm⟩, ⟨S1, xl⟩] h (ix1 t) = xl (ix1 (0 : Fin 1)) :=
  concatenate_apply_piece (t := ⟨1, ![N]⟩) 0 [⟨S1, x0⟩, ⟨⟨1, ![M]⟩, xm⟩, ⟨S1, xl⟩] h (ix1 t) 2 (by simp) S1 xl rfl rfl (1 + M)
    (by simp) (ix1 (0 : Fin 1)) (fun b hb => match b, hb with | ⟨0, _⟩, hb => absurd rfl hb)
    (by show 1 + M + 0 = t.val; omega)

/-- Four 20000 x 48 tables side by side: column q of the 20000 x 192 array is column q mod 48 of table q / 48. -/
theorem sideBySide_apply (h : Shape.Concatenates [S20000x48, S20000x48, S20000x48, S20000x48] S20000x192 1)
    (X : Fin 4 → S20000x48.Idx → α) (r : Fin 20000) (q : Fin 192) (n : Fin 4) (l : Fin 48) (hq : q.val = 48 * n.val + l.val) :
    concatenate S20000x192 1 [⟨S20000x48, X 0⟩, ⟨S20000x48, X 1⟩, ⟨S20000x48, X 2⟩, ⟨S20000x48, X 3⟩] h (ix2 r q)
      = X n (ix2 r l) := by
  have hi : ∀ b : Fin S20000x48.rank, b.cast (rfl : S20000x48.rank = S20000x192.rank) ≠ 1 →
      ((ix2 r l : S20000x48.Idx) b).val = ((ix2 r q : S20000x192.Idx) (b.cast rfl)).val :=
    fun b hb => match b, hb with | ⟨0, _⟩, _ => rfl | ⟨1, _⟩, hb => absurd rfl hb
  match n, hq with
  | ⟨0, _⟩, hq =>
    exact concatenate_apply_piece (t := S20000x192) 1 [⟨S20000x48, X 0⟩, ⟨S20000x48, X 1⟩, ⟨S20000x48, X 2⟩, ⟨S20000x48, X 3⟩]
      h (ix2 r q) 0 (by simp) S20000x48 (X 0) rfl rfl 0 rfl (ix2 r l) hi (by have hq' : q.val = 48 * 0 + l.val := hq; show 0 + l.val = q.val; omega)
  | ⟨1, _⟩, hq =>
    exact concatenate_apply_piece (t := S20000x192) 1 [⟨S20000x48, X 0⟩, ⟨S20000x48, X 1⟩, ⟨S20000x48, X 2⟩, ⟨S20000x48, X 3⟩]
      h (ix2 r q) 1 (by simp) S20000x48 (X 1) rfl rfl 48 rfl (ix2 r l) hi (by have hq' : q.val = 48 * 1 + l.val := hq; show 48 + l.val = q.val; omega)
  | ⟨2, _⟩, hq =>
    exact concatenate_apply_piece (t := S20000x192) 1 [⟨S20000x48, X 0⟩, ⟨S20000x48, X 1⟩, ⟨S20000x48, X 2⟩, ⟨S20000x48, X 3⟩]
      h (ix2 r q) 2 (by simp) S20000x48 (X 2) rfl rfl 96 rfl (ix2 r l) hi (by have hq' : q.val = 48 * 2 + l.val := hq; show 96 + l.val = q.val; omega)
  | ⟨3, _⟩, hq =>
    exact concatenate_apply_piece (t := S20000x192) 1 [⟨S20000x48, X 0⟩, ⟨S20000x48, X 1⟩, ⟨S20000x48, X 2⟩, ⟨S20000x48, X 3⟩]
      h (ix2 r q) 3 (by simp) S20000x48 (X 3) rfl rfl 144 rfl (ix2 r l) hi (by have hq' : q.val = 48 * 3 + l.val := hq; show 144 + l.val = q.val; omega)
  | ⟨n + 4, hn⟩, _ => exact absurd hn (by omega)

end Vectors

variable (m : (ℓ : Loc nD τ sig) → Buf (Elt Ideal) ℓ) (c : Dev nD)

/-! ## The interpolation position -/

/-- The continuous interpolation position of the query point (wavenumber i, time t) on the abscissa grid: the
    argument k·(tau0 − tau) carried affinely onto [0, 19999] and clipped there. -/
def posK (a : Cert.Hand.Args) (i : Fin 1024) (t : Fin 600) : EReal :=
  min (Ideal.ofBits .f32 0x469C3E00#32)
    (max (Ideal.ofBits .f32 0x00000000#32)
      (Ideal.div (a.k i * (a.tau0 - a.tau t) - a.xt ⟨0, by decide⟩) (a.xt ⟨19999, by decide⟩ - a.xt ⟨0, by decide⟩)
        * Ideal.ofBits .f32 0x469C3E00#32))

set_option maxHeartbeats 1000000 in
theorem pos_apply (i : Fin 1024) (t : Fin 600) :
    (V16 m c main_v18) (ix2 i t) = posK (argsOf m c) i t := by
  rw [V16_of m c main_v18 (by decide), V15_of m c main_v18 (by decide), V14_of m c main_v18 (by decide),
    V13_of m c main_v18 (by decide), V12_of m c main_v18 (by decide), V11_of m c main_v18 (by decide),
    V10_of m c main_v18 (by decide), V9_of m c main_v18 (by decide), V8_of m c main_v18 (by decide),
    V7_of m c main_v18 (by decide), V6_of m c main_v18 (by decide), V5_of m c main_v18 (by decide),
    V4_of m c main_v18 (by decide), V3_of m c main_v18 (by decide)]
  show StableHlo.after hostOps0_1 (V1 m c) (Proc.devRef .tc main_v18) (ix2 i t) = _
  after_results_simp
  simp only [TRef.ofBuf, TRef.toBuf, cast_eq, id_eq]
  simp only [minimumf_apply, maximumf_apply, mulf_apply, hostDivf_apply, subf_apply]
  rw [spreadRows_apply, spreadCols_apply]
  simp only [subf_apply]
  repeat rw [broadcastInDim_scalar_apply]
  simp only [subf_apply, constant_apply]
  rw [entryScalar_apply 0 (by decide), entryScalar_apply 19999 (by decide)]
  · rfl
  all_goals rfl

/-! ## The stages as terms over any contents of the buffers -/

section Stages
variable (V : Valuation τ sig (Elt Ideal))

/-- The forward differences of a vector of 600 entries, as the program cuts and subtracts them. -/
abbrev diff600 (T : FVec Ideal S600 .f32) : FVec Ideal S599 .f32 :=
  subf (extractStridedSlice S599 ![1] T slices_S600_S599_1) (extractStridedSlice S599 ![0] T slices_S600_S599_0)

/-- The forward differences of a vector of 1024 entries. -/
abbrev diff1024 (A : FVec Ideal S1024 .f32) : FVec Ideal S1023 .f32 :=
  subf (extractStridedSlice S1023 ![1] A slices_S1024_S1023_1) (extractStridedSlice S1023 ![0] A slices_S1024_S1023_0)

/-- Entry j of the differences is entry j + 1 less entry j. -/
theorem diff600_apply (T : FVec Ideal S600 .f32) (j : Fin 599) (k1 k0 : Fin 600) (hk1 : k1.val = 1 + j.val)
    (hk0 : k0.val = 0 + j.val) : diff600 T (ix1 j) = T (ix1 k1) - T (ix1 k0) :=
  diff_apply _ _ T j k1 k0 hk1 hk0

/-- Entry j of the differences is entry j + 1 less entry j. -/
theorem diff1024_apply (A : FVec Ideal S1024 .f32) (j : Fin 1023) (k1 k0 : Fin 1024) (hk1 : k1.val = 1 + j.val)
    (hk0 : k0.val = 0 + j.val) : diff1024 A (ix1 j) = A (ix1 k1) - A (ix1 k0) :=
  diff_apply _ _ A j k1 k0 hk1 hk0

set_option maxHeartbeats 1000000 in
/-- The packed, padded and narrowed table, from the four tables. -/
theorem tabStage : @Eq (FVec Ideal S20224x192 .bf16)
    (StableHlo.after hostOps0_6 (StableHlo.after hostOps0_5 (StableHlo.after hostOps0_4 V)) (Proc.devRef .tc main_v24))
    (truncf .bf16 (pad S20224x192 ![0, 0] ![224, 0] ![0, 0]
      (concatenate S20000x192 1 [⟨S20000x48, (V main_arg8 : FVec Ideal S20000x48 .f32)⟩, ⟨S20000x48, (V main_arg9 : FVec Ideal S20000x48 .f32)⟩,
        ⟨S20000x48, (V main_arg10 : FVec Ideal S20000x48 .f32)⟩, ⟨S20000x48, (V main_arg11 : FVec Ideal S20000x48 .f32)⟩]
        concatenates_S20000x48_S20000x48_S20000x48_S20000x48_S20000x192_d1)
      (sitofp .f32 (constantI S_ 32 0#32)) pads_S20000x192_S20224x192_02240_000 h_S_) bitsLt_bf16_f32) := rfl

set_option maxHeartbeats 1000000 in
/-- The trapezoid weights of the time grid as a 1 x 600 row, from the times. -/
theorem twStage : @Eq (FVec Ideal S1x600 .f32)
    (StableHlo.after hostOps0_8 (StableHlo.after hostOps0_7 V) (Proc.devRef .tc main_v38))
    (broadcastInDim S1x600 ![1] bcast_S600_S1x600_1
      (concatenate S600 0
        [⟨S1, Host.divf (extractStridedSlice S1 ![0] (diff600 (V main_arg1)) slices_S599_S1_0)
            (broadcastInDim S1 ![] bcast_S_S1 (constant (F := Ideal) S_ .f32 0x40000000#32))⟩,
         ⟨S598, Host.divf (addf (extractStridedSlice S598 ![0] (diff600 (V main_arg1)) slices_S599_S598_0)
              (extractStridedSlice S598 ![1] (diff600 (V main_arg1)) slices_S599_S598_1))
            (broadcastInDim S598 ![] bcast_S_S598 (constant (F := Ideal) S_ .f32 0x40000000#32))⟩,
         ⟨S1, Host.divf (extractStridedSlice S1 ![598] (diff600 (V main_arg1)) slices_S599_S1_598)
            (broadcastInDim S1 ![] bcast_S_S1 (constant (F := Ideal) S_ .f32 0x40000000#32))⟩]
        concatenates_S1_S598_S1_S600_d0)) := rfl

set_option maxHeartbeats 1000000 in
/-- The weight of each wavenumber in the final integral as a 1024 x 1 column, from the wavenumbers, the amplitude and the tilt. -/
theorem wStage : @Eq (FVec Ideal S1024x1 .f32)
    (StableHlo.after hostOps1_2 (StableHlo.after hostOps1_1 (StableHlo.after hostOps1 V)) (Proc.devRef .tc main_v77))
    (broadcastInDim S1024x1 ![0] bcast_S1024_S1024x1_0
      (mulf (mulf (mulf
        (concatenate S1024 0
          [⟨S1, Host.divf (extractStridedSlice S1 ![0] (diff1024 (V main_arg0)) slices_S1023_S1_0)
              (broadcastInDim S1 ![] bcast_S_S1 (constant (F := Ideal) S_ .f32 0x40000000#32))⟩,
           ⟨S1022, Host.divf (addf (extractStridedSlice S1022 ![0] (diff1024 (V main_arg0)) slices_S1023_S1022_0)
                (extractStridedSlice S1022 ![1] (diff1024 (V main_arg0)) slices_S1023_S1022_1))
              (broadcastInDim S1022 ![] bcast_S_S1022 (constant (F := Ideal) S_ .f32 0x40000000#32))⟩,
           ⟨S1, Host.divf (extractStridedSlice S1 ![1022] (diff1024 (V main_arg0)) slices_S1023_S1_1022)
              (broadcastInDim S1 ![] bcast_S_S1 (constant (F := Ideal) S_ .f32 0x40000000#32))⟩]
          concatenates_S1_S1022_S1_S1024_d0)
        (V main_arg0)) (V main_arg0))
        (mulf
          (mulf (broadcastInDim S1024 ![] bcast_S_S1024 (V main_arg12))
            (Host.powf (Host.divf (V main_arg0) (broadcastInDim S1024 ![] bcast_S_S1024 (constant (F := Ideal) S_ .f32 0x3D4CCCCD#32)))
              (broadcastInDim S1024 ![] bcast_S_S1024 (subf (V main_arg13) (constant (F := Ideal) S_ .f32 0x3F800000#32)))))
          (Host.divf (broadcastInDim S1024 ![] bcast_S_S1024 (constant (F := Ideal) S_ .f32 0x419DE9E6#32))
            (mulf (mulf (V main_arg0) (V main_arg0)) (V main_arg0)))))) := rfl

end Stages

/-! ## Buffers no stretch writes keep their launch contents -/

theorem V4_keep (r : Ref sig .tc) (h0 : r ∉ hostOps0_W) (h1 : r ∉ hostOps0_1_W) (h2 : r ∉ hostOps0_2_W)
    (h3 : r ∉ hostOps0_3_W) : V4 m c r = V0 m c r :=
  (V4_of m c r h3).trans <| (V3_of m c r h2).trans <| (V2_of m c r h1).trans (V1_of m c r h0)

theorem V7_keep (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    V7 m c r = V0 m c r :=
  (V7_of m c r h6).trans <| (V6_of m c r h5).trans <| (V5_of m c r h4).trans (V4_keep m c r h0 h1 h2 h3)

theorem V16_keep (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W)
    (h7 : r ∉ hostOps0_7_W) (h8 : r ∉ hostOps0_8_W) (h9 : r ∉ hostOps0_9_W) (h10 : r ∉ hostOps0_10_W)
    (h11 : r ∉ hostOps0_11_W) (h12 : r ∉ hostOps0_12_W) (h13 : r ∉ hostOps0_13_W) (h14 : r ∉ hostOps0_14_W)
    (h15 : r ∉ hostOps0_15_W) : V16 m c r = V0 m c r :=
  (V16_of m c r h15).trans <| (V15_of m c r h14).trans <| (V14_of m c r h13).trans <| (V13_of m c r h12).trans <|
    (V12_of m c r h11).trans <| (V11_of m c r h10).trans <| (V10_of m c r h9).trans <| (V9_of m c r h8).trans <|
    (V8_of m c r h7).trans (V7_keep m c r h0 h1 h2 h3 h4 h5 h6)

/-! ## The source arrays -/

theorem S0_apply (i : Fin 1024) (t : Fin 600) : (V16 m c main_arg3) (ix2 i t) = (argsOf m c).S0 i t := by
  rw [V16_keep m c main_arg3 (by decide) (by decide) (by decide) (by decide) (by decide) (by decide) (by decide) (by decide)
    (by decide) (by decide) (by decide) (by decide) (by decide) (by decide) (by decide) (by decide)]
  rfl
theorem S1_apply (i : Fin 1024) (t : Fin 600) : (V16 m c main_arg4) (ix2 i t) = (argsOf m c).S1 i t := by
  rw [V16_keep m c main_arg4 (by decide) (by decide) (by decide) (by decide) (by decide) (by decide) (by decide) (by decide)
    (by decide) (by decide) (by decide) (by decide) (by decide) (by decide) (by decide) (by decide)]
  rfl
theorem S2_apply (i : Fin 1024) (t : Fin 600) : (V16 m c main_arg5) (ix2 i t) = (argsOf m c).S2 i t := by
  rw [V16_keep m c main_arg5 (by decide) (by decide) (by decide) (by decide) (by decide) (by decide) (by decide) (by decide)
    (by decide) (by decide) (by decide) (by decide) (by decide) (by decide) (by decide) (by decide)]
  rfl
theorem SE_apply (i : Fin 1024) (t : Fin 600) : (V16 m c main_arg6) (ix2 i t) = (argsOf m c).SE i t := by
  rw [V16_keep m c main_arg6 (by decide) (by decide) (by decide) (by decide) (by decide) (by decide) (by decide) (by decide)
    (by decide) (by decide) (by decide) (by decide) (by decide) (by decide) (by decide) (by decide)]
  rfl

/-! ## The packed table -/

/-- The four tabulated transfer functions, in the order the program packs them. -/
def tabSel (a : Cert.Hand.Args) : Fin 4 → Fin 20000 → Fin 48 → EReal := ![a.P0, a.P1, a.P2, a.PE]

/-- The packed table: row r below 20000 holds, in column q, entry (r, q mod 48) of table q / 48; the 224 rows
    from 20000 on are zero. -/
def tabK (a : Cert.Hand.Args) (r : Fin 20224) (q : Fin 192) : EReal :=
  if h : r.val < 20000 then
    tabSel a ⟨q.val / 48, by have := q.isLt; omega⟩ ⟨r.val, h⟩ ⟨q.val % 48, Nat.mod_lt _ (by decide)⟩
  else 0

set_option maxHeartbeats 1000000 in
theorem tab_apply (r : Fin 20224) (q : Fin 192) :
    (V16 m c main_v24) (ix2 r q) = tabK (argsOf m c) r q := by
  rw [V16_of m c main_v24 (by decide), V15_of m c main_v24 (by decide), V14_of m c main_v24 (by decide),
    V13_of m c main_v24 (by decide), V12_of m c main_v24 (by decide), V11_of m c main_v24 (by decide),
    V10_of m c main_v24 (by decide), V9_of m c main_v24 (by decide), V8_of m c main_v24 (by decide)]
  refine (congrFun (tabStage (V4 m c)) _).trans ?_
  rw [V4_keep m c main_arg8 (by decide) (by decide) (by decide) (by decide),
    V4_keep m c main_arg9 (by decide) (by decide) (by decide) (by decide),
    V4_keep m c main_arg10 (by decide) (by decide) (by decide) (by decide),
    V4_keep m c main_arg11 (by decide) (by decide) (by decide) (by decide)]
  rw [truncf_apply]
  unfold tabK
  have hq := q.isLt
  by_cases hr : r.val < 20000
  · rw [dif_pos hr, pad_apply_of_inside _ _ _ _ _ _ _ (ix2 r q) (ix2 (⟨r.val, hr⟩ : Fin 20000) q)
      (fun a => match a with
        | ⟨0, _⟩ => by show r.val = 0 + r.val * (0 + 1); omega
        | ⟨1, _⟩ => by show q.val = 0 + q.val * (0 + 1); omega)]
    refine (sideBySide_apply _ ![(V0 m c main_arg8 : FVec Ideal S20000x48 .f32), V0 m c main_arg9, V0 m c main_arg10,
      V0 m c main_arg11] ⟨r.val, hr⟩ q ⟨q.val / 48, by omega⟩ ⟨q.val % 48, Nat.mod_lt _ (by decide)⟩
      (by show q.val = 48 * (q.val / 48) + q.val % 48; omega)).trans ?_
    generalize (⟨q.val / 48, _⟩ : Fin 4) = n
    match n with
    | ⟨0, _⟩ => rfl
    | ⟨1, _⟩ => rfl
    | ⟨2, _⟩ => rfl
    | ⟨3, _⟩ => rfl
    | ⟨n + 4, hn⟩ => exact absurd hn (by omega)
  · rw [dif_neg hr, pad_apply_of_not_inside _ _ _ _ _ _ _ (ix2 r q) (0 : Fin 2)
      (by show ¬(0 ≤ r.val ∧ (r.val - 0) % (0 + 1) = 0 ∧ (r.val - 0) / (0 + 1) < 20000); omega)]
    show (((0#32 : BitVec 32).toInt : ℝ) : EReal) = 0
    simp

/-! ## The trapezoid weights of the time grid -/

/-- The trapezoid weight of time t: half the first step at the first time, half the last step at the last, half
    the sum of the two adjacent steps between. -/
def twK (a : Cert.Hand.Args) (t : Fin 600) : EReal :=
  if h0 : t.val = 0 then
    Ideal.div (a.tau ⟨1, by decide⟩ - a.tau ⟨0, by decide⟩) (Ideal.ofBits .f32 0x40000000#32)
  else if hl : t.val = 599 then
    Ideal.div (a.tau ⟨599, by decide⟩ - a.tau ⟨598, by decide⟩) (Ideal.ofBits .f32 0x40000000#32)
  else
    Ideal.div ((a.tau t - a.tau ⟨t.val - 1, by have := t.isLt; omega⟩)
        + (a.tau ⟨t.val + 1, by have := t.isLt; omega⟩ - a.tau t)) (Ideal.ofBits .f32 0x40000000#32)

set_option maxHeartbeats 1000000 in
theorem tw_apply (t : Fin 600) :
    (V16 m c main_v38) (ix2 (0 : Fin 1) t) = twK (argsOf m c) t := by
  rw [V16_of m c main_v38 (by decide), V15_of m c main_v38 (by decide), V14_of m c main_v38 (by decide),
    V13_of m c main_v38 (by decide), V12_of m c main_v38 (by decide), V11_of m c main_v38 (by decide),
    V10_of m c main_v38 (by decide)]
  refine (congrFun (twStage (V7 m c)) _).trans ?_
  rw [V7_keep m c main_arg1 (by decide) (by decide) (by decide) (by decide) (by decide) (by decide) (by decide)]
  rw [asRow_apply]
  unfold twK
  have ht := t.isLt
  by_cases h0 : t.val = 0
  · rw [dif_pos h0, cat3_first _ _ _ _ t h0, hostDivf_apply,
      sliceAt_apply 0 _ _ (0 : Fin 1) (⟨0, by decide⟩ : Fin 599) rfl,
      diff600_apply _ (⟨0, by decide⟩ : Fin 599) (⟨1, by decide⟩ : Fin 600) (⟨0, by decide⟩ : Fin 600) rfl rfl,
      broadcastInDim_scalar_apply, constant_apply]
    rfl
  · by_cases hl : t.val = 599
    · rw [dif_neg h0, dif_pos hl, cat3_last _ _ _ _ t (by omega), hostDivf_apply,
        sliceAt_apply 598 _ _ (0 : Fin 1) (⟨598, by decide⟩ : Fin 599) rfl,
        diff600_apply _ (⟨598, by decide⟩ : Fin 599) (⟨599, by decide⟩ : Fin 600) (⟨598, by decide⟩ : Fin 600) rfl rfl,
        broadcastInDim_scalar_apply, constant_apply]
      rfl
    · have h1 : t.val - 1 < 598 := by omega
      have h2 : t.val - 1 < 599 := by omega
      have h3 : t.val < 599 := by omega
      have h4 : t.val - 1 < 600 := by omega
      have h5 : t.val + 1 < 600 := by omega
      rw [dif_neg h0, dif_neg hl, cat3_mid _ _ _ _ t (⟨t.val - 1, h1⟩ : Fin 598) (by show t.val = 1 + (t.val - 1); omega),
        hostDivf_apply, addf_apply,
        sliceAt_apply 0 _ _ (⟨t.val - 1, h1⟩ : Fin 598) (⟨t.val - 1, h2⟩ : Fin 599) (by show t.val - 1 = 0 + (t.val - 1); omega),
        sliceAt_apply 1 _ _ (⟨t.val - 1, h1⟩ : Fin 598) (⟨t.val, h3⟩ : Fin 599) (by show t.val = 1 + (t.val - 1); omega),
        diff600_apply _ (⟨t.val - 1, h2⟩ : Fin 599) t (⟨t.val - 1, h4⟩ : Fin 600)
          (by show t.val = 1 + (t.val - 1); omega) (by show t.val - 1 = 0 + (t.val - 1); omega),
        diff600_apply _ (⟨t.val, h3⟩ : Fin 599) (⟨t.val + 1, h5⟩ : Fin 600) t
          (by show t.val + 1 = 1 + t.val; omega) (by show t.val = 0 + t.val; omega),
        broadcastInDim_scalar_apply, constant_apply]
      rfl

/-! ## The weight of each wavenumber in the final integral -/

/-- A host power read at an index is the ideal power of the entries. -/
theorem hostPowf_apply {s : Shape} {φ : FTy} (a b : FVec Ideal s φ) (i : s.Idx) :
    Host.powf a b i = Ideal.pow (a i) (b i) := rfl

/-- The trapezoid weight of wavenumber i on the wavenumber grid. -/
def kwK (a : Cert.Hand.Args) (i : Fin 1024) : EReal :=
  if h0 : i.val = 0 then
    Ideal.div (a.k ⟨1, by decide⟩ - a.k ⟨0, by decide⟩) (Ideal.ofBits .f32 0x40000000#32)
  else if hl : i.val = 1023 then
    Ideal.div (a.k ⟨1023, by decide⟩ - a.k ⟨1022, by decide⟩) (Ideal.ofBits .f32 0x40000000#32)
  else
    Ideal.div ((a.k i - a.k ⟨i.val - 1, by have := i.isLt; omega⟩)
        + (a.k ⟨i.val + 1, by have := i.isLt; omega⟩ - a.k i)) (Ideal.ofBits .f32 0x40000000#32)

/-- The primordial power spectrum at wavenumber i, times 2 pi squared over k cubed: the amplitude times
    (k / 0.05) to the power (tilt − 1), times 19.7392082 / k³. -/
def prK (a : Cert.Hand.Args) (i : Fin 1024) : EReal :=
  (a.As * Ideal.pow (Ideal.div (a.k i) (Ideal.ofBits .f32 0x3D4CCCCD#32)) (a.ns - Ideal.ofBits .f32 0x3F800000#32))
    * Ideal.div (Ideal.ofBits .f32 0x419DE9E6#32) ((a.k i * a.k i) * a.k i)

/-- The weight of wavenumber i: its trapezoid weight times k, times k, times the spectrum factor. -/
def wK (a : Cert.Hand.Args) (i : Fin 1024) : EReal :=
  ((kwK a i * a.k i) * a.k i) * prK a i

set_option maxHeartbeats 1000000 in
theorem W_apply (outs : Outs (F := Ideal)) (i : Fin 1024) :
    (V20 m outs c main_v77) (ix2 i (0 : Fin 1)) = wK (argsOf m c) i := by
  refine (congrFun (wStage (V17 m outs c)) _).trans ?_
  rw [V17_of m outs c main_arg0 (by decide), V17_of m outs c main_arg12 (by decide), V17_of m outs c main_arg13 (by decide),
    V16_keep m c main_arg0 (by decide) (by decide) (by decide) (by decide) (by decide) (by decide) (by decide) (by decide)
      (by decide) (by decide) (by decide) (by decide) (by decide) (by decide) (by decide) (by decide),
    V16_keep m c main_arg12 (by decide) (by decide) (by decide) (by decide) (by decide) (by decide) (by decide) (by decide)
      (by decide) (by decide) (by decide) (by decide) (by decide) (by decide) (by decide) (by decide),
    V16_keep m c main_arg13 (by decide) (by decide) (by decide) (by decide) (by decide) (by decide) (by decide) (by decide)
      (by decide) (by decide) (by decide) (by decide) (by decide) (by decide) (by decide) (by decide)]
  rw [asCol_apply]
  simp only [mulf_apply, hostDivf_apply, hostPowf_apply]
  repeat rw [broadcastInDim_scalar_apply]
  simp only [subf_apply, constant_apply]
  unfold wK kwK
  have hi := i.isLt
  by_cases h0 : i.val = 0
  · rw [dif_pos h0, cat3_first _ _ _ _ i h0, hostDivf_apply,
      sliceAt_apply 0 _ _ (0 : Fin 1) (⟨0, by decide⟩ : Fin 1023) rfl,
      diff1024_apply _ (⟨0, by decide⟩ : Fin 1023) (⟨1, by decide⟩ : Fin 1024) (⟨0, by decide⟩ : Fin 1024) rfl rfl,
      broadcastInDim_scalar_apply, constant_apply]
    rfl
  · by_cases hl : i.val = 1023
    · rw [dif_neg h0, dif_pos hl, cat3_last _ _ _ _ i (by omega), hostDivf_apply,
        sliceAt_apply 1022 _ _ (0 : Fin 1) (⟨1022, by decide⟩ : Fin 1023) rfl,
        diff1024_apply _ (⟨1022, by decide⟩ : Fin 1023) (⟨1023, by decide⟩ : Fin 1024) (⟨1022, by decide⟩ : Fin 1024) rfl rfl,
        broadcastInDim_scalar_apply, constant_apply]
      rfl
    · have h1 : i.val - 1 < 1022 := by omega
      have h2 : i.val - 1 < 1023 := by omega
      have h3 : i.val < 1023 := by omega
      have h4 : i.val - 1 < 1024 := by omega
      have h5 : i.val + 1 < 1024 := by omega
      rw [dif_neg h0, dif_neg hl, cat3_mid _ _ _ _ i (⟨i.val - 1, h1⟩ : Fin 1022) (by show i.val = 1 + (i.val - 1); omega),
        hostDivf_apply, addf_apply,
        sliceAt_apply 0 _ _ (⟨i.val - 1, h1⟩ : Fin 1022) (⟨i.val - 1, h2⟩ : Fin 1023) (by show i.val - 1 = 0 + (i.val - 1); omega),
        sliceAt_apply 1 _ _ (⟨i.val - 1, h1⟩ : Fin 1022) (⟨i.val, h3⟩ : Fin 1023) (by show i.val = 1 + (i.val - 1); omega),
        diff1024_apply _ (⟨i.val - 1, h2⟩ : Fin 1023) i (⟨i.val - 1, h4⟩ : Fin 1024)
          (by show i.val = 1 + (i.val - 1); omega) (by show i.val - 1 = 0 + (i.val - 1); omega),
        diff1024_apply _ (⟨i.val, h3⟩ : Fin 1023) (⟨i.val + 1, h5⟩ : Fin 1024) i
          (by show i.val + 1 = 1 + i.val; omega) (by show i.val = 0 + i.val; omega),
        broadcastInDim_scalar_apply, constant_apply]
      rfl

end Cert.KernelIdeal.Hand
-- ==== Proof.RefVal2.lean ====
/- The reference program's value, second half: from the two transfer arrays (48 multipoles by 1024 wavenumbers)
   to the 3 x 48 table of spectra.  The primordial weight w = k^2 P_R(k) is a function of the wavenumber alone; each
   spectrum is the constant 2/pi times the trapezoid over k of w times a product of two transfer arrays.  The
   operations are read index by index, in the order and association the program prints them. -/
import proofs.«103908_j25280177504693_2_alg».proof.Proof.Gen.ReferenceIdeal
import proofs.«103908_j25280177504693_2_alg».proof.Proof.Args
import proofs.«103908_j25280177504693_2_alg».proof.Proof.RArgs
import proofs.«103908_j25280177504693_2_alg».proof.Proof.RefRun
import Idealize.ShloMosaic.Lib.ValueIdx
import Idealize.ShloMosaic.Lib.IdealHost
import Idealize.ShloMosaic.Lib.Pipeline.Value
import Idealize.ShloMosaic.PureOps.Ideal.Laws
import Mathlib.Analysis.SpecialFunctions.Pow.Real

set_option maxRecDepth 16384

noncomputable section

namespace Cert.ReferenceIdeal.Hand

open Idealize.ShloMosaic Idealize.ShloMosaic.ValueIdx
open Cert.ReferenceIdeal Cert.ReferenceIdeal.Facts₀
open scoped BigOperators

/-! ## The plain functions -/

/-- The primordial curvature spectrum at wavenumber i:
    (A_s * (k / 0.05) ^ (n_s - 1)) * (19.7392082 / ((k * k) * k)). -/
def PRr (a : Cert.Hand.Args) (i : Fin 1024) : EReal :=
  (a.As * Ideal.pow (Ideal.div (a.k i) (Ideal.ofBits .f32 0x3D4CCCCD#32)) (a.ns - Ideal.ofBits .f32 0x3F800000#32))
    * Ideal.div (Ideal.ofBits .f32 0x419DE9E6#32) ((a.k i * a.k i) * a.k i)

/-- The quadrature weight at wavenumber i: (k * k) * P_R(k). -/
def wR2 (a : Cert.Hand.Args) (i : Fin 1024) : EReal := (a.k i * a.k i) * PRr a i

/-- The trapezoid over the wavenumbers of a row of 1024 values:
    0.5 * (0 + sum over the 1023 panels of (k(j+1) - k(j)) * (y(j+1) + y(j))). -/
def trapzK (a : Cert.Hand.Args) (y : Fin 1024 → EReal) : EReal :=
  Ideal.ofBits .f32 0x3F000000#32
    * (Ideal.ofBits .f32 0x00000000#32
        + ∑ j : Fin 1023, (a.k ⟨j.val + 1, by omega⟩ - a.k ⟨j.val, by omega⟩) * (y ⟨j.val + 1, by omega⟩ + y ⟨j.val, by omega⟩))

/-- One spectrum at multipole l from two transfer arrays X and Y: 0.636619746 * trapezoid_k ((w * X) * Y). -/
def ClRow (a : Cert.Hand.Args) (X Y : Fin 48 → Fin 1024 → EReal) (l : Fin 48) : EReal :=
  Ideal.ofBits .f32 0x3F22F983#32 * trapzK a (fun i => (wR2 a i * X l i) * Y l i)

/-- The table of spectra: row 0 from (Tl, Tl), row 1 from (El, El), row 2 from (Tl, El). -/
def ClR (a : Cert.Hand.Args) (Tl El : Fin 48 → Fin 1024 → EReal) (r : Fin 3) (l : Fin 48) : EReal :=
  ![ClRow a Tl Tl l, ClRow a El El l, ClRow a Tl El l] r

theorem ClR_zero (a : Cert.Hand.Args) (Tl El : Fin 48 → Fin 1024 → EReal) (l : Fin 48) :
    ClR a Tl El 0 l = ClRow a Tl Tl l := rfl
theorem ClR_one (a : Cert.Hand.Args) (Tl El : Fin 48 → Fin 1024 → EReal) (l : Fin 48) :
    ClR a Tl El 1 l = ClRow a El El l := rfl
theorem ClR_two (a : Cert.Hand.Args) (Tl El : Fin 48 → Fin 1024 → EReal) (l : Fin 48) :
    ClR a Tl El 2 l = ClRow a Tl El l := rfl

/-! ## The program's stages as arrays -/

/-- A scalar broadcast over the wavenumbers reads the scalar. -/
theorem bcast1024_apply (x : FVec Ideal S_ .f32) (j : S1024.Idx) :
    broadcastInDim S1024 ![] bcast_S_S1024 x j = x ix0 := broadcastInDim_scalar_apply _ x j

/-- A scalar broadcast over the multipoles reads the scalar. -/
theorem bcast48_apply (x : FVec Ideal S_ .f32) (j : S48.Idx) :
    broadcastInDim S48 ![] bcast_S_S48 x j = x ix0 := broadcastInDim_scalar_apply _ x j

/-- The host's power at an index is the ideal power of the elements. -/
theorem hostPowf_apply {s : Shape} {φ : FTy} (x y : FVec Ideal s φ) (i : s.Idx) :
    Host.powf x y i = Ideal.pow (x i) (y i) := rfl

/-- The amplitude times the tilted power law, A_s * (k / 0.05) ^ (n_s - 1), as an array over the wavenumbers. -/
def aPowStage (k : FVec Ideal S1024 .f32) (As ns : FVec Ideal S_ .f32) : FVec Ideal S1024 .f32 :=
  mulf (broadcastInDim S1024 ![] bcast_S_S1024 As)
    (Host.powf (Host.divf k (broadcastInDim S1024 ![] bcast_S_S1024 (constant (F := Ideal) S_ .f32 0x3D4CCCCD#32)))
      (broadcastInDim S1024 ![] bcast_S_S1024 (subf ns (constant (F := Ideal) S_ .f32 0x3F800000#32))))

/-- The weight array from the wavenumbers and the amplitude-power array p: (k * k) * (p * (19.7392082 / ((k * k) * k))). -/
def wStage (k p : FVec Ideal S1024 .f32) : FVec Ideal S1024 .f32 :=
  mulf (mulf k k)
    (mulf p
      (Host.divf (broadcastInDim S1024 ![] bcast_S_S1024 (constant (F := Ideal) S_ .f32 0x419DE9E6#32)) (mulf (mulf k k) k)))

theorem aPowStage_apply (a : Cert.Hand.Args) (k : FVec Ideal S1024 .f32) (As ns : FVec Ideal S_ .f32)
    (hk : ∀ i : Fin 1024, k (ix1 i) = a.k i) (hAs : As ix0 = a.As) (hns : ns ix0 = a.ns) (i : Fin 1024) :
    aPowStage k As ns (ix1 i)
      = a.As * Ideal.pow (Ideal.div (a.k i) (Ideal.ofBits .f32 0x3D4CCCCD#32)) (a.ns - Ideal.ofBits .f32 0x3F800000#32) := by
  unfold aPowStage
  simp only [mulf_apply, hostDivf_apply, hostPowf_apply, hk]
  rw [bcast1024_apply, bcast1024_apply, bcast1024_apply]
  simp only [constant_apply, subf_apply, hAs, hns]

theorem wStage_apply (a : Cert.Hand.Args) (k p : FVec Ideal S1024 .f32)
    (hk : ∀ i : Fin 1024, k (ix1 i) = a.k i)
    (hp : ∀ i : Fin 1024, p (ix1 i)
      = a.As * Ideal.pow (Ideal.div (a.k i) (Ideal.ofBits .f32 0x3D4CCCCD#32)) (a.ns - Ideal.ofBits .f32 0x3F800000#32))
    (i : Fin 1024) : wStage k p (ix1 i) = wR2 a i := by
  unfold wStage wR2 PRr
  simp only [mulf_apply, hostDivf_apply, hk, hp]
  rw [bcast1024_apply]
  simp only [constant_apply]

/-- The trapezoid over the wavenumbers of a 48 x 1024 array, as an array over the multipoles:
    0.5 * reduce_add over the 1023 panels of (k[1:] - k[:-1]) * (y[:, 1:] + y[:, :-1]), from 0. -/
def trapzStage (y : FVec Ideal S48x1024 .f32) (k : FVec Ideal S1024 .f32) : FVec Ideal S48 .f32 :=
  mulf (broadcastInDim S48 ![] bcast_S_S48 (constant (F := Ideal) S_ .f32 0x3F000000#32))
    (Host.reduceAdd
      (mulf
        (broadcastInDim S48x1023 ![0, 1] bcast_S1x1023_S48x1023_0_1
          (broadcastInDim S1x1023 ![1] bcast_S1023_S1x1023_1
            (subf (extractStridedSlice S1023 ![1] k slices_S1024_S1023_1)
                  (extractStridedSlice S1023 ![0] k slices_S1024_S1023_0))))
        (addf (extractStridedSlice S48x1023 ![0, 1] y slices_S48x1024_S48x1023_0_1)
              (extractStridedSlice S48x1023 ![0, 0] y slices_S48x1024_S48x1023_0_0)))
      (constant (F := Ideal) S_ .f32 0x00000000#32) reducesTo_S48x1023_S48_d1 h_S_)

theorem reduces_S48x1023_S48_d1 : S48x1023.Reduces [1] S48 := by decide

/-- The index a panel sum inserts on the wavenumber axis. -/
theorem lift_ix1 (l : Fin 48) (j : Fin 1023) : reduces_S48x1023_S48_d1.lift (ix1 l) j = ix2 l j := by
  funext c
  match c with
  | ⟨0, _⟩ => exact Fin.ext rfl
  | ⟨1, _⟩ => exact Fin.ext rfl

/-- One panel of the trapezoid at (l, j). -/
theorem panel_apply (y : FVec Ideal S48x1024 .f32) (k : FVec Ideal S1024 .f32) (l : Fin 48) (j : Fin 1023) :
    (mulf
        (broadcastInDim S48x1023 ![0, 1] bcast_S1x1023_S48x1023_0_1
          (broadcastInDim S1x1023 ![1] bcast_S1023_S1x1023_1
            (subf (extractStridedSlice S1023 ![1] k slices_S1024_S1023_1)
                  (extractStridedSlice S1023 ![0] k slices_S1024_S1023_0))))
        (addf (extractStridedSlice S48x1023 ![0, 1] y slices_S48x1024_S48x1023_0_1)
              (extractStridedSlice S48x1023 ![0, 0] y slices_S48x1024_S48x1023_0_0))) (ix2 l j)
      = (k (ix1 ⟨j.val + 1, by omega⟩) - k (ix1 ⟨j.val, by omega⟩))
          * (y (ix2 l ⟨j.val + 1, by omega⟩) + y (ix2 l ⟨j.val, by omega⟩)) := by
  rw [mulf_apply, addf_apply]
  rw [broadcastInDim_apply (![0, 1] : Fin 2 → Fin 2) bcast_S1x1023_S48x1023_0_1 _ (ix2 l j) (ix2 (0 : Fin 1) j)
        (fun a => match a with | ⟨0, _⟩ => rfl | ⟨1, _⟩ => rfl)]
  rw [broadcastInDim_apply (![1] : Fin 1 → Fin 2) bcast_S1023_S1x1023_1 _ (ix2 (0 : Fin 1) j) (ix1 j)
        (fun a => match a with | ⟨0, _⟩ => rfl)]
  rw [subf_apply]
  rw [extractStridedSlice_apply (![1] : Fin 1 → Nat) k slices_S1024_S1023_1 (ix1 j) (ix1 ⟨j.val + 1, by omega⟩)
        (fun a => match a with | ⟨0, _⟩ => by show j.val + 1 = 1 + j.val; omega)]
  rw [extractStridedSlice_apply (![0] : Fin 1 → Nat) k slices_S1024_S1023_0 (ix1 j) (ix1 ⟨j.val, by omega⟩)
        (fun a => match a with | ⟨0, _⟩ => by show j.val = 0 + j.val; omega)]
  rw [extractStridedSlice_apply (![0, 1] : Fin 2 → Nat) y slices_S48x1024_S48x1023_0_1 (ix2 l j) (ix2 l ⟨j.val + 1, by omega⟩)
        (fun a => match a with
          | ⟨0, _⟩ => by show l.val = 0 + l.val; omega
          | ⟨1, _⟩ => by show j.val + 1 = 1 + j.val; omega)]
  rw [extractStridedSlice_apply (![0, 0] : Fin 2 → Nat) y slices_S48x1024_S48x1023_0_0 (ix2 l j) (ix2 l ⟨j.val, by omega⟩)
        (fun a => match a with
          | ⟨0, _⟩ => by show l.val = 0 + l.val; omega
          | ⟨1, _⟩ => by show j.val = 0 + j.val; omega)]

theorem trapzStage_apply (a : Cert.Hand.Args) (y : FVec Ideal S48x1024 .f32) (k : FVec Ideal S1024 .f32)
    (hk : ∀ i : Fin 1024, k (ix1 i) = a.k i) (l : Fin 48) :
    trapzStage y k (ix1 l) = trapzK a (fun i => y (ix2 l i)) := by
  unfold trapzStage trapzK
  rw [mulf_apply, bcast48_apply, constant_apply, hostReduceAdd_apply,
    Ideal.hostReduceAdd_single reducesTo_S48x1023_S48_d1 reduces_S48x1023_S48_d1, constant_apply]
  congr 2
  refine Finset.sum_congr rfl fun j _ => ?_
  rw [lift_ix1 l j, panel_apply y k l j, hk, hk]

/-- One row of spectra as an array over the multipoles: 0.636619746 * trapezoid_k (((w over all multipoles) * X) * Y). -/
def rowStage (w : FVec Ideal S1024 .f32) (X Y : FVec Ideal S48x1024 .f32) (k : FVec Ideal S1024 .f32) : FVec Ideal S48 .f32 :=
  mulf (broadcastInDim S48 ![] bcast_S_S48 (constant (F := Ideal) S_ .f32 0x3F22F983#32))
    (trapzStage
      (mulf (mulf (broadcastInDim S48x1024 ![0, 1] bcast_S1x1024_S48x1024_0_1
                    (broadcastInDim S1x1024 ![1] bcast_S1024_S1x1024_1 w)) X) Y) k)

/-- The weight broadcast over the multipoles reads the weight at the wavenumber. -/
theorem wBcast_apply (w : FVec Ideal S1024 .f32) (l : Fin 48) (i : Fin 1024) :
    broadcastInDim S48x1024 ![0, 1] bcast_S1x1024_S48x1024_0_1
      (broadcastInDim S1x1024 ![1] bcast_S1024_S1x1024_1 w) (ix2 l i) = w (ix1 i) := by
  rw [broadcastInDim_apply (![0, 1] : Fin 2 → Fin 2) bcast_S1x1024_S48x1024_0_1 _ (ix2 l i) (ix2 (0 : Fin 1) i)
        (fun a => match a with | ⟨0, _⟩ => rfl | ⟨1, _⟩ => rfl)]
  rw [broadcastInDim_apply (![1] : Fin 1 → Fin 2) bcast_S1024_S1x1024_1 _ (ix2 (0 : Fin 1) i) (ix1 i)
        (fun a => match a with | ⟨0, _⟩ => rfl)]

theorem rowStage_apply (a : Cert.Hand.Args) (w : FVec Ideal S1024 .f32) (X Y : FVec Ideal S48x1024 .f32)
    (k : FVec Ideal S1024 .f32) (hk : ∀ i : Fin 1024, k (ix1 i) = a.k i) (hw : ∀ i : Fin 1024, w (ix1 i) = wR2 a i)
    (l : Fin 48) :
    rowStage w X Y k (ix1 l) = ClRow a (fun l i => X (ix2 l i)) (fun l i => Y (ix2 l i)) l := by
  unfold rowStage ClRow
  rw [mulf_apply, bcast48_apply, constant_apply, trapzStage_apply a _ k hk l]
  congr 2
  funext i
  rw [mulf_apply, mulf_apply, wBcast_apply, hw]

/-- The table of spectra as a 3 x 48 array: the three rows, each given a leading unit axis, stacked. -/
def clStage (k p : FVec Ideal S1024 .f32) (T E : FVec Ideal S48x1024 .f32) : FVec Ideal S3x48 .f32 :=
  concatenate S3x48 0
    [⟨S1x48, broadcastInDim S1x48 ![1] bcast_S48_S1x48_1 (rowStage (wStage k p) T T k)⟩,
     ⟨S1x48, broadcastInDim S1x48 ![1] bcast_S48_S1x48_1 (rowStage (wStage k p) E E k)⟩,
     ⟨S1x48, broadcastInDim S1x48 ![1] bcast_S48_S1x48_1 (rowStage (wStage k p) T E k)⟩]
    concatenates_S1x48_S1x48_S1x48_S3x48_d0

/-- A row given a leading unit axis reads the row. -/
theorem rowBcast_apply (v : FVec Ideal S48 .f32) (l : Fin 48) :
    broadcastInDim S1x48 ![1] bcast_S48_S1x48_1 v (ix2 (0 : Fin 1) l) = v (ix1 l) :=
  broadcastInDim_apply (![1] : Fin 1 → Fin 2) bcast_S48_S1x48_1 v (ix2 (0 : Fin 1) l) (ix1 l)
    (fun a => match a with | ⟨0, _⟩ => rfl)

/-- Three rows stacked along a new leading axis, read at (n, l): row n at l. -/
theorem stack3_apply (A B C : FVec Ideal S1x48 .f32) (n : Fin 3) (l : Fin 48) :
    concatenate S3x48 0 [⟨S1x48, A⟩, ⟨S1x48, B⟩, ⟨S1x48, C⟩] concatenates_S1x48_S1x48_S1x48_S3x48_d0 (ix2 n l)
      = (![A, B, C] : Fin 3 → FVec Ideal S1x48 .f32) n (ix2 (0 : Fin 1) l) :=
  concatenate_ofFn_unit_apply (t := S3x48) (s₁ := S1x48) (0 : Fin 2) (![A, B, C] : Fin 3 → FVec Ideal S1x48 .f32)
    concatenates_S1x48_S1x48_S1x48_S3x48_d0 rfl rfl
    (ix2 n l) n rfl (ix2 (0 : Fin 1) l) (fun b hb => match b with
      | ⟨0, _⟩ => absurd rfl hb
      | ⟨1, _⟩ => rfl)

theorem stack3_apply_zero (A B C : FVec Ideal S1x48 .f32) (l : Fin 48) :
    concatenate S3x48 0 [⟨S1x48, A⟩, ⟨S1x48, B⟩, ⟨S1x48, C⟩] concatenates_S1x48_S1x48_S1x48_S3x48_d0 (ix2 (0 : Fin 3) l)
      = A (ix2 (0 : Fin 1) l) := stack3_apply A B C 0 l
theorem stack3_apply_one (A B C : FVec Ideal S1x48 .f32) (l : Fin 48) :
    concatenate S3x48 0 [⟨S1x48, A⟩, ⟨S1x48, B⟩, ⟨S1x48, C⟩] concatenates_S1x48_S1x48_S1x48_S3x48_d0 (ix2 (1 : Fin 3) l)
      = B (ix2 (0 : Fin 1) l) := stack3_apply A B C 1 l
theorem stack3_apply_two (A B C : FVec Ideal S1x48 .f32) (l : Fin 48) :
    concatenate S3x48 0 [⟨S1x48, A⟩, ⟨S1x48, B⟩, ⟨S1x48, C⟩] concatenates_S1x48_S1x48_S1x48_S3x48_d0 (ix2 (2 : Fin 3) l)
      = C (ix2 (0 : Fin 1) l) := stack3_apply A B C 2 l

theorem fin3_cases (r : Fin 3) : r = 0 ∨ r = 1 ∨ r = 2 := by
  rcases r with ⟨v, hv⟩
  interval_cases v
  · exact Or.inl rfl
  · exact Or.inr (Or.inl rfl)
  · exact Or.inr (Or.inr rfl)

/-- The 3 x 48 stage read at (r, l) is the table of spectra of the two transfer arrays. -/
theorem clStage_apply (a : Cert.Hand.Args) (k p : FVec Ideal S1024 .f32) (T E : FVec Ideal S48x1024 .f32)
    (hk : ∀ i : Fin 1024, k (ix1 i) = a.k i)
    (hp : ∀ i : Fin 1024, p (ix1 i)
      = a.As * Ideal.pow (Ideal.div (a.k i) (Ideal.ofBits .f32 0x3D4CCCCD#32)) (a.ns - Ideal.ofBits .f32 0x3F800000#32))
    (r : Fin 3) (l : Fin 48) :
    clStage k p T E (ix2 r l) = ClR a (fun l i => T (ix2 l i)) (fun l i => E (ix2 l i)) r l := by
  have hw : ∀ i : Fin 1024, wStage k p (ix1 i) = wR2 a i := wStage_apply a k p hk hp
  unfold clStage
  rcases fin3_cases r with rfl | rfl | rfl
  · rw [stack3_apply_zero, rowBcast_apply, rowStage_apply a _ T T k hk hw l, ClR_zero]
  · rw [stack3_apply_one, rowBcast_apply, rowStage_apply a _ E E k hk hw l, ClR_one]
  · rw [stack3_apply_two, rowBcast_apply, rowStage_apply a _ T E k hk hw l, ClR_two]

/-! ## The weight is a real number -/

/-- The pivot 0.05 is a real number other than zero. -/
theorem ofBits_pivot : ∃ r : ℝ, r ≠ 0 ∧ Ideal.ofBits .f32 0x3D4CCCCD#32 = (r : EReal) := by
  refine ⟨_, ?_, by simp [Ideal.ofBits, Ideal.ieee, -EReal.coe_mul]; rfl⟩
  positivity

/-- The constant 2 pi^2 = 19.7392082 is a real number. -/
theorem ofBits_twoPiSq : ∃ r : ℝ, Ideal.ofBits .f32 0x419DE9E6#32 = (r : EReal) :=
  ⟨_, by simp [Ideal.ofBits, Ideal.ieee, -EReal.coe_mul]; rfl⟩

/-- The weight at a wavenumber is always a real number.  At k = 0 the factor k * k is zero and zero times any
    extended real is zero; at k other than 0 the cube of k is a real number other than zero, so the quotient, the
    real power and every product are real numbers. -/
theorem wR2_real (a : Cert.Hand.Args) (ha : a.Finite) (i : Fin 1024) : ∃ x : ℝ, wR2 a i = (x : EReal) := by
  obtain ⟨c, hc0, hc⟩ := ofBits_pivot
  obtain ⟨d, hd⟩ := ofBits_twoPiSq
  obtain ⟨x, hx⟩ : ∃ x : ℝ, a.k i = (x : EReal) := ⟨_, (EReal.coe_toReal (ha.k i).1 (ha.k i).2).symm⟩
  obtain ⟨A, hA⟩ : ∃ A : ℝ, a.As = (A : EReal) := ⟨_, (EReal.coe_toReal ha.As.1 ha.As.2).symm⟩
  obtain ⟨n, hn⟩ : ∃ n : ℝ, a.ns = (n : EReal) := ⟨_, (EReal.coe_toReal ha.ns.1 ha.ns.2).symm⟩
  unfold wR2 PRr
  rw [hx, hA, hn, hc, hd, Ideal.ofBits_one_f32]
  by_cases hx0 : x = 0
  · refine ⟨0, ?_⟩
    rw [hx0, EReal.coe_zero, zero_mul, zero_mul]
  · have hx3 : x * x * x ≠ 0 := mul_ne_zero (mul_ne_zero hx0 hx0) hx0
    refine ⟨x * x * (A * Real.rpow (x * (1 / c)) (n - 1) * (d * (1 / (x * x * x)))), ?_⟩
    rw [← EReal.coe_mul x x, ← EReal.coe_mul (x * x) x, Ideal.div_coe hc0, Ideal.div_coe hx3,
      ← EReal.coe_mul x (1 / c), ← EReal.coe_one, ← EReal.coe_sub, Ideal.pow_coe_coe,
      ← EReal.coe_mul d, ← EReal.coe_mul A, ← EReal.coe_mul (A * _), ← EReal.coe_mul (x * x)]

/-! ## The stages in the program's run -/

section Run

open Idealize.SL.Sem Idealize.ShloMosaic.StableHlo

/-- The result buffer after the last window: the three row buffers stacked. -/
theorem after_part4_v225 (V : Valuation τ sig (Elt Ideal)) :
    (StableHlo.after (ops_part4 (F := Ideal)) V (Proc.devRef .tc main_v225) : S3x48.Idx → EReal)
      = concatenate S3x48 0
          [⟨S1x48, (StableHlo.after (ops_part4 (F := Ideal)) V (Proc.devRef .tc main_v222) : S1x48.Idx → EReal)⟩,
           ⟨S1x48, (StableHlo.after (ops_part4 (F := Ideal)) V (Proc.devRef .tc main_v223) : S1x48.Idx → EReal)⟩,
           ⟨S1x48, (StableHlo.after (ops_part4 (F := Ideal)) V (Proc.devRef .tc main_v224) : S1x48.Idx → EReal)⟩]
          concatenates_S1x48_S1x48_S1x48_S3x48_d0 := by
  simp (disch := decide) only [StableHlo.after_cons, StableHlo.after_nil, nary_result', nary_result_ne']
  rfl

/-- The first row buffer after the last window. -/
theorem after_part4_v222 (V : Valuation τ sig (Elt Ideal)) :
    (StableHlo.after (ops_part4 (F := Ideal)) V (Proc.devRef .tc main_v222) : S1x48.Idx → EReal)
      = broadcastInDim S1x48 ![1] bcast_S48_S1x48_1
          (rowStage (wStage (V (Proc.devRef .tc main_arg0) : S1024.Idx → EReal) (V (Proc.devRef .tc main_v193) : S1024.Idx → EReal))
            (V (Proc.devRef .tc main_v142) : S48x1024.Idx → EReal) (V (Proc.devRef .tc main_v142) : S48x1024.Idx → EReal)
            (V (Proc.devRef .tc main_arg0) : S1024.Idx → EReal)) := by
  show StableHlo.after (ops_part4 (F := Ideal)) V (Proc.devRef .tc main_v222) = _
  after_results_simp
  rfl

/-- The second row buffer after the last window. -/
theorem after_part4_v223 (V : Valuation τ sig (Elt Ideal)) :
    (StableHlo.after (ops_part4 (F := Ideal)) V (Proc.devRef .tc main_v223) : S1x48.Idx → EReal)
      = broadcastInDim S1x48 ![1] bcast_S48_S1x48_1
          (rowStage (wStage (V (Proc.devRef .tc main_arg0) : S1024.Idx → EReal) (V (Proc.devRef .tc main_v193) : S1024.Idx → EReal))
            (V (Proc.devRef .tc main_v186) : S48x1024.Idx → EReal) (V (Proc.devRef .tc main_v186) : S48x1024.Idx → EReal)
            (V (Proc.devRef .tc main_arg0) : S1024.Idx → EReal)) := by
  show StableHlo.after (ops_part4 (F := Ideal)) V (Proc.devRef .tc main_v223) = _
  after_results_simp
  rfl

/-- The third row buffer after the last window. -/
theorem after_part4_v224 (V : Valuation τ sig (Elt Ideal)) :
    (StableHlo.after (ops_part4 (F := Ideal)) V (Proc.devRef .tc main_v224) : S1x48.Idx → EReal)
      = broadcastInDim S1x48 ![1] bcast_S48_S1x48_1
          (rowStage (wStage (V (Proc.devRef .tc main_arg0) : S1024.Idx → EReal) (V (Proc.devRef .tc main_v193) : S1024.Idx → EReal))
            (V (Proc.devRef .tc main_v142) : S48x1024.Idx → EReal) (V (Proc.devRef .tc main_v186) : S48x1024.Idx → EReal)
            (V (Proc.devRef .tc main_arg0) : S1024.Idx → EReal)) := by
  show StableHlo.after (ops_part4 (F := Ideal)) V (Proc.devRef .tc main_v224) = _
  after_results_simp
  rfl

/-- The result buffer after the last window, from the contents when the window is entered. -/
theorem after_part4_result (V : Valuation τ sig (Elt Ideal)) :
    (StableHlo.after (ops_part4 (F := Ideal)) V (Proc.devRef .tc main_v225) : S3x48.Idx → EReal)
      = clStage (V (Proc.devRef .tc main_arg0) : S1024.Idx → EReal) (V (Proc.devRef .tc main_v193) : S1024.Idx → EReal)
          (V (Proc.devRef .tc main_v142) : S48x1024.Idx → EReal) (V (Proc.devRef .tc main_v186) : S48x1024.Idx → EReal) := by
  refine (after_part4_v225 V).trans ?_
  rw [after_part4_v222, after_part4_v223, after_part4_v224]
  rfl

/-- The amplitude-power buffer after the window before the last. -/
theorem after_part3_v193 (V : Valuation τ sig (Elt Ideal)) :
    (StableHlo.after (ops_part3 (F := Ideal)) V (Proc.devRef .tc main_v193) : S1024.Idx → EReal)
      = aPowStage (V (Proc.devRef .tc main_arg0) : S1024.Idx → EReal) (V (Proc.devRef .tc main_arg12) : S_.Idx → EReal)
          (V (Proc.devRef .tc main_arg13) : S_.Idx → EReal) := by
  show StableHlo.after (ops_part3 (F := Ideal)) V (Proc.devRef .tc main_v193) = _
  after_results_simp
  rfl

/-- From the contents when the last two windows are entered: the result buffer at (r, l) is the table of spectra of
    the two transfer buffers, all three read after the last window. -/
theorem after_part34_result (a : Cert.Hand.Args) (V : Valuation τ sig (Elt Ideal))
    (hk : ∀ i : Fin 1024, (V (Proc.devRef .tc main_arg0) : S1024.Idx → EReal) (ix1 i) = a.k i)
    (hAs : (V (Proc.devRef .tc main_arg12) : S_.Idx → EReal) ix0 = a.As)
    (hns : (V (Proc.devRef .tc main_arg13) : S_.Idx → EReal) ix0 = a.ns) (r : Fin 3) (l : Fin 48) :
    (StableHlo.after (ops_part4 (F := Ideal)) (StableHlo.after (ops_part3 (F := Ideal)) V) (Proc.devRef .tc main_v225)
        : S3x48.Idx → EReal) (ix2 r l)
      = ClR a
          (fun l i => (StableHlo.after (ops_part4 (F := Ideal)) (StableHlo.after (ops_part3 (F := Ideal)) V)
            (Proc.devRef .tc main_v142) : S48x1024.Idx → EReal) (ix2 l i))
          (fun l i => (StableHlo.after (ops_part4 (F := Ideal)) (StableHlo.after (ops_part3 (F := Ideal)) V)
            (Proc.devRef .tc main_v186) : S48x1024.Idx → EReal) (ix2 l i)) r l := by
  have e142 := after_of_writes_sub (ops_part4 (F := Ideal)) (StableHlo.after (ops_part3 (F := Ideal)) V) ops_part4_writes
    (by decide : main_v142 ∉ ops_part4_W)
  have e186 := after_of_writes_sub (ops_part4 (F := Ideal)) (StableHlo.after (ops_part3 (F := Ideal)) V) ops_part4_writes
    (by decide : main_v186 ∉ ops_part4_W)
  have e0 := after_of_writes_sub (ops_part3 (F := Ideal)) V ops_part3_writes (by decide : main_arg0 ∉ ops_part3_W)
  rw [after_part4_result, e142, e186]
  refine clStage_apply a _ _ _ _ (fun i => ?_) (fun i => ?_) r l
  · rw [e0]; exact hk i
  · rw [after_part3_v193]; exact aPowStage_apply a _ _ _ hk hAs hns i

/-- The result of the whole run at (r, l): the table of spectra of the two transfer buffers, over the arguments the
    launch memory holds. -/
theorem val_main_v225 (m : (ℓ : Loc nD τ sig) → Buf (Elt Ideal) ℓ) (c : Dev nD) (r : Fin 3) (l : Fin 48) :
    (StableHlo.after (ops (F := Ideal)) (fun b => m (c, b)) (Proc.devRef .tc main_v225) : S3x48.Idx → EReal) (ix2 r l)
      = ClR (argsOf m c)
          (fun l i => (StableHlo.after (ops (F := Ideal)) (fun b => m (c, b)) (Proc.devRef .tc main_v142)
            : S48x1024.Idx → EReal) (ix2 l i))
          (fun l i => (StableHlo.after (ops (F := Ideal)) (fun b => m (c, b)) (Proc.devRef .tc main_v186)
            : S48x1024.Idx → EReal) (ix2 l i)) r l := by
  have hW : StableHlo.after (ops (F := Ideal)) (fun b => m (c, b))
      = StableHlo.after (ops_part4 (F := Ideal)) (StableHlo.after (ops_part3 (F := Ideal))
          (StableHlo.after (ops_part2 (F := Ideal)) (StableHlo.after (ops_part1 (F := Ideal))
            (StableHlo.after (ops_part0 (F := Ideal)) (fun b => m (c, b)))))) := by
    simp only [ops, StableHlo.after_append]
  rw [hW]
  refine after_part34_result (argsOf m c) _ (fun i => ?_) ?_ ?_ r l
  · rw [after_of_writes_sub (ops_part2 (F := Ideal)) _ ops_part2_writes (by decide : main_arg0 ∉ ops_part2_W),
      after_of_writes_sub (ops_part1 (F := Ideal)) _ ops_part1_writes (by decide : main_arg0 ∉ ops_part1_W),
      after_of_writes_sub (ops_part0 (F := Ideal)) _ ops_part0_writes (by decide : main_arg0 ∉ ops_part0_W)]
    rfl
  · rw [after_of_writes_sub (ops_part2 (F := Ideal)) _ ops_part2_writes (by decide : main_arg12 ∉ ops_part2_W),
      after_of_writes_sub (ops_part1 (F := Ideal)) _ ops_part1_writes (by decide : main_arg12 ∉ ops_part1_W),
      after_of_writes_sub (ops_part0 (F := Ideal)) _ ops_part0_writes (by decide : main_arg12 ∉ ops_part0_W)]
    rfl
  · rw [after_of_writes_sub (ops_part2 (F := Ideal)) _ ops_part2_writes (by decide : main_arg13 ∉ ops_part2_W),
      after_of_writes_sub (ops_part1 (F := Ideal)) _ ops_part1_writes (by decide : main_arg13 ∉ ops_part1_W),
      after_of_writes_sub (ops_part0 (F := Ideal)) _ ops_part0_writes (by decide : main_arg13 ∉ ops_part0_W)]
    rfl

end Run

end Cert.ReferenceIdeal.Hand
-- ==== Proof.KPayloads.lean ====
/- The first kernel's stored values, read at an index as plain sums over the extended reals: the zero the accumulator
   starts from; one table step, which adds to the accumulator the hat weights max(0, 1 - |position - row|) of a block of
   256 table rows times the table; and the two outputs, sums over the 600 positions of the accumulator's lane groups
   weighted by the streams and by the position weights. Every change of format is the identity and every integer is
   read exactly, so only layout steps (casts, broadcasts, slices) and the sums remain. -/
import proofs.«103908_j25280177504693_2_alg».proof.Proof.Gen.KernelIdeal.Skeleton
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## Layout steps of the payloads, read at an index -/

section Layout
variable {α : Type}

/-- A column `[a, b]` cast to `[a, b, 1]` and broadcast along a new last axis reads, at `(i, j, l)`, the column at `(i, j)`. -/
theorem bcast_col_apply {a b n : ℕ} (v : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, n]⟩)
    (i : Fin a) (j : Fin b) (l : Fin n) :
    broadcastTo ⟨3, ![a, b, n]⟩ (shapeCast ⟨3, ![a, b, 1]⟩ v h1) h2 (ix3 i j l) = v (ix2 i j) := by
  refine (broadcastTo_apply _ h2 (ix3 i j l) (ix3 i j (0 : Fin 1)) fun ax => ?_).trans ?_
  · match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl
  · exact shapeCast_apply v h1 _ _ (by
      rw [Shape.rowMajor_val_two, Shape.rowMajor_val_three]
      show i.val * b + j.val = (i.val * b + j.val) * 1 + 0
      omega)

/-- One row `[1, b]` cast to `[1, b, 1]` and broadcast to `[a, b, n]` reads, at `(i, j, l)`, the row at `j`. -/
theorem bcast_row_apply {a b n : ℕ} (v : (⟨2, ![1, b]⟩ : Shape).Idx → α)
    (h1 : (⟨2, ![1, b]⟩ : Shape).ShapeCasts ⟨3, ![1, b, 1]⟩) (h2 : (⟨3, ![1, b, 1]⟩ : Shape).Broadcasts ⟨3, ![a, b, n]⟩)
    (i : Fin a) (j : Fin b) (l : Fin n) :
    broadcastTo ⟨3, ![a, b, n]⟩ (shapeCast ⟨3, ![1, b, 1]⟩ v h1) h2 (ix3 i j l) = v (ix2 (0 : Fin 1) j) := by
  refine (broadcastTo_apply _ h2 (ix3 i j l) (ix3 (0 : Fin 1) j (0 : Fin 1)) fun ax => ?_).trans ?_
  · match ax with
    | ⟨0, _⟩ => rfl
    | ⟨1, _⟩ =>
      show j.val = if b = 1 then 0 else j.val
      split
      · have := j.isLt; omega
      · rfl
    | ⟨2, _⟩ => rfl
  · exact shapeCast_apply v h1 _ _ (by
      rw [Shape.rowMajor_val_two, Shape.rowMajor_val_three]
      show 0 * b + j.val = (0 * b + j.val) * 1 + 0
      omega)

/-- A rank-3 array cut along its last axis from `o` reads, at `(i, j, l)`, the source at `(i, j, o + l)`. -/
theorem slice3_axis2_eq {n0 n1 n2 m : ℕ} (o : ℕ) (X : (⟨3, ![n0, n1, n2]⟩ : Shape).Idx → α)
    (h : (⟨3, ![n0, n1, n2]⟩ : Shape).Slices ![0, 0, o] ⟨3, ![n0, n1, m]⟩) (i : Fin n0) (j : Fin n1) (l : Fin m) (hl : o + l.val < n2) :
    extractStridedSlice ⟨3, ![n0, n1, m]⟩ ![0, 0, o] X h (ix3 i j l) = X (ix3 i j ⟨o + l.val, hl⟩) :=
  extractStridedSlice_apply _ X h _ _ fun ax => match ax with
    | ⟨0, _⟩ => (Nat.zero_add _).symm
    | ⟨1, _⟩ => (Nat.zero_add _).symm
    | ⟨2, _⟩ => rfl

end Layout

/-! ## More layout steps: the reshape between `[8, 600, c]` and `[4800, c]`, and one lane row broadcast over both leading axes -/

section Layout2
variable {α : Type}

/-- `[8, 600, c]` cast to `[4800, c]` reads, at row `i * 600 + j`, the operand at `(i, j, l)`. -/
theorem shapeCast_merge_apply {c : ℕ} (x : (⟨3, ![8, 600, c]⟩ : Shape).Idx → α)
    (h : (⟨3, ![8, 600, c]⟩ : Shape).ShapeCasts ⟨2, ![4800, c]⟩) (i : Fin 8) (j : Fin 600) (l : Fin c)
    (hr : i.val * 600 + j.val < 4800) :
    shapeCast ⟨2, ![4800, c]⟩ x h (ix2 ⟨i.val * 600 + j.val, hr⟩ l) = x (ix3 i j l) :=
  shapeCast_apply x h _ _ (by rw [Shape.rowMajor_val_three, Shape.rowMajor_val_two]; rfl)

/-- `[4800, c]` cast to `[8, 600, c]` reads, at `(i, j, l)`, the operand at row `i * 600 + j`. -/
theorem shapeCast_split_apply {c : ℕ} (x : (⟨2, ![4800, c]⟩ : Shape).Idx → α)
    (h : (⟨2, ![4800, c]⟩ : Shape).ShapeCasts ⟨3, ![8, 600, c]⟩) (i : Fin 8) (j : Fin 600) (l : Fin c)
    (hr : i.val * 600 + j.val < 4800) :
    shapeCast ⟨3, ![8, 600, c]⟩ x h (ix3 i j l) = x (ix2 ⟨i.val * 600 + j.val, hr⟩ l) :=
  shapeCast_apply x h _ _ (by rw [Shape.rowMajor_val_three, Shape.rowMajor_val_two]; rfl)

/-- A lane row `[n]` cast to `[1, 1, n]` and broadcast to `[a, b, n]` reads, at `(i, j, l)`, the row at `l`. -/
theorem bcast_lane_apply {a b n : ℕ} (v : (⟨1, ![n]⟩ : Shape).Idx → α)
    (h1 : (⟨1, ![n]⟩ : Shape).ShapeCasts ⟨3, ![1, 1, n]⟩) (h2 : (⟨3, ![1, 1, n]⟩ : Shape).Broadcasts ⟨3, ![a, b, n]⟩)
    (i : Fin a) (j : Fin b) (l : Fin n) :
    broadcastTo ⟨3, ![a, b, n]⟩ (shapeCast ⟨3, ![1, 1, n]⟩ v h1) h2 (ix3 i j l) = v (ix1 l) := by
  refine (broadcastTo_apply _ h2 (ix3 i j l) (ix3 (0 : Fin 1) (0 : Fin 1) l) fun ax => ?_).trans ?_
  · match ax with
    | ⟨0, _⟩ => rfl
    | ⟨1, _⟩ => rfl
    | ⟨2, _⟩ =>
      show l.val = if n = 1 then 0 else l.val
      split
      · have := l.isLt; omega
      · rfl
  · exact shapeCast_apply v h1 _ _ (by
      rw [Shape.rowMajor_val_one, Shape.rowMajor_val_three]
      show l.val = (0 * 1 + 0) * n + l.val
      omega)

end Layout2

/-! ## The payloads at an index -/

/-- The zero splat the accumulator starts from. -/
theorem k0_pay1_apply (b : Fin 8) (t : Fin 600) (q : Fin 192) : Gen.k0_pay1 (F := Ideal) (ix3 b t q) = 0 := by
  unfold Gen.k0_pay1
  rw [shapeCast_self]
  exact Ideal.ofBits_zero_f32

/-- The inserted index of a sum over the middle axis of `[8, 600, 48]`. -/
theorem lift_mid (h : Shape.Reduces S8x600x48 [1] S8x48) (b : Fin 8) (l : Fin 48) (t : Fin 600) :
    h.lift (ix2 b l) t = ix3 b t l :=
  funext fun c => Fin.ext (match c with | ⟨0, _⟩ => rfl | ⟨1, _⟩ => rfl | ⟨2, _⟩ => rfl)

/-- The three-stream output: at `(b, l)` the sum over the 600 positions of the weighted three lane groups of the accumulator. -/
theorem k0_pay4_apply (acc : Vec Ideal S8x600x192 .f32) (s0 s1 s2 : Vec Ideal S8x600 .f32) (tw : Vec Ideal S1x600 .f32)
    (b : Fin 8) (l : Fin 48) :
    Gen.k0_pay4 acc s0 s1 s2 tw (ix2 b l)
      = ∑ t : Fin 600, ((s0 (ix2 b t) * acc (ix3 b t ⟨0 + l.val, by have := l.isLt; omega⟩)
            + s1 (ix2 b t) * acc (ix3 b t ⟨48 + l.val, by have := l.isLt; omega⟩))
            + s2 (ix2 b t) * acc (ix3 b t ⟨96 + l.val, by have := l.isLt; omega⟩)) * tw (ix2 (0 : Fin 1) t) := by
  unfold Gen.k0_pay4
  refine (Ideal.multiReduction_add_single _ _ _ _ _ (ix2 b l)).trans ?_
  refine Finset.sum_congr rfl fun (t : Fin 600) _ => ?_
  rw [lift_mid]
  simp only [mulf_apply, addf_apply]
  unfold Gen.k0_pay3
  rw [shapeCast_self]
  rw [bcast_col_apply, bcast_col_apply, bcast_col_apply, bcast_row_apply,
    slice3_axis2_eq 0, slice3_axis2_eq 48, slice3_axis2_eq 96]

/-- The fourth stream's output: at `(b, l)` the sum over the 600 positions of the weighted fourth lane group. -/
theorem k0_pay5_apply (acc : Vec Ideal S8x600x192 .f32) (se : Vec Ideal S8x600 .f32) (tw : Vec Ideal S1x600 .f32)
    (b : Fin 8) (l : Fin 48) :
    Gen.k0_pay5 acc se tw (ix2 b l)
      = ∑ t : Fin 600, (se (ix2 b t) * acc (ix3 b t ⟨144 + l.val, by have := l.isLt; omega⟩)) * tw (ix2 (0 : Fin 1) t) := by
  unfold Gen.k0_pay5
  refine (Ideal.multiReduction_add_single _ _ _ _ _ (ix2 b l)).trans ?_
  refine Finset.sum_congr rfl fun (t : Fin 600) _ => ?_
  rw [lift_mid]
  simp only [mulf_apply]
  unfold Gen.k0_pay3
  rw [shapeCast_self]
  rw [bcast_col_apply, bcast_row_apply, slice3_axis2_eq 144]

/-! ## The table row's number as a word and as a real -/

/-- Row `n * 256 + j` of a block of 256 rows, block `n` below 79: the 32-bit product and sum do not wrap, and the word read
    signed is that natural number. -/
theorem row_word_toInt (n j : ℕ) (hn : n < 79) (hj : j < 256) :
    (BitVec.ofNat 32 n * 256#32 + BitVec.ofNat 32 j).toInt = ((n * 256 + j : ℕ) : ℤ) := by
  have e : BitVec.ofNat 32 n * 256#32 + BitVec.ofNat 32 j = BitVec.ofNat 32 (n * 256 + j) := by
    apply BitVec.eq_of_toNat_eq
    simp only [BitVec.toNat_add, BitVec.toNat_mul, BitVec.toNat_ofNat]
    omega
  have h : (n * 256 + j) % 2 ^ 32 = n * 256 + j := Nat.mod_eq_of_lt (by omega)
  rw [e, BitVec.toInt_eq_toNat_cond, BitVec.toNat_ofNat, h, if_pos (by omega)]

/-- The 256 row numbers of block `n` as floats: the block's first row, a word, splat and added to the lane numbers, then
    converted; at lane `j` the real number `n * 256 + j`. -/
theorem row_apply (n : ℕ) (hn : n < 79) (hI : S1x256.Iotas .tc 32 [1]) (hC : S1x256.ShapeCasts S256) (j : Fin 256) :
    (sitofp .f32 (addi (broadcast S256 (Scalar.muli (BitVec.ofNat 32 n) 256#32))
        (shapeCast S256 (iota .tc S1x256 32 [1] hI) hC)) : FVec Ideal S256 .f32) (ix1 j)
      = ((n * 256 + j.val : ℕ) : EReal) := by
  rw [sitofp_apply]
  show ((((BitVec.ofNat 32 n * 256#32 + shapeCast S256 (iota .tc S1x256 32 [1] hI) hC (ix1 j)).toInt : ℝ)) : EReal) = _
  rw [shapeCast_1a_a_apply, iota_single_apply]
  show ((((BitVec.ofNat 32 n * 256#32 + BitVec.ofNat 32 j.val).toInt : ℝ)) : EReal) = _
  rw [row_word_toInt n j.val hn j.isLt, Int.cast_natCast, EReal.coe_natCast]

/-! ## The block product at an index -/

/-- The `[4800, 256]` by `[256, 192]` product into the zero splat, at `(r, q)`: the sum over the 256 contracted rows. -/
theorem mm_apply (L : FVec Ideal S4800x256 .bf16) (R : FVec Ideal S256x192 .bf16) (r : Fin 4800) (q : Fin 192) :
    matmul dot_S4800x256_S256x192_S4800x192_1_0_0_1_n_n none L R (constant (F := Ideal) S4800x192 .f32 0x00000000#32) (ix2 r q)
      = ∑ j : Fin 256, L (ix2 r j) * R (ix2 j q) := by
  show FloatOps.matmul _ none L R _ (ix2 r q) = _
  rw [Ideal.matmul_constant_zero_apply,
    ← Equiv.sum_comp (contrEquiv1 dot_S4800x256_S256x192_S4800x192_1_0_0_1_n_n 256 rfl rfl).symm]
  refine Finset.sum_congr rfl fun c _ => ?_
  have c2 := contrEquiv1_symm_val dot_S4800x256_S256x192_S4800x192_1_0_0_1_n_n 256 rfl rfl c
  have l2 : dot_S4800x256_S256x192_S4800x192_1_0_0_1_n_n.lhsIdx (ix2 r q) ((contrEquiv1 _ 256 rfl rfl).symm c) = ix2 r c := by
    funext ax; apply Fin.ext
    match ax with
    | ⟨0, _⟩ => simp [DotDims.lhsIdx, dot_S4800x256_S256x192_S4800x192_1_0_0_1_n_n]; rfl
    | ⟨1, _⟩ => simp [DotDims.lhsIdx, dot_S4800x256_S256x192_S4800x192_1_0_0_1_n_n]; exact c2
  have r2 : dot_S4800x256_S256x192_S4800x192_1_0_0_1_n_n.rhsIdx (ix2 r q) ((contrEquiv1 _ 256 rfl rfl).symm c) = ix2 c q := by
    funext ax; apply Fin.ext
    match ax with
    | ⟨0, _⟩ => simp [DotDims.rhsIdx, dot_S4800x256_S256x192_S4800x192_1_0_0_1_n_n]; exact c2
    | ⟨1, _⟩ => simp [DotDims.rhsIdx, dot_S4800x256_S256x192_S4800x192_1_0_0_1_n_n]; rfl
  rw [l2, r2]

/-- The absolute value at an index: `max x (-x)` on the extended reals. -/
theorem absf_apply {s : Shape} {φ : FTy} (a : FVec Ideal s φ) (i : s.Idx) : absf a i = max (a i) (-(a i)) := rfl

/-- One table step: to the accumulator at `(b, t, q)` is added, over the 256 rows of table block `i 1`, the hat weight
    `max 0 (1 - |position - row|)` of position `(b, t)` at row `(i 1) * 256 + j` times the table's entry `(j, q)`. -/
theorem k0_pay2_apply (i : grid0.Coords) (pos : Vec Ideal S8x600 .f32) (tab : Vec Ideal S256x192 .bf16)
    (acc : Vec Ideal S8x600x192 .f32) (b : Fin 8) (t : Fin 600) (q : Fin 192) :
    Gen.k0_pay2 i pos tab acc (ix3 b t q)
      = acc (ix3 b t q) + ∑ j : Fin 256,
          max 0 (1 - max (pos (ix2 b t) - (((i 1).val * 256 + j.val : ℕ) : EReal))
                        (-(pos (ix2 b t) - (((i 1).val * 256 + j.val : ℕ) : EReal)))) * tab (ix2 j q) := by
  have hi : (i 1).val < 79 := (i 1).isLt
  have hr : b.val * 600 + t.val < 4800 := by have := b.isLt; have := t.isLt; omega
  unfold Gen.k0_pay2
  dsimp only
  simp only [shapeCast_self]
  rw [addf_apply, shapeCast_split_apply _ _ b t q hr, mm_apply]
  refine congrArg (acc (ix3 b t q) + ·) (Finset.sum_congr rfl fun j _ => ?_)
  rw [shapeCast_merge_apply _ _ b t j hr]
  simp only [truncf_apply, maximumf_apply, subf_apply, absf_apply, broadcast_apply]
  rw [bcast_col_apply, bcast_lane_apply, row_apply _ hi]
  show max (Ideal.ofBits .f32 0x00000000#32) (Ideal.ofBits .f32 0x3F800000#32 - _) * _ = _
  rw [Ideal.ofBits_zero_f32, Ideal.ofBits_one_f32]

end Cert.KernelIdeal.Hand

end
-- ==== Proof.LibAccum.lean ====
/- An accumulator that is reset at step 0 and updated only at the steps a condition selects ends, after step `n`,
   at the sum of the updates over the selected steps up to `n`; when the condition is "between lo and hi", at the
   sum over that interval.  Stated for the recursion itself, for an update spelt as a function of the step and the
   old value, and for ANY sequence that satisfies the recursion's two equations. -/
import Mathlib.Algebra.BigOperators.Group.Finset.Basic
import Mathlib.Data.Finset.Range
import Mathlib.Order.Interval.Finset.Nat

namespace Cert.Hand.Math

open Finset
open scoped BigOperators

variable {M : Type*} [AddCommMonoid M]

/-- The accumulator after step `n`: zero before step 0; a selected step adds its term, any other keeps the value. -/
def accRec (cond : ℕ → Prop) [DecidablePred cond] (g : ℕ → M) : ℕ → M
  | 0 => if cond 0 then 0 + g 0 else 0
  | n + 1 => if cond (n + 1) then accRec cond g n + g (n + 1) else accRec cond g n

theorem accRec_zero (cond : ℕ → Prop) [DecidablePred cond] (g : ℕ → M) :
    accRec cond g 0 = if cond 0 then 0 + g 0 else 0 := rfl

theorem accRec_succ (cond : ℕ → Prop) [DecidablePred cond] (g : ℕ → M) (n : ℕ) :
    accRec cond g (n + 1) = if cond (n + 1) then accRec cond g n + g (n + 1) else accRec cond g n := rfl

/-- The accumulator is the sum of the terms of the selected steps so far. -/
theorem accRec_eq_sum (cond : ℕ → Prop) [DecidablePred cond] (g : ℕ → M) (n : ℕ) :
    accRec cond g n = ∑ k ∈ (range (n + 1)).filter cond, g k := by
  induction n with
  | zero =>
    rw [accRec_zero, range_add_one, range_zero, filter_insert, filter_empty]
    by_cases h : cond 0
    · rw [if_pos h, if_pos h, zero_add, sum_insert (notMem_empty 0), sum_empty, add_zero]
    · rw [if_neg h, if_neg h, sum_empty]
  | succ n ih =>
    rw [accRec_succ, range_add_one (n := n + 1), filter_insert]
    by_cases h : cond (n + 1)
    · rw [if_pos h, if_pos h, sum_insert (fun hm => by
        have := (mem_filter.mp hm).1; rw [mem_range] at this; omega), ih, add_comm]
    · rw [if_neg h, if_neg h, ih]

/-- When the selected steps are those of an interval that ends by step `n`, the accumulator is the sum over it. -/
theorem accRec_eq_sum_Icc (cond : ℕ → Prop) [DecidablePred cond] (g : ℕ → M) (lo hi n : ℕ)
    (hc : ∀ k, cond k ↔ lo ≤ k ∧ k ≤ hi) (hn : hi ≤ n) :
    accRec cond g n = ∑ k ∈ Icc lo hi, g k := by
  rw [accRec_eq_sum]
  refine sum_congr ?_ fun _ _ => rfl
  ext k
  rw [mem_filter, mem_range, mem_Icc, hc k]
  omega

/-! ## The update spelt as a function of the step and the old value -/

/-- The same accumulator with the update a function `f k a` of the step and the old value. -/
def accRecF (cond : ℕ → Prop) [DecidablePred cond] (f : ℕ → M → M) : ℕ → M
  | 0 => if cond 0 then f 0 0 else 0
  | n + 1 => if cond (n + 1) then f (n + 1) (accRecF cond f n) else accRecF cond f n

theorem accRecF_zero (cond : ℕ → Prop) [DecidablePred cond] (f : ℕ → M → M) :
    accRecF cond f 0 = if cond 0 then f 0 0 else 0 := rfl

theorem accRecF_succ (cond : ℕ → Prop) [DecidablePred cond] (f : ℕ → M → M) (n : ℕ) :
    accRecF cond f (n + 1) = if cond (n + 1) then f (n + 1) (accRecF cond f n) else accRecF cond f n := rfl

/-- An update that adds the step's term is the additive accumulator. -/
theorem accRecF_eq_accRec (cond : ℕ → Prop) [DecidablePred cond] (f : ℕ → M → M) (g : ℕ → M)
    (hf : ∀ k a, f k a = a + g k) (n : ℕ) : accRecF cond f n = accRec cond g n := by
  induction n with
  | zero => rw [accRecF_zero, accRec_zero, hf]
  | succ n ih => rw [accRecF_succ, accRec_succ, hf, ih]

theorem accRecF_eq_sum (cond : ℕ → Prop) [DecidablePred cond] (f : ℕ → M → M) (g : ℕ → M)
    (hf : ∀ k a, f k a = a + g k) (n : ℕ) :
    accRecF cond f n = ∑ k ∈ (range (n + 1)).filter cond, g k :=
  (accRecF_eq_accRec cond f g hf n).trans (accRec_eq_sum cond g n)

theorem accRecF_eq_sum_Icc (cond : ℕ → Prop) [DecidablePred cond] (f : ℕ → M → M) (g : ℕ → M)
    (hf : ∀ k a, f k a = a + g k) (lo hi n : ℕ) (hc : ∀ k, cond k ↔ lo ≤ k ∧ k ≤ hi) (hn : hi ≤ n) :
    accRecF cond f n = ∑ k ∈ Icc lo hi, g k :=
  (accRecF_eq_accRec cond f g hf n).trans (accRec_eq_sum_Icc cond g lo hi n hc hn)

/-! ## Any sequence that satisfies the two equations, up to a last step `N` -/

/-- A sequence that is reset at step 0 and updated by `f` at the selected steps up to `N` is `accRecF` up to `N`. -/
theorem eq_accRecF_of_rec (cond : ℕ → Prop) [DecidablePred cond] (f : ℕ → M → M) (A : ℕ → M) (N : ℕ)
    (h0 : A 0 = if cond 0 then f 0 0 else 0)
    (hs : ∀ n, n + 1 ≤ N → A (n + 1) = if cond (n + 1) then f (n + 1) (A n) else A n) :
    ∀ n, n ≤ N → A n = accRecF cond f n
  | 0, _ => h0
  | n + 1, hn => by
    rw [hs n hn, accRecF_succ, eq_accRecF_of_rec cond f A N h0 hs n (Nat.le_of_succ_le hn)]

/-- So, with an update that adds the step's term, it is the sum of the terms of the selected steps so far, -/
theorem eq_sum_of_rec (cond : ℕ → Prop) [DecidablePred cond] (f : ℕ → M → M) (g : ℕ → M)
    (hf : ∀ k a, f k a = a + g k) (A : ℕ → M) (N : ℕ)
    (h0 : A 0 = if cond 0 then f 0 0 else 0)
    (hs : ∀ n, n + 1 ≤ N → A (n + 1) = if cond (n + 1) then f (n + 1) (A n) else A n)
    (n : ℕ) (hn : n ≤ N) : A n = ∑ k ∈ (range (n + 1)).filter cond, g k :=
  (eq_accRecF_of_rec cond f A N h0 hs n hn).trans (accRecF_eq_sum cond f g hf n)

/-- and over an interval of selected steps that ends by step `n`, the sum over the interval. -/
theorem eq_sum_Icc_of_rec (cond : ℕ → Prop) [DecidablePred cond] (f : ℕ → M → M) (g : ℕ → M)
    (hf : ∀ k a, f k a = a + g k) (A : ℕ → M) (N : ℕ)
    (h0 : A 0 = if cond 0 then f 0 0 else 0)
    (hs : ∀ n, n + 1 ≤ N → A (n + 1) = if cond (n + 1) then f (n + 1) (A n) else A n)
    (lo hi n : ℕ) (hc : ∀ k, cond k ↔ lo ≤ k ∧ k ≤ hi) (hhi : hi ≤ n) (hn : n ≤ N) :
    A n = ∑ k ∈ Icc lo hi, g k :=
  (eq_accRecF_of_rec cond f A N h0 hs n hn).trans (accRecF_eq_sum_Icc cond f g hf lo hi n hc hhi)

end Cert.Hand.Math
-- ==== Proof.Region0Acc.lean ====
/- The first kernel's accumulator in closed form. Along the 79 chunks of one k-tile the accumulator is reset at chunk 0
   and, at each chunk whose number lies between the two words the tables hold for the tile, increased by that chunk's
   term: over the chunk's 256 table rows, the hat weight max(0, 1 - |position - row|) times the table's entry. The
   position block and the table are the same at every point of the tile, so the accumulator after the tile's last
   chunk is, entry by entry, the sum of the chunks' terms over the chunks in range; when the two words are between 0
   and 78, the sum over the interval from the one to the other. -/
import proofs.«103908_j25280177504693_2_alg».proof.Proof.Region0.Dat
import proofs.«103908_j25280177504693_2_alg».proof.Proof.KPayloads
import proofs.«103908_j25280177504693_2_alg».proof.Proof.LibAccum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The grid's points by k-tile and chunk -/

/-- Position `kt * 79 + n` of the 128 by 79 grid is k-tile `kt`, chunk `n`. -/
theorem coords_tile (kt n : ℕ) (hk : kt < 128) (hn : n < 79) (h : kt * 79 + n < grid0.N) :
    (grid0.coords ⟨kt * 79 + n, h⟩ 0).val = kt ∧ (grid0.coords ⟨kt * 79 + n, h⟩ 1).val = n := by
  constructor
  · show (kt * 79 + n) / grid0.stride 0 % 128 = kt
    rw [show grid0.stride 0 = 79 from by decide]; omega
  · show (kt * 79 + n) / grid0.stride 1 % 79 = n
    rw [show grid0.stride 1 = 1 from by decide]; omega

/-- Two settings of the grid's coordinates with the same two numbers are the same. -/
theorem coords_ext {i i' : grid0.Coords} (h0 : (i 0).val = (i' 0).val) (h1 : (i 1).val = (i' 1).val) : i = i' :=
  funext fun a => Fin.ext (match a with | ⟨0, _⟩ => h0 | ⟨1, _⟩ => h1)

/-! ## The three conditions as arithmetic on the chunk number -/

/-- The reset condition holds exactly at chunk 0. -/
theorem condZ_iff (i : grid0.Coords) : condZ i ↔ (i 1).val = 0 :=
  (by decide : ∀ n : Fin 79, (Scalar.cmpi .ne (Scalar.extui (Scalar.cmpi .eq (BitVec.ofNat 32 n.val) 0#32)) 0#32) = 1#1 ↔ n.val = 0) (i 1)

/-- The conjunction of two one-bit tests, widened and compared with zero, holds exactly when both tests do. -/
theorem and_bits_iff (p q : Bool) :
    Scalar.cmpi .ne (Scalar.extui (Scalar.andi (BitVec.ofBool p) (BitVec.ofBool q))) 0#32 = 1#1 ↔ p = true ∧ q = true := by
  cases p <;> cases q <;> decide

/-- A chunk number below 79, as a word read signed, is itself. -/
theorem chunk_toInt (n : ℕ) (hn : n < 79) : (BitVec.ofNat 32 n).toInt = (n : ℤ) := by
  have h : n % 2 ^ 32 = n := Nat.mod_eq_of_lt (by omega)
  rw [BitVec.toInt_eq_toNat_cond, BitVec.toNat_ofNat, h, if_pos (by omega)]

/-- The range condition is `lo ≤ chunk ≤ hi` on the words read signed. -/
theorem condW_iff (i : grid0.Coords) (lo hi : BitVec 32) :
    condW i lo hi ↔ lo.toInt ≤ ((i 1).val : ℤ) ∧ ((i 1).val : ℤ) ≤ hi.toInt := by
  have hi' : (i 1).val < 79 := (i 1).isLt
  show Scalar.cmpi .ne (Scalar.extui (Scalar.andi (BitVec.ofBool (lo.sle (BitVec.ofNat 32 (i 1).val)))
      (BitVec.ofBool ((BitVec.ofNat 32 (i 1).val).sle hi)))) 0#32 = 1#1 ↔ _
  rw [and_bits_iff, BitVec.sle_iff_toInt_le, BitVec.sle_iff_toInt_le, chunk_toInt _ hi']

/-! ## The chunk's rows of the table -/

/-- Chunk `i 1`'s 256 rows of the table: row `j` of them is the table's row `(i 1) * 256 + j`. -/
theorem tabRows_apply {F : FTy → Type} [FloatOps F] (i : grid0.Coords) (x : Vec F S20224x192 .bf16) (j : Fin 256) (q : Fin 192)
    (hr : (i 1).val * 256 + j.val < 20224) :
    tabRows i x (ix2 j q) = x (ix2 ⟨(i 1).val * 256 + j.val, hr⟩ q) := by
  have hi' : (i 1).val < 79 := (i 1).isLt
  have ho : (k0_off2 i) 0 = (i 1).val * 256 := by
    show (BitVec.ofNat 32 (i 1).val * 256#32).toNat = _
    simp only [BitVec.toNat_mul, BitVec.toNat_ofNat]
    omega
  unfold tabRows
  refine congrArg x (funext fun a => Fin.ext ?_)
  match a with
  | ⟨0, _⟩ =>
    show (k0_off2 i) 0 + 1 * j.val = (i 1).val * 256 + j.val
    rw [ho]; omega
  | ⟨1, _⟩ =>
    show 0 + 1 * q.val = q.val
    omega

variable (V : (c : Dev nD) → (b : Ref sig .tc) → Buf (Elt Ideal) ((c : Thread nD τ).loc b))
variable (a0 : (pcfg0 (F := Ideal)).Adm)

/-! ## The blocks that do not change along a k-tile -/

/-- A block of a window read off its array: the array at the block's place. -/
theorem iblk_apply (c : Dev nD) (w : Fin (cfg0 a0).W) (t : Fin (cfg0 a0).N)
    (y : (((cfg0 a0).win w).xblock ((cfg0 a0).grid.coords t)).Idx) :
    iblk V a0 c w t y = ((cfg0 a0).win w).arr.view.read (Elt Ideal) (V c (Pipeline.arrRef spec0 w)) ((((cfg0 a0).win w).rect t).emb y) := rfl

/-- The position block of a point depends on its k-tile only. -/
theorem iblk0_congr (c : Dev nD) (t t' : Fin (cfg0 a0).N) (h : (grid0.coords t 0).val = (grid0.coords t' 0).val) :
    (iblk V a0 c 0 t : Vec Ideal S8x600 .f32) = iblk V a0 c 0 t' := by
  funext y
  rw [iblk_apply, iblk_apply]
  refine congrArg _ (funext fun a => Fin.ext ?_)
  rw [Pipeline.Window.rect_emb_val, Pipeline.Window.rect_emb_val]
  have e : ((cfg0 a0).win 0).index t = ((cfg0 a0).win 0).index t' := by
    show cc0_transform_0 (grid0.coords t) = cc0_transform_0 (grid0.coords t')
    unfold cc0_transform_0
    simp only [h]
  rw [e]

/-- The table's window is the whole table at every point. -/
theorem iblk1_congr (c : Dev nD) (t t' : Fin (cfg0 a0).N) :
    (iblk V a0 c 1 t : Vec Ideal S20224x192 .bf16) = iblk V a0 c 1 t' := by
  funext y
  rw [iblk_apply, iblk_apply]
  refine congrArg _ (funext fun a => Fin.ext ?_)
  rw [Pipeline.Window.rect_emb_val, Pipeline.Window.rect_emb_val]
  rfl

/-- The word a table holds at a point's cell depends on the point's k-tile only. -/
theorem wordOf_congr (i i' : grid0.Coords) (h : (i 0).val = (i' 0).val) (x : Vec Ideal S128 .i32) : wordOf i x = wordOf i' x := by
  have e : k0_off1 i = k0_off1 i' := by unfold k0_off1; simp only [h]
  unfold wordOf
  refine congrArg x (funext fun a => Fin.ext ?_)
  show k0_off1 i a + 1 * _ = k0_off1 i' a + 1 * _
  rw [e]

/-! ## One k-tile's accumulation in closed form -/

/-- The table at a row given by its number (numbers past the last row wrap: none is asked). -/
def tabAt (T : Vec Ideal S20224x192 .bf16) (r : ℕ) (q : Fin 192) : EReal :=
  T (ix2 ⟨r % 20224, Nat.mod_lt _ (by decide)⟩ q)

theorem tabAt_of_lt (T : Vec Ideal S20224x192 .bf16) (r : ℕ) (q : Fin 192) (h : r < 20224) : tabAt T r q = T (ix2 ⟨r, h⟩ q) := by
  unfold tabAt
  exact congrArg (fun k => T (ix2 k q)) (Fin.ext (Nat.mod_eq_of_lt h))

/-- What chunk `nx` of the table adds to the accumulator at `(b, tt, q)`: over the chunk's 256 rows, the hat weight of the
    position `x (b, tt)` at the row's number times the table's entry at that row and column `q`. -/
def chunkTerm (x : Vec Ideal S8x600 .f32) (T : Vec Ideal S20224x192 .bf16) (b : Fin 8) (tt : Fin 600) (q : Fin 192) (nx : ℕ) : EReal :=
  ∑ j : Fin 256, max 0 (1 - max (x (ix2 b tt) - ((nx * 256 + j.val : ℕ) : EReal))
      (-(x (ix2 b tt) - ((nx * 256 + j.val : ℕ) : EReal)))) * tabAt T (nx * 256 + j.val) q

/-- A word that is not negative read signed is the same number read unsigned. -/
theorem toInt_eq_toNat_of_nonneg (x : BitVec 32) (h : 0 ≤ x.toInt) : x.toInt = (x.toNat : ℤ) := by
  have hlt := x.isLt
  rw [BitVec.toInt_eq_toNat_cond] at h ⊢
  by_cases h2 : 2 * x.toNat < 2 ^ 32
  · rw [if_pos h2]
  · rw [if_neg h2] at h; omega

/-- A chunk number lies between two words read signed. -/
def inWords (lo hi : BitVec 32) (nx : ℕ) : Prop := lo.toInt ≤ (nx : ℤ) ∧ (nx : ℤ) ≤ hi.toInt

instance (lo hi : BitVec 32) : DecidablePred (inWords lo hi) := fun _ => inferInstanceAs (Decidable (_ ∧ _))

section Tile
variable (c : Dev nD) (kt : Fin 128)

/-- The point of k-tile `kt`, chunk `n`. -/
def tpt (n : ℕ) : Fin (cfg0 a0).N := pt a0 (kt.val * 79 + n)

theorem tpt_val (n : ℕ) (hn : n < 79) : (tpt a0 kt n).val = kt.val * 79 + n := by
  show (kt.val * 79 + n) % grid0.N = _
  rw [N_0]; have := kt.isLt; omega

/-- Any point at position `kt * 79 + n` is that point. -/
theorem tpt_eq_of_val (n : ℕ) (hn : n < 79) (t : Fin (cfg0 a0).N) (h : t.val = kt.val * 79 + n) : tpt a0 kt n = t :=
  Fin.ext ((tpt_val a0 kt n hn).trans h.symm)

theorem tpt_coords (n : ℕ) (hn : n < 79) :
    (grid0.coords (tpt a0 kt n) 0).val = kt.val ∧ (grid0.coords (tpt a0 kt n) 1).val = n := by
  have h : kt.val * 79 + n < grid0.N := by rw [N_0]; have := kt.isLt; omega
  have e : tpt a0 kt n = ⟨kt.val * 79 + n, h⟩ := Fin.ext (tpt_val a0 kt n hn)
  rw [e]; exact coords_tile kt.val n kt.isLt hn h

/-- The two words of the k-tile: what the two tables hold at its cell. -/
def tileLoW : BitVec 32 := wordOf (grid0.coords (tpt a0 kt 78)) (loOf a0)
def tileHiW : BitVec 32 := wordOf (grid0.coords (tpt a0 kt 78)) (hiOf a0)

/-- The range condition at chunk `n` of the tile is `lo ≤ n ≤ hi` on the tile's two words. -/
theorem inRange_tile (n : ℕ) (hn : n < 79) : inRange a0 (tpt a0 kt n) ↔ inWords (tileLoW a0 kt) (tileHiW a0 kt) n := by
  have h0 : (grid0.coords (tpt a0 kt n) 0).val = (grid0.coords (tpt a0 kt 78) 0).val :=
    (tpt_coords a0 kt n hn).1.trans (tpt_coords a0 kt 78 (by decide)).1.symm
  show condW _ _ _ ↔ _
  rw [condW_iff, wordOf_congr _ _ h0, wordOf_congr _ _ h0, (tpt_coords a0 kt n hn).2]
  rfl

/-- One table step at chunk `n`, over a position block and a whole table: the accumulator's entry plus the chunk's term. -/
theorem pay2_chunk (i : grid0.Coords) (x : Vec Ideal S8x600 .f32) (T : Vec Ideal S20224x192 .bf16)
    (base : Vec Ideal S8x600x192 .f32) (b : Fin 8) (tt : Fin 600) (q : Fin 192) (n : ℕ) (hn : n < 79) (hi : (i 1).val = n) :
    k0_pay2 i x (tabRows i T) base (ix3 b tt q) = base (ix3 b tt q) + chunkTerm x T b tt q n := by
  rw [k0_pay2_apply]
  refine congrArg (base (ix3 b tt q) + ·) (Finset.sum_congr rfl fun j _ => ?_)
  have hrow : (i 1).val * 256 + j.val < 20224 := by rw [hi]; have := j.isLt; omega
  rw [tabRows_apply _ _ j q hrow, ← tabAt_of_lt T _ q hrow, hi]

/-- One point's update of the accumulator, at an entry: the chunk's term added when the chunk is in range. -/
theorem upd_tile_apply (n : ℕ) (hn : n < 79) (base : Vec Ideal S8x600x192 .f32) (b : Fin 8) (tt : Fin 600) (q : Fin 192) :
    upd V a0 c (tpt a0 kt n) base (ix3 b tt q)
      = if inWords (tileLoW a0 kt) (tileHiW a0 kt) n
          then base (ix3 b tt q) + chunkTerm (iblk V a0 c 0 (tpt a0 kt 78)) (iblk V a0 c 1 (tpt a0 kt 78)) b tt q n
          else base (ix3 b tt q) := by
  have hc := tpt_coords a0 kt n hn
  have h0 : (grid0.coords (tpt a0 kt n) 0).val = (grid0.coords (tpt a0 kt 78) 0).val :=
    hc.1.trans (tpt_coords a0 kt 78 (by decide)).1.symm
  by_cases hr : inRange a0 (tpt a0 kt n)
  · rw [upd_T V a0 c _ _ hr, if_pos ((inRange_tile a0 kt n hn).mp hr)]
    exact (congrArg₂ (fun (x : Vec Ideal S8x600 .f32) (T : Vec Ideal S20224x192 .bf16) =>
        k0_pay2 (grid0.coords (tpt a0 kt n)) x (tabRows (grid0.coords (tpt a0 kt n)) T) base (ix3 b tt q))
        (iblk0_congr V a0 c _ _ h0) (iblk1_congr V a0 c (tpt a0 kt n) (tpt a0 kt 78))).trans
      (pay2_chunk _ _ _ base b tt q n hn hc.2)
  · rw [upd_F V a0 c _ _ hr, if_neg (fun h => hr ((inRange_tile a0 kt n hn).mpr h))]

/-- The accumulator after position `kt * 79 + n` is the accumulator after the tile's chunk `n`. -/
theorem accN_tile (n : ℕ) (hn : n < 79) : accN V a0 c (kt.val * 79 + n) = accAfter V a0 c (tpt a0 kt n) := by
  show _ = accN V a0 c (tpt a0 kt n).val
  rw [tpt_val a0 kt n hn]

/-- THE ACCUMULATOR AFTER A K-TILE'S LAST CHUNK, at an entry: the sum, over the chunks in the range the tile's two words
    give, of the chunks' terms, with the tile's position block and the table as the last point reads them. -/
theorem acc_tile (b : Fin 8) (tt : Fin 600) (q : Fin 192) :
    accAfter V a0 c (tpt a0 kt 78) (ix3 b tt q)
      = ∑ nx ∈ (Finset.range 79).filter (inWords (tileLoW a0 kt) (tileHiW a0 kt)),
          chunkTerm (iblk V a0 c 0 (tpt a0 kt 78)) (iblk V a0 c 1 (tpt a0 kt 78)) b tt q nx := by
  rw [← accN_tile V a0 c kt 78 (by decide)]
  refine Cert.Hand.Math.eq_sum_of_rec (inWords (tileLoW a0 kt) (tileHiW a0 kt))
    (fun k a => a + chunkTerm (iblk V a0 c 0 (tpt a0 kt 78)) (iblk V a0 c 1 (tpt a0 kt 78)) b tt q k)
    (chunkTerm (iblk V a0 c 0 (tpt a0 kt 78)) (iblk V a0 c 1 (tpt a0 kt 78)) b tt q) (fun _ _ => rfl)
    (fun n => accN V a0 c (kt.val * 79 + n) (ix3 b tt q)) 78 ?_ ?_ 78 (le_refl _)
  · -- chunk 0 restarts from zeros
    show accN V a0 c (kt.val * 79 + 0) (ix3 b tt q) = _
    have hz : condZ (grid0.coords (tpt a0 kt 0)) := (condZ_iff _).mpr (tpt_coords a0 kt 0 (by decide)).2
    rw [accN_tile V a0 c kt 0 (by decide), accAfter_Z V a0 c _ hz, upd_tile_apply V a0 c kt 0 (by decide), k0_pay1_apply]
  · -- a later chunk continues from the chunk before
    intro n hn
    show accN V a0 c (kt.val * 79 + (n + 1)) (ix3 b tt q) = _
    have hn' : n + 1 < 79 := by omega
    have hz : ¬condZ (grid0.coords (tpt a0 kt (n + 1))) := fun h => by
      have := (condZ_iff _).mp h; rw [(tpt_coords a0 kt (n + 1) hn').2] at this; omega
    have hv := tpt_val a0 kt (n + 1) hn'
    have ht : (tpt a0 kt (n + 1)).val ≠ 0 := by rw [hv]; omega
    rw [accN_tile V a0 c kt (n + 1) hn', accAfter_N V a0 c _ hz ht, upd_tile_apply V a0 c kt (n + 1) hn',
      show (tpt a0 kt (n + 1)).val - 1 = kt.val * 79 + n from by rw [hv]; omega]

/-- The same when the tile's two words, read signed, lie between 0 and 78: the sum over the chunks from the one to the other. -/
theorem acc_tile_Icc (b : Fin 8) (tt : Fin 600) (q : Fin 192)
    (hlo : 0 ≤ (tileLoW a0 kt).toInt) (hhi0 : 0 ≤ (tileHiW a0 kt).toInt) (hhi : (tileHiW a0 kt).toInt ≤ 78) :
    accAfter V a0 c (tpt a0 kt 78) (ix3 b tt q)
      = ∑ nx ∈ Finset.Icc (tileLoW a0 kt).toNat (tileHiW a0 kt).toNat,
          chunkTerm (iblk V a0 c 0 (tpt a0 kt 78)) (iblk V a0 c 1 (tpt a0 kt 78)) b tt q nx := by
  rw [acc_tile]
  refine Finset.sum_congr ?_ fun _ _ => rfl
  have e1 := toInt_eq_toNat_of_nonneg _ hlo
  have e2 := toInt_eq_toNat_of_nonneg _ hhi0
  ext k
  rw [Finset.mem_filter, Finset.mem_range, Finset.mem_Icc]
  unfold inWords
  rw [e1, e2]; rw [e2] at hhi
  omega

end Tile

end Cert.KernelIdeal.Hand

end
-- ==== Proof.Region0Sched.lean ====
/- REGION 0: its index maps and write-back schedule, decided once over the 128 x 79 grid.  Point `t` is chunk `t % 79`
   of k-tile `t / 79`; the row-blocked windows sit at block index (k-tile, 0), the table and the position weights at
   (0, 0); a result window is written back exactly at the last chunk of each k-tile. -/
import proofs.«103908_j25280177504693_2_alg».proof.Proof.Region0.Dat
import Idealize.ShloMosaic.Lib.Pipeline.Value
import Idealize.ShloMosaic.Lib.Pipeline.Cells
import Idealize.ShloMosaic.Lib.Pipeline.Kit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Sched0

variable {F : FTy → Type} [FloatOps F]

variable (V : (c : Dev nD) → (b : Ref sig .tc) → Buf (Elt F) ((c : Thread nD τ).loc b))
variable (a0 : (pcfg0 (F := F)).Adm)

/-! ## The index maps and the write-back schedule, decided over the grid

Point `t` is chunk `t % 79` of k-tile `t / 79`.  None of the index maps reads a table. -/

/-- The two result windows and the five row-blocked inputs sit at block index (k-tile, 0); the table and the
    position weights at (0, 0). -/
theorem idx0_rows : ∀ t : Fin (cfg0 a0).N,
    (((cfg0 a0).win 0).index t (0 : Fin 2) = t.val / 79 ∧ ((cfg0 a0).win 0).index t (1 : Fin 2) = 0)
    ∧ (((cfg0 a0).win 2).index t (0 : Fin 2) = t.val / 79 ∧ ((cfg0 a0).win 2).index t (1 : Fin 2) = 0)
    ∧ (((cfg0 a0).win 3).index t (0 : Fin 2) = t.val / 79 ∧ ((cfg0 a0).win 3).index t (1 : Fin 2) = 0)
    ∧ (((cfg0 a0).win 4).index t (0 : Fin 2) = t.val / 79 ∧ ((cfg0 a0).win 4).index t (1 : Fin 2) = 0)
    ∧ (((cfg0 a0).win 5).index t (0 : Fin 2) = t.val / 79 ∧ ((cfg0 a0).win 5).index t (1 : Fin 2) = 0)
    ∧ (((cfg0 a0).win 7).index t (0 : Fin 2) = t.val / 79 ∧ ((cfg0 a0).win 7).index t (1 : Fin 2) = 0)
    ∧ (((cfg0 a0).win 8).index t (0 : Fin 2) = t.val / 79 ∧ ((cfg0 a0).win 8).index t (1 : Fin 2) = 0) :=
  (by decide +kernel : ∀ t : Fin grid0.N,
    (cc0_transform_0 (grid0.coords t) (0 : Fin 2) = t.val / 79 ∧ cc0_transform_0 (grid0.coords t) (1 : Fin 2) = 0)
    ∧ (cc0_transform_2 (grid0.coords t) (0 : Fin 2) = t.val / 79 ∧ cc0_transform_2 (grid0.coords t) (1 : Fin 2) = 0)
    ∧ (cc0_transform_3 (grid0.coords t) (0 : Fin 2) = t.val / 79 ∧ cc0_transform_3 (grid0.coords t) (1 : Fin 2) = 0)
    ∧ (cc0_transform_4 (grid0.coords t) (0 : Fin 2) = t.val / 79 ∧ cc0_transform_4 (grid0.coords t) (1 : Fin 2) = 0)
    ∧ (cc0_transform_5 (grid0.coords t) (0 : Fin 2) = t.val / 79 ∧ cc0_transform_5 (grid0.coords t) (1 : Fin 2) = 0)
    ∧ (cc0_transform_7 (grid0.coords t) (0 : Fin 2) = t.val / 79 ∧ cc0_transform_7 (grid0.coords t) (1 : Fin 2) = 0)
    ∧ (cc0_transform_8 (grid0.coords t) (0 : Fin 2) = t.val / 79 ∧ cc0_transform_8 (grid0.coords t) (1 : Fin 2) = 0))

theorem idx0_whole : ∀ t : Fin (cfg0 a0).N,
    (((cfg0 a0).win 1).index t (0 : Fin 2) = 0 ∧ ((cfg0 a0).win 1).index t (1 : Fin 2) = 0)
    ∧ (((cfg0 a0).win 6).index t (0 : Fin 2) = 0 ∧ ((cfg0 a0).win 6).index t (1 : Fin 2) = 0) :=
  (by decide +kernel : ∀ t : Fin grid0.N,
    (cc0_transform_1 (grid0.coords t) (0 : Fin 2) = 0 ∧ cc0_transform_1 (grid0.coords t) (1 : Fin 2) = 0)
    ∧ (cc0_transform_6 (grid0.coords t) (0 : Fin 2) = 0 ∧ cc0_transform_6 (grid0.coords t) (1 : Fin 2) = 0))

/-- A result window is written back exactly at the last chunk of each k-tile. -/
theorem flush0_7_iff : ∀ t : Fin (cfg0 a0).N, ((cfg0 a0).win 7).flush t = decide (t.val % 79 = 78) :=
  (by decide +kernel : ∀ t : Fin grid0.N, Window.flushOf grid0 true cc0_transform_7 t = decide (t.val % 79 = 78))
theorem flush0_8_iff : ∀ t : Fin (cfg0 a0).N, ((cfg0 a0).win 8).flush t = decide (t.val % 79 = 78) :=
  (by decide +kernel : ∀ t : Fin grid0.N, Window.flushOf grid0 true cc0_transform_8 t = decide (t.val % 79 = 78))

/-- The last chunk of k-tile `kt`. -/
def lastPt (kt : Fin 128) : Fin (cfg0 a0).N := ⟨kt.val * 79 + 78, by have := kt.isLt; show _ < 10112; omega⟩

theorem lastPt_val (kt : Fin 128) : (lastPt a0 kt).val = kt.val * 79 + 78 := rfl

end Sched0

end Cert.KernelIdeal.Hand

end
-- ==== Proof.Region0Value.lean ====
/- REGION 0, READ AS VALUES: what the first call's two result arrays hold after its 128 x 79 grid.  Each result window
   is an 8x48 block at block index (k-tile, 0), written back only at the k-tile's last chunk; so row `i` of a final
   array is row `i % 8` of what the last chunk of k-tile `i / 8` left in the window.  Also: each input block as a
   restriction of its array as the region found it. -/
import proofs.«103908_j25280177504693_2_alg».proof.Proof.Region0Sched
import Idealize.ShloMosaic.Lib.Pipeline.Value
import Idealize.ShloMosaic.Lib.Pipeline.Cells
import Idealize.ShloMosaic.Lib.Pipeline.Kit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Arrays0

variable {F : FTy → Type} [FloatOps F]

variable (V : (c : Dev nD) → (b : Ref sig .tc) → Buf (Elt F) ((c : Thread nD τ).loc b))
variable (a0 : (pcfg0 (F := F)).Adm)

/-! ## What the last chunk leaves in each result window, and the final arrays row by row -/

/-- What the body leaves in result window 7 at point `p` (consulted at last chunks only). -/
abbrev left7 (c : Dev nD) (p : Fin (cfg0 a0).N) : Vec F S8x48 .f32 :=
  k0_pay4 (accAfter V a0 c p) (iblk V a0 c 2 p) (iblk V a0 c 3 p) (iblk V a0 c 4 p) (iblk V a0 c 6 p)
/-- What the body leaves in result window 8 at point `p`. -/
abbrev left8 (c : Dev nD) (p : Fin (cfg0 a0).N) : Vec F S8x48 .f32 :=
  k0_pay5 (accAfter V a0 c p) (iblk V a0 c 5 p) (iblk V a0 c 6 p)

/-- The k-tile of an array row, and the row inside its tile. -/
def tileOf (i : Fin 1024) : Fin 128 := ⟨i.val / 8, by have := i.isLt; omega⟩
def rowIn (i : Fin 1024) : Fin 8 := ⟨i.val % 8, Nat.mod_lt _ (by decide)⟩

/-- The first result array after the grid: row `i` is row `i % 8` of what k-tile `i / 8`'s last chunk left. -/
def G7 (c : Dev nD) : Vec F S1024x48 .f32 :=
  fun i => left7 V a0 c (lastPt a0 (tileOf (i 0))) (ix2 (rowIn (i 0)) (i 1))
/-- The second result array after the grid, likewise. -/
def G8 (c : Dev nD) : Vec F S1024x48 .f32 :=
  fun i => left8 V a0 c (lastPt a0 (tileOf (i 0))) (ix2 (rowIn (i 0)) (i 1))

theorem G7_apply (c : Dev nD) (i : Fin 1024) (l : Fin 48) :
    G7 V a0 c (ix2 i l) = left7 V a0 c (lastPt a0 (tileOf i)) (ix2 (rowIn i) l) := rfl
theorem G8_apply (c : Dev nD) (i : Fin 1024) (l : Fin 48) :
    G8 V a0 c (ix2 i l) = left8 V a0 c (lastPt a0 (tileOf i)) (ix2 (rowIn i) l) := rfl

/-- A last chunk is the last point of its k-tile. -/
theorem eq_lastPt (t : Fin (cfg0 a0).N) (ht : t.val % 79 = 78) (i : Fin 1024) (hi : i.val / 8 = t.val / 79) :
    lastPt a0 (tileOf i) = t := by
  apply Fin.ext
  show i.val / 8 * 79 + 78 = t.val
  rw [hi]; omega

/-- At a last chunk `t`, row `(t / 79) * 8 + b` of `G7` is row `b` of what the body left there. -/
theorem G7_at (c : Dev nD) (t : Fin (cfg0 a0).N) (ht : t.val % 79 = 78) (r : Fin 1024) (l : Fin 48) (b : Fin 8)
    (hr : r.val = t.val / 79 * 8 + b.val) : G7 V a0 c (ix2 r l) = left7 V a0 c t (ix2 b l) := by
  have hb := b.isLt
  rw [G7_apply, eq_lastPt a0 t ht r (by omega)]
  exact congrArg (fun x => left7 V a0 c t (ix2 x l)) (Fin.ext (by show r.val % 8 = b.val; omega))
theorem G8_at (c : Dev nD) (t : Fin (cfg0 a0).N) (ht : t.val % 79 = 78) (r : Fin 1024) (l : Fin 48) (b : Fin 8)
    (hr : r.val = t.val / 79 * 8 + b.val) : G8 V a0 c (ix2 r l) = left8 V a0 c t (ix2 b l) := by
  have hb := b.isLt
  rw [G8_apply, eq_lastPt a0 t ht r (by omega)]
  exact congrArg (fun x => left8 V a0 c t (ix2 x l)) (Fin.ext (by show r.val % 8 = b.val; omega))

/-- WHAT A WRITE-BACK WRITES is its block of `G7`. -/
theorem flushed0_7_eq (c : Dev nD) (t : Fin (cfg0 a0).N) (hf : ((cfg0 a0).win 7).flush t = true) :
    (dat0 V a0 c).flushed 7 t = (((cfg0 a0).win 7).blk t).view.read (Elt F) (G7 V a0 c) := by
  have ht : t.val % 79 = 78 := by rw [flush0_7_iff] at hf; exact of_decide_eq_true hf
  obtain ⟨-, -, -, -, -, ⟨e0, e1⟩, -⟩ := idx0_rows a0 t
  have hN : t.val < 10112 := t.isLt
  refine funext fun (j : S8x48.Idx) => ?_
  have hj0 : (j 0).val < 8 := (j 0).isLt
  have hj1 : (j 1).val < 48 := (j 1).isLt
  show left7 V a0 c t j = G7 V a0 c ((((cfg0 a0).win 7).blk t).view.emb j)
  have hemb : (((cfg0 a0).win 7).blk t).view.emb j
      = ix2 (⟨t.val / 79 * 8 + (j 0).val, by omega⟩ : Fin 1024) (⟨(j 1).val, hj1⟩ : Fin 48) := by
    funext a; apply Fin.ext
    match a with
    | ⟨0, _⟩ => show ((cfg0 a0).win 7).index t (0 : Fin 2) * 8 + 1 * (j 0).val = t.val / 79 * 8 + (j 0).val; omega
    | ⟨1, _⟩ => show ((cfg0 a0).win 7).index t (1 : Fin 2) * 48 + 1 * (j 1).val = (j 1).val; omega
  rw [hemb, G7_at V a0 c t ht _ _ ⟨(j 0).val, hj0⟩ rfl]
  exact congrArg (left7 V a0 c t) (funext fun a => match a with | ⟨0, _⟩ => rfl | ⟨1, _⟩ => rfl)
theorem flushed0_8_eq (c : Dev nD) (t : Fin (cfg0 a0).N) (hf : ((cfg0 a0).win 8).flush t = true) :
    (dat0 V a0 c).flushed 8 t = (((cfg0 a0).win 8).blk t).view.read (Elt F) (G8 V a0 c) := by
  have ht : t.val % 79 = 78 := by rw [flush0_8_iff] at hf; exact of_decide_eq_true hf
  obtain ⟨-, -, -, -, -, -, ⟨e0, e1⟩⟩ := idx0_rows a0 t
  have hN : t.val < 10112 := t.isLt
  refine funext fun (j : S8x48.Idx) => ?_
  have hj0 : (j 0).val < 8 := (j 0).isLt
  have hj1 : (j 1).val < 48 := (j 1).isLt
  show left8 V a0 c t j = G8 V a0 c ((((cfg0 a0).win 8).blk t).view.emb j)
  have hemb : (((cfg0 a0).win 8).blk t).view.emb j
      = ix2 (⟨t.val / 79 * 8 + (j 0).val, by omega⟩ : Fin 1024) (⟨(j 1).val, hj1⟩ : Fin 48) := by
    funext a; apply Fin.ext
    match a with
    | ⟨0, _⟩ => show ((cfg0 a0).win 8).index t (0 : Fin 2) * 8 + 1 * (j 0).val = t.val / 79 * 8 + (j 0).val; omega
    | ⟨1, _⟩ => show ((cfg0 a0).win 8).index t (1 : Fin 2) * 48 + 1 * (j 1).val = (j 1).val; omega
  rw [hemb, G8_at V a0 c t ht _ _ ⟨(j 0).val, hj0⟩ rfl]
  exact congrArg (left8 V a0 c t) (funext fun a => match a with | ⟨0, _⟩ => rfl | ⟨1, _⟩ => rfl)

/-- An array index whose row is row `b` of k-tile `t / 79` lies in window 7's block at point `t`. -/
theorem mem_blk0_7 (t : Fin (cfg0 a0).N) (i : S1024x48.Idx) (b : Fin 8) (h0 : (i 0).val = t.val / 79 * 8 + b.val) :
    i ∈ (((cfg0 a0).win 7).blk t).view.set := by
  obtain ⟨-, -, -, -, -, ⟨e0, e1⟩, -⟩ := idx0_rows a0 t
  have hi1 : (i 1).val < 48 := (i 1).isLt
  have hy : (((cfg0 a0).win 7).blk t).view.emb (ix2 b (⟨(i 1).val, hi1⟩ : Fin 48) : S8x48.Idx) = i := by
    funext a; apply Fin.ext
    match a with
    | ⟨0, _⟩ => show ((cfg0 a0).win 7).index t (0 : Fin 2) * 8 + 1 * b.val = (i 0).val; omega
    | ⟨1, _⟩ => show ((cfg0 a0).win 7).index t (1 : Fin 2) * 48 + 1 * (i 1).val = (i 1).val; omega
  have hm := (((cfg0 a0).win 7).blk t).view.emb_mem_set (ix2 b (⟨(i 1).val, hi1⟩ : Fin 48) : S8x48.Idx)
  rw [hy] at hm
  exact hm
/-- Every row of a result array lies in the block of its k-tile's last chunk, which is written back. -/
theorem cover0_7 (i : S1024x48.Idx) :
    ∃ t : Fin (cfg0 a0).N, ((cfg0 a0).win 7).flush t = true ∧ i ∈ (((cfg0 a0).win 7).blk t).view.set := by
  have hi0 : (i 0).val < 1024 := (i 0).isLt
  have ev : (lastPt a0 (tileOf ⟨(i 0).val, hi0⟩)).val = (i 0).val / 8 * 79 + 78 := rfl
  refine ⟨lastPt a0 (tileOf ⟨(i 0).val, hi0⟩), ?_, mem_blk0_7 a0 _ i (rowIn ⟨(i 0).val, hi0⟩) ?_⟩
  · rw [flush0_7_iff]; apply decide_eq_true; rw [ev]; omega
  · rw [ev]; show (i 0).val = ((i 0).val / 8 * 79 + 78) / 79 * 8 + (i 0).val % 8; omega
/-- An array index whose row is row `b` of k-tile `t / 79` lies in window 8's block at point `t`. -/
theorem mem_blk0_8 (t : Fin (cfg0 a0).N) (i : S1024x48.Idx) (b : Fin 8) (h0 : (i 0).val = t.val / 79 * 8 + b.val) :
    i ∈ (((cfg0 a0).win 8).blk t).view.set := by
  obtain ⟨-, -, -, -, -, -, ⟨e0, e1⟩⟩ := idx0_rows a0 t
  have hi1 : (i 1).val < 48 := (i 1).isLt
  have hy : (((cfg0 a0).win 8).blk t).view.emb (ix2 b (⟨(i 1).val, hi1⟩ : Fin 48) : S8x48.Idx) = i := by
    funext a; apply Fin.ext
    match a with
    | ⟨0, _⟩ => show ((cfg0 a0).win 8).index t (0 : Fin 2) * 8 + 1 * b.val = (i 0).val; omega
    | ⟨1, _⟩ => show ((cfg0 a0).win 8).index t (1 : Fin 2) * 48 + 1 * (i 1).val = (i 1).val; omega
  have hm := (((cfg0 a0).win 8).blk t).view.emb_mem_set (ix2 b (⟨(i 1).val, hi1⟩ : Fin 48) : S8x48.Idx)
  rw [hy] at hm
  exact hm
theorem cover0_8 (i : S1024x48.Idx) :
    ∃ t : Fin (cfg0 a0).N, ((cfg0 a0).win 8).flush t = true ∧ i ∈ (((cfg0 a0).win 8).blk t).view.set := by
  have hi0 : (i 0).val < 1024 := (i 0).isLt
  have ev : (lastPt a0 (tileOf ⟨(i 0).val, hi0⟩)).val = (i 0).val / 8 * 79 + 78 := rfl
  refine ⟨lastPt a0 (tileOf ⟨(i 0).val, hi0⟩), ?_, mem_blk0_8 a0 _ i (rowIn ⟨(i 0).val, hi0⟩) ?_⟩
  · rw [flush0_8_iff]; apply decide_eq_true; rw [ev]; omega
  · rw [ev]; show (i 0).val = ((i 0).val / 8 * 79 + 78) / 79 * 8 + (i 0).val % 8; omega

/-- THE RESULT ARRAYS after the grid. -/
theorem arrAt0_7 (c : Dev nD) : (dat0 V a0 c).arrAt 7 (cfg0 a0).N = G7 V a0 c :=
  (dat0 V a0 c).arrAt_eq_of_cover 7 (G7 V a0 c) (fun t hf => flushed0_7_eq V a0 c t hf) (cover0_7 a0)
theorem arrAt0_8 (c : Dev nD) : (dat0 V a0 c).arrAt 8 (cfg0 a0).N = G8 V a0 c :=
  (dat0 V a0 c).arrAt_eq_of_cover 8 (G8 V a0 c) (fun t hf => flushed0_8_eq V a0 c t hf) (cover0_8 a0)

/-- Row by row: row `i` of a result array is row `i % 8` of what the last chunk of k-tile `i / 8` computed from the
    accumulator and that tile's blocks. -/
theorem arrAt0_7_apply (c : Dev nD) (i : Fin 1024) (l : Fin 48) :
    (dat0 V a0 c).arrAt 7 (cfg0 a0).N (ix2 i l)
      = k0_pay4 (accAfter V a0 c (lastPt a0 (tileOf i))) (iblk V a0 c 2 (lastPt a0 (tileOf i)))
          (iblk V a0 c 3 (lastPt a0 (tileOf i))) (iblk V a0 c 4 (lastPt a0 (tileOf i)))
          (iblk V a0 c 6 (lastPt a0 (tileOf i))) (ix2 (rowIn i) l) :=
  congrFun (arrAt0_7 V a0 c) (ix2 i l)
theorem arrAt0_8_apply (c : Dev nD) (i : Fin 1024) (l : Fin 48) :
    (dat0 V a0 c).arrAt 8 (cfg0 a0).N (ix2 i l)
      = k0_pay5 (accAfter V a0 c (lastPt a0 (tileOf i))) (iblk V a0 c 5 (lastPt a0 (tileOf i)))
          (iblk V a0 c 6 (lastPt a0 (tileOf i))) (ix2 (rowIn i) l) :=
  congrFun (arrAt0_8 V a0 c) (ix2 i l)

/-! ## The input blocks as restrictions of the arrays the region found

Row `b` of a row-blocked window's block at point `t` is row `8 * (t / 79) + b` of its array; the table's and the
position weights' blocks are their whole arrays. -/

/-- The row of the array under row `b` of the block at point `t`. -/
def rowAt (t : Fin (cfg0 a0).N) (b : Fin 8) : Fin 1024 :=
  ⟨8 * (t.val / 79) + b.val, by have hN : t.val < 10112 := t.isLt; have := b.isLt; omega⟩

theorem iblk0_0_apply (c : Dev nD) (t : Fin (cfg0 a0).N) (b : Fin 8) (q : Fin 600) :
    iblk V a0 c 0 t (ix2 b q) = (V c (Pipeline.arrRef spec0 0) : Vec F S1024x600 .f32) (ix2 (rowAt a0 t b) q) := by
  obtain ⟨⟨e0, e1⟩, -⟩ := idx0_rows a0 t
  show V c main_v18 ((((cfg0 a0).win 0).blk t).view.emb (ix2 b q)) = V c main_v18 (ix2 (rowAt a0 t b) q)
  refine congrArg (V c main_v18) ?_
  funext a; apply Fin.ext
  match a with
  | ⟨0, _⟩ => show ((cfg0 a0).win 0).index t (0 : Fin 2) * 8 + 1 * b.val = 8 * (t.val / 79) + b.val; omega
  | ⟨1, _⟩ => show ((cfg0 a0).win 0).index t (1 : Fin 2) * 600 + 1 * q.val = q.val; omega
theorem iblk0_2_apply (c : Dev nD) (t : Fin (cfg0 a0).N) (b : Fin 8) (q : Fin 600) :
    iblk V a0 c 2 t (ix2 b q) = (V c (Pipeline.arrRef spec0 2) : Vec F S1024x600 .f32) (ix2 (rowAt a0 t b) q) := by
  obtain ⟨-, ⟨e0, e1⟩, -⟩ := idx0_rows a0 t
  show V c main_arg3 ((((cfg0 a0).win 2).blk t).view.emb (ix2 b q)) = V c main_arg3 (ix2 (rowAt a0 t b) q)
  refine congrArg (V c main_arg3) ?_
  funext a; apply Fin.ext
  match a with
  | ⟨0, _⟩ => show ((cfg0 a0).win 2).index t (0 : Fin 2) * 8 + 1 * b.val = 8 * (t.val / 79) + b.val; omega
  | ⟨1, _⟩ => show ((cfg0 a0).win 2).index t (1 : Fin 2) * 600 + 1 * q.val = q.val; omega
theorem iblk0_3_apply (c : Dev nD) (t : Fin (cfg0 a0).N) (b : Fin 8) (q : Fin 600) :
    iblk V a0 c 3 t (ix2 b q) = (V c (Pipeline.arrRef spec0 3) : Vec F S1024x600 .f32) (ix2 (rowAt a0 t b) q) := by
  obtain ⟨-, -, ⟨e0, e1⟩, -⟩ := idx0_rows a0 t
  show V c main_arg4 ((((cfg0 a0).win 3).blk t).view.emb (ix2 b q)) = V c main_arg4 (ix2 (rowAt a0 t b) q)
  refine congrArg (V c main_arg4) ?_
  funext a; apply Fin.ext
  match a with
  | ⟨0, _⟩ => show ((cfg0 a0).win 3).index t (0 : Fin 2) * 8 + 1 * b.val = 8 * (t.val / 79) + b.val; omega
  | ⟨1, _⟩ => show ((cfg0 a0).win 3).index t (1 : Fin 2) * 600 + 1 * q.val = q.val; omega
theorem iblk0_4_apply (c : Dev nD) (t : Fin (cfg0 a0).N) (b : Fin 8) (q : Fin 600) :
    iblk V a0 c 4 t (ix2 b q) = (V c (Pipeline.arrRef spec0 4) : Vec F S1024x600 .f32) (ix2 (rowAt a0 t b) q) := by
  obtain ⟨-, -, -, ⟨e0, e1⟩, -⟩ := idx0_rows a0 t
  show V c main_arg5 ((((cfg0 a0).win 4).blk t).view.emb (ix2 b q)) = V c main_arg5 (ix2 (rowAt a0 t b) q)
  refine congrArg (V c main_arg5) ?_
  funext a; apply Fin.ext
  match a with
  | ⟨0, _⟩ => show ((cfg0 a0).win 4).index t (0 : Fin 2) * 8 + 1 * b.val = 8 * (t.val / 79) + b.val; omega
  | ⟨1, _⟩ => show ((cfg0 a0).win 4).index t (1 : Fin 2) * 600 + 1 * q.val = q.val; omega
theorem iblk0_5_apply (c : Dev nD) (t : Fin (cfg0 a0).N) (b : Fin 8) (q : Fin 600) :
    iblk V a0 c 5 t (ix2 b q) = (V c (Pipeline.arrRef spec0 5) : Vec F S1024x600 .f32) (ix2 (rowAt a0 t b) q) := by
  obtain ⟨-, -, -, -, ⟨e0, e1⟩, -⟩ := idx0_rows a0 t
  show V c main_arg6 ((((cfg0 a0).win 5).blk t).view.emb (ix2 b q)) = V c main_arg6 (ix2 (rowAt a0 t b) q)
  refine congrArg (V c main_arg6) ?_
  funext a; apply Fin.ext
  match a with
  | ⟨0, _⟩ => show ((cfg0 a0).win 5).index t (0 : Fin 2) * 8 + 1 * b.val = 8 * (t.val / 79) + b.val; omega
  | ⟨1, _⟩ => show ((cfg0 a0).win 5).index t (1 : Fin 2) * 600 + 1 * q.val = q.val; omega

/-- The table's block is the whole table, -/
theorem iblk0_1_eq (c : Dev nD) (t : Fin (cfg0 a0).N) :
    iblk V a0 c 1 t = (V c (Pipeline.arrRef spec0 1) : Vec F S20224x192 .bf16) := by
  obtain ⟨⟨e0, e1⟩, -⟩ := idx0_whole a0 t
  refine funext fun (j : S20224x192.Idx) => ?_
  show V c main_v24 ((((cfg0 a0).win 1).blk t).view.emb j) = V c main_v24 j
  refine congrArg (V c main_v24) ?_
  funext a; apply Fin.ext
  match a with
  | ⟨0, _⟩ => show ((cfg0 a0).win 1).index t (0 : Fin 2) * 20224 + 1 * (j 0).val = (j 0).val; omega
  | ⟨1, _⟩ => show ((cfg0 a0).win 1).index t (1 : Fin 2) * 192 + 1 * (j 1).val = (j 1).val; omega
/-- and the position weights' block the whole row of weights. -/
theorem iblk0_6_eq (c : Dev nD) (t : Fin (cfg0 a0).N) :
    iblk V a0 c 6 t = (V c (Pipeline.arrRef spec0 6) : Vec F S1x600 .f32) := by
  obtain ⟨-, ⟨e0, e1⟩⟩ := idx0_whole a0 t
  refine funext fun (j : S1x600.Idx) => ?_
  show V c main_v38 ((((cfg0 a0).win 6).blk t).view.emb j) = V c main_v38 j
  refine congrArg (V c main_v38) ?_
  funext a; apply Fin.ext
  match a with
  | ⟨0, _⟩ => show ((cfg0 a0).win 6).index t (0 : Fin 2) * 1 + 1 * (j 0).val = (j 0).val; omega
  | ⟨1, _⟩ => show ((cfg0 a0).win 6).index t (1 : Fin 2) * 600 + 1 * (j 1).val = (j 1).val; omega

end Arrays0

end Cert.KernelIdeal.Hand

end
-- ==== Proof.KValue.lean ====
/-
  The first kernel call's two result arrays as explicit sums over the arguments.  The call walks, for each tile of
  eight wavenumbers, the 79 chunks of 256 rows of the packed table, and adds a chunk's contribution to an accumulator
  only when the chunk lies between the tile's two prefetched bounds; at a tile's last chunk it contracts the
  accumulator against the source arrays and the trapezoid weights of the time grid.  Here the accumulator after a
  tile's last chunk is shown to be the interpolation sum of the positions against the table over the chunks between
  the two bounds, the bounds are shown to bracket every clipped index of the tile, and the two result arrays are read
  at an index as the sums over the time grid of source times interpolation sum times weight.
-/
import proofs.«103908_j25280177504693_2_alg».proof.Proof.Frames
import proofs.«103908_j25280177504693_2_alg».proof.Proof.KHostI
import proofs.«103908_j25280177504693_2_alg».proof.Proof.KHostF
import proofs.«103908_j25280177504693_2_alg».proof.Proof.KPayloads
import proofs.«103908_j25280177504693_2_alg».proof.Proof.Region0Acc
import proofs.«103908_j25280177504693_2_alg».proof.Proof.Region0Value

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The tables' words -/

section Words
variable {F : FTy → Type} [FloatOps F]

/-- The word a 128-entry table holds at a point's cell is the table's entry at the point's tile coordinate. -/
theorem wordOf_apply (i : grid0.Coords) (x : Vec F S128 .i32) :
    wordOf i x = x (ValueIdx.ix1 (n := 128) (i 0)) := by
  unfold wordOf
  refine congrArg x ?_
  rw [ValueIdx.eq_ix1 ((cellOfTile i).idx _)]
  refine congrArg ValueIdx.ix1 (Fin.ext ?_)
  rw [LoadRect.idx_apply]
  have h : (k0_off1 i) 0 = (i 0).val := by rw [Gen.k0_off1_eq]; rfl
  have h1 : (cellOfTile i).off 0 = (k0_off1 i) 0 := rfl
  rw [h1, h]
  show (i 0).val + _ * 0 = _
  omega

end Words

/-! ## The clipped indices and the chunk bounds, from the positions -/

/-- The clipped index of every query point, from the positions `p`. -/
def i0P (p : Fin 1024 → Fin 600 → EReal) : IVec S1024x600 32 := fun k => i0W (p (k 0) (k 1))

/-- The first and the last table chunk a tile of eight wavenumbers needs, as natural numbers. -/
def loP (p : Fin 1024 → Fin 600 → EReal) (kt : Fin 128) : ℕ := (loW (tileMin (i0P p) (ValueIdx.ix1 kt))).toNat
def hiP (p : Fin 1024 → Fin 600 → EReal) (kt : Fin 128) : ℕ := (hiW (tileMax (i0P p) (ValueIdx.ix1 kt))).toNat

/-! A row is row `rowIn i` of tile `tileOf i`. -/

theorem tileOf_tileRow (kt : Fin 128) (b : Fin 8) : tileOf (tileRow kt b) = kt :=
  Fin.ext (by show (8 * kt.val + b.val) / 8 = kt.val; have := b.isLt; omega)

theorem tileRow_tileOf (i : Fin 1024) : tileRow (tileOf i) (rowIn i) = i :=
  Fin.ext (by show 8 * (i.val / 8) + i.val % 8 = i.val; omega)

section Bounds
variable (m : (ℓ : Loc nD τ sig) → Buf (Elt Ideal) ℓ) (c : Dev nD)
variable (p : Fin 1024 → Fin 600 → EReal)
variable (hp : ∀ (i : Fin 1024) (t : Fin 600), (V16 m c main_v18 : S1024x600.Idx → EReal) (ValueIdx.ix2 i t) = p i t)
include hp

/-- The clipped indices the program holds are those of the positions. -/
theorem v21_i0P : (V16 m c main_v21 : IVec S1024x600 32) = i0P p := by
  funext k
  obtain ⟨i, t, rfl⟩ : ∃ (i : Fin 1024) (t : Fin 600), k = ValueIdx.ix2 i t := ⟨k 0, k 1, ValueIdx.eq_ix2 k⟩
  rw [i0_apply, hp]
  rfl

/-- The lower table's word of tile `kt`. -/
theorem lo_word (kt : Fin 128) :
    (V16 m c main_v43 : S128.Idx → BitVec 32) (ValueIdx.ix1 kt) = loW (tileMin (i0P p) (ValueIdx.ix1 kt)) := by
  rw [lo_apply, v21_i0P m c p hp]

/-- The upper table's word of tile `kt`. -/
theorem hi_word (kt : Fin 128) :
    (V16 m c main_v47 : S128.Idx → BitVec 32) (ValueIdx.ix1 kt) = hiW (tileMax (i0P p) (ValueIdx.ix1 kt)) := by
  rw [hi_apply, v21_i0P m c p hp]

/-- Both words read signed lie in `[0, 78]`. -/
theorem words_range (kt : Fin 128) :
    0 ≤ (loW (tileMin (i0P p) (ValueIdx.ix1 kt))).toInt ∧ 0 ≤ (hiW (tileMax (i0P p) (ValueIdx.ix1 kt))).toInt
      ∧ (hiW (tileMax (i0P p) (ValueIdx.ix1 kt))).toInt ≤ 78 := by
  have h := lo_hi_bracket' m c kt
  rw [lo_word m c p hp, hi_word m c p hp] at h
  exact ⟨h.1, h.1.trans h.2.1, h.2.2.1⟩

/-- The two bounds as natural numbers bracket every clipped index of the tile. -/
theorem loP_hiP_bracket (kt : Fin 128) :
    loP p kt ≤ hiP p kt ∧ hiP p kt ≤ 78 ∧ ∀ (j : Fin 8) (t : Fin 600),
      loP p kt * 256 ≤ (i0W (p (tileRow kt j) t)).toNat ∧ (i0W (p (tileRow kt j) t)).toNat + 1 < (hiP p kt + 1) * 256 := by
  have h := lo_hi_bracket' m c kt
  rw [lo_word m c p hp, hi_word m c p hp] at h
  obtain ⟨h0, h1, h2, h3⟩ := h
  obtain ⟨e1, _⟩ := toInt_of_nonneg h0
  obtain ⟨e2, _⟩ := toInt_of_nonneg (h0.trans h1)
  rw [e1, e2] at h1
  rw [e2] at h2
  refine ⟨by unfold loP hiP; omega, by unfold hiP; omega, fun j t => ?_⟩
  have h4 := h3 j t
  rw [hp, e1, e2] at h4
  unfold loP hiP
  constructor <;> omega

/-- The same bracket at a row given by its number. -/
theorem loP_hiP_bracket_row (i : Fin 1024) (t : Fin 600) :
    loP p (tileOf i) * 256 ≤ (i0W (p i t)).toNat ∧ (i0W (p i t)).toNat + 1 < (hiP p (tileOf i) + 1) * 256 := by
  have h := (loP_hiP_bracket m c p hp (tileOf i)).2.2 (rowIn i) t
  rwa [tileRow_tileOf] at h

end Bounds

/-! ## The interpolation sum -/

/-- The interpolation sum of query point `(i, t)` at table column `q` over the chunks `lo … hi`: over each chunk's 256
    rows, the hat weight `max 0 (1 - |p - row|)` of the position at the row's number times the table's entry there. -/
def accP (p : Fin 1024 → Fin 600 → EReal) (T : Fin 20224 → Fin 192 → EReal) (lo hi : ℕ) (i : Fin 1024) (t : Fin 600)
    (q : Fin 192) : EReal :=
  ∑ nx ∈ Finset.Icc lo hi, ∑ j : Fin 256,
    max 0 (1 - max (p i t - ((nx * 256 + j.val : ℕ) : EReal)) (-(p i t - ((nx * 256 + j.val : ℕ) : EReal))))
      * T ⟨(nx * 256 + j.val) % 20224, Nat.mod_lt _ (by decide)⟩ q

/-- One chunk's term, with the position and the table's entries named. -/
theorem chunkTerm_eq (x : Vec Ideal S8x600 .f32) (T : Vec Ideal S20224x192 .bf16) (b : Fin 8) (tt : Fin 600) (q : Fin 192)
    (nx : ℕ) (px : EReal) (hx : x (ix2 b tt) = px) (TT : Fin 20224 → Fin 192 → EReal)
    (hT : ∀ r : Fin 20224, T (ix2 r q) = TT r q) :
    chunkTerm x T b tt q nx
      = ∑ j : Fin 256, max 0 (1 - max (px - ((nx * 256 + j.val : ℕ) : EReal)) (-(px - ((nx * 256 + j.val : ℕ) : EReal))))
          * TT ⟨(nx * 256 + j.val) % 20224, Nat.mod_lt _ (by decide)⟩ q := by
  unfold chunkTerm tabAt
  refine Finset.sum_congr rfl fun j _ => ?_
  rw [hx, hT]

section Acc
variable (V : (c : Dev nD) → (b : Ref sig .tc) → Buf (Elt Ideal) ((c : Thread nD τ).loc b))
variable (a0 : (pcfg0 (F := Ideal)).Adm) (c : Dev nD)

/-- The accumulator after a tile's last chunk is the interpolation sum over the chunks between the tile's two words, once
    the words, the tile's position block and the table are named. -/
theorem acc_accP (kt : Fin 128) (b : Fin 8) (tt : Fin 600) (q : Fin 192)
    (p : Fin 1024 → Fin 600 → EReal) (TT : Fin 20224 → Fin 192 → EReal)
    (hlo : tileLoW a0 kt = loW (tileMin (i0P p) (ValueIdx.ix1 kt)))
    (hhi : tileHiW a0 kt = hiW (tileMax (i0P p) (ValueIdx.ix1 kt)))
    (h0 : 0 ≤ (loW (tileMin (i0P p) (ValueIdx.ix1 kt))).toInt)
    (h1 : 0 ≤ (hiW (tileMax (i0P p) (ValueIdx.ix1 kt))).toInt)
    (h2 : (hiW (tileMax (i0P p) (ValueIdx.ix1 kt))).toInt ≤ 78)
    (Hpos : (iblk V a0 c 0 (tpt a0 kt 78) : Vec Ideal S8x600 .f32) (ix2 b tt) = p (tileRow kt b) tt)
    (Htab : ∀ r : Fin 20224, (iblk V a0 c 1 (tpt a0 kt 78) : Vec Ideal S20224x192 .bf16) (ix2 r q) = TT r q) :
    accAfter V a0 c (tpt a0 kt 78) (ix3 b tt q) = accP p TT (loP p kt) (hiP p kt) (tileRow kt b) tt q := by
  rw [acc_tile_Icc V a0 c kt b tt q (by rw [hlo]; exact h0) (by rw [hhi]; exact h1) (by rw [hhi]; exact h2)]
  unfold accP
  rw [hlo, hhi]
  show ∑ nx ∈ Finset.Icc (loP p kt) (hiP p kt), _ = _
  exact Finset.sum_congr rfl fun nx _ => chunkTerm_eq _ _ b tt q nx _ Hpos TT Htab

end Acc

/-! ## The first call's two results from the accumulator's entries -/

section Results
variable (acc : Vec Ideal S8x600x192 .f32) (tw : Vec Ideal S1x600 .f32) (b : Fin 8) (l : Fin 48)
variable (I : Fin 600 → Fin 192 → EReal) (W : Fin 600 → EReal)

/-- The three-stream result at `(b, l)`, once the accumulator's entries, the three source blocks' and the weights' are named. -/
theorem tl_of (s0 s1 s2 : Vec Ideal S8x600 .f32) (A0 A1 A2 : Fin 600 → EReal)
    (hacc : ∀ t q, acc (ix3 b t q) = I t q) (h0 : ∀ t, s0 (ix2 b t) = A0 t) (h1 : ∀ t, s1 (ix2 b t) = A1 t)
    (h2 : ∀ t, s2 (ix2 b t) = A2 t) (hw : ∀ t, tw (ix2 (0 : Fin 1) t) = W t) :
    Gen.k0_pay4 acc s0 s1 s2 tw (ix2 b l)
      = ∑ t : Fin 600, ((A0 t * I t ⟨0 + l.val, by have := l.isLt; omega⟩ + A1 t * I t ⟨48 + l.val, by have := l.isLt; omega⟩)
          + A2 t * I t ⟨96 + l.val, by have := l.isLt; omega⟩) * W t := by
  rw [k0_pay4_apply]
  refine Finset.sum_congr rfl fun t _ => ?_
  rw [hacc, hacc, hacc, h0, h1, h2, hw]

/-- The fourth stream's result at `(b, l)`, likewise. -/
theorem el_of (se : Vec Ideal S8x600 .f32) (AE : Fin 600 → EReal)
    (hacc : ∀ t q, acc (ix3 b t q) = I t q) (he : ∀ t, se (ix2 b t) = AE t) (hw : ∀ t, tw (ix2 (0 : Fin 1) t) = W t) :
    Gen.k0_pay5 acc se tw (ix2 b l)
      = ∑ t : Fin 600, (AE t * I t ⟨144 + l.val, by have := l.isLt; omega⟩) * W t := by
  rw [k0_pay5_apply]
  refine Finset.sum_congr rfl fun t _ => ?_
  rw [hacc, he, hw]

end Results

/-! ## The two result arrays over the arguments -/

/-- The interpolation sum over the arguments: the positions `posK a` against the packed table `tabK a`. -/
def accK (a : Cert.Hand.Args) (lo hi : ℕ) (i : Fin 1024) (t : Fin 600) (q : Fin 192) : EReal :=
  ∑ nx ∈ Finset.Icc lo hi, ∑ j : Fin 256,
    max 0 (1 - max (posK a i t - ((nx * 256 + j.val : ℕ) : EReal)) (-(posK a i t - ((nx * 256 + j.val : ℕ) : EReal))))
      * tabK a ⟨(nx * 256 + j.val) % 20224, Nat.mod_lt _ (by decide)⟩ q

theorem accK_eq (a : Cert.Hand.Args) (lo hi : ℕ) : accK a lo hi = accP (posK a) (tabK a) lo hi := rfl

/-- The three-stream result at wavenumber `i`, multipole `l`: over the time grid, the three sources against the first
    three lane groups of the interpolation sum, times the trapezoid weight. -/
def TlK (a : Cert.Hand.Args) (lo hi : ℕ) (i : Fin 1024) (l : Fin 48) : EReal :=
  ∑ t : Fin 600, ((a.S0 i t * accK a lo hi i t ⟨0 + l.val, by have := l.isLt; omega⟩
      + a.S1 i t * accK a lo hi i t ⟨48 + l.val, by have := l.isLt; omega⟩)
      + a.S2 i t * accK a lo hi i t ⟨96 + l.val, by have := l.isLt; omega⟩) * twK a t

/-- The fourth stream's result: the fourth source against the fourth lane group. -/
def ElK (a : Cert.Hand.Args) (lo hi : ℕ) (i : Fin 1024) (l : Fin 48) : EReal :=
  ∑ t : Fin 600, (a.SE i t * accK a lo hi i t ⟨144 + l.val, by have := l.isLt; omega⟩) * twK a t

/-- The first and the last chunk of tile `kt`, over the arguments. -/
def loK (a : Cert.Hand.Args) (kt : Fin 128) : ℕ := loP (posK a) kt
def hiK (a : Cert.Hand.Args) (kt : Fin 128) : ℕ := hiP (posK a) kt

section Final
variable (m : (ℓ : Loc nD τ sig) → Buf (Elt Ideal) ℓ) (c : Dev nD)

/-- The two authors' names of a tile's last point agree. -/
theorem lastPt_eq_tpt (a0 : (pcfg0 (F := Ideal)).Adm) (kt : Fin 128) : lastPt a0 kt = tpt a0 kt 78 :=
  Fin.ext (by rw [lastPt_val, tpt_val a0 kt 78 (by decide)])

/-- The row of the arrays a tile's last point reads at place `b` of its blocks. -/
theorem rowAt_tpt (a0 : (pcfg0 (F := Ideal)).Adm) (kt : Fin 128) (b : Fin 8) : rowAt a0 (tpt a0 kt 78) b = tileRow kt b :=
  Fin.ext (by
    show 8 * ((tpt a0 kt 78).val / 79) + b.val = 8 * kt.val + b.val
    rw [tpt_val a0 kt 78 (by decide)]
    have : (kt.val * 79 + 78) / 79 = kt.val := by omega
    rw [this])

/-- The bracket over the arguments: the tile's two bounds, as natural numbers, lie in `[0, 78]` in order and every
    clipped index `n` of a row of the tile has `lo * 256 ≤ n` and `n + 1 < (hi + 1) * 256`. -/
theorem loK_hiK_bracket (i : Fin 1024) :
    loK (argsOf m c) (tileOf i) ≤ hiK (argsOf m c) (tileOf i) ∧ hiK (argsOf m c) (tileOf i) ≤ 78 ∧ ∀ t : Fin 600,
      loK (argsOf m c) (tileOf i) * 256 ≤ (i0W (posK (argsOf m c) i t)).toNat
      ∧ (i0W (posK (argsOf m c) i t)).toNat + 1 < (hiK (argsOf m c) (tileOf i) + 1) * 256 :=
  ⟨(loP_hiP_bracket m c _ (pos_apply m c) (tileOf i)).1, (loP_hiP_bracket m c _ (pos_apply m c) (tileOf i)).2.1,
    fun t => loP_hiP_bracket_row m c _ (pos_apply m c) i t⟩

/-- The tables the first call is handed are the two the host stretches left (one device: core 0's). -/
theorem lo_adm0 (kt : Fin 128) :
    (loOf (adm0 m)) (ValueIdx.ix1 kt) = (V16 m 0 main_v43 : S128.Idx → BitVec 32) (ValueIdx.ix1 kt) := by
  have h : (adm0 m).1 = fun k => Vr16 m 0 (pre0.ref k) := rfl
  show ((adm0 m).1 0 : Vec Ideal S128 .i32) (ValueIdx.ix1 kt) = _
  rw [h]
  rfl

theorem hi_adm0 (kt : Fin 128) :
    (hiOf (adm0 m)) (ValueIdx.ix1 kt) = (V16 m 0 main_v47 : S128.Idx → BitVec 32) (ValueIdx.ix1 kt) := by
  have h : (adm0 m).1 = fun k => Vr16 m 0 (pre0.ref k) := rfl
  show ((adm0 m).1 1 : Vec Ideal S128 .i32) (ValueIdx.ix1 kt) = _
  rw [h]
  rfl

/-- The lower table's word of tile `kt`, as the first call reads it at the tile's last point. -/
theorem tileLoW_adm0 (kt : Fin 128) :
    tileLoW (adm0 m) kt = loW (tileMin (i0P (posK (argsOf m c))) (ValueIdx.ix1 kt)) := by
  obtain rfl : c = 0 := Subsingleton.elim _ _
  unfold tileLoW
  rw [wordOf_apply]
  have hk : (grid0.coords (tpt (adm0 m) kt 78) 0 : Fin 128) = kt := Fin.ext (tpt_coords (adm0 m) kt 78 (by decide)).1
  rw [hk]
  exact (lo_adm0 m kt).trans (lo_word m 0 (posK (argsOf m 0)) (pos_apply m 0) kt)

/-- The upper table's word of tile `kt`. -/
theorem tileHiW_adm0 (kt : Fin 128) :
    tileHiW (adm0 m) kt = hiW (tileMax (i0P (posK (argsOf m c))) (ValueIdx.ix1 kt)) := by
  obtain rfl : c = 0 := Subsingleton.elim _ _
  unfold tileHiW
  rw [wordOf_apply]
  have hk : (grid0.coords (tpt (adm0 m) kt 78) 0 : Fin 128) = kt := Fin.ext (tpt_coords (adm0 m) kt 78 (by decide)).1
  rw [hk]
  exact (hi_adm0 m kt).trans (hi_word m 0 (posK (argsOf m 0)) (pos_apply m 0) kt)

/-- The accumulator after tile `kt`'s last chunk, at `(b, tt, q)`: the interpolation sum of row `8 kt + b` at time `tt`
    and table column `q` over the chunks between the tile's two bounds. -/
theorem acc_K (kt : Fin 128) (b : Fin 8) (tt : Fin 600) (q : Fin 192) :
    accAfter (Vr16 m) (adm0 m) c (tpt (adm0 m) kt 78) (ix3 b tt q)
      = accK (argsOf m c) (loK (argsOf m c) kt) (hiK (argsOf m c) kt) (tileRow kt b) tt q := by
  obtain ⟨h0, h1, h2⟩ := words_range m c _ (pos_apply m c) kt
  refine acc_accP (Vr16 m) (adm0 m) c kt b tt q (posK (argsOf m c)) (tabK (argsOf m c))
    (tileLoW_adm0 m c kt) (tileHiW_adm0 m c kt) h0 h1 h2 ?_ ?_
  · rw [iblk0_0_apply, rowAt_tpt]
    exact pos_apply m c (tileRow kt b) tt
  · intro r
    rw [iblk0_1_eq]
    exact tab_apply m c r q

/-- The first result array at `(i, l)`. -/
theorem tl0_apply (i : Fin 1024) (l : Fin 48) :
    (tl0 m c : S1024x48.Idx → EReal) (ix2 i l)
      = TlK (argsOf m c) (loK (argsOf m c) (tileOf i)) (hiK (argsOf m c) (tileOf i)) i l := by
  rw [tl0_eq, arrAt0_7_apply, lastPt_eq_tpt]
  refine tl_of _ _ (rowIn i) l
    (fun t q => accK (argsOf m c) (loK (argsOf m c) (tileOf i)) (hiK (argsOf m c) (tileOf i)) i t q) (twK (argsOf m c))
    _ _ _ ((argsOf m c).S0 i) ((argsOf m c).S1 i) ((argsOf m c).S2 i) ?_ ?_ ?_ ?_ ?_
  · intro t q
    rw [acc_K, tileRow_tileOf]
  · intro t
    rw [iblk0_2_apply, rowAt_tpt, tileRow_tileOf]
    exact S0_apply m c i t
  · intro t
    rw [iblk0_3_apply, rowAt_tpt, tileRow_tileOf]
    exact S1_apply m c i t
  · intro t
    rw [iblk0_4_apply, rowAt_tpt, tileRow_tileOf]
    exact S2_apply m c i t
  · intro t
    rw [iblk0_6_eq]
    exact tw_apply m c t

/-- The second result array at `(i, l)`. -/
theorem el0_apply (i : Fin 1024) (l : Fin 48) :
    (el0 m c : S1024x48.Idx → EReal) (ix2 i l)
      = ElK (argsOf m c) (loK (argsOf m c) (tileOf i)) (hiK (argsOf m c) (tileOf i)) i l := by
  rw [el0_eq, arrAt0_8_apply, lastPt_eq_tpt]
  refine el_of _ _ (rowIn i) l
    (fun t q => accK (argsOf m c) (loK (argsOf m c) (tileOf i)) (hiK (argsOf m c) (tileOf i)) i t q) (twK (argsOf m c))
    _ ((argsOf m c).SE i) ?_ ?_ ?_
  · intro t q
    rw [acc_K, tileRow_tileOf]
  · intro t
    rw [iblk0_5_apply, rowAt_tpt, tileRow_tileOf]
    exact SE_apply m c i t
  · intro t
    rw [iblk0_6_eq]
    exact tw_apply m c t

end Final

end Cert.KernelIdeal.Hand
-- ==== Proof.KValueCl.lean ====
/-
  The kernel program's result read at an index: each of the three rows of the 3 x 48 result is the constant 2/pi
  times the sum over the 1024 wavenumbers of the wavenumber's weight times a product of two entries of the first
  call's two result arrays: the first array squared in row 0, the second squared in row 1, their product in row 2.
-/
import proofs.«103908_j25280177504693_2_alg».proof.Proof.FramesRun
import proofs.«103908_j25280177504693_2_alg».proof.Proof.Region1Value
import proofs.«103908_j25280177504693_2_alg».proof.Proof.KHostF

set_option maxRecDepth 16384

noncomputable section

namespace Cert.KernelIdeal.Hand

open Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (c : Dev nD)

/-- The weight column the second call reads holds, in row i, the weight of wavenumber i. -/
theorem weight_apply (i : Fin 1024) : (Vr20 m c main_v77) (ix2 i (0 : Fin 1)) = wK (argsOf m c) i :=
  W_apply m c (outs17 m) i

/-- Row 0: the weighted column sums of the squares of the first array. -/
theorem cl0_apply0 (l : Fin 48) :
    (cl0 m c) (ix2 (0 : Fin 3) l)
      = Ideal.ofBits .f32 0x3F22F983#32
          * ∑ i : Fin 1024, (wK (argsOf m c) i * (tl0 m c) (ix2 i l)) * (tl0 m c) (ix2 i l) := by
  rw [cl0_value m c, k1_pay1_apply0]
  refine congrArg _ (Finset.sum_congr rfl fun i _ => ?_)
  rw [weight_apply m c i]

/-- Row 1: the weighted column sums of the squares of the second array. -/
theorem cl0_apply1 (l : Fin 48) :
    (cl0 m c) (ix2 (1 : Fin 3) l)
      = Ideal.ofBits .f32 0x3F22F983#32
          * ∑ i : Fin 1024, (wK (argsOf m c) i * (el0 m c) (ix2 i l)) * (el0 m c) (ix2 i l) := by
  rw [cl0_value m c, k1_pay1_apply1]
  refine congrArg _ (Finset.sum_congr rfl fun i _ => ?_)
  rw [weight_apply m c i]

/-- Row 2: the weighted column sums of the products of the two arrays. -/
theorem cl0_apply2 (l : Fin 48) :
    (cl0 m c) (ix2 (2 : Fin 3) l)
      = Ideal.ofBits .f32 0x3F22F983#32
          * ∑ i : Fin 1024, (wK (argsOf m c) i * (tl0 m c) (ix2 i l)) * (el0 m c) (ix2 i l) := by
  rw [cl0_value m c, k1_pay1_apply2]
  refine congrArg _ (Finset.sum_congr rfl fun i _ => ?_)
  rw [weight_apply m c i]

end Cert.KernelIdeal.Hand
-- ==== Proof.Bridge.lean ====
/-
  The two programs compute one function.  Both carry the query point (wavenumber, time) to a clipped position on the
  grid of abscissae, interpolate four tables linearly at it, weigh by the sources and integrate over the times by the
  trapezoid rule, then integrate products of the two transfer functions over the wavenumbers by the trapezoid rule
  again.  One spells the interpolation as two table rows and the trapezoid rule as a sum over intervals; the other
  spells the interpolation as a sum of hat weights over blocks of table rows and the trapezoid rule as a sum over
  nodes with precomputed weights.  On arguments that are real numbers all of these are identities of real numbers.
-/
import proofs.«103908_j25280177504693_2_alg».proof.Defs
import proofs.«103908_j25280177504693_2_alg».proof.Proof.Args
import proofs.«103908_j25280177504693_2_alg».proof.Proof.KArgs
import proofs.«103908_j25280177504693_2_alg».proof.Proof.RArgs
import proofs.«103908_j25280177504693_2_alg».proof.Proof.FinitePre
import proofs.«103908_j25280177504693_2_alg».proof.Proof.BridgeMath
import proofs.«103908_j25280177504693_2_alg».proof.Proof.RefVal1
import proofs.«103908_j25280177504693_2_alg».proof.Proof.KHostI
import proofs.«103908_j25280177504693_2_alg».proof.Proof.KHostF
import proofs.«103908_j25280177504693_2_alg».proof.Proof.RefVal2
import proofs.«103908_j25280177504693_2_alg».proof.Proof.FramesRun
import proofs.«103908_j25280177504693_2_alg».proof.Proof.Region1Value
import proofs.«103908_j25280177504693_2_alg».proof.Proof.KValue
import proofs.«103908_j25280177504693_2_alg».proof.Proof.KValueCl
import Idealize.ShloMosaic.Lib.IdealHost
import Idealize.ShloMosaic.PureOps.Ideal.Laws
import Mathlib.Algebra.BigOperators.Fin

open scoped BigOperators
noncomputable section

namespace Cert.Proof.Bridge

open Idealize.ShloMosaic Idealize.SL.Sem Idealize.ShloMosaic.ValueIdx

/-- Memories that agree on the fourteen argument arrays hold the same arguments, entry by entry. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)))
    (c : Dev Cert.KernelIdeal.nD) :
    Cert.ReferenceIdeal.Hand.argsOf m' c = Cert.KernelIdeal.Hand.argsOf m c := by
  obtain ⟨h0, h1, h2, h3, h4, h5, h6, h7, h8, h9, h10, h11, h12, h13⟩ := hagree c
  unfold Cert.ReferenceIdeal.Hand.argsOf Cert.KernelIdeal.Hand.argsOf
  congr 1
  · funext i; exact congrFun h0 _
  · funext i; exact congrFun h1 _
  · exact congrFun h2 _
  · funext i t; exact congrFun h3 _
  · funext i t; exact congrFun h4 _
  · funext i t; exact congrFun h5 _
  · funext i t; exact congrFun h6 _
  · funext i; exact congrFun h7 _
  · funext i t; exact congrFun h8 _
  · funext i t; exact congrFun h9 _
  · funext i t; exact congrFun h10 _
  · funext i t; exact congrFun h11 _
  · exact congrFun h12 _
  · exact congrFun h13 _

end Cert.Proof.Bridge

namespace Cert.Proof.Bridge

open Cert.Hand Cert.Hand.Math Cert.LibReal Idealize.ShloMosaic
open Cert.ReferenceIdeal.Hand

/-! ## The position is a real number in [0, 19999] -/

/-- Whatever the abscissae are — the grid's width may be zero and the quotient infinite — the clipped position is a
    real number between 0 and 19999. -/
theorem posR_real (a : Args) (i : Fin 1024) (t : Fin 600) :
    ∃ p : ℝ, posR a i t = (p : EReal) ∧ 0 ≤ p ∧ p ≤ 19999 := by
  unfold posR posOf
  rw [ofBits_19999_f32, Ideal.ofBits_zero_f32]
  exact clip_real (by norm_num) _

/-- The position as a real number. -/
def posP (a : Args) (i : Fin 1024) (t : Fin 600) : ℝ := (posR a i t).toReal

theorem posR_eq (a : Args) (i : Fin 1024) (t : Fin 600) : posR a i t = ((posP a i t : ℝ) : EReal) := by
  obtain ⟨p, hp, _, _⟩ := posR_real a i t
  unfold posP
  rw [hp, EReal.toReal_coe]

theorem posP_nonneg (a : Args) (i : Fin 1024) (t : Fin 600) : 0 ≤ posP a i t := by
  obtain ⟨p, hp, h0, _⟩ := posR_real a i t
  unfold posP
  rw [hp, EReal.toReal_coe]; exact h0

theorem posP_le (a : Args) (i : Fin 1024) (t : Fin 600) : posP a i t ≤ 19999 := by
  obtain ⟨p, hp, _, h1⟩ := posR_real a i t
  unfold posP
  rw [hp, EReal.toReal_coe]; exact h1

/-- The cell of a position: its floor, at most 19998. -/
def cellN (a : Args) (i : Fin 1024) (t : Fin 600) : ℕ := min ⌊posP a i t⌋₊ 19998

theorem cellN_le (a : Args) (i : Fin 1024) (t : Fin 600) : cellN a i t ≤ 19998 := Nat.min_le_right _ _

/-! ## Row numbers as words -/

/-- A row number that is not negative is left as it is by the normalisation. -/
theorem normRow_of_nonneg (j : BitVec 32) (h : 0 ≤ j.toInt) : normRow j = j := by
  have hlt : j.slt 0#32 = false := by
    simp only [BitVec.slt, BitVec.toInt_zero, decide_eq_false_iff_not, Int.not_lt]
    exact h
  show (if BitVec.ofBool (j.slt 0#32) = 1 then _ else _) = _
  rw [hlt]
  rfl

/-- A word that reads, signed, as a natural number below 20000 names that table row. -/
theorem rowOf_normRow (j : BitVec 32) (n : ℕ) (hn : n < 20000) (h : j.toInt = (n : ℤ)) :
    rowOf (normRow j) = ⟨n, hn⟩ := by
  rw [normRow_of_nonneg j (by rw [h]; exact Int.natCast_nonneg n)]
  apply Fin.ext
  show min j.toInt.toNat (20000 - 1) = n
  rw [h, Int.toNat_natCast]
  omega

/-- Adding one to a word that reads as a natural number below 19999 gives the next number. -/
theorem toInt_addi_one (j : BitVec 32) (n : ℕ) (hn : n < 19999) (h : j.toInt = (n : ℤ)) :
    (IntOp.addi j 1#32).toInt = ((n + 1 : ℕ) : ℤ) := by
  show (j + 1#32).toInt = _
  rw [BitVec.toInt_add, h]
  have h1 : (1#32 : BitVec 32).toInt = 1 := by decide
  rw [h1, Int.bmod_def]
  norm_num
  split <;> omega

end Cert.Proof.Bridge

namespace Cert.Proof.Bridge

open Cert.Hand Cert.Hand.Math Cert.LibReal Idealize.ShloMosaic
open Cert.ReferenceIdeal.Hand

/-! ## Real entries -/

theorem ne_of_coe {x : EReal} {r : ℝ} (h : x = (r : EReal)) : x ≠ ⊤ ∧ x ≠ ⊥ := by
  rw [h]; exact ⟨EReal.coe_ne_top r, EReal.coe_ne_bot r⟩

theorem real_add {x y : EReal} (hx : x ≠ ⊤ ∧ x ≠ ⊥) (hy : y ≠ ⊤ ∧ y ≠ ⊥) : x + y ≠ ⊤ ∧ x + y ≠ ⊥ :=
  isReal_iff.mp (IsReal.add (isReal_iff.mpr hx) (isReal_iff.mpr hy))

theorem real_mul {x y : EReal} (hx : x ≠ ⊤ ∧ x ≠ ⊥) (hy : y ≠ ⊤ ∧ y ≠ ⊥) : x * y ≠ ⊤ ∧ x * y ≠ ⊥ :=
  isReal_iff.mp (IsReal.mul (isReal_iff.mpr hx) (isReal_iff.mpr hy))

theorem real_sub {x y : EReal} (hx : x ≠ ⊤ ∧ x ≠ ⊥) (hy : y ≠ ⊤ ∧ y ≠ ⊥) : x - y ≠ ⊤ ∧ x - y ≠ ⊥ :=
  isReal_iff.mp (IsReal.sub (isReal_iff.mpr hx) (isReal_iff.mpr hy))

/-! ## The trapezoid rule on families of real entries -/

/-- The reference's spelling of the trapezoid rule — one half of (zero plus the sum over the intervals of the
    interval's length times the sum of the integrand at its two ends) — on real nodes and real values is the node
    sum with the trapezoid weights. -/
theorem trap_fin_eq {n m : ℕ} (hm : m + 1 = n) (hm1 : 1 ≤ m) (x y : Fin n → EReal)
    (hx : ∀ i, x i ≠ ⊤ ∧ x i ≠ ⊥) (hy : ∀ i, y i ≠ ⊤ ∧ y i ≠ ⊥) :
    Ideal.ofBits .f32 0x3F000000#32
      * (Ideal.ofBits .f32 0x00000000#32
        + ∑ s : Fin m, (x ⟨s.val + 1, by omega⟩ - x ⟨s.val, by omega⟩) * (y ⟨s.val + 1, by omega⟩ + y ⟨s.val, by omega⟩))
      = ((∑ t ∈ Finset.range n, extR y t * trapWcat (fun t => extR x (t + 1) - extR x t) (m - 1) t : ℝ) : EReal) := by
  rw [ofBits_half_f32, Ideal.ofBits_zero_f32]
  rw [sum_fin_eq_coe_sum_range _ (fun t => (extR x (t + 1) - extR x t) * (extR y (t + 1) + extR y t))
    (fun s => by
      rw [coe_extR hx (s.val + 1), coe_extR hx s.val, coe_extR hy (s.val + 1), coe_extR hy s.val,
        coe_sub_coe, coe_add_coe, coe_mul_coe])]
  rw [← EReal.coe_zero, coe_add_coe, coe_mul_coe]
  congr 1
  obtain ⟨N, rfl⟩ : ∃ N, m = N + 1 := ⟨m - 1, by omega⟩
  subst hm
  rw [Nat.add_sub_cancel]
  exact half_panels_eq_nodes _ _ N

/-- A node sum over `Fin n` of real values times weights that are the coercions of `wr`. -/
theorem nodes_fin_eq {n : ℕ} (y w : Fin n → EReal) (hy : ∀ i, y i ≠ ⊤ ∧ y i ≠ ⊥) (wr : ℕ → ℝ)
    (hw : ∀ t : Fin n, w t = ((wr t.val : ℝ) : EReal)) :
    ∑ t : Fin n, y t * w t = ((∑ t ∈ Finset.range n, extR y t * wr t : ℝ) : EReal) :=
  sum_fin_eq_coe_sum_range _ _ fun t => by rw [coe_extR_val hy t, hw t, coe_mul_coe]

/-- So the reference's trapezoid equals the node sum with any weights that are the trapezoid weights. -/
theorem trap_eq_nodes {n m : ℕ} (hm : m + 1 = n) (hm1 : 1 ≤ m) (x y w : Fin n → EReal)
    (hx : ∀ i, x i ≠ ⊤ ∧ x i ≠ ⊥) (hy : ∀ i, y i ≠ ⊤ ∧ y i ≠ ⊥)
    (hw : ∀ t : Fin n, w t = ((trapWcat (fun t => extR x (t + 1) - extR x t) (m - 1) t.val : ℝ) : EReal)) :
    Ideal.ofBits .f32 0x3F000000#32
      * (Ideal.ofBits .f32 0x00000000#32
        + ∑ s : Fin m, (x ⟨s.val + 1, by omega⟩ - x ⟨s.val, by omega⟩) * (y ⟨s.val + 1, by omega⟩ + y ⟨s.val, by omega⟩))
      = ∑ t : Fin n, y t * w t :=
  (trap_fin_eq hm hm1 x y hx hy).trans (nodes_fin_eq y w hy _ hw).symm

/-! ## The reference's interpolation on a real position -/

/-- On a real position in [0, 19999], whose cell word reads as the clamped floor, the reference's interpolation of
    a table of real entries is the real linear interpolation between the cell's two rows. -/
theorem interpOf_real (P : Fin 20000 → Fin 48 → EReal) (hP : ∀ j l, P j l ≠ ⊤ ∧ P j l ≠ ⊥) (l : Fin 48)
    (p : ℝ) (hcell : (cellOf (p : EReal)).toInt = ((min ⌊p⌋₊ 19998 : ℕ) : ℤ)) :
    interpOf P (p : EReal) l
      = ((extR (fun r => P r l) (min ⌊p⌋₊ 19998) * (1 - (p - (min ⌊p⌋₊ 19998 : ℕ)))
          + extR (fun r => P r l) (min ⌊p⌋₊ 19998 + 1) * (p - (min ⌊p⌋₊ 19998 : ℕ)) : ℝ) : EReal) := by
  have hn' : min ⌊p⌋₊ 19998 ≤ 19998 := Nat.min_le_right _ _
  have e1 : P ⟨min ⌊p⌋₊ 19998, by omega⟩ l = ((extR (fun r => P r l) (min ⌊p⌋₊ 19998) : ℝ) : EReal) :=
    coe_extR (f := fun r => P r l) (fun r => hP r l) _ _
  have e2 : P ⟨min ⌊p⌋₊ 19998 + 1, by omega⟩ l = ((extR (fun r => P r l) (min ⌊p⌋₊ 19998 + 1) : ℝ) : EReal) :=
    coe_extR (f := fun r => P r l) (fun r => hP r l) _ _
  unfold interpOf weightOf
  rw [rowOf_normRow _ (min ⌊p⌋₊ 19998) (by omega) hcell,
    rowOf_normRow _ (min ⌊p⌋₊ 19998 + 1) (by omega) (toInt_addi_one _ _ (by omega) hcell), hcell,
    Ideal.ofBits_one_f32, e1, e2, Int.cast_natCast, ← EReal.coe_one, coe_sub_coe, coe_sub_coe, coe_mul_coe,
    coe_mul_coe, coe_add_coe]

end Cert.Proof.Bridge

namespace Cert.Proof.Bridge

open Cert.Hand Cert.Hand.Math Cert.LibReal Idealize.ShloMosaic
open Cert.ReferenceIdeal.Hand

/-! ## The integral over the wavenumbers, by intervals and by nodes -/

/-- The trapezoid over the wavenumbers of `(wq * X) * Y`, spelled by intervals, is the node sum of
    `((((kw * k) * k) * PR) * X) * Y` when `wq = (k * k) * PR` is real and `kw` are the trapezoid weights of the
    wavenumbers.  The regrouping `((kw * k) * k) * PR = kw * ((k * k) * PR)` is the associativity of the product of
    extended reals and needs no finiteness of `PR`. -/
theorem ktrap_join {n m : ℕ} (hm : m + 1 = n) (hm1 : 1 ≤ m) (k PR X Y kw : Fin n → EReal)
    (hk : ∀ i, k i ≠ ⊤ ∧ k i ≠ ⊥) (hwq : ∀ i, (k i * k i) * PR i ≠ ⊤ ∧ (k i * k i) * PR i ≠ ⊥)
    (hX : ∀ i, X i ≠ ⊤ ∧ X i ≠ ⊥) (hY : ∀ i, Y i ≠ ⊤ ∧ Y i ≠ ⊥)
    (hkw : ∀ t : Fin n, kw t = ((trapWcat (fun t => extR k (t + 1) - extR k t) (m - 1) t.val : ℝ) : EReal)) :
    Ideal.ofBits .f32 0x3F000000#32
      * (Ideal.ofBits .f32 0x00000000#32
        + ∑ s : Fin m, (k ⟨s.val + 1, by omega⟩ - k ⟨s.val, by omega⟩)
            * ((((k ⟨s.val + 1, by omega⟩ * k ⟨s.val + 1, by omega⟩) * PR ⟨s.val + 1, by omega⟩) * X ⟨s.val + 1, by omega⟩) * Y ⟨s.val + 1, by omega⟩
              + (((k ⟨s.val, by omega⟩ * k ⟨s.val, by omega⟩) * PR ⟨s.val, by omega⟩) * X ⟨s.val, by omega⟩) * Y ⟨s.val, by omega⟩))
      = ∑ i : Fin n, ((((kw i * k i) * k i) * PR i) * X i) * Y i := by
  have h := trap_eq_nodes hm hm1 k (fun i => (((k i * k i) * PR i) * X i) * Y i) kw hk
    (fun i => real_mul (real_mul (hwq i) (hX i)) (hY i)) hkw
  refine h.trans (Finset.sum_congr rfl fun i _ => ?_)
  show ((((k i * k i) * PR i) * X i) * Y i) * kw i = ((((kw i * k i) * k i) * PR i) * X i) * Y i
  rw [mul_comm _ (kw i)]
  simp only [mul_assoc]

end Cert.Proof.Bridge

namespace Cert.Proof.Bridge

open Cert.Hand Cert.Hand.Math Cert.LibReal Idealize.ShloMosaic
open Cert.ReferenceIdeal.Hand

/-! ## The hat-weighted block sums are the reference's interpolation -/

/-- What the cell word of a real position in [0, 19999] reads as: the floor, clamped to 19998. -/
def CellSpec : Prop :=
  ∀ x : ℝ, 0 ≤ x → x ≤ 19999 → (cellOf (x : EReal)).toInt = ((min ⌊x⌋₊ 19998 : ℕ) : ℤ)

theorem interpR_real (hc : CellSpec) (a : Args) (P : Fin 20000 → Fin 48 → EReal)
    (hP : ∀ j l, P j l ≠ ⊤ ∧ P j l ≠ ⊥) (l : Fin 48) (i : Fin 1024) (t : Fin 600) :
    interpR P a l i t
      = ((extR (fun r => P r l) (cellN a i t) * (1 - (posP a i t - (cellN a i t : ℕ)))
          + extR (fun r => P r l) (cellN a i t + 1) * (posP a i t - (cellN a i t : ℕ)) : ℝ) : EReal) := by
  unfold interpR
  rw [posR_eq a i t]
  exact interpOf_real P hP l _ (hc _ (posP_nonneg a i t) (posP_le a i t))

/-- The sum, over the blocks `lo, …, hi` of 256 table rows, of the hat weights of the position times a table
    column padded with zero rows beyond the 20000th, is the reference's interpolation, when the blocks bracket the
    position's cell. -/
theorem acc_eq_interpR (hc : CellSpec) (a : Args) (P : Fin 20000 → Fin 48 → EReal)
    (hP : ∀ j l, P j l ≠ ⊤ ∧ P j l ≠ ⊥) (l : Fin 48) (i : Fin 1024) (t : Fin 600)
    {lo hi : ℕ} (hlo : lo * 256 ≤ cellN a i t) (hhi : cellN a i t + 1 < (hi + 1) * 256)
    (tab : ℕ → EReal) (htab : ∀ row, tab row = if h : row < 20000 then P ⟨row, h⟩ l else 0) :
    ∑ nx ∈ Finset.Icc lo hi, ∑ j : Fin 256,
        max (0 : EReal) (1 - max (posR a i t - ((nx * 256 + j.val : ℕ) : EReal))
            (-(posR a i t - ((nx * 256 + j.val : ℕ) : EReal)))) * tab (nx * 256 + j.val)
      = interpR P a l i t := by
  have htab' : ∀ row, tab row = ((extR (fun r => P r l) row : ℝ) : EReal) := by
    intro row
    rw [htab]
    by_cases h : row < 20000
    · rw [dif_pos h]
      exact coe_extR (f := fun r => P r l) (fun r => hP r l) row h
    · rw [dif_neg h, extR_of_le _ (Nat.not_lt.mp h)]
      rfl
  rw [interpR_real hc a P hP l i t, posR_eq a i t]
  simp only [htab']
  have hpM : posP a i t ≤ ((19998 : ℕ) : ℝ) + 1 := by
    have := posP_le a i t
    push_cast
    linarith
  exact acc_interp (extR fun r => P r l) (posP_nonneg a i t) hpM hlo hhi

/-! ## The sources and the transfer functions are real -/

theorem interpR_ne (hc : CellSpec) (a : Args) (P : Fin 20000 → Fin 48 → EReal)
    (hP : ∀ j l, P j l ≠ ⊤ ∧ P j l ≠ ⊥) (l : Fin 48) (i : Fin 1024) (t : Fin 600) :
    interpR P a l i t ≠ ⊤ ∧ interpR P a l i t ≠ ⊥ := ne_of_coe (interpR_real hc a P hP l i t)

theorem srcTR_ne (hc : CellSpec) (a : Args) (ha : a.Finite) (l : Fin 48) (i : Fin 1024) (t : Fin 600) :
    srcTR a l i t ≠ ⊤ ∧ srcTR a l i t ≠ ⊥ := by
  unfold srcTR
  exact real_add (real_add (real_mul (ha.S0 i t) (interpR_ne hc a a.P0 ha.P0 l i t))
    (real_mul (ha.S1 i t) (interpR_ne hc a a.P1 ha.P1 l i t)))
    (real_mul (ha.S2 i t) (interpR_ne hc a a.P2 ha.P2 l i t))

theorem srcER_ne (hc : CellSpec) (a : Args) (ha : a.Finite) (l : Fin 48) (i : Fin 1024) (t : Fin 600) :
    srcER a l i t ≠ ⊤ ∧ srcER a l i t ≠ ⊥ := by
  unfold srcER
  exact real_mul (ha.SE i t) (interpR_ne hc a a.PE ha.PE l i t)

/-- The trapezoid weights of the times, as real numbers. -/
def twN (a : Args) : ℕ → ℝ := trapWcat (fun t => extR a.tau (t + 1) - extR a.tau t) 598

/-- The trapezoid weights of the wavenumbers, as real numbers. -/
def kwN (a : Args) : ℕ → ℝ := trapWcat (fun t => extR a.k (t + 1) - extR a.k t) 1022

theorem TlR_eq_nodes (hc : CellSpec) (a : Args) (ha : a.Finite) (l : Fin 48) (i : Fin 1024)
    (tw : Fin 600 → EReal) (htw : ∀ t : Fin 600, tw t = ((twN a t.val : ℝ) : EReal)) :
    TlR a l i = ∑ t : Fin 600, srcTR a l i t * tw t :=
  trap_eq_nodes (n := 600) (m := 599) (by norm_num) (by norm_num) a.tau (srcTR a l i) tw ha.tau
    (srcTR_ne hc a ha l i) htw

theorem ElR_eq_nodes (hc : CellSpec) (a : Args) (ha : a.Finite) (l : Fin 48) (i : Fin 1024)
    (tw : Fin 600 → EReal) (htw : ∀ t : Fin 600, tw t = ((twN a t.val : ℝ) : EReal)) :
    ElR a l i = ∑ t : Fin 600, srcER a l i t * tw t :=
  trap_eq_nodes (n := 600) (m := 599) (by norm_num) (by norm_num) a.tau (srcER a l i) tw ha.tau
    (srcER_ne hc a ha l i) htw

theorem TlR_ne (hc : CellSpec) (a : Args) (ha : a.Finite) (l : Fin 48) (i : Fin 1024) :
    TlR a l i ≠ ⊤ ∧ TlR a l i ≠ ⊥ :=
  ne_of_coe (trap_fin_eq (n := 600) (m := 599) (by norm_num) (by norm_num) a.tau (srcTR a l i) ha.tau
    (srcTR_ne hc a ha l i))

theorem ElR_ne (hc : CellSpec) (a : Args) (ha : a.Finite) (l : Fin 48) (i : Fin 1024) :
    ElR a l i ≠ ⊤ ∧ ElR a l i ≠ ⊥ :=
  ne_of_coe (trap_fin_eq (n := 600) (m := 599) (by norm_num) (by norm_num) a.tau (srcER a l i) ha.tau
    (srcER_ne hc a ha l i))

end Cert.Proof.Bridge

namespace Cert.Proof.Bridge

open Cert.Hand Cert.Hand.Math Cert.LibReal Idealize.ShloMosaic
open Cert.ReferenceIdeal.Hand

/-- The cell word of a real position reads as the clamped floor. -/
theorem cellSpec : CellSpec := fun x h0 h1 => Cert.KernelIdeal.Hand.i0W_toInt_of_real x h0 h1

/-! ## One spectrum: the integral over the wavenumbers -/

/-- One row of the table of spectra: the reference's trapezoid over the wavenumbers of `(w * X) * Y` is the constant
    times the node sum the kernel forms, with node weight `((kw * k) * k) * P_R`. -/
theorem ClRow_eq_nodes (a : Args) (ha : a.Finite) (X Y : Fin 48 → Fin 1024 → EReal)
    (hX : ∀ l i, X l i ≠ ⊤ ∧ X l i ≠ ⊥) (hY : ∀ l i, Y l i ≠ ⊤ ∧ Y l i ≠ ⊥) (l : Fin 48)
    (kw : Fin 1024 → EReal) (hkw : ∀ i : Fin 1024, kw i = ((kwN a i.val : ℝ) : EReal)) :
    ClRow a X Y l
      = Ideal.ofBits .f32 0x3F22F983#32
          * ∑ i : Fin 1024, ((((kw i * a.k i) * a.k i) * PRr a i) * X l i) * Y l i := by
  unfold ClRow trapzK
  refine congrArg (Ideal.ofBits .f32 0x3F22F983#32 * ·) ?_
  exact ktrap_join (n := 1024) (m := 1023) (by norm_num) (by norm_num) a.k (PRr a) (X l) (Y l) kw ha.k
    (fun i => by obtain ⟨x, hx⟩ := wR2_real a ha i; exact ne_of_coe hx) (hX l) (hY l) hkw

end Cert.Proof.Bridge

namespace Cert.Proof.Bridge

open Cert.Hand Cert.Hand.Math Cert.LibReal Idealize.ShloMosaic
open Cert.ReferenceIdeal.Hand
open Cert.KernelIdeal.Hand (twK kwK prK wK tabK tabSel)

/-! ## The node weights the kernel precomputes are the trapezoid weights -/

theorem trapWcat_zero' (d : ℕ → ℝ) (N : ℕ) : trapWcat d N 0 = d 0 / 2 := by
  rw [trapWcat_eq d (Nat.zero_le _), trapW_zero]

theorem trapWcat_last' (d : ℕ → ℝ) {N t : ℕ} (h : t = N + 1) : trapWcat d N t = d N / 2 := by
  subst h
  rw [trapWcat_eq d le_rfl, trapW_last]

theorem trapWcat_mid' (d : ℕ → ℝ) {N t : ℕ} (h1 : 1 ≤ t) (h2 : t ≤ N) :
    trapWcat d N t = (d (t - 1) + d t) / 2 := by
  rw [trapWcat_eq d (by omega), trapW_mid d h1 h2]

/-- Halving a real number with the total division. -/
theorem div_two_coe (r : ℝ) :
    Ideal.div ((r : ℝ) : EReal) (Ideal.ofBits .f32 0x40000000#32) = ((r / 2 : ℝ) : EReal) := by
  rw [ofBits_two_f32, div_coe_coe r (by norm_num)]

theorem twK_real (a : Args) (ha : a.Finite) (t : Fin 600) : twK a t = ((twN a t.val : ℝ) : EReal) := by
  have hx := ha.tau
  unfold twK twN
  by_cases h0 : t.val = 0
  · rw [dif_pos h0, h0, trapWcat_zero', coe_extR hx 1 (by decide), coe_extR hx 0 (by decide), coe_sub_coe,
      div_two_coe]
  · rw [dif_neg h0]
    by_cases hl : t.val = 599
    · rw [dif_pos hl, trapWcat_last' _ (show t.val = 598 + 1 from hl), coe_extR hx 599 (by decide),
        coe_extR hx 598 (by decide), coe_sub_coe, div_two_coe]
    · have e : t.val - 1 + 1 = t.val := by omega
      rw [dif_neg hl, trapWcat_mid' _ (show 1 ≤ t.val by omega) (show t.val ≤ 598 by have := t.isLt; omega),
        coe_extR_val hx t, coe_extR hx (t.val - 1), coe_extR hx (t.val + 1), coe_sub_coe, coe_sub_coe,
        coe_add_coe, div_two_coe]
      show _ = ((((extR a.tau (t.val - 1 + 1) - extR a.tau (t.val - 1))
        + (extR a.tau (t.val + 1) - extR a.tau t.val)) / 2 : ℝ) : EReal)
      rw [e]

theorem kwK_real (a : Args) (ha : a.Finite) (i : Fin 1024) : kwK a i = ((kwN a i.val : ℝ) : EReal) := by
  have hx := ha.k
  unfold kwK kwN
  by_cases h0 : i.val = 0
  · rw [dif_pos h0, h0, trapWcat_zero', coe_extR hx 1 (by decide), coe_extR hx 0 (by decide), coe_sub_coe,
      div_two_coe]
  · rw [dif_neg h0]
    by_cases hl : i.val = 1023
    · rw [dif_pos hl, trapWcat_last' _ (show i.val = 1022 + 1 from hl), coe_extR hx 1023 (by decide),
        coe_extR hx 1022 (by decide), coe_sub_coe, div_two_coe]
    · have e : i.val - 1 + 1 = i.val := by omega
      rw [dif_neg hl, trapWcat_mid' _ (show 1 ≤ i.val by omega) (show i.val ≤ 1022 by have := i.isLt; omega),
        coe_extR_val hx i, coe_extR hx (i.val - 1), coe_extR hx (i.val + 1), coe_sub_coe, coe_sub_coe,
        coe_add_coe, div_two_coe]
      show _ = ((((extR a.k (i.val - 1 + 1) - extR a.k (i.val - 1))
        + (extR a.k (i.val + 1) - extR a.k i.val)) / 2 : ℝ) : EReal)
      rw [e]

/-- The kernel's spectrum factor is the reference's, the same text. -/
theorem prK_eq (a : Args) (i : Fin 1024) : prK a i = PRr a i := rfl

end Cert.Proof.Bridge

namespace Cert.Proof.Bridge

open Cert.Hand Cert.Hand.Math Cert.LibReal Idealize.ShloMosaic
open Cert.ReferenceIdeal.Hand
open Cert.KernelIdeal.Hand (posK twK kwK prK wK tabK tabSel)

/-! ## The kernel's accumulator, transfer functions and spectra over the arguments -/

/-- The position is the same text in both programs. -/
theorem posK_eq (a : Args) (i : Fin 1024) (t : Fin 600) : posK a i t = posR a i t := rfl

/-- A lane of the packed table: lane `g * 48 + l` of row `row` is entry `(row, l)` of table `g` below row 20000 and
    zero from there on. -/
theorem tabK_lane (a : Args) (g : Fin 4) (l : Fin 48) (row : ℕ) (hrow : row < 20224) (q : Fin 192)
    (hq : q.val = g.val * 48 + l.val) :
    tabK a ⟨row, hrow⟩ q = if h : row < 20000 then tabSel a g ⟨row, h⟩ l else 0 := by
  unfold tabK
  by_cases h : row < 20000
  · rw [dif_pos h, dif_pos h]
    have hg := g.isLt
    have hl := l.isLt
    have e1 : (⟨q.val / 48, by have := q.isLt; omega⟩ : Fin 4) = g := Fin.ext (by show q.val / 48 = g.val; omega)
    have e2 : (⟨q.val % 48, Nat.mod_lt _ (by decide)⟩ : Fin 48) = l := Fin.ext (by show q.val % 48 = l.val; omega)
    rw [e1, e2]
  · rw [dif_neg h, dif_neg h]

/-- The accumulator the kernel leaves at position `(i, t)`, lane `q`, after the blocks `lo, …, hi`: the hat weights of
    the position over the blocks' rows times the packed table (a row number read modulo the table's 20224 rows). -/
def accKA (a : Args) (lo hi : ℕ) (i : Fin 1024) (t : Fin 600) (q : Fin 192) : EReal :=
  ∑ nx ∈ Finset.Icc lo hi, ∑ j : Fin 256,
    max (0 : EReal) (1 - max (posK a i t - ((nx * 256 + j.val : ℕ) : EReal))
        (-(posK a i t - ((nx * 256 + j.val : ℕ) : EReal))))
      * tabK a ⟨(nx * 256 + j.val) % 20224, Nat.mod_lt _ (by decide)⟩ q

/-- When the blocks bracket the position's cell, the accumulator's lane `g * 48 + l` is the reference's interpolation
    of table `g` at multipole `l`. -/
theorem accKA_eq_interpR (a : Args) (g : Fin 4) (hP : ∀ j l, tabSel a g j l ≠ ⊤ ∧ tabSel a g j l ≠ ⊥)
    (l : Fin 48) (i : Fin 1024) (t : Fin 600) {lo hi : ℕ} (hhi78 : hi ≤ 78)
    (hlo : lo * 256 ≤ cellN a i t) (hhi : cellN a i t + 1 < (hi + 1) * 256)
    (q : Fin 192) (hq : q.val = g.val * 48 + l.val) :
    accKA a lo hi i t q = interpR (tabSel a g) a l i t := by
  rw [← acc_eq_interpR cellSpec a (tabSel a g) hP l i t hlo hhi
    (fun row => if h : row < 20000 then tabSel a g ⟨row, h⟩ l else 0) (fun _ => rfl)]
  unfold accKA
  refine Finset.sum_congr rfl fun nx hnx => Finset.sum_congr rfl fun j _ => ?_
  have hnx' : nx ≤ 78 := le_trans (Finset.mem_Icc.mp hnx).2 hhi78
  have hj := j.isLt
  have hrow : nx * 256 + j.val < 20224 := by omega
  have hmod : (nx * 256 + j.val) % 20224 = nx * 256 + j.val := Nat.mod_eq_of_lt hrow
  have e : (⟨(nx * 256 + j.val) % 20224, Nat.mod_lt _ (by decide)⟩ : Fin 20224) = ⟨nx * 256 + j.val, hrow⟩ :=
    Fin.ext hmod
  rw [e, tabK_lane a g l _ hrow q hq]
  rfl

theorem tabSel_ne (a : Args) (ha : a.Finite) (g : Fin 4) : ∀ j l, tabSel a g j l ≠ ⊤ ∧ tabSel a g j l ≠ ⊥ := by
  match g with
  | ⟨0, _⟩ => exact ha.P0
  | ⟨1, _⟩ => exact ha.P1
  | ⟨2, _⟩ => exact ha.P2
  | ⟨3, _⟩ => exact ha.PE

/-- The kernel's temperature transfer function over the arguments: the node sum over the times of the three sources
    times their accumulator lanes. -/
def tlKA (a : Args) (lo hi : ℕ) (i : Fin 1024) (l : Fin 48) : EReal :=
  ∑ t : Fin 600, ((a.S0 i t * accKA a lo hi i t ⟨0 + l.val, by have := l.isLt; omega⟩
      + a.S1 i t * accKA a lo hi i t ⟨48 + l.val, by have := l.isLt; omega⟩)
      + a.S2 i t * accKA a lo hi i t ⟨96 + l.val, by have := l.isLt; omega⟩) * twK a t

/-- The kernel's polarisation transfer function over the arguments. -/
def elKA (a : Args) (lo hi : ℕ) (i : Fin 1024) (l : Fin 48) : EReal :=
  ∑ t : Fin 600, (a.SE i t * accKA a lo hi i t ⟨144 + l.val, by have := l.isLt; omega⟩) * twK a t

/-- THE TRANSFER FUNCTIONS AGREE. -/
theorem tlKA_eq_TlR (a : Args) (ha : a.Finite) (i : Fin 1024) (l : Fin 48) {lo hi : ℕ} (hhi78 : hi ≤ 78)
    (hbr : ∀ t : Fin 600, lo * 256 ≤ cellN a i t ∧ cellN a i t + 1 < (hi + 1) * 256) :
    tlKA a lo hi i l = TlR a l i := by
  rw [TlR_eq_nodes cellSpec a ha l i (twK a) (twK_real a ha)]
  unfold tlKA
  refine Finset.sum_congr rfl fun t _ => ?_
  rw [accKA_eq_interpR a 0 (tabSel_ne a ha 0) l i t hhi78 (hbr t).1 (hbr t).2 _ (by show 0 + l.val = 0 * 48 + l.val; omega),
    accKA_eq_interpR a 1 (tabSel_ne a ha 1) l i t hhi78 (hbr t).1 (hbr t).2 _ (by show 48 + l.val = 1 * 48 + l.val; omega),
    accKA_eq_interpR a 2 (tabSel_ne a ha 2) l i t hhi78 (hbr t).1 (hbr t).2 _ (by show 96 + l.val = 2 * 48 + l.val; omega)]
  rfl

theorem elKA_eq_ElR (a : Args) (ha : a.Finite) (i : Fin 1024) (l : Fin 48) {lo hi : ℕ} (hhi78 : hi ≤ 78)
    (hbr : ∀ t : Fin 600, lo * 256 ≤ cellN a i t ∧ cellN a i t + 1 < (hi + 1) * 256) :
    elKA a lo hi i l = ElR a l i := by
  rw [ElR_eq_nodes cellSpec a ha l i (twK a) (twK_real a ha)]
  unfold elKA
  refine Finset.sum_congr rfl fun t _ => ?_
  rw [accKA_eq_interpR a 3 (tabSel_ne a ha 3) l i t hhi78 (hbr t).1 (hbr t).2 _ (by show 144 + l.val = 3 * 48 + l.val; omega)]
  rfl

/-- THE SPECTRA AGREE: each row of the reference's table is the constant times the kernel's node sum over the
    wavenumbers, with the kernel's node weight. -/
theorem ClRow_eq_wK (a : Args) (ha : a.Finite) (X Y : Fin 48 → Fin 1024 → EReal)
    (hX : ∀ l i, X l i ≠ ⊤ ∧ X l i ≠ ⊥) (hY : ∀ l i, Y l i ≠ ⊤ ∧ Y l i ≠ ⊥) (l : Fin 48) :
    ClRow a X Y l
      = Ideal.ofBits .f32 0x3F22F983#32 * ∑ i : Fin 1024, (wK a i * X l i) * Y l i :=
  ClRow_eq_nodes a ha X Y hX hY l (kwK a) (kwK_real a ha)

end Cert.Proof.Bridge

namespace Cert.Proof.Bridge

open Cert.Hand Cert.Hand.Math Cert.LibReal Idealize.ShloMosaic
open Cert.ReferenceIdeal.Hand
open Cert.KernelIdeal.Hand (posK i0W)

/-- The cell word of the position, read as a natural number, is the cell. -/
theorem i0W_posK_toNat (a : Args) (i : Fin 1024) (t : Fin 600) : (i0W (posK a i t)).toNat = cellN a i t := by
  rw [posK_eq, posR_eq]
  exact (Cert.KernelIdeal.Hand.i0W_of_real _ (posP_nonneg a i t) (posP_le a i t)).1

/-- The bracket of a tile's block bounds, from signed words to natural numbers. -/
theorem bracket_nat (a : Args) (i : Fin 1024) (t : Fin 600) {LO HI : ℤ} (h0 : 0 ≤ LO) (h1 : LO ≤ HI)
    (h : LO * 256 ≤ ((i0W (posK a i t)).toNat : ℤ) ∧ ((i0W (posK a i t)).toNat : ℤ) + 1 < (HI + 1) * 256) :
    LO.toNat * 256 ≤ cellN a i t ∧ cellN a i t + 1 < (HI.toNat + 1) * 256 := by
  rw [i0W_posK_toNat] at h
  have e0 := Int.toNat_of_nonneg h0
  have e1 := Int.toNat_of_nonneg (h0.trans h1)
  omega

end Cert.Proof.Bridge

namespace Cert.Proof.Bridge

open Cert.Hand Cert.Hand.Math Cert.LibReal Idealize.ShloMosaic Idealize.SL.Sem Idealize.ShloMosaic.ValueIdx

/-- The reference's result over its arguments: the table of spectra of the two transfer functions. -/
theorem ref_value
    (m' : (ℓ : Loc Cert.ReferenceIdeal.nD Cert.ReferenceIdeal.τ Cert.ReferenceIdeal.sig) → Buf (Elt Ideal) ℓ)
    (c : Dev Cert.ReferenceIdeal.nD) (r : Fin 3) (l : Fin 48) :
    (StableHlo.after (Cert.ReferenceIdeal.Hand.ops (F := Ideal)) (fun b => m' (c, b))
        (Proc.devRef .tc Cert.ReferenceIdeal.main_v225) : Cert.ReferenceIdeal.S3x48.Idx → EReal) (ix2 r l)
      = Cert.ReferenceIdeal.Hand.ClR (Cert.ReferenceIdeal.Hand.argsOf m' c)
          (Cert.ReferenceIdeal.Hand.TlR (Cert.ReferenceIdeal.Hand.argsOf m' c))
          (Cert.ReferenceIdeal.Hand.ElR (Cert.ReferenceIdeal.Hand.argsOf m' c)) r l := by
  rw [Cert.ReferenceIdeal.Hand.val_main_v225 m' c r l]
  have hT : (fun l i => (StableHlo.after (Cert.ReferenceIdeal.Hand.ops (F := Ideal)) (fun b => m' (c, b))
      (Proc.devRef .tc Cert.ReferenceIdeal.main_v142) : Cert.ReferenceIdeal.S48x1024.Idx → EReal) (ix2 l i))
      = Cert.ReferenceIdeal.Hand.TlR (Cert.ReferenceIdeal.Hand.argsOf m' c) :=
    funext fun l => funext fun i => Cert.ReferenceIdeal.Hand.Tl_eq m' c l i
  have hE : (fun l i => (StableHlo.after (Cert.ReferenceIdeal.Hand.ops (F := Ideal)) (fun b => m' (c, b))
      (Proc.devRef .tc Cert.ReferenceIdeal.main_v186) : Cert.ReferenceIdeal.S48x1024.Idx → EReal) (ix2 l i))
      = Cert.ReferenceIdeal.Hand.ElR (Cert.ReferenceIdeal.Hand.argsOf m' c) :=
    funext fun l => funext fun i => Cert.ReferenceIdeal.Hand.El_eq m' c l i
  rw [hT, hE]

/-- The join on values: a table of three rows, each the constant times the node sum over the wavenumbers of the
    weight times two transfer columns that equal the reference's, is the reference's table of spectra. -/
theorem table_join (a : Args) (ha : a.Finite) (tl el : Fin 1024 → Fin 48 → EReal) (w : Fin 1024 → EReal)
    (htl : ∀ i l, tl i l = Cert.ReferenceIdeal.Hand.TlR a l i)
    (hel : ∀ i l, el i l = Cert.ReferenceIdeal.Hand.ElR a l i)
    (hw : ∀ i, w i = Cert.KernelIdeal.Hand.wK a i) (l : Fin 48) :
    Cert.ReferenceIdeal.Hand.ClR a (Cert.ReferenceIdeal.Hand.TlR a) (Cert.ReferenceIdeal.Hand.ElR a) 0 l
        = Ideal.ofBits .f32 0x3F22F983#32 * ∑ i : Fin 1024, (w i * tl i l) * tl i l
    ∧ Cert.ReferenceIdeal.Hand.ClR a (Cert.ReferenceIdeal.Hand.TlR a) (Cert.ReferenceIdeal.Hand.ElR a) 1 l
        = Ideal.ofBits .f32 0x3F22F983#32 * ∑ i : Fin 1024, (w i * el i l) * el i l
    ∧ Cert.ReferenceIdeal.Hand.ClR a (Cert.ReferenceIdeal.Hand.TlR a) (Cert.ReferenceIdeal.Hand.ElR a) 2 l
        = Ideal.ofBits .f32 0x3F22F983#32 * ∑ i : Fin 1024, (w i * tl i l) * el i l := by
  have hT := fun l i => TlR_ne cellSpec a ha l i
  have hE := fun l i => ElR_ne cellSpec a ha l i
  refine ⟨?_, ?_, ?_⟩
  · rw [Cert.ReferenceIdeal.Hand.ClR_zero, ClRow_eq_wK a ha _ _ hT hT l]
    simp only [htl, hw]
  · rw [Cert.ReferenceIdeal.Hand.ClR_one, ClRow_eq_wK a ha _ _ hE hE l]
    simp only [hel, hw]
  · rw [Cert.ReferenceIdeal.Hand.ClR_two, ClRow_eq_wK a ha _ _ hT hE l]
    simp only [htl, hel, hw]

end Cert.Proof.Bridge

namespace Cert.Proof.Bridge

open Cert.Hand Cert.Hand.Math Cert.LibReal Idealize.ShloMosaic Idealize.SL.Sem Idealize.ShloMosaic.ValueIdx

/-- The two programs' results agree once the kernel's two transfer arrays and its weight column are known to hold
    the reference's transfer functions and the kernel's node weights. -/
theorem result_eq_of_transfer
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)))
    (c : Dev Cert.KernelIdeal.nD)
    (hKtl : ∀ (i : Fin 1024) (l : Fin 48), Cert.KernelIdeal.Hand.tl0 m c (ix2 i l)
      = Cert.ReferenceIdeal.Hand.TlR (Cert.KernelIdeal.Hand.argsOf m c) l i)
    (hKel : ∀ (i : Fin 1024) (l : Fin 48), Cert.KernelIdeal.Hand.el0 m c (ix2 i l)
      = Cert.ReferenceIdeal.Hand.ElR (Cert.KernelIdeal.Hand.argsOf m c) l i)
    (hKw : ∀ i : Fin 1024, Cert.KernelIdeal.Hand.Vr20 m c Cert.KernelIdeal.main_v77 (ix2 i (0 : Fin 1))
      = Cert.KernelIdeal.Hand.wK (Cert.KernelIdeal.Hand.argsOf m c) i) :
    StableHlo.after (Cert.ReferenceIdeal.Hand.ops (F := Ideal)) (fun b => m' (c, b))
        (Proc.devRef .tc Cert.ReferenceIdeal.main_v225)
      = Cert.KernelIdeal.Hand.cl0 m c := by
  have ha := Cert.KernelIdeal.Hand.finite_of_pre m hpre c
  have hargs := args_agree m m' hagree c
  funext j
  obtain ⟨r, l, rfl⟩ : ∃ (r : Fin 3) (l : Fin 48), j = ix2 r l := ⟨j 0, j 1, eq_ix2 j⟩
  refine (ref_value m' c r l).trans ?_
  rw [hargs, Cert.KernelIdeal.Hand.cl0_value]
  obtain ⟨h0, h1, h2⟩ := table_join (Cert.KernelIdeal.Hand.argsOf m c) ha
    (fun i l => Cert.KernelIdeal.Hand.tl0 m c (ix2 i l)) (fun i l => Cert.KernelIdeal.Hand.el0 m c (ix2 i l))
    (fun i => Cert.KernelIdeal.Hand.Vr20 m c Cert.KernelIdeal.main_v77 (ix2 i (0 : Fin 1)))
    hKtl hKel hKw l
  match r with
  | ⟨0, _⟩ => exact h0.trans (Cert.KernelIdeal.Hand.k1_pay1_apply0 _ _ _ l).symm
  | ⟨1, _⟩ => exact h1.trans (Cert.KernelIdeal.Hand.k1_pay1_apply1 _ _ _ l).symm
  | ⟨2, _⟩ => exact h2.trans (Cert.KernelIdeal.Hand.k1_pay1_apply2 _ _ _ l).symm

end Cert.Proof.Bridge

namespace Cert.Proof.Bridge

open Cert.Hand Cert.Hand.Math Cert.LibReal Idealize.ShloMosaic Idealize.SL.Sem Idealize.ShloMosaic.ValueIdx

/-- The kernel's transfer functions over the arguments, under the two names they carry. -/
theorem TlK_eq_tlKA (a : Args) (lo hi : ℕ) (i : Fin 1024) (l : Fin 48) :
    Cert.KernelIdeal.Hand.TlK a lo hi i l = tlKA a lo hi i l := rfl

theorem ElK_eq_elKA (a : Args) (lo hi : ℕ) (i : Fin 1024) (l : Fin 48) :
    Cert.KernelIdeal.Hand.ElK a lo hi i l = elKA a lo hi i l := rfl

/-- The first call's temperature array holds the reference's temperature transfer function. -/
theorem tl0_eq_TlR
    (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 1024) (l : Fin 48) :
    Cert.KernelIdeal.Hand.tl0 m c (ix2 i l)
      = Cert.ReferenceIdeal.Hand.TlR (Cert.KernelIdeal.Hand.argsOf m c) l i := by
  have ha := Cert.KernelIdeal.Hand.finite_of_pre m hpre c
  obtain ⟨_, h78, hbr⟩ := Cert.KernelIdeal.Hand.loK_hiK_bracket m c i
  refine (Cert.KernelIdeal.Hand.tl0_apply m c i l).trans ?_
  rw [TlK_eq_tlKA]
  exact tlKA_eq_TlR _ ha i l h78 fun t => by
    have h := hbr t
    rw [i0W_posK_toNat] at h
    exact h

/-- The first call's polarisation array holds the reference's polarisation transfer function. -/
theorem el0_eq_ElR
    (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 1024) (l : Fin 48) :
    Cert.KernelIdeal.Hand.el0 m c (ix2 i l)
      = Cert.ReferenceIdeal.Hand.ElR (Cert.KernelIdeal.Hand.argsOf m c) l i := by
  have ha := Cert.KernelIdeal.Hand.finite_of_pre m hpre c
  obtain ⟨_, h78, hbr⟩ := Cert.KernelIdeal.Hand.loK_hiK_bracket m c i
  refine (Cert.KernelIdeal.Hand.el0_apply m c i l).trans ?_
  rw [ElK_eq_elKA]
  exact elKA_eq_ElR _ ha i l h78 fun t => by
    have h := hbr t
    rw [i0W_posK_toNat] at h
    exact h

/-- THE TWO PROGRAMS COMPUTE ONE FUNCTION: from memories that agree on the fourteen arguments, all real, the
    reference's result array is the array the kernel program's second call leaves in its result buffer. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)))
    (c : Dev Cert.KernelIdeal.nD) :
    StableHlo.after (Cert.ReferenceIdeal.Hand.ops (F := Ideal)) (fun b => m' (c, b))
        (Proc.devRef .tc Cert.ReferenceIdeal.main_v225)
      = Cert.KernelIdeal.Hand.cl0 m c :=
  result_eq_of_transfer m m' hpre hagree c (tl0_eq_TlR m hpre c) (el0_eq_ElR m hpre c)
    (Cert.KernelIdeal.Hand.weight_apply m c)

end Cert.Proof.Bridge
-- ==== Proof.lean ====
/-
  The certificate of the spectrum kernel against its reference: five claims.

  The kernel program computes, for 1024 wavenumbers k and 600 conformal times tau, the position
  pos = clip((k (tau0 - tau) - x_0) / (x_last - x_0) * 19999, 0, 19999) on the Bessel abscissa grid, interpolates
  four tabulated transfer functions linearly at pos — as a sum over table rows j of the hat weight
  max(0, 1 - |pos - j|), restricted per tile of eight wavenumbers to the 256-row chunks that can carry a nonzero
  weight —, folds the sources into them, integrates over tau by the trapezoid rule written with node weights, and
  integrates the three products over k with the trapezoid weights folded into one weight column. The reference
  interpolates by floor and fraction through a gather and integrates both times by the trapezoid rule written over
  panels. Over the extended reals the two agree: the hat weights are nonzero only at the floor row and its successor,
  where they are 1 - frac and frac, and the skipped chunks hold neither row; the node form and the panel form of the
  trapezoid rule are one finite sum rearranged, on entries that are real because every input is finite (the weight
  k^2 P_R(k) is real even where P_R is not: at k = 0 it is 0 times an infinity, which is 0).

  The three frames: each program terminates from every memory, faults nowhere and leaves its arguments unchanged —
  the two kernel programs by the launch over @main's host stretches and two calls, each call's body run at every grid
  point under the invariant that carries the accumulator from chunk to chunk of a tile; the reference by its run as a
  sequence of host operations. The idealization rewrote no operation, so the fourth claim is trivial.
-/
import proofs.«103908_j25280177504693_2_alg».proof.Defs
import proofs.«103908_j25280177504693_2_alg».proof.Proof.Gen.Kernel
import proofs.«103908_j25280177504693_2_alg».proof.Proof.Gen.KernelIdeal
import proofs.«103908_j25280177504693_2_alg».proof.Proof.Gen.ReferenceIdeal
import proofs.«103908_j25280177504693_2_alg».proof.Proof.Gen.Pre_finite_inputs
import proofs.«103908_j25280177504693_2_alg».proof.Proof.Frames
import proofs.«103908_j25280177504693_2_alg».proof.Proof.Bits.Frames
import proofs.«103908_j25280177504693_2_alg».proof.Proof.FramesRun
import proofs.«103908_j25280177504693_2_alg».proof.Proof.RefRun
import proofs.«103908_j25280177504693_2_alg».proof.Proof.Bridge
import Idealize.ShloMosaic.Adequacy
import Idealize.ShloMosaic.Init

noncomputable section

namespace Cert.Proof

open Idealize.ShloMosaic Idealize.SL.Sem

/-- The word-level kernel program runs to the end from every memory and leaves its arguments unchanged. -/
theorem frame_p : Cert.frame_Kernel := fun m ρ _ => Cert.Kernel.Hand.frame (F := Bits) m ρ

/-- So does the idealized kernel program. -/
theorem frame_pi : Cert.frame_KernelIdeal := fun m ρ _ => Cert.KernelIdeal.Hand.frame (F := Ideal) m ρ

/-- The idealization rewrote no operation. -/
theorem preserves : Cert.preserves_Kernel_KernelIdeal := trivial

/-- Over the extended reals, from memories agreeing on the fourteen finite arguments, both programs end with the
    same 3 x 48 result: the kernel's run leaves the second call's store there, the reference's run the value of its
    operations, and the two are one function of the arguments. -/
theorem algebraic : Cert.algebraic_KernelIdeal_ReferenceIdeal := by
  intro m ρ m' ρ' hpre hagree
  refine ⟨fun c => Cert.KernelIdeal.Hand.cl0 m c, Cert.KernelIdeal.Hand.run (F := Ideal) m ρ, ?_⟩
  exact (θ_run (Cert.ReferenceIdeal.defs (F := Ideal)) _ _).mono
    (fun _ h c => ⟨(h c).1.trans (Cert.Proof.Bridge.result_eq m m' hpre hagree c), (h c).2⟩)
    (Cert.ReferenceIdeal.Hand.run (F := Ideal) m' ρ')

theorem claim : Cert.Claim := ⟨Cert.Kernel.Gen.facts, Cert.KernelIdeal.Gen.facts, Cert.ReferenceIdeal.Gen.facts, Cert.Pre_finite_inputs.Gen.facts,
  frame_p, frame_pi, Cert.Proof.RefClaims.frame_ri, preserves, algebraic⟩

end Cert.Proof

end
